-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1047) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x27x3 : Shape := ⟨3, ![4096, 27, 3]⟩
abbrev S16x16x30 : Shape := ⟨3, ![16, 16, 30]⟩
abbrev S_ : Shape := ⟨0, ![]⟩

class Facts : Prop where
  bcast_S_S4096x27x3 : S_.BroadcastsInDim S4096x27x3 (![] : Fin 0 → Fin S4096x27x3.rank)
  reducesTo_S4096x27x3_S_d0_1_2 : S4096x27x3.ReducesTo [0, 1, 2] S_
  h_S_ : 0 < S_.numel
  bcast_S_S16x16x30 : S_.BroadcastsInDim S16x16x30 (![] : Fin 0 → Fin S16x16x30.rank)
  reducesTo_S16x16x30_S_d0_1_2 : S16x16x30.ReducesTo [0, 1, 2] S_

variable [Facts]

def fn {F : FTy → Type} [FloatOps F] (main_arg0 : FVec F S4096x27x3 .f32) (main_arg1 : FVec F S16x16x30 .f32) : IVec S_ 1 :=
  let main_v0 : FVec F S4096x27x3 .f32 := Host.absf main_arg0
  let main_cst : FVec F S_ .f32 := constant S_ .f32 0x7F800000#32
  let main_v1 : FVec F S4096x27x3 .f32 := broadcastInDim S4096x27x3 ![] bcast_S_S4096x27x3 main_cst
  let main_v2 : IVec S4096x27x3 1 := cmpf .olt main_v0 main_v1
  let main_c : IVec S_ 1 := constantI S_ 1 1#1
  let main_v3 : IVec S_ 1 := (fun x v => Host.reduce IntOp.andi x v reducesTo_S4096x27x3_S_d0_1_2 h_S_) main_v2 main_c
  let main_v4 : FVec F S16x16x30 .f32 := Host.absf main_arg1
  let main_cst_0 : FVec F S_ .f32 := constant S_ .f32 0x7F800000#32
  let main_v5 : FVec F S16x16x30 .f32 := broadcastInDim S16x16x30 ![] bcast_S_S16x16x30 main_cst_0
  let main_v6 : IVec S16x16x30 1 := cmpf .olt main_v4 main_v5
  let main_c_1 : IVec S_ 1 := constantI S_ 1 1#1
  let main_v7 : IVec S_ 1 := (fun x v => Host.reduce IntOp.andi x v reducesTo_S16x16x30_S_d0_1_2 h_S_) main_v6 main_c_1
  let main_v8 : IVec S_ 1 := andi main_v3 main_v7
  main_v8
-- ==== Kernel.lean ====
abbrev S4096x27x3 : Shape := ⟨3, ![4096, 27, 3]⟩
abbrev S16x16x30 : Shape := ⟨3, ![16, 16, 30]⟩
abbrev S110592x3 : Shape := ⟨2, ![110592, 3]⟩
abbrev S3x110592 : Shape := ⟨2, ![3, 110592]⟩
abbrev S256x30 : Shape := ⟨2, ![256, 30]⟩
abbrev S256x110592 : Shape := ⟨2, ![256, 110592]⟩
abbrev S3x9216 : Shape := ⟨2, ![3, 9216]⟩
abbrev S256x9216 : Shape := ⟨2, ![256, 9216]⟩
abbrev S30x9216 : Shape := ⟨2, ![30, 9216]⟩
abbrev S1x9216 : Shape := ⟨2, ![1, 9216]⟩
abbrev S9216 : Shape := ⟨1, ![9216]⟩
abbrev S16x16x4096x27 : Shape := ⟨4, ![16, 16, 4096, 27]⟩

abbrev nBuf : Space → Nat
  | .hbm => 7
  | .vmem => 6
  | .smem => 0
  | _ => 0

abbrev bufTy : (tb : Table) → Fin (tcTables nBuf tb) → BufTy
  | .hbm, ⟨0, _⟩ => ⟨S4096x27x3, .f32⟩
  | .hbm, ⟨1, _⟩ => ⟨S16x16x30, .f32⟩
  | .hbm, ⟨2, _⟩ => ⟨S110592x3, .f32⟩
  | .hbm, ⟨3, _⟩ => ⟨S3x110592, .f32⟩
  | .hbm, ⟨4, _⟩ => ⟨S256x30, .f32⟩
  | .hbm, ⟨5, _⟩ => ⟨S256x110592, .f32⟩
  | .hbm, ⟨6, _⟩ => ⟨S16x16x4096x27, .f32⟩
  | .local _ .vmem, ⟨0, _⟩ => ⟨S3x9216, .f32⟩
  | .local _ .vmem, ⟨1, _⟩ => ⟨S3x9216, .f32⟩
  | .local _ .vmem, ⟨2, _⟩ => ⟨S256x30, .f32⟩
  | .local _ .vmem, ⟨3, _⟩ => ⟨S256x9216, .f32⟩
  | .local _ .vmem, ⟨4, _⟩ => ⟨S256x9216, .f32⟩
  | .local _ .vmem, ⟨5, _⟩ => ⟨S30x9216, .f32⟩
  | _, _ => ⟨S4096x27x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x27x3_S110592x3 : S4096x27x3.ShapeCasts S110592x3
  transposes_S110592x3_S3x110592_1_0 : S110592x3.Transposes [1, 0] S3x110592
  shapeCasts_S16x16x30_S256x30 : S16x16x30.ShapeCasts S256x30
  inb_S3x9216_S1x9216_0_0 : ∀ a, (![0, 0] : Fin 2 → Nat) a + S1x9216.size a ≤ S3x9216.size a
  h_S1x9216 : 0 < S1x9216.numel
  shapeCasts_S1x9216_S9216 : S1x9216.ShapeCasts S9216
  inb_S3x9216_S1x9216_1_0 : ∀ a, (![1, 0] : Fin 2 → Nat) a + S1x9216.size a ≤ S3x9216.size a
  inb_S3x9216_S1x9216_2_0 : ∀ a, (![2, 0] : Fin 2 → Nat) a + S1x9216.size a ≤ S3x9216.size a
  inb_S30x9216_S1x9216_0_0 : ∀ a, (![0, 0] : Fin 2 → Nat) a + S1x9216.size a ≤ S30x9216.size a
  shapeCasts_S9216_S1x9216 : S9216.ShapeCasts S1x9216
  inb_S30x9216_S1x9216_1_0 : ∀ a, (![1, 0] : Fin 2 → Nat) a + S1x9216.size a ≤ S30x9216.size a
  inb_S30x9216_S1x9216_2_0 : ∀ a, (![2, 0] : Fin 2 → Nat) a + S1x9216.size a ≤ S30x9216.size a
  inb_S30x9216_S1x9216_3_0 : ∀ a, (![3, 0] : Fin 2 → Nat) a + S1x9216.size a ≤ S30x9216.size a
  inb_S30x9216_S1x9216_4_0 : ∀ a, (![4, 0] : Fin 2 → Nat) a + S1x9216.size a ≤ S30x9216.size a
  inb_S30x9216_S1x9216_5_0 : ∀ a, (![5, 0] : Fin 2 → Nat) a + S1x9216.size a ≤ S30x9216.size a
  inb_S30x9216_S1x9216_6_0 : ∀ a, (![6, 0] : Fin 2 → Nat) a + S1x9216.size a ≤ S30x9216.size a
  inb_S30x9216_S1x9216_7_0 : ∀ a, (![7, 0] : Fin 2 → Nat) a + S1x9216.size a ≤ S30x9216.size a
  inb_S30x9216_S1x9216_8_0 : ∀ a, (![8, 0] : Fin 2 → Nat) a + S1x9216.size a ≤ S30x9216.size a
  inb_S30x9216_S1x9216_9_0 : ∀ a, (![9, 0] : Fin 2 → Nat) a + S1x9216.size a ≤ S30x9216.size a
  inb_S30x9216_S1x9216_10_0 : ∀ a, (![10, 0] : Fin 2 → Nat) a + S1x9216.size a ≤ S30x9216.size a
  inb_S30x9216_S1x9216_11_0 : ∀ a, (![11, 0] : Fin 2 → Nat) a + S1x9216.size a ≤ S30x9216.size a
  inb_S30x9216_S1x9216_12_0 : ∀ a, (![12, 0] : Fin 2 → Nat) a + S1x9216.size a ≤ S30x9216.size a
  inb_S30x9216_S1x9216_13_0 : ∀ a, (![13, 0] : Fin 2 → Nat) a + S1x9216.size a ≤ S30x9216.size a
  inb_S30x9216_S1x9216_14_0 : ∀ a, (![14, 0] : Fin 2 → Nat) a + S1x9216.size a ≤ S30x9216.size a
  inb_S30x9216_S1x9216_15_0 : ∀ a, (![15, 0] : Fin 2 → Nat) a + S1x9216.size a ≤ S30x9216.size a
  inb_S30x9216_S1x9216_16_0 : ∀ a, (![16, 0] : Fin 2 → Nat) a + S1x9216.size a ≤ S30x9216.size a
  inb_S30x9216_S1x9216_17_0 : ∀ a, (![17, 0] : Fin 2 → Nat) a + S1x9216.size a ≤ S30x9216.size a
  inb_S30x9216_S1x9216_18_0 : ∀ a, (![18, 0] : Fin 2 → Nat) a + S1x9216.size a ≤ S30x9216.size a
  inb_S30x9216_S1x9216_19_0 : ∀ a, (![19, 0] : Fin 2 → Nat) a + S1x9216.size a ≤ S30x9216.size a
  inb_S30x9216_S1x9216_20_0 : ∀ a, (![20, 0] : Fin 2 → Nat) a + S1x9216.size a ≤ S30x9216.size a
  inb_S30x9216_S1x9216_21_0 : ∀ a, (![21, 0] : Fin 2 → Nat) a + S1x9216.size a ≤ S30x9216.size a
  inb_S30x9216_S1x9216_22_0 : ∀ a, (![22, 0] : Fin 2 → Nat) a + S1x9216.size a ≤ S30x9216.size a
  inb_S30x9216_S1x9216_23_0 : ∀ a, (![23, 0] : Fin 2 → Nat) a + S1x9216.size a ≤ S30x9216.size a
  inb_S30x9216_S1x9216_24_0 : ∀ a, (![24, 0] : Fin 2 → Nat) a + S1x9216.size a ≤ S30x9216.size a
  inb_S30x9216_S1x9216_25_0 : ∀ a, (![25, 0] : Fin 2 → Nat) a + S1x9216.size a ≤ S30x9216.size a
  inb_S30x9216_S1x9216_26_0 : ∀ a, (![26, 0] : Fin 2 → Nat) a + S1x9216.size a ≤ S30x9216.size a
  inb_S30x9216_S1x9216_27_0 : ∀ a, (![27, 0] : Fin 2 → Nat) a + S1x9216.size a ≤ S30x9216.size a
  inb_S30x9216_S1x9216_28_0 : ∀ a, (![28, 0] : Fin 2 → Nat) a + S1x9216.size a ≤ S30x9216.size a
  inb_S30x9216_S1x9216_29_0 : ∀ a, (![29, 0] : Fin 2 → Nat) a + S1x9216.size a ≤ S30x9216.size a
  inb_S30x9216_S30x9216_0_0 : ∀ a, (![0, 0] : Fin 2 → Nat) a + S30x9216.size a ≤ S30x9216.size a
  h_S30x9216 : 0 < S30x9216.numel
  bitsLt_bf16_f32 : FTy.bits .bf16 < FTy.bits .f32
  inb_S256x30_S256x30_0_0 : ∀ a, (![0, 0] : Fin 2 → Nat) a + S256x30.size a ≤ S256x30.size a
  h_S256x30 : 0 < S256x30.numel
  shapeCasts_S256x30_S256x30 : S256x30.ShapeCasts S256x30
  inb_S256x9216_S256x9216_0_0 : ∀ a, (![0, 0] : Fin 2 → Nat) a + S256x9216.size a ≤ S256x9216.size a
  h_S256x9216 : 0 < S256x9216.numel
  shapeCasts_S256x110592_S16x16x4096x27 : S256x110592.ShapeCasts S16x16x4096x27
  dot_S256x30_S30x9216_S256x9216_1_0_0_1_n_n_wf : DotDims.WF S256x30 S30x9216 S256x9216 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x9216.size a ≤ S3x110592.size a
  hwx0_0 : ∀ i : grid0.Coords, EltTy.bits .f32 = 32 ∨ (Rect.block (s := S3x110592) S3x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x30.size a ≤ S256x30.size a
  hwx0_1 : ∀ i : grid0.Coords, EltTy.bits .f32 = 32 ∨ (Rect.block (s := S256x30) S256x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x9216.size a ≤ S256x110592.size a
  hwx0_2 : ∀ i : grid0.Coords, EltTy.bits .f32 = 32 ∨ (Rect.block (s := S256x110592) S256x9216.size (cc0_transform_2 i) (hinb0_2 i)).WholeWords (EltTy.packing .f32)

variable [Facts₀]

def dot_S256x30_S30x9216_S256x9216_1_0_0_1_n_n : DotDims S256x30 S30x9216 S256x9216 where
  lhsContracting := [1]
  rhsContracting := [0]
  lhsNonContracting := [0]
  rhsNonContracting := [1]
  lhsBatch := []
  rhsBatch := []
  wf := dot_S256x30_S30x9216_S256x9216_1_0_0_1_n_n_wf

abbrev win0_0 : Pipeline.Window sig grid0 :=
  Pipeline.Window.ofSpec (Memref.whole main_v1) S3x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x9216.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x27x3 : Shape := ⟨3, ![4096, 27, 3]⟩
abbrev S16x16x30 : Shape := ⟨3, ![16, 16, 30]⟩
abbrev S4096x27x1 : Shape := ⟨3, ![4096, 27, 1]⟩
abbrev S4096x27 : Shape := ⟨2, ![4096, 27]⟩
abbrev S_ : Shape := ⟨0, ![]⟩
abbrev S4096x27x16 : Shape := ⟨3, ![4096, 27, 16]⟩
abbrev S4096x27x14 : Shape := ⟨3, ![4096, 27, 14]⟩
abbrev S4096x27x30 : Shape := ⟨3, ![4096, 27, 30]⟩
abbrev S16x16x4096x27 : Shape := ⟨4, ![16, 16, 4096, 27]⟩

abbrev nBuf : Space → Nat
  | .hbm => 1486
  | .vmem => 0
  | .smem => 0
  | _ => 0

abbrev hbmTy0_0 (i : Nat) : BufTy := match i % 128 with
  | 0 => ⟨S4096x27x3, .f32⟩
  | 1 => ⟨S16x16x30, .f32⟩
  | 2 => ⟨S4096x27x1, .f32⟩
  | 3 => ⟨S4096x27, .f32⟩
  | 4 => ⟨S4096x27x1, .f32⟩
  | 5 => ⟨S4096x27, .f32⟩
  | 6 => ⟨S4096x27x1, .f32⟩
  | 7 => ⟨S4096x27, .f32⟩
  | 8 => ⟨S_, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S_, .f32⟩
  | 33 => ⟨S_, .f32⟩
  | 34 => ⟨S4096x27, .f32⟩
  | 35 => ⟨S4096x27, .f32⟩
  | 36 => ⟨S4096x27, .f32⟩
  | 37 => ⟨S_, .f32⟩
  | 38 => ⟨S4096x27, .f32⟩
  | 39 => ⟨S_, .f32⟩
  | 40 => ⟨S4096x27, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S_, .f32⟩
  | 47 => ⟨S4096x27, .f32⟩
  | 48 => ⟨S4096x27, .f32⟩
  | 49 => ⟨S4096x27, .f32⟩
  | 50 => ⟨S_, .f32⟩
  | 51 => ⟨S4096x27, .f32⟩
  | 52 => ⟨S4096x27, .f32⟩
  | 53 => ⟨S_, .f32⟩
  | 54 => ⟨S4096x27, .f32⟩
  | 55 => ⟨S4096x27, .f32⟩
  | 56 => ⟨S_, .f32⟩
  | 57 => ⟨S4096x27, .f32⟩
  | 58 => ⟨S_, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S4096x27, .f32⟩
  | 67 => ⟨S4096x27, .f32⟩
  | 68 => ⟨S_, .f32⟩
  | 69 => ⟨S4096x27, .f32⟩
  | 70 => ⟨S4096x27, .f32⟩
  | 71 => ⟨S_, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S4096x27, .f32⟩
  | 93 => ⟨S_, .f32⟩
  | 94 => ⟨S4096x27, .f32⟩
  | 95 => ⟨S_, .f32⟩
  | 96 => ⟨S4096x27, .f32⟩
  | 97 => ⟨S4096x27, .f32⟩
  | 98 => ⟨S4096x27, .f32⟩
  | 99 => ⟨S4096x27, .f32⟩
  | 100 => ⟨S4096x27, .f32⟩
  | 101 => ⟨S_, .f32⟩
  | 102 => ⟨S4096x27, .f32⟩
  | 103 => ⟨S4096x27, .f32⟩
  | 104 => ⟨S_, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S_, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S4096x27, .f32⟩
  | 122 => ⟨S4096x27, .f32⟩
  | 123 => ⟨S4096x27, .f32⟩
  | 124 => ⟨S_, .f32⟩
  | 125 => ⟨S4096x27, .f32⟩
  | 126 => ⟨S4096x27, .f32⟩
  | 127 => ⟨S_, .f32⟩
  | _ => ⟨S4096x27x3, .f32⟩

abbrev hbmTy0_1 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S_, .f32⟩
  | 10 => ⟨S4096x27, .f32⟩
  | 11 => ⟨S4096x27, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S_, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S4096x27, .f32⟩
  | 33 => ⟨S_, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S_, .f32⟩
  | 47 => ⟨S4096x27, .f32⟩
  | 48 => ⟨S4096x27, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S_, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S_, .f32⟩
  | 67 => ⟨S4096x27, .f32⟩
  | 68 => ⟨S4096x27, .f32⟩
  | 69 => ⟨S_, .f32⟩
  | 70 => ⟨S4096x27, .f32⟩
  | 71 => ⟨S4096x27, .f32⟩
  | 72 => ⟨S4096x27, .f32⟩
  | 73 => ⟨S4096x27, .f32⟩
  | 74 => ⟨S4096x27, .f32⟩
  | 75 => ⟨S_, .f32⟩
  | 76 => ⟨S4096x27, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S_, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S4096x27, .f32⟩
  | 104 => ⟨S_, .f32⟩
  | 105 => ⟨S4096x27, .f32⟩
  | 106 => ⟨S4096x27, .f32⟩
  | 107 => ⟨S_, .f32⟩
  | 108 => ⟨S_, .f32⟩
  | 109 => ⟨S4096x27, .f32⟩
  | 110 => ⟨S4096x27, .f32⟩
  | 111 => ⟨S4096x27, .f32⟩
  | 112 => ⟨S_, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_2 (i : Nat) : BufTy := match i % 128 with
  | 0 => ⟨S4096x27, .f32⟩
  | 1 => ⟨S_, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S_, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S_, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S4096x27, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S_, .f32⟩
  | 40 => ⟨S4096x27, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S4096x27, .f32⟩
  | 47 => ⟨S_, .f32⟩
  | 48 => ⟨S4096x27, .f32⟩
  | 49 => ⟨S_, .f32⟩
  | 50 => ⟨S4096x27, .f32⟩
  | 51 => ⟨S4096x27, .f32⟩
  | 52 => ⟨S4096x27, .f32⟩
  | 53 => ⟨S_, .f32⟩
  | 54 => ⟨S4096x27, .f32⟩
  | 55 => ⟨S4096x27, .f32⟩
  | 56 => ⟨S4096x27, .f32⟩
  | 57 => ⟨S4096x27, .f32⟩
  | 58 => ⟨S4096x27, .f32⟩
  | 59 => ⟨S_, .f32⟩
  | 60 => ⟨S4096x27, .f32⟩
  | 61 => ⟨S4096x27, .f32⟩
  | 62 => ⟨S_, .f32⟩
  | 63 => ⟨S_, .f32⟩
  | 64 => ⟨S4096x27, .f32⟩
  | 65 => ⟨S4096x27, .f32⟩
  | 66 => ⟨S4096x27, .f32⟩
  | 67 => ⟨S_, .f32⟩
  | 68 => ⟨S4096x27, .f32⟩
  | 69 => ⟨S_, .f32⟩
  | 70 => ⟨S4096x27, .f32⟩
  | 71 => ⟨S4096x27, .f32⟩
  | 72 => ⟨S4096x27, .f32⟩
  | 73 => ⟨S_, .f32⟩
  | 74 => ⟨S4096x27, .f32⟩
  | 75 => ⟨S4096x27, .f32⟩
  | 76 => ⟨S4096x27, .f32⟩
  | 77 => ⟨S_, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S4096x27, .f32⟩
  | 87 => ⟨S4096x27, .f32⟩
  | 88 => ⟨S_, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S_, .f32⟩
  | 104 => ⟨S_, .f32⟩
  | 105 => ⟨S4096x27, .f32⟩
  | 106 => ⟨S4096x27, .f32⟩
  | 107 => ⟨S4096x27, .f32⟩
  | 108 => ⟨S_, .f32⟩
  | 109 => ⟨S4096x27, .f32⟩
  | 110 => ⟨S_, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S4096x27, .f32⟩
  | 119 => ⟨S4096x27, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S_, .f32⟩
  | 127 => ⟨S4096x27, .f32⟩
  | _ => ⟨S4096x27x3, .f32⟩

abbrev hbmTy0_3 (i : Nat) : BufTy := match i % 128 with
  | 0 => ⟨S4096x27, .f32⟩
  | 1 => ⟨S4096x27, .f32⟩
  | 2 => ⟨S_, .f32⟩
  | 3 => ⟨S4096x27, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S_, .f32⟩
  | 10 => ⟨S4096x27, .f32⟩
  | 11 => ⟨S4096x27, .f32⟩
  | 12 => ⟨S4096x27, .f32⟩
  | 13 => ⟨S4096x27, .f32⟩
  | 14 => ⟨S4096x27, .f32⟩
  | 15 => ⟨S_, .f32⟩
  | 16 => ⟨S4096x27, .f32⟩
  | 17 => ⟨S4096x27, .f32⟩
  | 18 => ⟨S_, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S_, .f32⟩
  | 26 => ⟨S4096x27, .f32⟩
  | 27 => ⟨S4096x27, .f32⟩
  | 28 => ⟨S4096x27, .f32⟩
  | 29 => ⟨S_, .f32⟩
  | 30 => ⟨S4096x27, .f32⟩
  | 31 => ⟨S4096x27, .f32⟩
  | 32 => ⟨S4096x27, .f32⟩
  | 33 => ⟨S_, .f32⟩
  | 34 => ⟨S4096x27, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S4096x27, .f32⟩
  | 41 => ⟨S4096x27, .f32⟩
  | 42 => ⟨S_, .f32⟩
  | 43 => ⟨S4096x27, .f32⟩
  | 44 => ⟨S4096x27, .f32⟩
  | 45 => ⟨S_, .f32⟩
  | 46 => ⟨S4096x27, .f32⟩
  | 47 => ⟨S4096x27, .f32⟩
  | 48 => ⟨S4096x27, .f32⟩
  | 49 => ⟨S_, .f32⟩
  | 50 => ⟨S4096x27, .f32⟩
  | 51 => ⟨S4096x27, .f32⟩
  | 52 => ⟨S4096x27, .f32⟩
  | 53 => ⟨S4096x27, .f32⟩
  | 54 => ⟨S_, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S_, .f32⟩
  | 66 => ⟨S_, .f32⟩
  | 67 => ⟨S4096x27, .f32⟩
  | 68 => ⟨S4096x27, .f32⟩
  | 69 => ⟨S4096x27, .f32⟩
  | 70 => ⟨S_, .f32⟩
  | 71 => ⟨S4096x27, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S_, .f32⟩
  | 93 => ⟨S4096x27, .f32⟩
  | 94 => ⟨S4096x27, .f32⟩
  | 95 => ⟨S4096x27, .f32⟩
  | 96 => ⟨S_, .f32⟩
  | 97 => ⟨S4096x27, .f32⟩
  | 98 => ⟨S4096x27, .f32⟩
  | 99 => ⟨S4096x27, .f32⟩
  | 100 => ⟨S4096x27, .f32⟩
  | 101 => ⟨S_, .f32⟩
  | 102 => ⟨S4096x27, .f32⟩
  | 103 => ⟨S_, .f32⟩
  | 104 => ⟨S4096x27, .f32⟩
  | 105 => ⟨S4096x27, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S_, .f32⟩
  | 113 => ⟨S_, .f32⟩
  | 114 => ⟨S4096x27, .f32⟩
  | 115 => ⟨S4096x27, .f32⟩
  | 116 => ⟨S4096x27, .f32⟩
  | 117 => ⟨S_, .f32⟩
  | 118 => ⟨S4096x27, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_4 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S_, .f32⟩
  | 7 => ⟨S4096x27, .f32⟩
  | 8 => ⟨S4096x27, .f32⟩
  | 9 => ⟨S4096x27, .f32⟩
  | 10 => ⟨S_, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S_, .f32⟩
  | 34 => ⟨S_, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S_, .f32⟩
  | 52 => ⟨S4096x27, .f32⟩
  | 53 => ⟨S4096x27, .f32⟩
  | 54 => ⟨S4096x27, .f32⟩
  | 55 => ⟨S4096x27, .f32⟩
  | 56 => ⟨S4096x27, .f32⟩
  | 57 => ⟨S_, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S4096x27, .f32⟩
  | 68 => ⟨S4096x27, .f32⟩
  | 69 => ⟨S_, .f32⟩
  | 70 => ⟨S4096x27, .f32⟩
  | 71 => ⟨S_, .f32⟩
  | 72 => ⟨S4096x27, .f32⟩
  | 73 => ⟨S4096x27, .f32⟩
  | 74 => ⟨S4096x27, .f32⟩
  | 75 => ⟨S4096x27, .f32⟩
  | 76 => ⟨S4096x27, .f32⟩
  | 77 => ⟨S_, .f32⟩
  | 78 => ⟨S4096x27, .f32⟩
  | 79 => ⟨S4096x27, .f32⟩
  | 80 => ⟨S_, .f32⟩
  | 81 => ⟨S_, .f32⟩
  | 82 => ⟨S4096x27, .f32⟩
  | 83 => ⟨S4096x27, .f32⟩
  | 84 => ⟨S4096x27, .f32⟩
  | 85 => ⟨S_, .f32⟩
  | 86 => ⟨S4096x27, .f32⟩
  | 87 => ⟨S_, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S4096x27, .f32⟩
  | 95 => ⟨S_, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S4096x27, .f32⟩
  | 104 => ⟨S_, .f32⟩
  | 105 => ⟨S4096x27, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S4096x27, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_5 (i : Nat) : BufTy := match i % 128 with
  | 0 => ⟨S4096x27, .f32⟩
  | 1 => ⟨S4096x27, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S4096x27, .f32⟩
  | 8 => ⟨S4096x27, .f32⟩
  | 9 => ⟨S_, .f32⟩
  | 10 => ⟨S4096x27, .f32⟩
  | 11 => ⟨S4096x27, .f32⟩
  | 12 => ⟨S_, .f32⟩
  | 13 => ⟨S_, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S_, .f32⟩
  | 20 => ⟨S4096x27, .f32⟩
  | 21 => ⟨S4096x27, .f32⟩
  | 22 => ⟨S4096x27, .f32⟩
  | 23 => ⟨S_, .f32⟩
  | 24 => ⟨S4096x27, .f32⟩
  | 25 => ⟨S4096x27, .f32⟩
  | 26 => ⟨S_, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S4096x27, .f32⟩
  | 34 => ⟨S_, .f32⟩
  | 35 => ⟨S4096x27, .f32⟩
  | 36 => ⟨S_, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S4096x27, .f32⟩
  | 49 => ⟨S4096x27, .f32⟩
  | 50 => ⟨S_, .f32⟩
  | 51 => ⟨S4096x27, .f32⟩
  | 52 => ⟨S4096x27, .f32⟩
  | 53 => ⟨S_, .f32⟩
  | 54 => ⟨S_, .f32⟩
  | 55 => ⟨S4096x27, .f32⟩
  | 56 => ⟨S4096x27, .f32⟩
  | 57 => ⟨S4096x27, .f32⟩
  | 58 => ⟨S_, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S4096x27, .f32⟩
  | 71 => ⟨S4096x27, .f32⟩
  | 72 => ⟨S4096x27, .f32⟩
  | 73 => ⟨S_, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S_, .f32⟩
  | 87 => ⟨S4096x27, .f32⟩
  | 88 => ⟨S4096x27, .f32⟩
  | 89 => ⟨S4096x27, .f32⟩
  | 90 => ⟨S_, .f32⟩
  | 91 => ⟨S4096x27, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S_, .f32⟩
  | 104 => ⟨S_, .f32⟩
  | 105 => ⟨S4096x27, .f32⟩
  | 106 => ⟨S4096x27, .f32⟩
  | 107 => ⟨S4096x27, .f32⟩
  | 108 => ⟨S_, .f32⟩
  | 109 => ⟨S4096x27, .f32⟩
  | 110 => ⟨S_, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_6 (i : Nat) : BufTy := match i % 128 with
  | 0 => ⟨S4096x27, .f32⟩
  | 1 => ⟨S_, .f32⟩
  | 2 => ⟨S4096x27, .f32⟩
  | 3 => ⟨S_, .f32⟩
  | 4 => ⟨S4096x27, .f32⟩
  | 5 => ⟨S4096x27, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S_, .f32⟩
  | 21 => ⟨S_, .f32⟩
  | 22 => ⟨S4096x27, .f32⟩
  | 23 => ⟨S4096x27, .f32⟩
  | 24 => ⟨S4096x27, .f32⟩
  | 25 => ⟨S_, .f32⟩
  | 26 => ⟨S4096x27, .f32⟩
  | 27 => ⟨S_, .f32⟩
  | 28 => ⟨S4096x27, .f32⟩
  | 29 => ⟨S4096x27, .f32⟩
  | 30 => ⟨S4096x27, .f32⟩
  | 31 => ⟨S_, .f32⟩
  | 32 => ⟨S4096x27, .f32⟩
  | 33 => ⟨S4096x27, .f32⟩
  | 34 => ⟨S_, .f32⟩
  | 35 => ⟨S4096x27, .f32⟩
  | 36 => ⟨S4096x27, .f32⟩
  | 37 => ⟨S4096x27, .f32⟩
  | 38 => ⟨S4096x27, .f32⟩
  | 39 => ⟨S4096x27, .f32⟩
  | 40 => ⟨S_, .f32⟩
  | 41 => ⟨S4096x27, .f32⟩
  | 42 => ⟨S4096x27, .f32⟩
  | 43 => ⟨S_, .f32⟩
  | 44 => ⟨S4096x27, .f32⟩
  | 45 => ⟨S4096x27, .f32⟩
  | 46 => ⟨S4096x27, .f32⟩
  | 47 => ⟨S_, .f32⟩
  | 48 => ⟨S4096x27, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S_, .f32⟩
  | 55 => ⟨S4096x27, .f32⟩
  | 56 => ⟨S4096x27, .f32⟩
  | 57 => ⟨S4096x27, .f32⟩
  | 58 => ⟨S_, .f32⟩
  | 59 => ⟨S4096x27, .f32⟩
  | 60 => ⟨S4096x27, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S_, .f32⟩
  | 69 => ⟨S4096x27, .f32⟩
  | 70 => ⟨S4096x27, .f32⟩
  | 71 => ⟨S4096x27, .f32⟩
  | 72 => ⟨S_, .f32⟩
  | 73 => ⟨S4096x27, .f32⟩
  | 74 => ⟨S_, .f32⟩
  | 75 => ⟨S4096x27, .f32⟩
  | 76 => ⟨S4096x27, .f32⟩
  | 77 => ⟨S4096x27, .f32⟩
  | 78 => ⟨S_, .f32⟩
  | 79 => ⟨S4096x27, .f32⟩
  | 80 => ⟨S4096x27, .f32⟩
  | 81 => ⟨S4096x27, .f32⟩
  | 82 => ⟨S_, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S_, .f32⟩
  | 95 => ⟨S4096x27, .f32⟩
  | 96 => ⟨S4096x27, .f32⟩
  | 97 => ⟨S4096x27, .f32⟩
  | 98 => ⟨S_, .f32⟩
  | 99 => ⟨S4096x27, .f32⟩
  | 100 => ⟨S4096x27, .f32⟩
  | 101 => ⟨S4096x27, .f32⟩
  | 102 => ⟨S4096x27, .f32⟩
  | 103 => ⟨S_, .f32⟩
  | 104 => ⟨S4096x27, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S_, .f32⟩
  | 119 => ⟨S_, .f32⟩
  | 120 => ⟨S4096x27, .f32⟩
  | 121 => ⟨S4096x27, .f32⟩
  | 122 => ⟨S4096x27, .f32⟩
  | 123 => ⟨S_, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_7 (i : Nat) : BufTy := match i % 128 with
  | 0 => ⟨S4096x27, .f32⟩
  | 1 => ⟨S_, .f32⟩
  | 2 => ⟨S4096x27, .f32⟩
  | 3 => ⟨S4096x27, .f32⟩
  | 4 => ⟨S4096x27, .f32⟩
  | 5 => ⟨S_, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S4096x27, .f32⟩
  | 12 => ⟨S4096x27, .f32⟩
  | 13 => ⟨S4096x27, .f32⟩
  | 14 => ⟨S_, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S4096x27, .f32⟩
  | 24 => ⟨S4096x27, .f32⟩
  | 25 => ⟨S4096x27, .f32⟩
  | 26 => ⟨S_, .f32⟩
  | 27 => ⟨S4096x27, .f32⟩
  | 28 => ⟨S_, .f32⟩
  | 29 => ⟨S4096x27, .f32⟩
  | 30 => ⟨S4096x27, .f32⟩
  | 31 => ⟨S4096x27, .f32⟩
  | 32 => ⟨S_, .f32⟩
  | 33 => ⟨S4096x27, .f32⟩
  | 34 => ⟨S4096x27, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S_, .f32⟩
  | 42 => ⟨S_, .f32⟩
  | 43 => ⟨S4096x27, .f32⟩
  | 44 => ⟨S4096x27, .f32⟩
  | 45 => ⟨S4096x27, .f32⟩
  | 46 => ⟨S_, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S_, .f32⟩
  | 64 => ⟨S4096x27, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S_, .f32⟩
  | 71 => ⟨S4096x27, .f32⟩
  | 72 => ⟨S4096x27, .f32⟩
  | 73 => ⟨S4096x27, .f32⟩
  | 74 => ⟨S_, .f32⟩
  | 75 => ⟨S4096x27, .f32⟩
  | 76 => ⟨S4096x27, .f32⟩
  | 77 => ⟨S4096x27, .f32⟩
  | 78 => ⟨S4096x27, .f32⟩
  | 79 => ⟨S_, .f32⟩
  | 80 => ⟨S4096x27, .f32⟩
  | 81 => ⟨S_, .f32⟩
  | 82 => ⟨S4096x27, .f32⟩
  | 83 => ⟨S4096x27, .f32⟩
  | 84 => ⟨S4096x27, .f32⟩
  | 85 => ⟨S_, .f32⟩
  | 86 => ⟨S4096x27, .f32⟩
  | 87 => ⟨S4096x27, .f32⟩
  | 88 => ⟨S4096x27, .f32⟩
  | 89 => ⟨S4096x27, .f32⟩
  | 90 => ⟨S4096x27, .f32⟩
  | 91 => ⟨S_, .f32⟩
  | 92 => ⟨S4096x27, .f32⟩
  | 93 => ⟨S4096x27, .f32⟩
  | 94 => ⟨S_, .f32⟩
  | 95 => ⟨S_, .f32⟩
  | 96 => ⟨S4096x27, .f32⟩
  | 97 => ⟨S4096x27, .f32⟩
  | 98 => ⟨S4096x27, .f32⟩
  | 99 => ⟨S_, .f32⟩
  | 100 => ⟨S4096x27, .f32⟩
  | 101 => ⟨S_, .f32⟩
  | 102 => ⟨S4096x27, .f32⟩
  | 103 => ⟨S4096x27, .f32⟩
  | 104 => ⟨S4096x27, .f32⟩
  | 105 => ⟨S_, .f32⟩
  | 106 => ⟨S4096x27, .f32⟩
  | 107 => ⟨S4096x27, .f32⟩
  | 108 => ⟨S4096x27, .f32⟩
  | 109 => ⟨S_, .f32⟩
  | 110 => ⟨S4096x27, .f32⟩
  | 111 => ⟨S4096x27, .f32⟩
  | 112 => ⟨S_, .f32⟩
  | 113 => ⟨S4096x27, .f32⟩
  | 114 => ⟨S4096x27, .f32⟩
  | 115 => ⟨S4096x27, .f32⟩
  | 116 => ⟨S4096x27, .f32⟩
  | 117 => ⟨S4096x27, .f32⟩
  | 118 => ⟨S_, .f32⟩
  | 119 => ⟨S4096x27, .f32⟩
  | 120 => ⟨S4096x27, .f32⟩
  | 121 => ⟨S_, .f32⟩
  | 122 => ⟨S4096x27, .f32⟩
  | 123 => ⟨S4096x27, .f32⟩
  | 124 => ⟨S4096x27, .f32⟩
  | 125 => ⟨S_, .f32⟩
  | 126 => ⟨S4096x27, .f32⟩
  | 127 => ⟨S4096x27, .f32⟩
  | _ => ⟨S4096x27x3, .f32⟩

abbrev hbmTy0_8 (i : Nat) : BufTy := match i % 128 with
  | 0 => ⟨S4096x27, .f32⟩
  | 1 => ⟨S4096x27, .f32⟩
  | 2 => ⟨S_, .f32⟩
  | 3 => ⟨S4096x27, .f32⟩
  | 4 => ⟨S_, .f32⟩
  | 5 => ⟨S4096x27, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S4096x27, .f32⟩
  | 12 => ⟨S4096x27, .f32⟩
  | 13 => ⟨S4096x27, .f32⟩
  | 14 => ⟨S_, .f32⟩
  | 15 => ⟨S4096x27, .f32⟩
  | 16 => ⟨S4096x27, .f32⟩
  | 17 => ⟨S_, .f32⟩
  | 18 => ⟨S_, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S_, .f32⟩
  | 29 => ⟨S4096x27, .f32⟩
  | 30 => ⟨S4096x27, .f32⟩
  | 31 => ⟨S4096x27, .f32⟩
  | 32 => ⟨S_, .f32⟩
  | 33 => ⟨S4096x27, .f32⟩
  | 34 => ⟨S4096x27, .f32⟩
  | 35 => ⟨S_, .f32⟩
  | 36 => ⟨S4096x27, .f32⟩
  | 37 => ⟨S4096x27, .f32⟩
  | 38 => ⟨S4096x27, .f32⟩
  | 39 => ⟨S4096x27, .f32⟩
  | 40 => ⟨S4096x27, .f32⟩
  | 41 => ⟨S_, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S4096x27, .f32⟩
  | 53 => ⟨S4096x27, .f32⟩
  | 54 => ⟨S_, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S_, .f32⟩
  | 66 => ⟨S_, .f32⟩
  | 67 => ⟨S4096x27, .f32⟩
  | 68 => ⟨S4096x27, .f32⟩
  | 69 => ⟨S4096x27, .f32⟩
  | 70 => ⟨S_, .f32⟩
  | 71 => ⟨S4096x27, .f32⟩
  | 72 => ⟨S_, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S4096x27, .f32⟩
  | 80 => ⟨S_, .f32⟩
  | 81 => ⟨S4096x27, .f32⟩
  | 82 => ⟨S4096x27, .f32⟩
  | 83 => ⟨S4096x27, .f32⟩
  | 84 => ⟨S_, .f32⟩
  | 85 => ⟨S4096x27, .f32⟩
  | 86 => ⟨S4096x27, .f32⟩
  | 87 => ⟨S_, .f32⟩
  | 88 => ⟨S4096x27, .f32⟩
  | 89 => ⟨S4096x27, .f32⟩
  | 90 => ⟨S4096x27, .f32⟩
  | 91 => ⟨S4096x27, .f32⟩
  | 92 => ⟨S4096x27, .f32⟩
  | 93 => ⟨S_, .f32⟩
  | 94 => ⟨S4096x27, .f32⟩
  | 95 => ⟨S4096x27, .f32⟩
  | 96 => ⟨S_, .f32⟩
  | 97 => ⟨S4096x27, .f32⟩
  | 98 => ⟨S4096x27, .f32⟩
  | 99 => ⟨S4096x27, .f32⟩
  | 100 => ⟨S_, .f32⟩
  | 101 => ⟨S4096x27, .f32⟩
  | 102 => ⟨S4096x27, .f32⟩
  | 103 => ⟨S4096x27, .f32⟩
  | 104 => ⟨S4096x27, .f32⟩
  | 105 => ⟨S4096x27, .f32⟩
  | 106 => ⟨S_, .f32⟩
  | 107 => ⟨S4096x27, .f32⟩
  | 108 => ⟨S_, .f32⟩
  | 109 => ⟨S4096x27, .f32⟩
  | 110 => ⟨S4096x27, .f32⟩
  | 111 => ⟨S4096x27, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S_, .f32⟩
  | 118 => ⟨S_, .f32⟩
  | 119 => ⟨S4096x27, .f32⟩
  | 120 => ⟨S4096x27, .f32⟩
  | 121 => ⟨S4096x27, .f32⟩
  | 122 => ⟨S_, .f32⟩
  | 123 => ⟨S4096x27, .f32⟩
  | 124 => ⟨S_, .f32⟩
  | 125 => ⟨S4096x27, .f32⟩
  | 126 => ⟨S4096x27, .f32⟩
  | 127 => ⟨S4096x27, .f32⟩
  | _ => ⟨S4096x27x3, .f32⟩

abbrev hbmTy0_9 (i : Nat) : BufTy := match i % 128 with
  | 0 => ⟨S_, .f32⟩
  | 1 => ⟨S4096x27, .f32⟩
  | 2 => ⟨S4096x27, .f32⟩
  | 3 => ⟨S4096x27, .f32⟩
  | 4 => ⟨S_, .f32⟩
  | 5 => ⟨S4096x27, .f32⟩
  | 6 => ⟨S4096x27, .f32⟩
  | 7 => ⟨S4096x27, .f32⟩
  | 8 => ⟨S_, .f32⟩
  | 9 => ⟨S4096x27, .f32⟩
  | 10 => ⟨S4096x27, .f32⟩
  | 11 => ⟨S_, .f32⟩
  | 12 => ⟨S4096x27, .f32⟩
  | 13 => ⟨S4096x27, .f32⟩
  | 14 => ⟨S4096x27, .f32⟩
  | 15 => ⟨S4096x27, .f32⟩
  | 16 => ⟨S4096x27, .f32⟩
  | 17 => ⟨S_, .f32⟩
  | 18 => ⟨S4096x27, .f32⟩
  | 19 => ⟨S4096x27, .f32⟩
  | 20 => ⟨S_, .f32⟩
  | 21 => ⟨S4096x27, .f32⟩
  | 22 => ⟨S4096x27, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S_, .f32⟩
  | 33 => ⟨S4096x27, .f32⟩
  | 34 => ⟨S4096x27, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S_, .f32⟩
  | 42 => ⟨S_, .f32⟩
  | 43 => ⟨S4096x27, .f32⟩
  | 44 => ⟨S4096x27, .f32⟩
  | 45 => ⟨S4096x27, .f32⟩
  | 46 => ⟨S_, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S4096x27, .f32⟩
  | 60 => ⟨S_, .f32⟩
  | 61 => ⟨S4096x27, .f32⟩
  | 62 => ⟨S4096x27, .f32⟩
  | 63 => ⟨S4096x27, .f32⟩
  | 64 => ⟨S_, .f32⟩
  | 65 => ⟨S4096x27, .f32⟩
  | 66 => ⟨S4096x27, .f32⟩
  | 67 => ⟨S_, .f32⟩
  | 68 => ⟨S4096x27, .f32⟩
  | 69 => ⟨S4096x27, .f32⟩
  | 70 => ⟨S_, .f32⟩
  | 71 => ⟨S4096x27, .f32⟩
  | 72 => ⟨S4096x27, .f32⟩
  | 73 => ⟨S4096x27, .f32⟩
  | 74 => ⟨S4096x27, .f32⟩
  | 75 => ⟨S4096x27, .f32⟩
  | 76 => ⟨S_, .f32⟩
  | 77 => ⟨S4096x27, .f32⟩
  | 78 => ⟨S4096x27, .f32⟩
  | 79 => ⟨S_, .f32⟩
  | 80 => ⟨S4096x27, .f32⟩
  | 81 => ⟨S4096x27, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S_, .f32⟩
  | 92 => ⟨S4096x27, .f32⟩
  | 93 => ⟨S4096x27, .f32⟩
  | 94 => ⟨S4096x27, .f32⟩
  | 95 => ⟨S4096x27, .f32⟩
  | 96 => ⟨S4096x27, .f32⟩
  | 97 => ⟨S_, .f32⟩
  | 98 => ⟨S4096x27, .f32⟩
  | 99 => ⟨S4096x27, .f32⟩
  | 100 => ⟨S_, .f32⟩
  | 101 => ⟨S_, .f32⟩
  | 102 => ⟨S4096x27, .f32⟩
  | 103 => ⟨S4096x27, .f32⟩
  | 104 => ⟨S4096x27, .f32⟩
  | 105 => ⟨S_, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S4096x27, .f32⟩
  | 115 => ⟨S_, .f32⟩
  | 116 => ⟨S4096x27, .f32⟩
  | 117 => ⟨S4096x27, .f32⟩
  | 118 => ⟨S4096x27, .f32⟩
  | 119 => ⟨S_, .f32⟩
  | 120 => ⟨S4096x27, .f32⟩
  | 121 => ⟨S4096x27, .f32⟩
  | 122 => ⟨S_, .f32⟩
  | 123 => ⟨S4096x27, .f32⟩
  | 124 => ⟨S4096x27, .f32⟩
  | 125 => ⟨S4096x27, .f32⟩
  | 126 => ⟨S_, .f32⟩
  | 127 => ⟨S4096x27, .f32⟩
  | _ => ⟨S4096x27x3, .f32⟩

abbrev hbmTy0_10 (i : Nat) : BufTy := match i % 128 with
  | 0 => ⟨S4096x27, .f32⟩
  | 1 => ⟨S4096x27, .f32⟩
  | 2 => ⟨S_, .f32⟩
  | 3 => ⟨S4096x27, .f32⟩
  | 4 => ⟨S4096x27, .f32⟩
  | 5 => ⟨S_, .f32⟩
  | 6 => ⟨S4096x27, .f32⟩
  | 7 => ⟨S4096x27, .f32⟩
  | 8 => ⟨S4096x27, .f32⟩
  | 9 => ⟨S_, .f32⟩
  | 10 => ⟨S4096x27, .f32⟩
  | 11 => ⟨S4096x27, .f32⟩
  | 12 => ⟨S_, .f32⟩
  | 13 => ⟨S4096x27, .f32⟩
  | 14 => ⟨S4096x27, .f32⟩
  | 15 => ⟨S4096x27, .f32⟩
  | 16 => ⟨S_, .f32⟩
  | 17 => ⟨S4096x27, .f32⟩
  | 18 => ⟨S4096x27, .f32⟩
  | 19 => ⟨S4096x27, .f32⟩
  | 20 => ⟨S4096x27, .f32⟩
  | 21 => ⟨S4096x27, .f32⟩
  | 22 => ⟨S_, .f32⟩
  | 23 => ⟨S4096x27, .f32⟩
  | 24 => ⟨S_, .f32⟩
  | 25 => ⟨S4096x27, .f32⟩
  | 26 => ⟨S4096x27, .f32⟩
  | 27 => ⟨S4096x27, .f32⟩
  | 28 => ⟨S4096x27, .f32⟩
  | 29 => ⟨S4096x27, .f32⟩
  | 30 => ⟨S_, .f32⟩
  | 31 => ⟨S4096x27, .f32⟩
  | 32 => ⟨S4096x27, .f32⟩
  | 33 => ⟨S_, .f32⟩
  | 34 => ⟨S_, .f32⟩
  | 35 => ⟨S4096x27, .f32⟩
  | 36 => ⟨S4096x27, .f32⟩
  | 37 => ⟨S4096x27, .f32⟩
  | 38 => ⟨S_, .f32⟩
  | 39 => ⟨S4096x27, .f32⟩
  | 40 => ⟨S_, .f32⟩
  | 41 => ⟨S4096x27, .f32⟩
  | 42 => ⟨S4096x27, .f32⟩
  | 43 => ⟨S4096x27, .f32⟩
  | 44 => ⟨S_, .f32⟩
  | 45 => ⟨S4096x27, .f32⟩
  | 46 => ⟨S4096x27, .f32⟩
  | 47 => ⟨S4096x27, .f32⟩
  | 48 => ⟨S_, .f32⟩
  | 49 => ⟨S4096x27, .f32⟩
  | 50 => ⟨S4096x27, .f32⟩
  | 51 => ⟨S4096x27, .f32⟩
  | 52 => ⟨S_, .f32⟩
  | 53 => ⟨S4096x27, .f32⟩
  | 54 => ⟨S4096x27, .f32⟩
  | 55 => ⟨S4096x27, .f32⟩
  | 56 => ⟨S_, .f32⟩
  | 57 => ⟨S4096x27, .f32⟩
  | 58 => ⟨S4096x27, .f32⟩
  | 59 => ⟨S_, .f32⟩
  | 60 => ⟨S4096x27, .f32⟩
  | 61 => ⟨S4096x27, .f32⟩
  | 62 => ⟨S_, .f32⟩
  | 63 => ⟨S4096x27, .f32⟩
  | 64 => ⟨S4096x27, .f32⟩
  | 65 => ⟨S4096x27, .f32⟩
  | 66 => ⟨S4096x27, .f32⟩
  | 67 => ⟨S4096x27, .f32⟩
  | 68 => ⟨S_, .f32⟩
  | 69 => ⟨S4096x27, .f32⟩
  | 70 => ⟨S4096x27, .f32⟩
  | 71 => ⟨S_, .f32⟩
  | 72 => ⟨S4096x27, .f32⟩
  | 73 => ⟨S4096x27, .f32⟩
  | 74 => ⟨S4096x27, .f32⟩
  | 75 => ⟨S_, .f32⟩
  | 76 => ⟨S4096x27, .f32⟩
  | 77 => ⟨S4096x27, .f32⟩
  | 78 => ⟨S4096x27, .f32⟩
  | 79 => ⟨S4096x27, .f32⟩
  | 80 => ⟨S4096x27, .f32⟩
  | 81 => ⟨S_, .f32⟩
  | 82 => ⟨S4096x27, .f32⟩
  | 83 => ⟨S_, .f32⟩
  | 84 => ⟨S4096x27, .f32⟩
  | 85 => ⟨S4096x27, .f32⟩
  | 86 => ⟨S4096x27, .f32⟩
  | 87 => ⟨S4096x27, .f32⟩
  | 88 => ⟨S4096x27, .f32⟩
  | 89 => ⟨S_, .f32⟩
  | 90 => ⟨S4096x27, .f32⟩
  | 91 => ⟨S4096x27, .f32⟩
  | 92 => ⟨S_, .f32⟩
  | 93 => ⟨S_, .f32⟩
  | 94 => ⟨S4096x27, .f32⟩
  | 95 => ⟨S4096x27, .f32⟩
  | 96 => ⟨S4096x27, .f32⟩
  | 97 => ⟨S_, .f32⟩
  | 98 => ⟨S4096x27, .f32⟩
  | 99 => ⟨S_, .f32⟩
  | 100 => ⟨S4096x27, .f32⟩
  | 101 => ⟨S4096x27, .f32⟩
  | 102 => ⟨S4096x27, .f32⟩
  | 103 => ⟨S_, .f32⟩
  | 104 => ⟨S4096x27, .f32⟩
  | 105 => ⟨S4096x27, .f32⟩
  | 106 => ⟨S4096x27, .f32⟩
  | 107 => ⟨S_, .f32⟩
  | 108 => ⟨S4096x27, .f32⟩
  | 109 => ⟨S4096x27, .f32⟩
  | 110 => ⟨S4096x27, .f32⟩
  | 111 => ⟨S_, .f32⟩
  | 112 => ⟨S4096x27, .f32⟩
  | 113 => ⟨S4096x27, .f32⟩
  | 114 => ⟨S_, .f32⟩
  | 115 => ⟨S4096x27, .f32⟩
  | 116 => ⟨S4096x27, .f32⟩
  | 117 => ⟨S4096x27, .f32⟩
  | 118 => ⟨S4096x27, .f32⟩
  | 119 => ⟨S4096x27, .f32⟩
  | 120 => ⟨S_, .f32⟩
  | 121 => ⟨S4096x27, .f32⟩
  | 122 => ⟨S4096x27, .f32⟩
  | 123 => ⟨S_, .f32⟩
  | 124 => ⟨S4096x27, .f32⟩
  | 125 => ⟨S4096x27, .f32⟩
  | 126 => ⟨S4096x27, .f32⟩
  | 127 => ⟨S_, .f32⟩
  | _ => ⟨S4096x27x3, .f32⟩

abbrev hbmTy0_11 (i : Nat) : BufTy := match i % 128 with
  | 0 => ⟨S4096x27, .f32⟩
  | 1 => ⟨S4096x27, .f32⟩
  | 2 => ⟨S4096x27, .f32⟩
  | 3 => ⟨S4096x27, .f32⟩
  | 4 => ⟨S4096x27, .f32⟩
  | 5 => ⟨S_, .f32⟩
  | 6 => ⟨S4096x27, .f32⟩
  | 7 => ⟨S_, .f32⟩
  | 8 => ⟨S4096x27, .f32⟩
  | 9 => ⟨S4096x27, .f32⟩
  | 10 => ⟨S4096x27, .f32⟩
  | 11 => ⟨S4096x27, .f32⟩
  | 12 => ⟨S4096x27, .f32⟩
  | 13 => ⟨S_, .f32⟩
  | 14 => ⟨S4096x27, .f32⟩
  | 15 => ⟨S4096x27, .f32⟩
  | 16 => ⟨S_, .f32⟩
  | 17 => ⟨S_, .f32⟩
  | 18 => ⟨S4096x27, .f32⟩
  | 19 => ⟨S4096x27, .f32⟩
  | 20 => ⟨S4096x27, .f32⟩
  | 21 => ⟨S_, .f32⟩
  | 22 => ⟨S4096x27, .f32⟩
  | 23 => ⟨S_, .f32⟩
  | 24 => ⟨S4096x27, .f32⟩
  | 25 => ⟨S4096x27, .f32⟩
  | 26 => ⟨S4096x27, .f32⟩
  | 27 => ⟨S_, .f32⟩
  | 28 => ⟨S4096x27, .f32⟩
  | 29 => ⟨S4096x27, .f32⟩
  | 30 => ⟨S4096x27, .f32⟩
  | 31 => ⟨S_, .f32⟩
  | 32 => ⟨S4096x27, .f32⟩
  | 33 => ⟨S4096x27, .f32⟩
  | 34 => ⟨S4096x27, .f32⟩
  | 35 => ⟨S_, .f32⟩
  | 36 => ⟨S4096x27, .f32⟩
  | 37 => ⟨S4096x27, .f32⟩
  | 38 => ⟨S_, .f32⟩
  | 39 => ⟨S4096x27, .f32⟩
  | 40 => ⟨S4096x27, .f32⟩
  | 41 => ⟨S4096x27, .f32⟩
  | 42 => ⟨S4096x27, .f32⟩
  | 43 => ⟨S4096x27, .f32⟩
  | 44 => ⟨S4096x27x1, .f32⟩
  | 45 => ⟨S4096x27x1, .f32⟩
  | 46 => ⟨S4096x27x1, .f32⟩
  | 47 => ⟨S4096x27x1, .f32⟩
  | 48 => ⟨S4096x27x1, .f32⟩
  | 49 => ⟨S4096x27x1, .f32⟩
  | 50 => ⟨S4096x27x1, .f32⟩
  | 51 => ⟨S4096x27x1, .f32⟩
  | 52 => ⟨S4096x27x1, .f32⟩
  | 53 => ⟨S4096x27x1, .f32⟩
  | 54 => ⟨S4096x27x1, .f32⟩
  | 55 => ⟨S4096x27x1, .f32⟩
  | 56 => ⟨S4096x27x1, .f32⟩
  | 57 => ⟨S4096x27x1, .f32⟩
  | 58 => ⟨S4096x27x1, .f32⟩
  | 59 => ⟨S4096x27x1, .f32⟩
  | 60 => ⟨S4096x27x1, .f32⟩
  | 61 => ⟨S4096x27x1, .f32⟩
  | 62 => ⟨S4096x27x1, .f32⟩
  | 63 => ⟨S4096x27x1, .f32⟩
  | 64 => ⟨S4096x27x1, .f32⟩
  | 65 => ⟨S4096x27x1, .f32⟩
  | 66 => ⟨S4096x27x1, .f32⟩
  | 67 => ⟨S4096x27x1, .f32⟩
  | 68 => ⟨S4096x27x1, .f32⟩
  | 69 => ⟨S4096x27x1, .f32⟩
  | 70 => ⟨S4096x27x1, .f32⟩
  | 71 => ⟨S4096x27x1, .f32⟩
  | 72 => ⟨S4096x27x1, .f32⟩
  | 73 => ⟨S4096x27x1, .f32⟩
  | 74 => ⟨S4096x27x16, .f32⟩
  | 75 => ⟨S4096x27x14, .f32⟩
  | 76 => ⟨S4096x27x30, .f32⟩
  | 77 => ⟨S16x16x4096x27, .f32⟩
  | _ => ⟨S4096x27x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4096x27x3, .f32⟩

abbrev bufTy : (tb : Table) → Fin (tcTables nBuf tb) → BufTy
  | .hbm, ⟨i, _⟩ => hbmTy i
  | _, _ => ⟨S4096x27x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_15 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_v48 : Ref sig .tc := ⟨.hbm, 70, rfl⟩
abbrev main_cst_17 : Ref sig .tc := ⟨.hbm, 71, rfl⟩
abbrev main_call1_v0 : Ref sig .tc := ⟨.hbm, 72, rfl⟩
abbrev main_call1_v1 : Ref sig .tc := ⟨.hbm, 73, rfl⟩
abbrev main_v49 : Ref sig .tc := ⟨.hbm, 74, rfl⟩
abbrev main_v50 : Ref sig .tc := ⟨.hbm, 75, rfl⟩
abbrev main_cst_18 : Ref sig .tc := ⟨.hbm, 76, rfl⟩
abbrev main_v51 : Ref sig .tc := ⟨.hbm, 77, rfl⟩
abbrev main_cst_19 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_20 : Ref sig .tc := ⟨.hbm, 82, rfl⟩
abbrev main_v55 : Ref sig .tc := ⟨.hbm, 83, rfl⟩
abbrev main_v56 : Ref sig .tc := ⟨.hbm, 84, rfl⟩
abbrev main_cst_21 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_22 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_23 : Ref sig .tc := ⟨.hbm, 93, rfl⟩
abbrev main_v63 : Ref sig .tc := ⟨.hbm, 94, rfl⟩
abbrev main_cst_24 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_25 : Ref sig .tc := ⟨.hbm, 101, rfl⟩
abbrev main_v69 : Ref sig .tc := ⟨.hbm, 102, rfl⟩
abbrev main_v70 : Ref sig .tc := ⟨.hbm, 103, rfl⟩
abbrev main_cst_26 : Ref sig .tc := ⟨.hbm, 104, rfl⟩
abbrev main_call2_v0 : Ref sig .tc := ⟨.hbm, 105, rfl⟩
abbrev main_call2_v1 : Ref sig .tc := ⟨.hbm, 106, rfl⟩
abbrev main_v71 : Ref sig .tc := ⟨.hbm, 107, rfl⟩
abbrev main_v72 : Ref sig .tc := ⟨.hbm, 108, rfl⟩
abbrev main_cst_27 : Ref sig .tc := ⟨.hbm, 109, rfl⟩
abbrev main_v73 : Ref sig .tc := ⟨.hbm, 110, rfl⟩
abbrev main_cst_28 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_29 : Ref sig .tc := ⟨.hbm, 115, rfl⟩
abbrev main_v77 : Ref sig .tc := ⟨.hbm, 116, rfl⟩
abbrev main_v78 : Ref sig .tc := ⟨.hbm, 117, rfl⟩
abbrev main_cst_30 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_31 : Ref sig .tc := ⟨.hbm, 124, rfl⟩
abbrev main_v84 : Ref sig .tc := ⟨.hbm, 125, rfl⟩
abbrev main_v85 : Ref sig .tc := ⟨.hbm, 126, rfl⟩
abbrev main_cst_32 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_33 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_34 : Ref sig .tc := ⟨.hbm, 135, rfl⟩
abbrev main_v92 : Ref sig .tc := ⟨.hbm, 136, rfl⟩
abbrev main_cst_35 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_36 : Ref sig .tc := ⟨.hbm, 143, rfl⟩
abbrev main_v98 : Ref sig .tc := ⟨.hbm, 144, rfl⟩
abbrev main_v99 : Ref sig .tc := ⟨.hbm, 145, rfl⟩
abbrev main_cst_37 : Ref sig .tc := ⟨.hbm, 146, rfl⟩
abbrev main_call3_v0 : Ref sig .tc := ⟨.hbm, 147, rfl⟩
abbrev main_call3_v1 : Ref sig .tc := ⟨.hbm, 148, rfl⟩
abbrev main_v100 : Ref sig .tc := ⟨.hbm, 149, rfl⟩
abbrev main_v101 : Ref sig .tc := ⟨.hbm, 150, rfl⟩
abbrev main_cst_38 : Ref sig .tc := ⟨.hbm, 151, rfl⟩
abbrev main_v102 : Ref sig .tc := ⟨.hbm, 152, rfl⟩
abbrev main_cst_39 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_40 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_41 : Ref sig .tc := ⟨.hbm, 161, rfl⟩
abbrev main_v109 : Ref sig .tc := ⟨.hbm, 162, rfl⟩
abbrev main_v110 : Ref sig .tc := ⟨.hbm, 163, rfl⟩
abbrev main_cst_42 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_43 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_44 : Ref sig .tc := ⟨.hbm, 172, rfl⟩
abbrev main_v117 : Ref sig .tc := ⟨.hbm, 173, rfl⟩
abbrev main_cst_45 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_46 : Ref sig .tc := ⟨.hbm, 180, rfl⟩
abbrev main_v123 : Ref sig .tc := ⟨.hbm, 181, rfl⟩
abbrev main_v124 : Ref sig .tc := ⟨.hbm, 182, rfl⟩
abbrev main_cst_47 : Ref sig .tc := ⟨.hbm, 183, rfl⟩
abbrev main_call4_v0 : Ref sig .tc := ⟨.hbm, 184, rfl⟩
abbrev main_call4_v1 : Ref sig .tc := ⟨.hbm, 185, rfl⟩
abbrev main_v125 : Ref sig .tc := ⟨.hbm, 186, rfl⟩
abbrev main_v126 : Ref sig .tc := ⟨.hbm, 187, rfl⟩
abbrev main_cst_48 : Ref sig .tc := ⟨.hbm, 188, rfl⟩
abbrev main_v127 : Ref sig .tc := ⟨.hbm, 189, rfl⟩
abbrev main_cst_49 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_50 : Ref sig .tc := ⟨.hbm, 194, rfl⟩
abbrev main_v131 : Ref sig .tc := ⟨.hbm, 195, rfl⟩
abbrev main_v132 : Ref sig .tc := ⟨.hbm, 196, rfl⟩
abbrev main_cst_51 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_52 : Ref sig .tc := ⟨.hbm, 203, rfl⟩
abbrev main_v138 : Ref sig .tc := ⟨.hbm, 204, rfl⟩
abbrev main_v139 : Ref sig .tc := ⟨.hbm, 205, rfl⟩
abbrev main_cst_53 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_54 : Ref sig .tc := ⟨.hbm, 210, rfl⟩
abbrev main_v143 : Ref sig .tc := ⟨.hbm, 211, rfl⟩
abbrev main_v144 : Ref sig .tc := ⟨.hbm, 212, rfl⟩
abbrev main_cst_55 : Ref sig .tc := ⟨.hbm, 213, rfl⟩
abbrev main_v145 : Ref sig .tc := ⟨.hbm, 214, rfl⟩
abbrev main_v146 : Ref sig .tc := ⟨.hbm, 215, rfl⟩
abbrev main_cst_56 : Ref sig .tc := ⟨.hbm, 216, rfl⟩
abbrev main_v147 : Ref sig .tc := ⟨.hbm, 217, rfl⟩
abbrev main_cst_57 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_58 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_59 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_60 : Ref sig .tc := ⟨.hbm, 232, rfl⟩
abbrev main_v159 : Ref sig .tc := ⟨.hbm, 233, rfl⟩
abbrev main_v160 : Ref sig .tc := ⟨.hbm, 234, rfl⟩
abbrev main_cst_61 : Ref sig .tc := ⟨.hbm, 235, rfl⟩
abbrev main_call5_v0 : Ref sig .tc := ⟨.hbm, 236, rfl⟩
abbrev main_call5_v1 : Ref sig .tc := ⟨.hbm, 237, rfl⟩
abbrev main_v161 : Ref sig .tc := ⟨.hbm, 238, rfl⟩
abbrev main_v162 : Ref sig .tc := ⟨.hbm, 239, rfl⟩
abbrev main_cst_62 : Ref sig .tc := ⟨.hbm, 240, rfl⟩
abbrev main_v163 : Ref sig .tc := ⟨.hbm, 241, rfl⟩
abbrev main_cst_63 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_64 : Ref sig .tc := ⟨.hbm, 246, rfl⟩
abbrev main_v167 : Ref sig .tc := ⟨.hbm, 247, rfl⟩
abbrev main_v168 : Ref sig .tc := ⟨.hbm, 248, rfl⟩
abbrev main_cst_65 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_cst_66 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_cst_67 : Ref sig .tc := ⟨.hbm, 257, rfl⟩
abbrev main_v175 : Ref sig .tc := ⟨.hbm, 258, rfl⟩
abbrev main_cst_68 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_cst_69 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_cst_70 : Ref sig .tc := ⟨.hbm, 269, rfl⟩
abbrev main_v184 : Ref sig .tc := ⟨.hbm, 270, rfl⟩
abbrev main_v185 : Ref sig .tc := ⟨.hbm, 271, rfl⟩
abbrev main_cst_71 : Ref sig .tc := ⟨.hbm, 272, rfl⟩
abbrev main_call6_v0 : Ref sig .tc := ⟨.hbm, 273, rfl⟩
abbrev main_call6_v1 : Ref sig .tc := ⟨.hbm, 274, rfl⟩
abbrev main_v186 : Ref sig .tc := ⟨.hbm, 275, rfl⟩
abbrev main_v187 : Ref sig .tc := ⟨.hbm, 276, rfl⟩
abbrev main_cst_72 : Ref sig .tc := ⟨.hbm, 277, rfl⟩
abbrev main_v188 : Ref sig .tc := ⟨.hbm, 278, rfl⟩
abbrev main_cst_73 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_74 : Ref sig .tc := ⟨.hbm, 283, rfl⟩
abbrev main_v192 : Ref sig .tc := ⟨.hbm, 284, rfl⟩
abbrev main_v193 : Ref sig .tc := ⟨.hbm, 285, rfl⟩
abbrev main_cst_75 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_76 : Ref sig .tc := ⟨.hbm, 292, rfl⟩
abbrev main_v199 : Ref sig .tc := ⟨.hbm, 293, rfl⟩
abbrev main_v200 : Ref sig .tc := ⟨.hbm, 294, rfl⟩
abbrev main_cst_77 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_cst_78 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_cst_79 : Ref sig .tc := ⟨.hbm, 303, rfl⟩
abbrev main_v207 : Ref sig .tc := ⟨.hbm, 304, rfl⟩
abbrev main_cst_80 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_cst_81 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_cst_82 : Ref sig .tc := ⟨.hbm, 315, rfl⟩
abbrev main_v216 : Ref sig .tc := ⟨.hbm, 316, rfl⟩
abbrev main_v217 : Ref sig .tc := ⟨.hbm, 317, rfl⟩
abbrev main_cst_83 : Ref sig .tc := ⟨.hbm, 318, rfl⟩
abbrev main_call7_v0 : Ref sig .tc := ⟨.hbm, 319, rfl⟩
abbrev main_call7_v1 : Ref sig .tc := ⟨.hbm, 320, rfl⟩
abbrev main_v218 : Ref sig .tc := ⟨.hbm, 321, rfl⟩
abbrev main_v219 : Ref sig .tc := ⟨.hbm, 322, rfl⟩
abbrev main_cst_84 : Ref sig .tc := ⟨.hbm, 323, rfl⟩
abbrev main_v220 : Ref sig .tc := ⟨.hbm, 324, rfl⟩
abbrev main_cst_85 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_cst_86 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_cst_87 : Ref sig .tc := ⟨.hbm, 333, rfl⟩
abbrev main_v227 : Ref sig .tc := ⟨.hbm, 334, rfl⟩
abbrev main_v228 : Ref sig .tc := ⟨.hbm, 335, rfl⟩
abbrev main_cst_88 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_cst_89 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_cst_90 : Ref sig .tc := ⟨.hbm, 344, rfl⟩
abbrev main_v235 : Ref sig .tc := ⟨.hbm, 345, rfl⟩
abbrev main_cst_91 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_cst_92 : Ref sig .tc := ⟨.hbm, 350, rfl⟩
abbrev main_v239 : Ref sig .tc := ⟨.hbm, 351, rfl⟩
abbrev main_v240 : Ref sig .tc := ⟨.hbm, 352, rfl⟩
abbrev main_v241 : Ref sig .tc := ⟨.hbm, 353, rfl⟩
abbrev main_v242 : Ref sig .tc := ⟨.hbm, 354, rfl⟩
abbrev main_v243 : Ref sig .tc := ⟨.hbm, 355, rfl⟩
abbrev main_cst_93 : Ref sig .tc := ⟨.hbm, 356, rfl⟩
abbrev main_v244 : Ref sig .tc := ⟨.hbm, 357, rfl⟩
abbrev main_v245 : Ref sig .tc := ⟨.hbm, 358, rfl⟩
abbrev main_cst_94 : Ref sig .tc := ⟨.hbm, 359, rfl⟩
abbrev main_call8_v0 : Ref sig .tc := ⟨.hbm, 360, rfl⟩
abbrev main_call8_v1 : Ref sig .tc := ⟨.hbm, 361, rfl⟩
abbrev main_v246 : Ref sig .tc := ⟨.hbm, 362, rfl⟩
abbrev main_v247 : Ref sig .tc := ⟨.hbm, 363, rfl⟩
abbrev main_cst_95 : Ref sig .tc := ⟨.hbm, 364, rfl⟩
abbrev main_v248 : Ref sig .tc := ⟨.hbm, 365, rfl⟩
abbrev main_cst_96 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_cst_97 : Ref sig .tc := ⟨.hbm, 370, rfl⟩
abbrev main_v252 : Ref sig .tc := ⟨.hbm, 371, rfl⟩
abbrev main_v253 : Ref sig .tc := ⟨.hbm, 372, rfl⟩
abbrev main_cst_98 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_cst_99 : Ref sig .tc := ⟨.hbm, 379, rfl⟩
abbrev main_v259 : Ref sig .tc := ⟨.hbm, 380, rfl⟩
abbrev main_v260 : Ref sig .tc := ⟨.hbm, 381, rfl⟩
abbrev main_cst_100 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_cst_101 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_cst_102 : Ref sig .tc := ⟨.hbm, 391, rfl⟩
abbrev main_v268 : Ref sig .tc := ⟨.hbm, 392, rfl⟩
abbrev main_cst_103 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_cst_104 : Ref sig .tc := ⟨.hbm, 399, rfl⟩
abbrev main_v274 : Ref sig .tc := ⟨.hbm, 400, rfl⟩
abbrev main_v275 : Ref sig .tc := ⟨.hbm, 401, rfl⟩
abbrev main_cst_105 : Ref sig .tc := ⟨.hbm, 402, rfl⟩
abbrev main_call9_v0 : Ref sig .tc := ⟨.hbm, 403, rfl⟩
abbrev main_call9_v1 : Ref sig .tc := ⟨.hbm, 404, rfl⟩
abbrev main_v276 : Ref sig .tc := ⟨.hbm, 405, rfl⟩
abbrev main_v277 : Ref sig .tc := ⟨.hbm, 406, rfl⟩
abbrev main_cst_106 : Ref sig .tc := ⟨.hbm, 407, rfl⟩
abbrev main_v278 : Ref sig .tc := ⟨.hbm, 408, rfl⟩
abbrev main_cst_107 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_cst_108 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_cst_109 : Ref sig .tc := ⟨.hbm, 417, rfl⟩
abbrev main_v285 : Ref sig .tc := ⟨.hbm, 418, rfl⟩
abbrev main_v286 : Ref sig .tc := ⟨.hbm, 419, rfl⟩
abbrev main_cst_110 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_cst_111 : Ref sig .tc := ⟨.hbm, 426, rfl⟩
abbrev main_v292 : Ref sig .tc := ⟨.hbm, 427, rfl⟩
abbrev main_v293 : Ref sig .tc := ⟨.hbm, 428, rfl⟩
abbrev main_cst_112 : Ref sig .tc := ⟨.hbm, 429, rfl⟩
abbrev main_v294 : Ref sig .tc := ⟨.hbm, 430, rfl⟩
abbrev main_v295 : Ref sig .tc := ⟨.hbm, 431, rfl⟩
abbrev main_v296 : Ref sig .tc := ⟨.hbm, 432, rfl⟩
abbrev main_cst_113 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_cst_114 : Ref sig .tc := ⟨.hbm, 438, rfl⟩
abbrev main_v301 : Ref sig .tc := ⟨.hbm, 439, rfl⟩
abbrev main_cst_115 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_cst_116 : Ref sig .tc := ⟨.hbm, 446, rfl⟩
abbrev main_v307 : Ref sig .tc := ⟨.hbm, 447, rfl⟩
abbrev main_v308 : Ref sig .tc := ⟨.hbm, 448, rfl⟩
abbrev main_cst_117 : Ref sig .tc := ⟨.hbm, 449, rfl⟩
abbrev main_call10_v0 : Ref sig .tc := ⟨.hbm, 450, rfl⟩
abbrev main_call10_v1 : Ref sig .tc := ⟨.hbm, 451, rfl⟩
abbrev main_v309 : Ref sig .tc := ⟨.hbm, 452, rfl⟩
abbrev main_v310 : Ref sig .tc := ⟨.hbm, 453, rfl⟩
abbrev main_cst_118 : Ref sig .tc := ⟨.hbm, 454, rfl⟩
abbrev main_v311 : Ref sig .tc := ⟨.hbm, 455, rfl⟩
abbrev main_cst_119 : Ref sig .tc := ⟨.hbm, 456, rfl⟩
abbrev main_v312 : Ref sig .tc := ⟨.hbm, 457, rfl⟩
abbrev main_v313 : Ref sig .tc := ⟨.hbm, 458, rfl⟩
abbrev main_v314 : Ref sig .tc := ⟨.hbm, 459, rfl⟩
abbrev main_cst_120 : Ref sig .tc := ⟨.hbm, 460, rfl⟩
abbrev main_v315 : Ref sig .tc := ⟨.hbm, 461, rfl⟩
abbrev main_v316 : Ref sig .tc := ⟨.hbm, 462, rfl⟩
abbrev main_v317 : Ref sig .tc := ⟨.hbm, 463, rfl⟩
abbrev main_cst_121 : Ref sig .tc := ⟨.hbm, 464, rfl⟩
abbrev main_v318 : Ref sig .tc := ⟨.hbm, 465, rfl⟩
abbrev main_v319 : Ref sig .tc := ⟨.hbm, 466, rfl⟩
abbrev main_cst_122 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_cst_123 : Ref sig .tc := ⟨.hbm, 473, rfl⟩
abbrev main_v325 : Ref sig .tc := ⟨.hbm, 474, rfl⟩
abbrev main_v326 : Ref sig .tc := ⟨.hbm, 475, rfl⟩
abbrev main_cst_124 : Ref sig .tc := ⟨.hbm, 476, rfl⟩
abbrev main_v327 : Ref sig .tc := ⟨.hbm, 477, rfl⟩
abbrev main_v328 : Ref sig .tc := ⟨.hbm, 478, rfl⟩
abbrev main_v329 : Ref sig .tc := ⟨.hbm, 479, rfl⟩
abbrev main_cst_125 : Ref sig .tc := ⟨.hbm, 480, rfl⟩
abbrev main_v330 : Ref sig .tc := ⟨.hbm, 481, rfl⟩
abbrev main_v331 : Ref sig .tc := ⟨.hbm, 482, rfl⟩
abbrev main_v332 : Ref sig .tc := ⟨.hbm, 483, rfl⟩
abbrev main_v333 : Ref sig .tc := ⟨.hbm, 484, rfl⟩
abbrev main_cst_126 : Ref sig .tc := ⟨.hbm, 485, rfl⟩
abbrev main_v334 : Ref sig .tc := ⟨.hbm, 486, rfl⟩
abbrev main_cst_127 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_v338 : Ref sig .tc := ⟨.hbm, 491, rfl⟩
abbrev main_v339 : Ref sig .tc := ⟨.hbm, 492, rfl⟩
abbrev main_cst_128 : Ref sig .tc := ⟨.hbm, 493, rfl⟩
abbrev main_v340 : Ref sig .tc := ⟨.hbm, 494, rfl⟩
abbrev main_v341 : Ref sig .tc := ⟨.hbm, 495, rfl⟩
abbrev main_cst_129 : Ref sig .tc := ⟨.hbm, 496, rfl⟩
abbrev main_call11_v0 : Ref sig .tc := ⟨.hbm, 497, rfl⟩
abbrev main_call11_v1 : Ref sig .tc := ⟨.hbm, 498, rfl⟩
abbrev main_v342 : Ref sig .tc := ⟨.hbm, 499, rfl⟩
abbrev main_v343 : Ref sig .tc := ⟨.hbm, 500, rfl⟩
abbrev main_cst_130 : Ref sig .tc := ⟨.hbm, 501, rfl⟩
abbrev main_v344 : Ref sig .tc := ⟨.hbm, 502, rfl⟩
abbrev main_cst_131 : Ref sig .tc := ⟨.hbm, 503, rfl⟩
abbrev main_v345 : Ref sig .tc := ⟨.hbm, 504, rfl⟩
abbrev main_v346 : Ref sig .tc := ⟨.hbm, 505, rfl⟩
abbrev main_v347 : Ref sig .tc := ⟨.hbm, 506, rfl⟩
abbrev main_cst_132 : Ref sig .tc := ⟨.hbm, 507, rfl⟩
abbrev main_v348 : Ref sig .tc := ⟨.hbm, 508, rfl⟩
abbrev main_v349 : Ref sig .tc := ⟨.hbm, 509, rfl⟩
abbrev main_v350 : Ref sig .tc := ⟨.hbm, 510, rfl⟩
abbrev main_cst_133 : Ref sig .tc := ⟨.hbm, 511, rfl⟩
abbrev main_v351 : Ref sig .tc := ⟨.hbm, 512, rfl⟩
abbrev main_v352 : Ref sig .tc := ⟨.hbm, 513, rfl⟩
abbrev main_v353 : Ref sig .tc := ⟨.hbm, 514, rfl⟩
abbrev main_cst_134 : Ref sig .tc := ⟨.hbm, 515, rfl⟩
abbrev main_v354 : Ref sig .tc := ⟨.hbm, 516, rfl⟩
abbrev main_v355 : Ref sig .tc := ⟨.hbm, 517, rfl⟩
abbrev main_cst_135 : Ref sig .tc := ⟨.hbm, 518, rfl⟩
abbrev main_v356 : Ref sig .tc := ⟨.hbm, 519, rfl⟩
abbrev main_v357 : Ref sig .tc := ⟨.hbm, 520, rfl⟩
abbrev main_v358 : Ref sig .tc := ⟨.hbm, 521, rfl⟩
abbrev main_cst_136 : Ref sig .tc := ⟨.hbm, 522, rfl⟩
abbrev main_v359 : Ref sig .tc := ⟨.hbm, 523, rfl⟩
abbrev main_v360 : Ref sig .tc := ⟨.hbm, 524, rfl⟩
abbrev main_cst_137 : Ref sig .tc := ⟨.hbm, 525, rfl⟩
abbrev main_v361 : Ref sig .tc := ⟨.hbm, 526, rfl⟩
abbrev main_v362 : Ref sig .tc := ⟨.hbm, 527, rfl⟩
abbrev main_v363 : Ref sig .tc := ⟨.hbm, 528, rfl⟩
abbrev main_cst_138 : Ref sig .tc := ⟨.hbm, 529, rfl⟩
abbrev main_v364 : Ref sig .tc := ⟨.hbm, 530, rfl⟩
abbrev main_v365 : Ref sig .tc := ⟨.hbm, 531, rfl⟩
abbrev main_v366 : Ref sig .tc := ⟨.hbm, 532, rfl⟩
abbrev main_v367 : Ref sig .tc := ⟨.hbm, 533, rfl⟩
abbrev main_cst_139 : Ref sig .tc := ⟨.hbm, 534, rfl⟩
abbrev main_v368 : Ref sig .tc := ⟨.hbm, 535, rfl⟩
abbrev main_cst_140 : Ref sig .tc := ⟨.hbm, 536, rfl⟩
abbrev main_v369 : Ref sig .tc := ⟨.hbm, 537, rfl⟩
abbrev main_v370 : Ref sig .tc := ⟨.hbm, 538, rfl⟩
abbrev main_v371 : Ref sig .tc := ⟨.hbm, 539, rfl⟩
abbrev main_v372 : Ref sig .tc := ⟨.hbm, 540, rfl⟩
abbrev main_v373 : Ref sig .tc := ⟨.hbm, 541, rfl⟩
abbrev main_cst_141 : Ref sig .tc := ⟨.hbm, 542, rfl⟩
abbrev main_v374 : Ref sig .tc := ⟨.hbm, 543, rfl⟩
abbrev main_v375 : Ref sig .tc := ⟨.hbm, 544, rfl⟩
abbrev main_cst_142 : Ref sig .tc := ⟨.hbm, 545, rfl⟩
abbrev main_call12_v0 : Ref sig .tc := ⟨.hbm, 546, rfl⟩
abbrev main_call12_v1 : Ref sig .tc := ⟨.hbm, 547, rfl⟩
abbrev main_v376 : Ref sig .tc := ⟨.hbm, 548, rfl⟩
abbrev main_v377 : Ref sig .tc := ⟨.hbm, 549, rfl⟩
abbrev main_cst_143 : Ref sig .tc := ⟨.hbm, 550, rfl⟩
abbrev main_v378 : Ref sig .tc := ⟨.hbm, 551, rfl⟩
abbrev main_cst_144 : Ref sig .tc := ⟨.hbm, 552, rfl⟩
abbrev main_v379 : Ref sig .tc := ⟨.hbm, 553, rfl⟩
abbrev main_v380 : Ref sig .tc := ⟨.hbm, 554, rfl⟩
abbrev main_v381 : Ref sig .tc := ⟨.hbm, 555, rfl⟩
abbrev main_cst_145 : Ref sig .tc := ⟨.hbm, 556, rfl⟩
abbrev main_v382 : Ref sig .tc := ⟨.hbm, 557, rfl⟩
abbrev main_v383 : Ref sig .tc := ⟨.hbm, 558, rfl⟩
abbrev main_v384 : Ref sig .tc := ⟨.hbm, 559, rfl⟩
abbrev main_cst_146 : Ref sig .tc := ⟨.hbm, 560, rfl⟩
abbrev main_v385 : Ref sig .tc := ⟨.hbm, 561, rfl⟩
abbrev main_v386 : Ref sig .tc := ⟨.hbm, 562, rfl⟩
abbrev main_cst_147 : Ref sig .tc := ⟨.hbm, 563, rfl⟩
abbrev main_v387 : Ref sig .tc := ⟨.hbm, 564, rfl⟩
abbrev main_v388 : Ref sig .tc := ⟨.hbm, 565, rfl⟩
abbrev main_v389 : Ref sig .tc := ⟨.hbm, 566, rfl⟩
abbrev main_v390 : Ref sig .tc := ⟨.hbm, 567, rfl⟩
abbrev main_v391 : Ref sig .tc := ⟨.hbm, 568, rfl⟩
abbrev main_cst_148 : Ref sig .tc := ⟨.hbm, 569, rfl⟩
abbrev main_v392 : Ref sig .tc := ⟨.hbm, 570, rfl⟩
abbrev main_v393 : Ref sig .tc := ⟨.hbm, 571, rfl⟩
abbrev main_cst_149 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_cst_150 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_v400 : Ref sig .tc := ⟨.hbm, 580, rfl⟩
abbrev main_cst_151 : Ref sig .tc := ⟨.hbm, 581, rfl⟩
abbrev main_v401 : Ref sig .tc := ⟨.hbm, 582, rfl⟩
abbrev main_cst_152 : Ref sig .tc := ⟨.hbm, 583, rfl⟩
abbrev main_v402 : Ref sig .tc := ⟨.hbm, 584, rfl⟩
abbrev main_v403 : Ref sig .tc := ⟨.hbm, 585, rfl⟩
abbrev main_v404 : Ref sig .tc := ⟨.hbm, 586, rfl⟩
abbrev main_v405 : Ref sig .tc := ⟨.hbm, 587, rfl⟩
abbrev main_v406 : Ref sig .tc := ⟨.hbm, 588, rfl⟩
abbrev main_cst_153 : Ref sig .tc := ⟨.hbm, 589, rfl⟩
abbrev main_v407 : Ref sig .tc := ⟨.hbm, 590, rfl⟩
abbrev main_v408 : Ref sig .tc := ⟨.hbm, 591, rfl⟩
abbrev main_cst_154 : Ref sig .tc := ⟨.hbm, 592, rfl⟩
abbrev main_call13_v0 : Ref sig .tc := ⟨.hbm, 593, rfl⟩
abbrev main_call13_v1 : Ref sig .tc := ⟨.hbm, 594, rfl⟩
abbrev main_v409 : Ref sig .tc := ⟨.hbm, 595, rfl⟩
abbrev main_v410 : Ref sig .tc := ⟨.hbm, 596, rfl⟩
abbrev main_cst_155 : Ref sig .tc := ⟨.hbm, 597, rfl⟩
abbrev main_v411 : Ref sig .tc := ⟨.hbm, 598, rfl⟩
abbrev main_cst_156 : Ref sig .tc := ⟨.hbm, 599, rfl⟩
abbrev main_v412 : Ref sig .tc := ⟨.hbm, 600, rfl⟩
abbrev main_v413 : Ref sig .tc := ⟨.hbm, 601, rfl⟩
abbrev main_v414 : Ref sig .tc := ⟨.hbm, 602, rfl⟩
abbrev main_cst_157 : Ref sig .tc := ⟨.hbm, 603, rfl⟩
abbrev main_v415 : Ref sig .tc := ⟨.hbm, 604, rfl⟩
abbrev main_v416 : Ref sig .tc := ⟨.hbm, 605, rfl⟩
abbrev main_v417 : Ref sig .tc := ⟨.hbm, 606, rfl⟩
abbrev main_cst_158 : Ref sig .tc := ⟨.hbm, 607, rfl⟩
abbrev main_v418 : Ref sig .tc := ⟨.hbm, 608, rfl⟩
abbrev main_v419 : Ref sig .tc := ⟨.hbm, 609, rfl⟩
abbrev main_cst_159 : Ref sig .tc := ⟨.hbm, 610, rfl⟩
abbrev main_v420 : Ref sig .tc := ⟨.hbm, 611, rfl⟩
abbrev main_v421 : Ref sig .tc := ⟨.hbm, 612, rfl⟩
abbrev main_v422 : Ref sig .tc := ⟨.hbm, 613, rfl⟩
abbrev main_v423 : Ref sig .tc := ⟨.hbm, 614, rfl⟩
abbrev main_v424 : Ref sig .tc := ⟨.hbm, 615, rfl⟩
abbrev main_cst_160 : Ref sig .tc := ⟨.hbm, 616, rfl⟩
abbrev main_v425 : Ref sig .tc := ⟨.hbm, 617, rfl⟩
abbrev main_v426 : Ref sig .tc := ⟨.hbm, 618, rfl⟩
abbrev main_cst_161 : Ref sig .tc := ⟨.hbm, 619, rfl⟩
abbrev main_v427 : Ref sig .tc := ⟨.hbm, 620, rfl⟩
abbrev main_v428 : Ref sig .tc := ⟨.hbm, 621, rfl⟩
abbrev main_v429 : Ref sig .tc := ⟨.hbm, 622, rfl⟩
abbrev main_cst_162 : Ref sig .tc := ⟨.hbm, 623, rfl⟩
abbrev main_v430 : Ref sig .tc := ⟨.hbm, 624, rfl⟩
abbrev main_v431 : Ref sig .tc := ⟨.hbm, 625, rfl⟩
abbrev main_cst_163 : Ref sig .tc := ⟨.hbm, 626, rfl⟩
abbrev main_v432 : Ref sig .tc := ⟨.hbm, 627, rfl⟩
abbrev main_v433 : Ref sig .tc := ⟨.hbm, 628, rfl⟩
abbrev main_cst_164 : Ref sig .tc := ⟨.hbm, 629, rfl⟩
abbrev main_v434 : Ref sig .tc := ⟨.hbm, 630, rfl⟩
abbrev main_cst_165 : Ref sig .tc := ⟨.hbm, 631, rfl⟩
abbrev main_v435 : Ref sig .tc := ⟨.hbm, 632, rfl⟩
abbrev main_v436 : Ref sig .tc := ⟨.hbm, 633, rfl⟩
abbrev main_v437 : Ref sig .tc := ⟨.hbm, 634, rfl⟩
abbrev main_cst_166 : Ref sig .tc := ⟨.hbm, 635, rfl⟩
abbrev main_v438 : Ref sig .tc := ⟨.hbm, 636, rfl⟩
abbrev main_v439 : Ref sig .tc := ⟨.hbm, 637, rfl⟩
abbrev main_v440 : Ref sig .tc := ⟨.hbm, 638, rfl⟩
abbrev main_cst_167 : Ref sig .tc := ⟨.hbm, 639, rfl⟩
abbrev main_v441 : Ref sig .tc := ⟨.hbm, 640, rfl⟩
abbrev main_v442 : Ref sig .tc := ⟨.hbm, 641, rfl⟩
abbrev main_v443 : Ref sig .tc := ⟨.hbm, 642, rfl⟩
abbrev main_cst_168 : Ref sig .tc := ⟨.hbm, 643, rfl⟩
abbrev main_v444 : Ref sig .tc := ⟨.hbm, 644, rfl⟩
abbrev main_v445 : Ref sig .tc := ⟨.hbm, 645, rfl⟩
abbrev main_v446 : Ref sig .tc := ⟨.hbm, 646, rfl⟩
abbrev main_v447 : Ref sig .tc := ⟨.hbm, 647, rfl⟩
abbrev main_v448 : Ref sig .tc := ⟨.hbm, 648, rfl⟩
abbrev main_cst_169 : Ref sig .tc := ⟨.hbm, 649, rfl⟩
abbrev main_v449 : Ref sig .tc := ⟨.hbm, 650, rfl⟩
abbrev main_v450 : Ref sig .tc := ⟨.hbm, 651, rfl⟩
abbrev main_cst_170 : Ref sig .tc := ⟨.hbm, 652, rfl⟩
abbrev main_call14_v0 : Ref sig .tc := ⟨.hbm, 653, rfl⟩
abbrev main_call14_v1 : Ref sig .tc := ⟨.hbm, 654, rfl⟩
abbrev main_v451 : Ref sig .tc := ⟨.hbm, 655, rfl⟩
abbrev main_v452 : Ref sig .tc := ⟨.hbm, 656, rfl⟩
abbrev main_cst_171 : Ref sig .tc := ⟨.hbm, 657, rfl⟩
abbrev main_v453 : Ref sig .tc := ⟨.hbm, 658, rfl⟩
abbrev main_cst_172 : Ref sig .tc := ⟨.hbm, 659, rfl⟩
abbrev main_v454 : Ref sig .tc := ⟨.hbm, 660, rfl⟩
abbrev main_v455 : Ref sig .tc := ⟨.hbm, 661, rfl⟩
abbrev main_v456 : Ref sig .tc := ⟨.hbm, 662, rfl⟩
abbrev main_cst_173 : Ref sig .tc := ⟨.hbm, 663, rfl⟩
abbrev main_v457 : Ref sig .tc := ⟨.hbm, 664, rfl⟩
abbrev main_v458 : Ref sig .tc := ⟨.hbm, 665, rfl⟩
abbrev main_cst_174 : Ref sig .tc := ⟨.hbm, 666, rfl⟩
abbrev main_v459 : Ref sig .tc := ⟨.hbm, 667, rfl⟩
abbrev main_v460 : Ref sig .tc := ⟨.hbm, 668, rfl⟩
abbrev main_v461 : Ref sig .tc := ⟨.hbm, 669, rfl⟩
abbrev main_cst_175 : Ref sig .tc := ⟨.hbm, 670, rfl⟩
abbrev main_v462 : Ref sig .tc := ⟨.hbm, 671, rfl⟩
abbrev main_v463 : Ref sig .tc := ⟨.hbm, 672, rfl⟩
abbrev main_v464 : Ref sig .tc := ⟨.hbm, 673, rfl⟩
abbrev main_cst_176 : Ref sig .tc := ⟨.hbm, 674, rfl⟩
abbrev main_v465 : Ref sig .tc := ⟨.hbm, 675, rfl⟩
abbrev main_cst_177 : Ref sig .tc := ⟨.hbm, 676, rfl⟩
abbrev main_v466 : Ref sig .tc := ⟨.hbm, 677, rfl⟩
abbrev main_v467 : Ref sig .tc := ⟨.hbm, 678, rfl⟩
abbrev main_v468 : Ref sig .tc := ⟨.hbm, 679, rfl⟩
abbrev main_cst_178 : Ref sig .tc := ⟨.hbm, 680, rfl⟩
abbrev main_v469 : Ref sig .tc := ⟨.hbm, 681, rfl⟩
abbrev main_v470 : Ref sig .tc := ⟨.hbm, 682, rfl⟩
abbrev main_v471 : Ref sig .tc := ⟨.hbm, 683, rfl⟩
abbrev main_cst_179 : Ref sig .tc := ⟨.hbm, 684, rfl⟩
abbrev main_v472 : Ref sig .tc := ⟨.hbm, 685, rfl⟩
abbrev main_v473 : Ref sig .tc := ⟨.hbm, 686, rfl⟩
abbrev main_v474 : Ref sig .tc := ⟨.hbm, 687, rfl⟩
abbrev main_v475 : Ref sig .tc := ⟨.hbm, 688, rfl⟩
abbrev main_v476 : Ref sig .tc := ⟨.hbm, 689, rfl⟩
abbrev main_cst_180 : Ref sig .tc := ⟨.hbm, 690, rfl⟩
abbrev main_v477 : Ref sig .tc := ⟨.hbm, 691, rfl⟩
abbrev main_v478 : Ref sig .tc := ⟨.hbm, 692, rfl⟩
abbrev main_cst_181 : Ref sig .tc := ⟨.hbm, 693, rfl⟩
abbrev main_call15_v0 : Ref sig .tc := ⟨.hbm, 694, rfl⟩
abbrev main_call15_v1 : Ref sig .tc := ⟨.hbm, 695, rfl⟩
abbrev main_v479 : Ref sig .tc := ⟨.hbm, 696, rfl⟩
abbrev main_v480 : Ref sig .tc := ⟨.hbm, 697, rfl⟩
abbrev main_cst_182 : Ref sig .tc := ⟨.hbm, 698, rfl⟩
abbrev main_v481 : Ref sig .tc := ⟨.hbm, 699, rfl⟩
abbrev main_cst_183 : Ref sig .tc := ⟨.hbm, 700, rfl⟩
abbrev main_v482 : Ref sig .tc := ⟨.hbm, 701, rfl⟩
abbrev main_v483 : Ref sig .tc := ⟨.hbm, 702, rfl⟩
abbrev main_v484 : Ref sig .tc := ⟨.hbm, 703, rfl⟩
abbrev main_cst_184 : Ref sig .tc := ⟨.hbm, 704, rfl⟩
abbrev main_v485 : Ref sig .tc := ⟨.hbm, 705, rfl⟩
abbrev main_v486 : Ref sig .tc := ⟨.hbm, 706, rfl⟩
abbrev main_cst_185 : Ref sig .tc := ⟨.hbm, 707, rfl⟩
abbrev main_v487 : Ref sig .tc := ⟨.hbm, 708, rfl⟩
abbrev main_v488 : Ref sig .tc := ⟨.hbm, 709, rfl⟩
abbrev main_v489 : Ref sig .tc := ⟨.hbm, 710, rfl⟩
abbrev main_v490 : Ref sig .tc := ⟨.hbm, 711, rfl⟩
abbrev main_v491 : Ref sig .tc := ⟨.hbm, 712, rfl⟩
abbrev main_cst_186 : Ref sig .tc := ⟨.hbm, 713, rfl⟩
abbrev main_v492 : Ref sig .tc := ⟨.hbm, 714, rfl⟩
abbrev main_v493 : Ref sig .tc := ⟨.hbm, 715, rfl⟩
abbrev main_cst_187 : Ref sig .tc := ⟨.hbm, 716, rfl⟩
abbrev main_v494 : Ref sig .tc := ⟨.hbm, 717, rfl⟩
abbrev main_v495 : Ref sig .tc := ⟨.hbm, 718, rfl⟩
abbrev main_v496 : Ref sig .tc := ⟨.hbm, 719, rfl⟩
abbrev main_cst_188 : Ref sig .tc := ⟨.hbm, 720, rfl⟩
abbrev main_v497 : Ref sig .tc := ⟨.hbm, 721, rfl⟩
abbrev main_v498 : Ref sig .tc := ⟨.hbm, 722, rfl⟩
abbrev main_v499 : Ref sig .tc := ⟨.hbm, 723, rfl⟩
abbrev main_cst_189 : Ref sig .tc := ⟨.hbm, 724, rfl⟩
abbrev main_v500 : Ref sig .tc := ⟨.hbm, 725, rfl⟩
abbrev main_cst_190 : Ref sig .tc := ⟨.hbm, 726, rfl⟩
abbrev main_v501 : Ref sig .tc := ⟨.hbm, 727, rfl⟩
abbrev main_v502 : Ref sig .tc := ⟨.hbm, 728, rfl⟩
abbrev main_v503 : Ref sig .tc := ⟨.hbm, 729, rfl⟩
abbrev main_cst_191 : Ref sig .tc := ⟨.hbm, 730, rfl⟩
abbrev main_v504 : Ref sig .tc := ⟨.hbm, 731, rfl⟩
abbrev main_v505 : Ref sig .tc := ⟨.hbm, 732, rfl⟩
abbrev main_v506 : Ref sig .tc := ⟨.hbm, 733, rfl⟩
abbrev main_cst_192 : Ref sig .tc := ⟨.hbm, 734, rfl⟩
abbrev main_v507 : Ref sig .tc := ⟨.hbm, 735, rfl⟩
abbrev main_v508 : Ref sig .tc := ⟨.hbm, 736, rfl⟩
abbrev main_v509 : Ref sig .tc := ⟨.hbm, 737, rfl⟩
abbrev main_v510 : Ref sig .tc := ⟨.hbm, 738, rfl⟩
abbrev main_v511 : Ref sig .tc := ⟨.hbm, 739, rfl⟩
abbrev main_cst_193 : Ref sig .tc := ⟨.hbm, 740, rfl⟩
abbrev main_v512 : Ref sig .tc := ⟨.hbm, 741, rfl⟩
abbrev main_v513 : Ref sig .tc := ⟨.hbm, 742, rfl⟩
abbrev main_cst_194 : Ref sig .tc := ⟨.hbm, 743, rfl⟩
abbrev main_call16_v0 : Ref sig .tc := ⟨.hbm, 744, rfl⟩
abbrev main_call16_v1 : Ref sig .tc := ⟨.hbm, 745, rfl⟩
abbrev main_v514 : Ref sig .tc := ⟨.hbm, 746, rfl⟩
abbrev main_v515 : Ref sig .tc := ⟨.hbm, 747, rfl⟩
abbrev main_cst_195 : Ref sig .tc := ⟨.hbm, 748, rfl⟩
abbrev main_v516 : Ref sig .tc := ⟨.hbm, 749, rfl⟩
abbrev main_cst_196 : Ref sig .tc := ⟨.hbm, 750, rfl⟩
abbrev main_v517 : Ref sig .tc := ⟨.hbm, 751, rfl⟩
abbrev main_v518 : Ref sig .tc := ⟨.hbm, 752, rfl⟩
abbrev main_v519 : Ref sig .tc := ⟨.hbm, 753, rfl⟩
abbrev main_cst_197 : Ref sig .tc := ⟨.hbm, 754, rfl⟩
abbrev main_v520 : Ref sig .tc := ⟨.hbm, 755, rfl⟩
abbrev main_v521 : Ref sig .tc := ⟨.hbm, 756, rfl⟩
abbrev main_v522 : Ref sig .tc := ⟨.hbm, 757, rfl⟩
abbrev main_cst_198 : Ref sig .tc := ⟨.hbm, 758, rfl⟩
abbrev main_v523 : Ref sig .tc := ⟨.hbm, 759, rfl⟩
abbrev main_v524 : Ref sig .tc := ⟨.hbm, 760, rfl⟩
abbrev main_cst_199 : Ref sig .tc := ⟨.hbm, 761, rfl⟩
abbrev main_v525 : Ref sig .tc := ⟨.hbm, 762, rfl⟩
abbrev main_v526 : Ref sig .tc := ⟨.hbm, 763, rfl⟩
abbrev main_v527 : Ref sig .tc := ⟨.hbm, 764, rfl⟩
abbrev main_cst_200 : Ref sig .tc := ⟨.hbm, 765, rfl⟩
abbrev main_v528 : Ref sig .tc := ⟨.hbm, 766, rfl⟩
abbrev main_v529 : Ref sig .tc := ⟨.hbm, 767, rfl⟩
abbrev main_v530 : Ref sig .tc := ⟨.hbm, 768, rfl⟩
abbrev main_cst_201 : Ref sig .tc := ⟨.hbm, 769, rfl⟩
abbrev main_v531 : Ref sig .tc := ⟨.hbm, 770, rfl⟩
abbrev main_cst_202 : Ref sig .tc := ⟨.hbm, 771, rfl⟩
abbrev main_v532 : Ref sig .tc := ⟨.hbm, 772, rfl⟩
abbrev main_v533 : Ref sig .tc := ⟨.hbm, 773, rfl⟩
abbrev main_v534 : Ref sig .tc := ⟨.hbm, 774, rfl⟩
abbrev main_cst_203 : Ref sig .tc := ⟨.hbm, 775, rfl⟩
abbrev main_v535 : Ref sig .tc := ⟨.hbm, 776, rfl⟩
abbrev main_v536 : Ref sig .tc := ⟨.hbm, 777, rfl⟩
abbrev main_v537 : Ref sig .tc := ⟨.hbm, 778, rfl⟩
abbrev main_cst_204 : Ref sig .tc := ⟨.hbm, 779, rfl⟩
abbrev main_v538 : Ref sig .tc := ⟨.hbm, 780, rfl⟩
abbrev main_v539 : Ref sig .tc := ⟨.hbm, 781, rfl⟩
abbrev main_v540 : Ref sig .tc := ⟨.hbm, 782, rfl⟩
abbrev main_v541 : Ref sig .tc := ⟨.hbm, 783, rfl⟩
abbrev main_v542 : Ref sig .tc := ⟨.hbm, 784, rfl⟩
abbrev main_cst_205 : Ref sig .tc := ⟨.hbm, 785, rfl⟩
abbrev main_v543 : Ref sig .tc := ⟨.hbm, 786, rfl⟩
abbrev main_v544 : Ref sig .tc := ⟨.hbm, 787, rfl⟩
abbrev main_cst_206 : Ref sig .tc := ⟨.hbm, 788, rfl⟩
abbrev main_call17_v0 : Ref sig .tc := ⟨.hbm, 789, rfl⟩
abbrev main_call17_v1 : Ref sig .tc := ⟨.hbm, 790, rfl⟩
abbrev main_v545 : Ref sig .tc := ⟨.hbm, 791, rfl⟩
abbrev main_v546 : Ref sig .tc := ⟨.hbm, 792, rfl⟩
abbrev main_cst_207 : Ref sig .tc := ⟨.hbm, 793, rfl⟩
abbrev main_v547 : Ref sig .tc := ⟨.hbm, 794, rfl⟩
abbrev main_cst_208 : Ref sig .tc := ⟨.hbm, 795, rfl⟩
abbrev main_v548 : Ref sig .tc := ⟨.hbm, 796, rfl⟩
abbrev main_v549 : Ref sig .tc := ⟨.hbm, 797, rfl⟩
abbrev main_v550 : Ref sig .tc := ⟨.hbm, 798, rfl⟩
abbrev main_cst_209 : Ref sig .tc := ⟨.hbm, 799, rfl⟩
abbrev main_v551 : Ref sig .tc := ⟨.hbm, 800, rfl⟩
abbrev main_v552 : Ref sig .tc := ⟨.hbm, 801, rfl⟩
abbrev main_cst_210 : Ref sig .tc := ⟨.hbm, 802, rfl⟩
abbrev main_v553 : Ref sig .tc := ⟨.hbm, 803, rfl⟩
abbrev main_v554 : Ref sig .tc := ⟨.hbm, 804, rfl⟩
abbrev main_v555 : Ref sig .tc := ⟨.hbm, 805, rfl⟩
abbrev main_v556 : Ref sig .tc := ⟨.hbm, 806, rfl⟩
abbrev main_v557 : Ref sig .tc := ⟨.hbm, 807, rfl⟩
abbrev main_cst_211 : Ref sig .tc := ⟨.hbm, 808, rfl⟩
abbrev main_v558 : Ref sig .tc := ⟨.hbm, 809, rfl⟩
abbrev main_v559 : Ref sig .tc := ⟨.hbm, 810, rfl⟩
abbrev main_cst_212 : Ref sig .tc := ⟨.hbm, 811, rfl⟩
abbrev main_v560 : Ref sig .tc := ⟨.hbm, 812, rfl⟩
abbrev main_v561 : Ref sig .tc := ⟨.hbm, 813, rfl⟩
abbrev main_v562 : Ref sig .tc := ⟨.hbm, 814, rfl⟩
abbrev main_cst_213 : Ref sig .tc := ⟨.hbm, 815, rfl⟩
abbrev main_v563 : Ref sig .tc := ⟨.hbm, 816, rfl⟩
abbrev main_v564 : Ref sig .tc := ⟨.hbm, 817, rfl⟩
abbrev main_v565 : Ref sig .tc := ⟨.hbm, 818, rfl⟩
abbrev main_v566 : Ref sig .tc := ⟨.hbm, 819, rfl⟩
abbrev main_cst_214 : Ref sig .tc := ⟨.hbm, 820, rfl⟩
abbrev main_v567 : Ref sig .tc := ⟨.hbm, 821, rfl⟩
abbrev main_cst_215 : Ref sig .tc := ⟨.hbm, 822, rfl⟩
abbrev main_v568 : Ref sig .tc := ⟨.hbm, 823, rfl⟩
abbrev main_v569 : Ref sig .tc := ⟨.hbm, 824, rfl⟩
abbrev main_v570 : Ref sig .tc := ⟨.hbm, 825, rfl⟩
abbrev main_cst_216 : Ref sig .tc := ⟨.hbm, 826, rfl⟩
abbrev main_v571 : Ref sig .tc := ⟨.hbm, 827, rfl⟩
abbrev main_v572 : Ref sig .tc := ⟨.hbm, 828, rfl⟩
abbrev main_v573 : Ref sig .tc := ⟨.hbm, 829, rfl⟩
abbrev main_v574 : Ref sig .tc := ⟨.hbm, 830, rfl⟩
abbrev main_v575 : Ref sig .tc := ⟨.hbm, 831, rfl⟩
abbrev main_cst_217 : Ref sig .tc := ⟨.hbm, 832, rfl⟩
abbrev main_v576 : Ref sig .tc := ⟨.hbm, 833, rfl⟩
abbrev main_v577 : Ref sig .tc := ⟨.hbm, 834, rfl⟩
abbrev main_cst_218 : Ref sig .tc := ⟨.hbm, 835, rfl⟩
abbrev main_call18_v0 : Ref sig .tc := ⟨.hbm, 836, rfl⟩
abbrev main_call18_v1 : Ref sig .tc := ⟨.hbm, 837, rfl⟩
abbrev main_v578 : Ref sig .tc := ⟨.hbm, 838, rfl⟩
abbrev main_v579 : Ref sig .tc := ⟨.hbm, 839, rfl⟩
abbrev main_cst_219 : Ref sig .tc := ⟨.hbm, 840, rfl⟩
abbrev main_v580 : Ref sig .tc := ⟨.hbm, 841, rfl⟩
abbrev main_cst_220 : Ref sig .tc := ⟨.hbm, 842, rfl⟩
abbrev main_v581 : Ref sig .tc := ⟨.hbm, 843, rfl⟩
abbrev main_v582 : Ref sig .tc := ⟨.hbm, 844, rfl⟩
abbrev main_v583 : Ref sig .tc := ⟨.hbm, 845, rfl⟩
abbrev main_cst_221 : Ref sig .tc := ⟨.hbm, 846, rfl⟩
abbrev main_v584 : Ref sig .tc := ⟨.hbm, 847, rfl⟩
abbrev main_v585 : Ref sig .tc := ⟨.hbm, 848, rfl⟩
abbrev main_v586 : Ref sig .tc := ⟨.hbm, 849, rfl⟩
abbrev main_cst_222 : Ref sig .tc := ⟨.hbm, 850, rfl⟩
abbrev main_v587 : Ref sig .tc := ⟨.hbm, 851, rfl⟩
abbrev main_v588 : Ref sig .tc := ⟨.hbm, 852, rfl⟩
abbrev main_cst_223 : Ref sig .tc := ⟨.hbm, 853, rfl⟩
abbrev main_v589 : Ref sig .tc := ⟨.hbm, 854, rfl⟩
abbrev main_v590 : Ref sig .tc := ⟨.hbm, 855, rfl⟩
abbrev main_v591 : Ref sig .tc := ⟨.hbm, 856, rfl⟩
abbrev main_v592 : Ref sig .tc := ⟨.hbm, 857, rfl⟩
abbrev main_v593 : Ref sig .tc := ⟨.hbm, 858, rfl⟩
abbrev main_cst_224 : Ref sig .tc := ⟨.hbm, 859, rfl⟩
abbrev main_v594 : Ref sig .tc := ⟨.hbm, 860, rfl⟩
abbrev main_v595 : Ref sig .tc := ⟨.hbm, 861, rfl⟩
abbrev main_cst_225 : Ref sig .tc := ⟨.hbm, 862, rfl⟩
abbrev main_v596 : Ref sig .tc := ⟨.hbm, 863, rfl⟩
abbrev main_v597 : Ref sig .tc := ⟨.hbm, 864, rfl⟩
abbrev main_v598 : Ref sig .tc := ⟨.hbm, 865, rfl⟩
abbrev main_cst_226 : Ref sig .tc := ⟨.hbm, 866, rfl⟩
abbrev main_v599 : Ref sig .tc := ⟨.hbm, 867, rfl⟩
abbrev main_v600 : Ref sig .tc := ⟨.hbm, 868, rfl⟩
abbrev main_v601 : Ref sig .tc := ⟨.hbm, 869, rfl⟩
abbrev main_v602 : Ref sig .tc := ⟨.hbm, 870, rfl⟩
abbrev main_cst_227 : Ref sig .tc := ⟨.hbm, 871, rfl⟩
abbrev main_v603 : Ref sig .tc := ⟨.hbm, 872, rfl⟩
abbrev main_cst_228 : Ref sig .tc := ⟨.hbm, 873, rfl⟩
abbrev main_v604 : Ref sig .tc := ⟨.hbm, 874, rfl⟩
abbrev main_v605 : Ref sig .tc := ⟨.hbm, 875, rfl⟩
abbrev main_v606 : Ref sig .tc := ⟨.hbm, 876, rfl⟩
abbrev main_cst_229 : Ref sig .tc := ⟨.hbm, 877, rfl⟩
abbrev main_v607 : Ref sig .tc := ⟨.hbm, 878, rfl⟩
abbrev main_v608 : Ref sig .tc := ⟨.hbm, 879, rfl⟩
abbrev main_v609 : Ref sig .tc := ⟨.hbm, 880, rfl⟩
abbrev main_v610 : Ref sig .tc := ⟨.hbm, 881, rfl⟩
abbrev main_v611 : Ref sig .tc := ⟨.hbm, 882, rfl⟩
abbrev main_cst_230 : Ref sig .tc := ⟨.hbm, 883, rfl⟩
abbrev main_v612 : Ref sig .tc := ⟨.hbm, 884, rfl⟩
abbrev main_v613 : Ref sig .tc := ⟨.hbm, 885, rfl⟩
abbrev main_cst_231 : Ref sig .tc := ⟨.hbm, 886, rfl⟩
abbrev main_call19_v0 : Ref sig .tc := ⟨.hbm, 887, rfl⟩
abbrev main_call19_v1 : Ref sig .tc := ⟨.hbm, 888, rfl⟩
abbrev main_v614 : Ref sig .tc := ⟨.hbm, 889, rfl⟩
abbrev main_v615 : Ref sig .tc := ⟨.hbm, 890, rfl⟩
abbrev main_cst_232 : Ref sig .tc := ⟨.hbm, 891, rfl⟩
abbrev main_v616 : Ref sig .tc := ⟨.hbm, 892, rfl⟩
abbrev main_cst_233 : Ref sig .tc := ⟨.hbm, 893, rfl⟩
abbrev main_v617 : Ref sig .tc := ⟨.hbm, 894, rfl⟩
abbrev main_v618 : Ref sig .tc := ⟨.hbm, 895, rfl⟩
abbrev main_v619 : Ref sig .tc := ⟨.hbm, 896, rfl⟩
abbrev main_cst_234 : Ref sig .tc := ⟨.hbm, 897, rfl⟩
abbrev main_v620 : Ref sig .tc := ⟨.hbm, 898, rfl⟩
abbrev main_v621 : Ref sig .tc := ⟨.hbm, 899, rfl⟩
abbrev main_v622 : Ref sig .tc := ⟨.hbm, 900, rfl⟩
abbrev main_cst_235 : Ref sig .tc := ⟨.hbm, 901, rfl⟩
abbrev main_v623 : Ref sig .tc := ⟨.hbm, 902, rfl⟩
abbrev main_v624 : Ref sig .tc := ⟨.hbm, 903, rfl⟩
abbrev main_cst_236 : Ref sig .tc := ⟨.hbm, 904, rfl⟩
abbrev main_v625 : Ref sig .tc := ⟨.hbm, 905, rfl⟩
abbrev main_v626 : Ref sig .tc := ⟨.hbm, 906, rfl⟩
abbrev main_v627 : Ref sig .tc := ⟨.hbm, 907, rfl⟩
abbrev main_v628 : Ref sig .tc := ⟨.hbm, 908, rfl⟩
abbrev main_v629 : Ref sig .tc := ⟨.hbm, 909, rfl⟩
abbrev main_cst_237 : Ref sig .tc := ⟨.hbm, 910, rfl⟩
abbrev main_v630 : Ref sig .tc := ⟨.hbm, 911, rfl⟩
abbrev main_v631 : Ref sig .tc := ⟨.hbm, 912, rfl⟩
abbrev main_cst_238 : Ref sig .tc := ⟨.hbm, 913, rfl⟩
abbrev main_v632 : Ref sig .tc := ⟨.hbm, 914, rfl⟩
abbrev main_v633 : Ref sig .tc := ⟨.hbm, 915, rfl⟩
abbrev main_v634 : Ref sig .tc := ⟨.hbm, 916, rfl⟩
abbrev main_cst_239 : Ref sig .tc := ⟨.hbm, 917, rfl⟩
abbrev main_v635 : Ref sig .tc := ⟨.hbm, 918, rfl⟩
abbrev main_v636 : Ref sig .tc := ⟨.hbm, 919, rfl⟩
abbrev main_v637 : Ref sig .tc := ⟨.hbm, 920, rfl⟩
abbrev main_v638 : Ref sig .tc := ⟨.hbm, 921, rfl⟩
abbrev main_cst_240 : Ref sig .tc := ⟨.hbm, 922, rfl⟩
abbrev main_v639 : Ref sig .tc := ⟨.hbm, 923, rfl⟩
abbrev main_cst_241 : Ref sig .tc := ⟨.hbm, 924, rfl⟩
abbrev main_v640 : Ref sig .tc := ⟨.hbm, 925, rfl⟩
abbrev main_v641 : Ref sig .tc := ⟨.hbm, 926, rfl⟩
abbrev main_v642 : Ref sig .tc := ⟨.hbm, 927, rfl⟩
abbrev main_cst_242 : Ref sig .tc := ⟨.hbm, 928, rfl⟩
abbrev main_v643 : Ref sig .tc := ⟨.hbm, 929, rfl⟩
abbrev main_v644 : Ref sig .tc := ⟨.hbm, 930, rfl⟩
abbrev main_v645 : Ref sig .tc := ⟨.hbm, 931, rfl⟩
abbrev main_v646 : Ref sig .tc := ⟨.hbm, 932, rfl⟩
abbrev main_v647 : Ref sig .tc := ⟨.hbm, 933, rfl⟩
abbrev main_cst_243 : Ref sig .tc := ⟨.hbm, 934, rfl⟩
abbrev main_v648 : Ref sig .tc := ⟨.hbm, 935, rfl⟩
abbrev main_v649 : Ref sig .tc := ⟨.hbm, 936, rfl⟩
abbrev main_cst_244 : Ref sig .tc := ⟨.hbm, 937, rfl⟩
abbrev main_call20_v0 : Ref sig .tc := ⟨.hbm, 938, rfl⟩
abbrev main_call20_v1 : Ref sig .tc := ⟨.hbm, 939, rfl⟩
abbrev main_v650 : Ref sig .tc := ⟨.hbm, 940, rfl⟩
abbrev main_v651 : Ref sig .tc := ⟨.hbm, 941, rfl⟩
abbrev main_cst_245 : Ref sig .tc := ⟨.hbm, 942, rfl⟩
abbrev main_v652 : Ref sig .tc := ⟨.hbm, 943, rfl⟩
abbrev main_cst_246 : Ref sig .tc := ⟨.hbm, 944, rfl⟩
abbrev main_v653 : Ref sig .tc := ⟨.hbm, 945, rfl⟩
abbrev main_v654 : Ref sig .tc := ⟨.hbm, 946, rfl⟩
abbrev main_v655 : Ref sig .tc := ⟨.hbm, 947, rfl⟩
abbrev main_cst_247 : Ref sig .tc := ⟨.hbm, 948, rfl⟩
abbrev main_v656 : Ref sig .tc := ⟨.hbm, 949, rfl⟩
abbrev main_v657 : Ref sig .tc := ⟨.hbm, 950, rfl⟩
abbrev main_v658 : Ref sig .tc := ⟨.hbm, 951, rfl⟩
abbrev main_cst_248 : Ref sig .tc := ⟨.hbm, 952, rfl⟩
abbrev main_v659 : Ref sig .tc := ⟨.hbm, 953, rfl⟩
abbrev main_v660 : Ref sig .tc := ⟨.hbm, 954, rfl⟩
abbrev main_v661 : Ref sig .tc := ⟨.hbm, 955, rfl⟩
abbrev main_cst_249 : Ref sig .tc := ⟨.hbm, 956, rfl⟩
abbrev main_v662 : Ref sig .tc := ⟨.hbm, 957, rfl⟩
abbrev main_v663 : Ref sig .tc := ⟨.hbm, 958, rfl⟩
abbrev main_cst_250 : Ref sig .tc := ⟨.hbm, 959, rfl⟩
abbrev main_v664 : Ref sig .tc := ⟨.hbm, 960, rfl⟩
abbrev main_v665 : Ref sig .tc := ⟨.hbm, 961, rfl⟩
abbrev main_v666 : Ref sig .tc := ⟨.hbm, 962, rfl⟩
abbrev main_cst_251 : Ref sig .tc := ⟨.hbm, 963, rfl⟩
abbrev main_v667 : Ref sig .tc := ⟨.hbm, 964, rfl⟩
abbrev main_v668 : Ref sig .tc := ⟨.hbm, 965, rfl⟩
abbrev main_cst_252 : Ref sig .tc := ⟨.hbm, 966, rfl⟩
abbrev main_v669 : Ref sig .tc := ⟨.hbm, 967, rfl⟩
abbrev main_v670 : Ref sig .tc := ⟨.hbm, 968, rfl⟩
abbrev main_v671 : Ref sig .tc := ⟨.hbm, 969, rfl⟩
abbrev main_cst_253 : Ref sig .tc := ⟨.hbm, 970, rfl⟩
abbrev main_v672 : Ref sig .tc := ⟨.hbm, 971, rfl⟩
abbrev main_v673 : Ref sig .tc := ⟨.hbm, 972, rfl⟩
abbrev main_v674 : Ref sig .tc := ⟨.hbm, 973, rfl⟩
abbrev main_v675 : Ref sig .tc := ⟨.hbm, 974, rfl⟩
abbrev main_cst_254 : Ref sig .tc := ⟨.hbm, 975, rfl⟩
abbrev main_v676 : Ref sig .tc := ⟨.hbm, 976, rfl⟩
abbrev main_cst_255 : Ref sig .tc := ⟨.hbm, 977, rfl⟩
abbrev main_v677 : Ref sig .tc := ⟨.hbm, 978, rfl⟩
abbrev main_v678 : Ref sig .tc := ⟨.hbm, 979, rfl⟩
abbrev main_v679 : Ref sig .tc := ⟨.hbm, 980, rfl⟩
abbrev main_cst_256 : Ref sig .tc := ⟨.hbm, 981, rfl⟩
abbrev main_v680 : Ref sig .tc := ⟨.hbm, 982, rfl⟩
abbrev main_v681 : Ref sig .tc := ⟨.hbm, 983, rfl⟩
abbrev main_v682 : Ref sig .tc := ⟨.hbm, 984, rfl⟩
abbrev main_v683 : Ref sig .tc := ⟨.hbm, 985, rfl⟩
abbrev main_v684 : Ref sig .tc := ⟨.hbm, 986, rfl⟩
abbrev main_cst_257 : Ref sig .tc := ⟨.hbm, 987, rfl⟩
abbrev main_v685 : Ref sig .tc := ⟨.hbm, 988, rfl⟩
abbrev main_v686 : Ref sig .tc := ⟨.hbm, 989, rfl⟩
abbrev main_cst_258 : Ref sig .tc := ⟨.hbm, 990, rfl⟩
abbrev main_call21_v0 : Ref sig .tc := ⟨.hbm, 991, rfl⟩
abbrev main_call21_v1 : Ref sig .tc := ⟨.hbm, 992, rfl⟩
abbrev main_v687 : Ref sig .tc := ⟨.hbm, 993, rfl⟩
abbrev main_v688 : Ref sig .tc := ⟨.hbm, 994, rfl⟩
abbrev main_cst_259 : Ref sig .tc := ⟨.hbm, 995, rfl⟩
abbrev main_v689 : Ref sig .tc := ⟨.hbm, 996, rfl⟩
abbrev main_cst_260 : Ref sig .tc := ⟨.hbm, 997, rfl⟩
abbrev main_v690 : Ref sig .tc := ⟨.hbm, 998, rfl⟩
abbrev main_v691 : Ref sig .tc := ⟨.hbm, 999, rfl⟩
abbrev main_v692 : Ref sig .tc := ⟨.hbm, 1000, rfl⟩
abbrev main_cst_261 : Ref sig .tc := ⟨.hbm, 1001, rfl⟩
abbrev main_v693 : Ref sig .tc := ⟨.hbm, 1002, rfl⟩
abbrev main_v694 : Ref sig .tc := ⟨.hbm, 1003, rfl⟩
abbrev main_v695 : Ref sig .tc := ⟨.hbm, 1004, rfl⟩
abbrev main_cst_262 : Ref sig .tc := ⟨.hbm, 1005, rfl⟩
abbrev main_v696 : Ref sig .tc := ⟨.hbm, 1006, rfl⟩
abbrev main_v697 : Ref sig .tc := ⟨.hbm, 1007, rfl⟩
abbrev main_cst_263 : Ref sig .tc := ⟨.hbm, 1008, rfl⟩
abbrev main_v698 : Ref sig .tc := ⟨.hbm, 1009, rfl⟩
abbrev main_v699 : Ref sig .tc := ⟨.hbm, 1010, rfl⟩
abbrev main_v700 : Ref sig .tc := ⟨.hbm, 1011, rfl⟩
abbrev main_v701 : Ref sig .tc := ⟨.hbm, 1012, rfl⟩
abbrev main_v702 : Ref sig .tc := ⟨.hbm, 1013, rfl⟩
abbrev main_cst_264 : Ref sig .tc := ⟨.hbm, 1014, rfl⟩
abbrev main_v703 : Ref sig .tc := ⟨.hbm, 1015, rfl⟩
abbrev main_v704 : Ref sig .tc := ⟨.hbm, 1016, rfl⟩
abbrev main_cst_265 : Ref sig .tc := ⟨.hbm, 1017, rfl⟩
abbrev main_v705 : Ref sig .tc := ⟨.hbm, 1018, rfl⟩
abbrev main_v706 : Ref sig .tc := ⟨.hbm, 1019, rfl⟩
abbrev main_v707 : Ref sig .tc := ⟨.hbm, 1020, rfl⟩
abbrev main_cst_266 : Ref sig .tc := ⟨.hbm, 1021, rfl⟩
abbrev main_v708 : Ref sig .tc := ⟨.hbm, 1022, rfl⟩
abbrev main_v709 : Ref sig .tc := ⟨.hbm, 1023, rfl⟩
abbrev main_v710 : Ref sig .tc := ⟨.hbm, 1024, rfl⟩
abbrev main_v711 : Ref sig .tc := ⟨.hbm, 1025, rfl⟩
abbrev main_cst_267 : Ref sig .tc := ⟨.hbm, 1026, rfl⟩
abbrev main_v712 : Ref sig .tc := ⟨.hbm, 1027, rfl⟩
abbrev main_cst_268 : Ref sig .tc := ⟨.hbm, 1028, rfl⟩
abbrev main_v713 : Ref sig .tc := ⟨.hbm, 1029, rfl⟩
abbrev main_v714 : Ref sig .tc := ⟨.hbm, 1030, rfl⟩
abbrev main_v715 : Ref sig .tc := ⟨.hbm, 1031, rfl⟩
abbrev main_cst_269 : Ref sig .tc := ⟨.hbm, 1032, rfl⟩
abbrev main_v716 : Ref sig .tc := ⟨.hbm, 1033, rfl⟩
abbrev main_v717 : Ref sig .tc := ⟨.hbm, 1034, rfl⟩
abbrev main_v718 : Ref sig .tc := ⟨.hbm, 1035, rfl⟩
abbrev main_v719 : Ref sig .tc := ⟨.hbm, 1036, rfl⟩
abbrev main_v720 : Ref sig .tc := ⟨.hbm, 1037, rfl⟩
abbrev main_cst_270 : Ref sig .tc := ⟨.hbm, 1038, rfl⟩
abbrev main_v721 : Ref sig .tc := ⟨.hbm, 1039, rfl⟩
abbrev main_v722 : Ref sig .tc := ⟨.hbm, 1040, rfl⟩
abbrev main_cst_271 : Ref sig .tc := ⟨.hbm, 1041, rfl⟩
abbrev main_call22_v0 : Ref sig .tc := ⟨.hbm, 1042, rfl⟩
abbrev main_call22_v1 : Ref sig .tc := ⟨.hbm, 1043, rfl⟩
abbrev main_v723 : Ref sig .tc := ⟨.hbm, 1044, rfl⟩
abbrev main_v724 : Ref sig .tc := ⟨.hbm, 1045, rfl⟩
abbrev main_cst_272 : Ref sig .tc := ⟨.hbm, 1046, rfl⟩
abbrev main_v725 : Ref sig .tc := ⟨.hbm, 1047, rfl⟩
abbrev main_cst_273 : Ref sig .tc := ⟨.hbm, 1048, rfl⟩
abbrev main_v726 : Ref sig .tc := ⟨.hbm, 1049, rfl⟩
abbrev main_v727 : Ref sig .tc := ⟨.hbm, 1050, rfl⟩
abbrev main_v728 : Ref sig .tc := ⟨.hbm, 1051, rfl⟩
abbrev main_cst_274 : Ref sig .tc := ⟨.hbm, 1052, rfl⟩
abbrev main_v729 : Ref sig .tc := ⟨.hbm, 1053, rfl⟩
abbrev main_v730 : Ref sig .tc := ⟨.hbm, 1054, rfl⟩
abbrev main_v731 : Ref sig .tc := ⟨.hbm, 1055, rfl⟩
abbrev main_cst_275 : Ref sig .tc := ⟨.hbm, 1056, rfl⟩
abbrev main_v732 : Ref sig .tc := ⟨.hbm, 1057, rfl⟩
abbrev main_v733 : Ref sig .tc := ⟨.hbm, 1058, rfl⟩
abbrev main_cst_276 : Ref sig .tc := ⟨.hbm, 1059, rfl⟩
abbrev main_v734 : Ref sig .tc := ⟨.hbm, 1060, rfl⟩
abbrev main_v735 : Ref sig .tc := ⟨.hbm, 1061, rfl⟩
abbrev main_v736 : Ref sig .tc := ⟨.hbm, 1062, rfl⟩
abbrev main_v737 : Ref sig .tc := ⟨.hbm, 1063, rfl⟩
abbrev main_v738 : Ref sig .tc := ⟨.hbm, 1064, rfl⟩
abbrev main_cst_277 : Ref sig .tc := ⟨.hbm, 1065, rfl⟩
abbrev main_v739 : Ref sig .tc := ⟨.hbm, 1066, rfl⟩
abbrev main_v740 : Ref sig .tc := ⟨.hbm, 1067, rfl⟩
abbrev main_cst_278 : Ref sig .tc := ⟨.hbm, 1068, rfl⟩
abbrev main_v741 : Ref sig .tc := ⟨.hbm, 1069, rfl⟩
abbrev main_v742 : Ref sig .tc := ⟨.hbm, 1070, rfl⟩
abbrev main_v743 : Ref sig .tc := ⟨.hbm, 1071, rfl⟩
abbrev main_cst_279 : Ref sig .tc := ⟨.hbm, 1072, rfl⟩
abbrev main_v744 : Ref sig .tc := ⟨.hbm, 1073, rfl⟩
abbrev main_v745 : Ref sig .tc := ⟨.hbm, 1074, rfl⟩
abbrev main_v746 : Ref sig .tc := ⟨.hbm, 1075, rfl⟩
abbrev main_v747 : Ref sig .tc := ⟨.hbm, 1076, rfl⟩
abbrev main_v748 : Ref sig .tc := ⟨.hbm, 1077, rfl⟩
abbrev main_cst_280 : Ref sig .tc := ⟨.hbm, 1078, rfl⟩
abbrev main_v749 : Ref sig .tc := ⟨.hbm, 1079, rfl⟩
abbrev main_cst_281 : Ref sig .tc := ⟨.hbm, 1080, rfl⟩
abbrev main_v750 : Ref sig .tc := ⟨.hbm, 1081, rfl⟩
abbrev main_v751 : Ref sig .tc := ⟨.hbm, 1082, rfl⟩
abbrev main_v752 : Ref sig .tc := ⟨.hbm, 1083, rfl⟩
abbrev main_v753 : Ref sig .tc := ⟨.hbm, 1084, rfl⟩
abbrev main_v754 : Ref sig .tc := ⟨.hbm, 1085, rfl⟩
abbrev main_cst_282 : Ref sig .tc := ⟨.hbm, 1086, rfl⟩
abbrev main_v755 : Ref sig .tc := ⟨.hbm, 1087, rfl⟩
abbrev main_v756 : Ref sig .tc := ⟨.hbm, 1088, rfl⟩
abbrev main_cst_283 : Ref sig .tc := ⟨.hbm, 1089, rfl⟩
abbrev main_call23_v0 : Ref sig .tc := ⟨.hbm, 1090, rfl⟩
abbrev main_call23_v1 : Ref sig .tc := ⟨.hbm, 1091, rfl⟩
abbrev main_v757 : Ref sig .tc := ⟨.hbm, 1092, rfl⟩
abbrev main_v758 : Ref sig .tc := ⟨.hbm, 1093, rfl⟩
abbrev main_cst_284 : Ref sig .tc := ⟨.hbm, 1094, rfl⟩
abbrev main_v759 : Ref sig .tc := ⟨.hbm, 1095, rfl⟩
abbrev main_cst_285 : Ref sig .tc := ⟨.hbm, 1096, rfl⟩
abbrev main_v760 : Ref sig .tc := ⟨.hbm, 1097, rfl⟩
abbrev main_v761 : Ref sig .tc := ⟨.hbm, 1098, rfl⟩
abbrev main_v762 : Ref sig .tc := ⟨.hbm, 1099, rfl⟩
abbrev main_cst_286 : Ref sig .tc := ⟨.hbm, 1100, rfl⟩
abbrev main_v763 : Ref sig .tc := ⟨.hbm, 1101, rfl⟩
abbrev main_v764 : Ref sig .tc := ⟨.hbm, 1102, rfl⟩
abbrev main_v765 : Ref sig .tc := ⟨.hbm, 1103, rfl⟩
abbrev main_cst_287 : Ref sig .tc := ⟨.hbm, 1104, rfl⟩
abbrev main_v766 : Ref sig .tc := ⟨.hbm, 1105, rfl⟩
abbrev main_v767 : Ref sig .tc := ⟨.hbm, 1106, rfl⟩
abbrev main_v768 : Ref sig .tc := ⟨.hbm, 1107, rfl⟩
abbrev main_cst_288 : Ref sig .tc := ⟨.hbm, 1108, rfl⟩
abbrev main_v769 : Ref sig .tc := ⟨.hbm, 1109, rfl⟩
abbrev main_v770 : Ref sig .tc := ⟨.hbm, 1110, rfl⟩
abbrev main_cst_289 : Ref sig .tc := ⟨.hbm, 1111, rfl⟩
abbrev main_v771 : Ref sig .tc := ⟨.hbm, 1112, rfl⟩
abbrev main_v772 : Ref sig .tc := ⟨.hbm, 1113, rfl⟩
abbrev main_v773 : Ref sig .tc := ⟨.hbm, 1114, rfl⟩
abbrev main_v774 : Ref sig .tc := ⟨.hbm, 1115, rfl⟩
abbrev main_v775 : Ref sig .tc := ⟨.hbm, 1116, rfl⟩
abbrev main_cst_290 : Ref sig .tc := ⟨.hbm, 1117, rfl⟩
abbrev main_v776 : Ref sig .tc := ⟨.hbm, 1118, rfl⟩
abbrev main_v777 : Ref sig .tc := ⟨.hbm, 1119, rfl⟩
abbrev main_cst_291 : Ref sig .tc := ⟨.hbm, 1120, rfl⟩
abbrev main_v778 : Ref sig .tc := ⟨.hbm, 1121, rfl⟩
abbrev main_v779 : Ref sig .tc := ⟨.hbm, 1122, rfl⟩
abbrev main_v780 : Ref sig .tc := ⟨.hbm, 1123, rfl⟩
abbrev main_cst_292 : Ref sig .tc := ⟨.hbm, 1124, rfl⟩
abbrev main_v781 : Ref sig .tc := ⟨.hbm, 1125, rfl⟩
abbrev main_v782 : Ref sig .tc := ⟨.hbm, 1126, rfl⟩
abbrev main_v783 : Ref sig .tc := ⟨.hbm, 1127, rfl⟩
abbrev main_v784 : Ref sig .tc := ⟨.hbm, 1128, rfl⟩
abbrev main_v785 : Ref sig .tc := ⟨.hbm, 1129, rfl⟩
abbrev main_cst_293 : Ref sig .tc := ⟨.hbm, 1130, rfl⟩
abbrev main_v786 : Ref sig .tc := ⟨.hbm, 1131, rfl⟩
abbrev main_cst_294 : Ref sig .tc := ⟨.hbm, 1132, rfl⟩
abbrev main_v787 : Ref sig .tc := ⟨.hbm, 1133, rfl⟩
abbrev main_v788 : Ref sig .tc := ⟨.hbm, 1134, rfl⟩
abbrev main_v789 : Ref sig .tc := ⟨.hbm, 1135, rfl⟩
abbrev main_v790 : Ref sig .tc := ⟨.hbm, 1136, rfl⟩
abbrev main_v791 : Ref sig .tc := ⟨.hbm, 1137, rfl⟩
abbrev main_cst_295 : Ref sig .tc := ⟨.hbm, 1138, rfl⟩
abbrev main_v792 : Ref sig .tc := ⟨.hbm, 1139, rfl⟩
abbrev main_v793 : Ref sig .tc := ⟨.hbm, 1140, rfl⟩
abbrev main_cst_296 : Ref sig .tc := ⟨.hbm, 1141, rfl⟩
abbrev main_call24_v0 : Ref sig .tc := ⟨.hbm, 1142, rfl⟩
abbrev main_call24_v1 : Ref sig .tc := ⟨.hbm, 1143, rfl⟩
abbrev main_v794 : Ref sig .tc := ⟨.hbm, 1144, rfl⟩
abbrev main_v795 : Ref sig .tc := ⟨.hbm, 1145, rfl⟩
abbrev main_cst_297 : Ref sig .tc := ⟨.hbm, 1146, rfl⟩
abbrev main_v796 : Ref sig .tc := ⟨.hbm, 1147, rfl⟩
abbrev main_cst_298 : Ref sig .tc := ⟨.hbm, 1148, rfl⟩
abbrev main_v797 : Ref sig .tc := ⟨.hbm, 1149, rfl⟩
abbrev main_v798 : Ref sig .tc := ⟨.hbm, 1150, rfl⟩
abbrev main_v799 : Ref sig .tc := ⟨.hbm, 1151, rfl⟩
abbrev main_cst_299 : Ref sig .tc := ⟨.hbm, 1152, rfl⟩
abbrev main_v800 : Ref sig .tc := ⟨.hbm, 1153, rfl⟩
abbrev main_v801 : Ref sig .tc := ⟨.hbm, 1154, rfl⟩
abbrev main_v802 : Ref sig .tc := ⟨.hbm, 1155, rfl⟩
abbrev main_cst_300 : Ref sig .tc := ⟨.hbm, 1156, rfl⟩
abbrev main_v803 : Ref sig .tc := ⟨.hbm, 1157, rfl⟩
abbrev main_v804 : Ref sig .tc := ⟨.hbm, 1158, rfl⟩
abbrev main_v805 : Ref sig .tc := ⟨.hbm, 1159, rfl⟩
abbrev main_cst_301 : Ref sig .tc := ⟨.hbm, 1160, rfl⟩
abbrev main_v806 : Ref sig .tc := ⟨.hbm, 1161, rfl⟩
abbrev main_v807 : Ref sig .tc := ⟨.hbm, 1162, rfl⟩
abbrev main_cst_302 : Ref sig .tc := ⟨.hbm, 1163, rfl⟩
abbrev main_v808 : Ref sig .tc := ⟨.hbm, 1164, rfl⟩
abbrev main_v809 : Ref sig .tc := ⟨.hbm, 1165, rfl⟩
abbrev main_v810 : Ref sig .tc := ⟨.hbm, 1166, rfl⟩
abbrev main_v811 : Ref sig .tc := ⟨.hbm, 1167, rfl⟩
abbrev main_v812 : Ref sig .tc := ⟨.hbm, 1168, rfl⟩
abbrev main_cst_303 : Ref sig .tc := ⟨.hbm, 1169, rfl⟩
abbrev main_v813 : Ref sig .tc := ⟨.hbm, 1170, rfl⟩
abbrev main_v814 : Ref sig .tc := ⟨.hbm, 1171, rfl⟩
abbrev main_cst_304 : Ref sig .tc := ⟨.hbm, 1172, rfl⟩
abbrev main_v815 : Ref sig .tc := ⟨.hbm, 1173, rfl⟩
abbrev main_v816 : Ref sig .tc := ⟨.hbm, 1174, rfl⟩
abbrev main_v817 : Ref sig .tc := ⟨.hbm, 1175, rfl⟩
abbrev main_cst_305 : Ref sig .tc := ⟨.hbm, 1176, rfl⟩
abbrev main_v818 : Ref sig .tc := ⟨.hbm, 1177, rfl⟩
abbrev main_v819 : Ref sig .tc := ⟨.hbm, 1178, rfl⟩
abbrev main_v820 : Ref sig .tc := ⟨.hbm, 1179, rfl⟩
abbrev main_v821 : Ref sig .tc := ⟨.hbm, 1180, rfl⟩
abbrev main_v822 : Ref sig .tc := ⟨.hbm, 1181, rfl⟩
abbrev main_cst_306 : Ref sig .tc := ⟨.hbm, 1182, rfl⟩
abbrev main_v823 : Ref sig .tc := ⟨.hbm, 1183, rfl⟩
abbrev main_cst_307 : Ref sig .tc := ⟨.hbm, 1184, rfl⟩
abbrev main_v824 : Ref sig .tc := ⟨.hbm, 1185, rfl⟩
abbrev main_v825 : Ref sig .tc := ⟨.hbm, 1186, rfl⟩
abbrev main_v826 : Ref sig .tc := ⟨.hbm, 1187, rfl⟩
abbrev main_v827 : Ref sig .tc := ⟨.hbm, 1188, rfl⟩
abbrev main_v828 : Ref sig .tc := ⟨.hbm, 1189, rfl⟩
abbrev main_cst_308 : Ref sig .tc := ⟨.hbm, 1190, rfl⟩
abbrev main_v829 : Ref sig .tc := ⟨.hbm, 1191, rfl⟩
abbrev main_v830 : Ref sig .tc := ⟨.hbm, 1192, rfl⟩
abbrev main_cst_309 : Ref sig .tc := ⟨.hbm, 1193, rfl⟩
abbrev main_call25_v0 : Ref sig .tc := ⟨.hbm, 1194, rfl⟩
abbrev main_call25_v1 : Ref sig .tc := ⟨.hbm, 1195, rfl⟩
abbrev main_v831 : Ref sig .tc := ⟨.hbm, 1196, rfl⟩
abbrev main_v832 : Ref sig .tc := ⟨.hbm, 1197, rfl⟩
abbrev main_cst_310 : Ref sig .tc := ⟨.hbm, 1198, rfl⟩
abbrev main_v833 : Ref sig .tc := ⟨.hbm, 1199, rfl⟩
abbrev main_cst_311 : Ref sig .tc := ⟨.hbm, 1200, rfl⟩
abbrev main_v834 : Ref sig .tc := ⟨.hbm, 1201, rfl⟩
abbrev main_v835 : Ref sig .tc := ⟨.hbm, 1202, rfl⟩
abbrev main_v836 : Ref sig .tc := ⟨.hbm, 1203, rfl⟩
abbrev main_cst_312 : Ref sig .tc := ⟨.hbm, 1204, rfl⟩
abbrev main_v837 : Ref sig .tc := ⟨.hbm, 1205, rfl⟩
abbrev main_v838 : Ref sig .tc := ⟨.hbm, 1206, rfl⟩
abbrev main_v839 : Ref sig .tc := ⟨.hbm, 1207, rfl⟩
abbrev main_cst_313 : Ref sig .tc := ⟨.hbm, 1208, rfl⟩
abbrev main_v840 : Ref sig .tc := ⟨.hbm, 1209, rfl⟩
abbrev main_v841 : Ref sig .tc := ⟨.hbm, 1210, rfl⟩
abbrev main_v842 : Ref sig .tc := ⟨.hbm, 1211, rfl⟩
abbrev main_cst_314 : Ref sig .tc := ⟨.hbm, 1212, rfl⟩
abbrev main_v843 : Ref sig .tc := ⟨.hbm, 1213, rfl⟩
abbrev main_v844 : Ref sig .tc := ⟨.hbm, 1214, rfl⟩
abbrev main_v845 : Ref sig .tc := ⟨.hbm, 1215, rfl⟩
abbrev main_cst_315 : Ref sig .tc := ⟨.hbm, 1216, rfl⟩
abbrev main_v846 : Ref sig .tc := ⟨.hbm, 1217, rfl⟩
abbrev main_v847 : Ref sig .tc := ⟨.hbm, 1218, rfl⟩
abbrev main_cst_316 : Ref sig .tc := ⟨.hbm, 1219, rfl⟩
abbrev main_v848 : Ref sig .tc := ⟨.hbm, 1220, rfl⟩
abbrev main_v849 : Ref sig .tc := ⟨.hbm, 1221, rfl⟩
abbrev main_cst_317 : Ref sig .tc := ⟨.hbm, 1222, rfl⟩
abbrev main_v850 : Ref sig .tc := ⟨.hbm, 1223, rfl⟩
abbrev main_v851 : Ref sig .tc := ⟨.hbm, 1224, rfl⟩
abbrev main_v852 : Ref sig .tc := ⟨.hbm, 1225, rfl⟩
abbrev main_v853 : Ref sig .tc := ⟨.hbm, 1226, rfl⟩
abbrev main_v854 : Ref sig .tc := ⟨.hbm, 1227, rfl⟩
abbrev main_cst_318 : Ref sig .tc := ⟨.hbm, 1228, rfl⟩
abbrev main_v855 : Ref sig .tc := ⟨.hbm, 1229, rfl⟩
abbrev main_v856 : Ref sig .tc := ⟨.hbm, 1230, rfl⟩
abbrev main_cst_319 : Ref sig .tc := ⟨.hbm, 1231, rfl⟩
abbrev main_v857 : Ref sig .tc := ⟨.hbm, 1232, rfl⟩
abbrev main_v858 : Ref sig .tc := ⟨.hbm, 1233, rfl⟩
abbrev main_v859 : Ref sig .tc := ⟨.hbm, 1234, rfl⟩
abbrev main_cst_320 : Ref sig .tc := ⟨.hbm, 1235, rfl⟩
abbrev main_v860 : Ref sig .tc := ⟨.hbm, 1236, rfl⟩
abbrev main_v861 : Ref sig .tc := ⟨.hbm, 1237, rfl⟩
abbrev main_v862 : Ref sig .tc := ⟨.hbm, 1238, rfl⟩
abbrev main_v863 : Ref sig .tc := ⟨.hbm, 1239, rfl⟩
abbrev main_v864 : Ref sig .tc := ⟨.hbm, 1240, rfl⟩
abbrev main_cst_321 : Ref sig .tc := ⟨.hbm, 1241, rfl⟩
abbrev main_v865 : Ref sig .tc := ⟨.hbm, 1242, rfl⟩
abbrev main_cst_322 : Ref sig .tc := ⟨.hbm, 1243, rfl⟩
abbrev main_v866 : Ref sig .tc := ⟨.hbm, 1244, rfl⟩
abbrev main_v867 : Ref sig .tc := ⟨.hbm, 1245, rfl⟩
abbrev main_v868 : Ref sig .tc := ⟨.hbm, 1246, rfl⟩
abbrev main_v869 : Ref sig .tc := ⟨.hbm, 1247, rfl⟩
abbrev main_v870 : Ref sig .tc := ⟨.hbm, 1248, rfl⟩
abbrev main_cst_323 : Ref sig .tc := ⟨.hbm, 1249, rfl⟩
abbrev main_v871 : Ref sig .tc := ⟨.hbm, 1250, rfl⟩
abbrev main_v872 : Ref sig .tc := ⟨.hbm, 1251, rfl⟩
abbrev main_cst_324 : Ref sig .tc := ⟨.hbm, 1252, rfl⟩
abbrev main_call26_v0 : Ref sig .tc := ⟨.hbm, 1253, rfl⟩
abbrev main_call26_v1 : Ref sig .tc := ⟨.hbm, 1254, rfl⟩
abbrev main_v873 : Ref sig .tc := ⟨.hbm, 1255, rfl⟩
abbrev main_v874 : Ref sig .tc := ⟨.hbm, 1256, rfl⟩
abbrev main_cst_325 : Ref sig .tc := ⟨.hbm, 1257, rfl⟩
abbrev main_v875 : Ref sig .tc := ⟨.hbm, 1258, rfl⟩
abbrev main_cst_326 : Ref sig .tc := ⟨.hbm, 1259, rfl⟩
abbrev main_v876 : Ref sig .tc := ⟨.hbm, 1260, rfl⟩
abbrev main_v877 : Ref sig .tc := ⟨.hbm, 1261, rfl⟩
abbrev main_v878 : Ref sig .tc := ⟨.hbm, 1262, rfl⟩
abbrev main_cst_327 : Ref sig .tc := ⟨.hbm, 1263, rfl⟩
abbrev main_v879 : Ref sig .tc := ⟨.hbm, 1264, rfl⟩
abbrev main_v880 : Ref sig .tc := ⟨.hbm, 1265, rfl⟩
abbrev main_v881 : Ref sig .tc := ⟨.hbm, 1266, rfl⟩
abbrev main_cst_328 : Ref sig .tc := ⟨.hbm, 1267, rfl⟩
abbrev main_v882 : Ref sig .tc := ⟨.hbm, 1268, rfl⟩
abbrev main_v883 : Ref sig .tc := ⟨.hbm, 1269, rfl⟩
abbrev main_v884 : Ref sig .tc := ⟨.hbm, 1270, rfl⟩
abbrev main_cst_329 : Ref sig .tc := ⟨.hbm, 1271, rfl⟩
abbrev main_v885 : Ref sig .tc := ⟨.hbm, 1272, rfl⟩
abbrev main_v886 : Ref sig .tc := ⟨.hbm, 1273, rfl⟩
abbrev main_cst_330 : Ref sig .tc := ⟨.hbm, 1274, rfl⟩
abbrev main_v887 : Ref sig .tc := ⟨.hbm, 1275, rfl⟩
abbrev main_v888 : Ref sig .tc := ⟨.hbm, 1276, rfl⟩
abbrev main_v889 : Ref sig .tc := ⟨.hbm, 1277, rfl⟩
abbrev main_cst_331 : Ref sig .tc := ⟨.hbm, 1278, rfl⟩
abbrev main_v890 : Ref sig .tc := ⟨.hbm, 1279, rfl⟩
abbrev main_v891 : Ref sig .tc := ⟨.hbm, 1280, rfl⟩
abbrev main_v892 : Ref sig .tc := ⟨.hbm, 1281, rfl⟩
abbrev main_cst_332 : Ref sig .tc := ⟨.hbm, 1282, rfl⟩
abbrev main_v893 : Ref sig .tc := ⟨.hbm, 1283, rfl⟩
abbrev main_v894 : Ref sig .tc := ⟨.hbm, 1284, rfl⟩
abbrev main_cst_333 : Ref sig .tc := ⟨.hbm, 1285, rfl⟩
abbrev main_v895 : Ref sig .tc := ⟨.hbm, 1286, rfl⟩
abbrev main_v896 : Ref sig .tc := ⟨.hbm, 1287, rfl⟩
abbrev main_v897 : Ref sig .tc := ⟨.hbm, 1288, rfl⟩
abbrev main_cst_334 : Ref sig .tc := ⟨.hbm, 1289, rfl⟩
abbrev main_v898 : Ref sig .tc := ⟨.hbm, 1290, rfl⟩
abbrev main_v899 : Ref sig .tc := ⟨.hbm, 1291, rfl⟩
abbrev main_cst_335 : Ref sig .tc := ⟨.hbm, 1292, rfl⟩
abbrev main_v900 : Ref sig .tc := ⟨.hbm, 1293, rfl⟩
abbrev main_v901 : Ref sig .tc := ⟨.hbm, 1294, rfl⟩
abbrev main_v902 : Ref sig .tc := ⟨.hbm, 1295, rfl⟩
abbrev main_cst_336 : Ref sig .tc := ⟨.hbm, 1296, rfl⟩
abbrev main_v903 : Ref sig .tc := ⟨.hbm, 1297, rfl⟩
abbrev main_v904 : Ref sig .tc := ⟨.hbm, 1298, rfl⟩
abbrev main_v905 : Ref sig .tc := ⟨.hbm, 1299, rfl⟩
abbrev main_v906 : Ref sig .tc := ⟨.hbm, 1300, rfl⟩
abbrev main_v907 : Ref sig .tc := ⟨.hbm, 1301, rfl⟩
abbrev main_cst_337 : Ref sig .tc := ⟨.hbm, 1302, rfl⟩
abbrev main_v908 : Ref sig .tc := ⟨.hbm, 1303, rfl⟩
abbrev main_cst_338 : Ref sig .tc := ⟨.hbm, 1304, rfl⟩
abbrev main_v909 : Ref sig .tc := ⟨.hbm, 1305, rfl⟩
abbrev main_v910 : Ref sig .tc := ⟨.hbm, 1306, rfl⟩
abbrev main_v911 : Ref sig .tc := ⟨.hbm, 1307, rfl⟩
abbrev main_v912 : Ref sig .tc := ⟨.hbm, 1308, rfl⟩
abbrev main_v913 : Ref sig .tc := ⟨.hbm, 1309, rfl⟩
abbrev main_cst_339 : Ref sig .tc := ⟨.hbm, 1310, rfl⟩
abbrev main_v914 : Ref sig .tc := ⟨.hbm, 1311, rfl⟩
abbrev main_v915 : Ref sig .tc := ⟨.hbm, 1312, rfl⟩
abbrev main_cst_340 : Ref sig .tc := ⟨.hbm, 1313, rfl⟩
abbrev main_call27_v0 : Ref sig .tc := ⟨.hbm, 1314, rfl⟩
abbrev main_call27_v1 : Ref sig .tc := ⟨.hbm, 1315, rfl⟩
abbrev main_v916 : Ref sig .tc := ⟨.hbm, 1316, rfl⟩
abbrev main_v917 : Ref sig .tc := ⟨.hbm, 1317, rfl⟩
abbrev main_cst_341 : Ref sig .tc := ⟨.hbm, 1318, rfl⟩
abbrev main_v918 : Ref sig .tc := ⟨.hbm, 1319, rfl⟩
abbrev main_cst_342 : Ref sig .tc := ⟨.hbm, 1320, rfl⟩
abbrev main_v919 : Ref sig .tc := ⟨.hbm, 1321, rfl⟩
abbrev main_v920 : Ref sig .tc := ⟨.hbm, 1322, rfl⟩
abbrev main_v921 : Ref sig .tc := ⟨.hbm, 1323, rfl⟩
abbrev main_cst_343 : Ref sig .tc := ⟨.hbm, 1324, rfl⟩
abbrev main_v922 : Ref sig .tc := ⟨.hbm, 1325, rfl⟩
abbrev main_v923 : Ref sig .tc := ⟨.hbm, 1326, rfl⟩
abbrev main_v924 : Ref sig .tc := ⟨.hbm, 1327, rfl⟩
abbrev main_cst_344 : Ref sig .tc := ⟨.hbm, 1328, rfl⟩
abbrev main_v925 : Ref sig .tc := ⟨.hbm, 1329, rfl⟩
abbrev main_v926 : Ref sig .tc := ⟨.hbm, 1330, rfl⟩
abbrev main_v927 : Ref sig .tc := ⟨.hbm, 1331, rfl⟩
abbrev main_cst_345 : Ref sig .tc := ⟨.hbm, 1332, rfl⟩
abbrev main_v928 : Ref sig .tc := ⟨.hbm, 1333, rfl⟩
abbrev main_v929 : Ref sig .tc := ⟨.hbm, 1334, rfl⟩
abbrev main_v930 : Ref sig .tc := ⟨.hbm, 1335, rfl⟩
abbrev main_cst_346 : Ref sig .tc := ⟨.hbm, 1336, rfl⟩
abbrev main_v931 : Ref sig .tc := ⟨.hbm, 1337, rfl⟩
abbrev main_v932 : Ref sig .tc := ⟨.hbm, 1338, rfl⟩
abbrev main_cst_347 : Ref sig .tc := ⟨.hbm, 1339, rfl⟩
abbrev main_v933 : Ref sig .tc := ⟨.hbm, 1340, rfl⟩
abbrev main_v934 : Ref sig .tc := ⟨.hbm, 1341, rfl⟩
abbrev main_cst_348 : Ref sig .tc := ⟨.hbm, 1342, rfl⟩
abbrev main_v935 : Ref sig .tc := ⟨.hbm, 1343, rfl⟩
abbrev main_v936 : Ref sig .tc := ⟨.hbm, 1344, rfl⟩
abbrev main_v937 : Ref sig .tc := ⟨.hbm, 1345, rfl⟩
abbrev main_v938 : Ref sig .tc := ⟨.hbm, 1346, rfl⟩
abbrev main_v939 : Ref sig .tc := ⟨.hbm, 1347, rfl⟩
abbrev main_cst_349 : Ref sig .tc := ⟨.hbm, 1348, rfl⟩
abbrev main_v940 : Ref sig .tc := ⟨.hbm, 1349, rfl⟩
abbrev main_v941 : Ref sig .tc := ⟨.hbm, 1350, rfl⟩
abbrev main_cst_350 : Ref sig .tc := ⟨.hbm, 1351, rfl⟩
abbrev main_v942 : Ref sig .tc := ⟨.hbm, 1352, rfl⟩
abbrev main_v943 : Ref sig .tc := ⟨.hbm, 1353, rfl⟩
abbrev main_v944 : Ref sig .tc := ⟨.hbm, 1354, rfl⟩
abbrev main_cst_351 : Ref sig .tc := ⟨.hbm, 1355, rfl⟩
abbrev main_v945 : Ref sig .tc := ⟨.hbm, 1356, rfl⟩
abbrev main_v946 : Ref sig .tc := ⟨.hbm, 1357, rfl⟩
abbrev main_v947 : Ref sig .tc := ⟨.hbm, 1358, rfl⟩
abbrev main_v948 : Ref sig .tc := ⟨.hbm, 1359, rfl⟩
abbrev main_v949 : Ref sig .tc := ⟨.hbm, 1360, rfl⟩
abbrev main_cst_352 : Ref sig .tc := ⟨.hbm, 1361, rfl⟩
abbrev main_v950 : Ref sig .tc := ⟨.hbm, 1362, rfl⟩
abbrev main_cst_353 : Ref sig .tc := ⟨.hbm, 1363, rfl⟩
abbrev main_v951 : Ref sig .tc := ⟨.hbm, 1364, rfl⟩
abbrev main_v952 : Ref sig .tc := ⟨.hbm, 1365, rfl⟩
abbrev main_v953 : Ref sig .tc := ⟨.hbm, 1366, rfl⟩
abbrev main_v954 : Ref sig .tc := ⟨.hbm, 1367, rfl⟩
abbrev main_v955 : Ref sig .tc := ⟨.hbm, 1368, rfl⟩
abbrev main_cst_354 : Ref sig .tc := ⟨.hbm, 1369, rfl⟩
abbrev main_v956 : Ref sig .tc := ⟨.hbm, 1370, rfl⟩
abbrev main_v957 : Ref sig .tc := ⟨.hbm, 1371, rfl⟩
abbrev main_cst_355 : Ref sig .tc := ⟨.hbm, 1372, rfl⟩
abbrev main_call28_v0 : Ref sig .tc := ⟨.hbm, 1373, rfl⟩
abbrev main_call28_v1 : Ref sig .tc := ⟨.hbm, 1374, rfl⟩
abbrev main_v958 : Ref sig .tc := ⟨.hbm, 1375, rfl⟩
abbrev main_v959 : Ref sig .tc := ⟨.hbm, 1376, rfl⟩
abbrev main_cst_356 : Ref sig .tc := ⟨.hbm, 1377, rfl⟩
abbrev main_v960 : Ref sig .tc := ⟨.hbm, 1378, rfl⟩
abbrev main_cst_357 : Ref sig .tc := ⟨.hbm, 1379, rfl⟩
abbrev main_v961 : Ref sig .tc := ⟨.hbm, 1380, rfl⟩
abbrev main_v962 : Ref sig .tc := ⟨.hbm, 1381, rfl⟩
abbrev main_v963 : Ref sig .tc := ⟨.hbm, 1382, rfl⟩
abbrev main_cst_358 : Ref sig .tc := ⟨.hbm, 1383, rfl⟩
abbrev main_v964 : Ref sig .tc := ⟨.hbm, 1384, rfl⟩
abbrev main_v965 : Ref sig .tc := ⟨.hbm, 1385, rfl⟩
abbrev main_v966 : Ref sig .tc := ⟨.hbm, 1386, rfl⟩
abbrev main_cst_359 : Ref sig .tc := ⟨.hbm, 1387, rfl⟩
abbrev main_v967 : Ref sig .tc := ⟨.hbm, 1388, rfl⟩
abbrev main_v968 : Ref sig .tc := ⟨.hbm, 1389, rfl⟩
abbrev main_v969 : Ref sig .tc := ⟨.hbm, 1390, rfl⟩
abbrev main_cst_360 : Ref sig .tc := ⟨.hbm, 1391, rfl⟩
abbrev main_v970 : Ref sig .tc := ⟨.hbm, 1392, rfl⟩
abbrev main_v971 : Ref sig .tc := ⟨.hbm, 1393, rfl⟩
abbrev main_cst_361 : Ref sig .tc := ⟨.hbm, 1394, rfl⟩
abbrev main_v972 : Ref sig .tc := ⟨.hbm, 1395, rfl⟩
abbrev main_v973 : Ref sig .tc := ⟨.hbm, 1396, rfl⟩
abbrev main_v974 : Ref sig .tc := ⟨.hbm, 1397, rfl⟩
abbrev main_v975 : Ref sig .tc := ⟨.hbm, 1398, rfl⟩
abbrev main_v976 : Ref sig .tc := ⟨.hbm, 1399, rfl⟩
abbrev main_cst_362 : Ref sig .tc := ⟨.hbm, 1400, rfl⟩
abbrev main_v977 : Ref sig .tc := ⟨.hbm, 1401, rfl⟩
abbrev main_v978 : Ref sig .tc := ⟨.hbm, 1402, rfl⟩
abbrev main_cst_363 : Ref sig .tc := ⟨.hbm, 1403, rfl⟩
abbrev main_v979 : Ref sig .tc := ⟨.hbm, 1404, rfl⟩
abbrev main_v980 : Ref sig .tc := ⟨.hbm, 1405, rfl⟩
abbrev main_v981 : Ref sig .tc := ⟨.hbm, 1406, rfl⟩
abbrev main_cst_364 : Ref sig .tc := ⟨.hbm, 1407, rfl⟩
abbrev main_v982 : Ref sig .tc := ⟨.hbm, 1408, rfl⟩
abbrev main_v983 : Ref sig .tc := ⟨.hbm, 1409, rfl⟩
abbrev main_v984 : Ref sig .tc := ⟨.hbm, 1410, rfl⟩
abbrev main_v985 : Ref sig .tc := ⟨.hbm, 1411, rfl⟩
abbrev main_v986 : Ref sig .tc := ⟨.hbm, 1412, rfl⟩
abbrev main_cst_365 : Ref sig .tc := ⟨.hbm, 1413, rfl⟩
abbrev main_v987 : Ref sig .tc := ⟨.hbm, 1414, rfl⟩
abbrev main_cst_366 : Ref sig .tc := ⟨.hbm, 1415, rfl⟩
abbrev main_v988 : Ref sig .tc := ⟨.hbm, 1416, rfl⟩
abbrev main_v989 : Ref sig .tc := ⟨.hbm, 1417, rfl⟩
abbrev main_v990 : Ref sig .tc := ⟨.hbm, 1418, rfl⟩
abbrev main_v991 : Ref sig .tc := ⟨.hbm, 1419, rfl⟩
abbrev main_v992 : Ref sig .tc := ⟨.hbm, 1420, rfl⟩
abbrev main_cst_367 : Ref sig .tc := ⟨.hbm, 1421, rfl⟩
abbrev main_v993 : Ref sig .tc := ⟨.hbm, 1422, rfl⟩
abbrev main_v994 : Ref sig .tc := ⟨.hbm, 1423, rfl⟩
abbrev main_cst_368 : Ref sig .tc := ⟨.hbm, 1424, rfl⟩
abbrev main_call29_v0 : Ref sig .tc := ⟨.hbm, 1425, rfl⟩
abbrev main_call29_v1 : Ref sig .tc := ⟨.hbm, 1426, rfl⟩
abbrev main_v995 : Ref sig .tc := ⟨.hbm, 1427, rfl⟩
abbrev main_v996 : Ref sig .tc := ⟨.hbm, 1428, rfl⟩
abbrev main_cst_369 : Ref sig .tc := ⟨.hbm, 1429, rfl⟩
abbrev main_v997 : Ref sig .tc := ⟨.hbm, 1430, rfl⟩
abbrev main_cst_370 : Ref sig .tc := ⟨.hbm, 1431, rfl⟩
abbrev main_v998 : Ref sig .tc := ⟨.hbm, 1432, rfl⟩
abbrev main_v999 : Ref sig .tc := ⟨.hbm, 1433, rfl⟩
abbrev main_v1000 : Ref sig .tc := ⟨.hbm, 1434, rfl⟩
abbrev main_cst_371 : Ref sig .tc := ⟨.hbm, 1435, rfl⟩
abbrev main_v1001 : Ref sig .tc := ⟨.hbm, 1436, rfl⟩
abbrev main_v1002 : Ref sig .tc := ⟨.hbm, 1437, rfl⟩
abbrev main_v1003 : Ref sig .tc := ⟨.hbm, 1438, rfl⟩
abbrev main_cst_372 : Ref sig .tc := ⟨.hbm, 1439, rfl⟩
abbrev main_v1004 : Ref sig .tc := ⟨.hbm, 1440, rfl⟩
abbrev main_v1005 : Ref sig .tc := ⟨.hbm, 1441, rfl⟩
abbrev main_v1006 : Ref sig .tc := ⟨.hbm, 1442, rfl⟩
abbrev main_cst_373 : Ref sig .tc := ⟨.hbm, 1443, rfl⟩
abbrev main_v1007 : Ref sig .tc := ⟨.hbm, 1444, rfl⟩
abbrev main_v1008 : Ref sig .tc := ⟨.hbm, 1445, rfl⟩
abbrev main_cst_374 : Ref sig .tc := ⟨.hbm, 1446, rfl⟩
abbrev main_v1009 : Ref sig .tc := ⟨.hbm, 1447, rfl⟩
abbrev main_v1010 : Ref sig .tc := ⟨.hbm, 1448, rfl⟩
abbrev main_v1011 : Ref sig .tc := ⟨.hbm, 1449, rfl⟩
abbrev main_v1012 : Ref sig .tc := ⟨.hbm, 1450, rfl⟩
abbrev main_v1013 : Ref sig .tc := ⟨.hbm, 1451, rfl⟩
abbrev main_v1014 : Ref sig .tc := ⟨.hbm, 1452, rfl⟩
abbrev main_v1015 : Ref sig .tc := ⟨.hbm, 1453, rfl⟩
abbrev main_v1016 : Ref sig .tc := ⟨.hbm, 1454, rfl⟩
abbrev main_v1017 : Ref sig .tc := ⟨.hbm, 1455, rfl⟩
abbrev main_v1018 : Ref sig .tc := ⟨.hbm, 1456, rfl⟩
abbrev main_v1019 : Ref sig .tc := ⟨.hbm, 1457, rfl⟩
abbrev main_v1020 : Ref sig .tc := ⟨.hbm, 1458, rfl⟩
abbrev main_v1021 : Ref sig .tc := ⟨.hbm, 1459, rfl⟩
abbrev main_v1022 : Ref sig .tc := ⟨.hbm, 1460, rfl⟩
abbrev main_v1023 : Ref sig .tc := ⟨.hbm, 1461, rfl⟩
abbrev main_v1024 : Ref sig .tc := ⟨.hbm, 1462, rfl⟩
abbrev main_v1025 : Ref sig .tc := ⟨.hbm, 1463, rfl⟩
abbrev main_v1026 : Ref sig .tc := ⟨.hbm, 1464, rfl⟩
abbrev main_v1027 : Ref sig .tc := ⟨.hbm, 1465, rfl⟩
abbrev main_v1028 : Ref sig .tc := ⟨.hbm, 1466, rfl⟩
abbrev main_v1029 : Ref sig .tc := ⟨.hbm, 1467, rfl⟩
abbrev main_v1030 : Ref sig .tc := ⟨.hbm, 1468, rfl⟩
abbrev main_v1031 : Ref sig .tc := ⟨.hbm, 1469, rfl⟩
abbrev main_v1032 : Ref sig .tc := ⟨.hbm, 1470, rfl⟩
abbrev main_v1033 : Ref sig .tc := ⟨.hbm, 1471, rfl⟩
abbrev main_v1034 : Ref sig .tc := ⟨.hbm, 1472, rfl⟩
abbrev main_v1035 : Ref sig .tc := ⟨.hbm, 1473, rfl⟩
abbrev main_v1036 : Ref sig .tc := ⟨.hbm, 1474, rfl⟩
abbrev main_v1037 : Ref sig .tc := ⟨.hbm, 1475, rfl⟩
abbrev main_v1038 : Ref sig .tc := ⟨.hbm, 1476, rfl⟩
abbrev main_v1039 : Ref sig .tc := ⟨.hbm, 1477, rfl⟩
abbrev main_v1040 : Ref sig .tc := ⟨.hbm, 1478, rfl⟩
abbrev main_v1041 : Ref sig .tc := ⟨.hbm, 1479, rfl⟩
abbrev main_v1042 : Ref sig .tc := ⟨.hbm, 1480, rfl⟩
abbrev main_v1043 : Ref sig .tc := ⟨.hbm, 1481, rfl⟩
abbrev main_v1044 : Ref sig .tc := ⟨.hbm, 1482, rfl⟩
abbrev main_v1045 : Ref sig .tc := ⟨.hbm, 1483, rfl⟩
abbrev main_v1046 : Ref sig .tc := ⟨.hbm, 1484, rfl⟩
abbrev main_v1047 : Ref sig .tc := ⟨.hbm, 1485, rfl⟩

abbrev nD : Nat := 1
abbrev τ : Topo := Topo.v7x

variable {F : FTy → Type} [FloatOps F]

class Facts₀ : Prop where
  slices_S4096x27x3_S4096x27x1_0_0_0 : S4096x27x3.Slices ![0, 0, 0] S4096x27x1
  shapeCasts_S4096x27x1_S4096x27 : S4096x27x1.ShapeCasts S4096x27
  slices_S4096x27x3_S4096x27x1_0_0_1 : S4096x27x3.Slices ![0, 0, 1] S4096x27x1
  slices_S4096x27x3_S4096x27x1_0_0_2 : S4096x27x3.Slices ![0, 0, 2] S4096x27x1
  bcast_S_S4096x27 : S_.BroadcastsInDim S4096x27 (![] : Fin 0 → Fin S4096x27.rank)
  bcast_S4096x27_S4096x27x1_0_1 : S4096x27.BroadcastsInDim S4096x27x1 (![0, 1] : Fin 2 → Fin S4096x27x1.rank)
  concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2 : Shape.Concatenates [S4096x27x1, S4096x27x1, S4096x27x1, S4096x27x1, S4096x27x1, S4096x27x1, S4096x27x1, S4096x27x1, S4096x27x1, S4096x27x1, S4096x27x1, S4096x27x1, S4096x27x1, S4096x27x1, S4096x27x1, S4096x27x1] S4096x27x16 2
  concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2 : Shape.Concatenates [S4096x27x1, S4096x27x1, S4096x27x1, S4096x27x1, S4096x27x1, S4096x27x1, S4096x27x1, S4096x27x1, S4096x27x1, S4096x27x1, S4096x27x1, S4096x27x1, S4096x27x1, S4096x27x1] S4096x27x14 2
  concatenates_S4096x27x16_S4096x27x14_S4096x27x30_d2 : Shape.Concatenates [S4096x27x16, S4096x27x14] S4096x27x30 2
  dot_S16x16x30_S4096x27x30_S16x16x4096x27_2_2_01_01_n_n_wf : DotDims.WF S16x16x30 S4096x27x30 S16x16x4096x27 [2] [2] [0, 1] [0, 1] [] []

variable [Facts₀]

def dot_S16x16x30_S4096x27x30_S16x16x4096x27_2_2_01_01_n_n : DotDims S16x16x30 S4096x27x30 S16x16x4096x27 where
  lhsContracting := [2]
  rhsContracting := [2]
  lhsNonContracting := [0, 1]
  rhsNonContracting := [0, 1]
  lhsBatch := []
  rhsBatch := []
  wf := dot_S16x16x30_S4096x27x30_S16x16x4096x27_2_2_01_01_n_n_wf

class Facts : Prop extends Facts₀ where

variable [Facts]
-- ==== Proof.RefInv.lean ====
/-
  What the reference's run keeps true from one stretch of its operations to the next.

  After the first six operations the three coordinate arrays r, θ, φ are in place; after orbital chain k the first k + 1
  orbital arrays are.  `Good x0 x1 n V` says of a valuation V: the two arguments are x0 and x1, the coordinate arrays are their
  values of x0, and the first n orbital arrays are theirs.
-/
import proofs.«401775_j71382356459674_3_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Read Idealize.ShloMosaic Idealize.ShloMosaic.StableHlo

variable {F : FTy → Type} [FloatOps F]

/-- Orbital array j holds its value of the position array. -/
def resHolds (x0 : (⟨S4096x27x3, .f32⟩ : BufTy).Contents (Elt F)) (V : Valuation τ sig (Elt F)) : Fin 30 → Prop :=
  ![V (Proc.devRef .tc main_v28) = val_main_v28 (F := F) x0,
    V (Proc.devRef .tc main_v54) = val_main_v54 (F := F) x0,
    V (Proc.devRef .tc main_v83) = val_main_v83 (F := F) x0,
    V (Proc.devRef .tc main_v108) = val_main_v108 (F := F) x0,
    V (Proc.devRef .tc main_v137) = val_main_v137 (F := F) x0,
    V (Proc.devRef .tc main_v166) = val_main_v166 (F := F) x0,
    V (Proc.devRef .tc main_v198) = val_main_v198 (F := F) x0,
    V (Proc.devRef .tc main_v226) = val_main_v226 (F := F) x0,
    V (Proc.devRef .tc main_v258) = val_main_v258 (F := F) x0,
    V (Proc.devRef .tc main_v291) = val_main_v291 (F := F) x0,
    V (Proc.devRef .tc main_v324) = val_main_v324 (F := F) x0,
    V (Proc.devRef .tc main_v358) = val_main_v358 (F := F) x0,
    V (Proc.devRef .tc main_v391) = val_main_v391 (F := F) x0,
    V (Proc.devRef .tc main_v424) = val_main_v424 (F := F) x0,
    V (Proc.devRef .tc main_v456) = val_main_v456 (F := F) x0,
    V (Proc.devRef .tc main_v491) = val_main_v491 (F := F) x0,
    V (Proc.devRef .tc main_v522) = val_main_v522 (F := F) x0,
    V (Proc.devRef .tc main_v557) = val_main_v557 (F := F) x0,
    V (Proc.devRef .tc main_v593) = val_main_v593 (F := F) x0,
    V (Proc.devRef .tc main_v629) = val_main_v629 (F := F) x0,
    V (Proc.devRef .tc main_v666) = val_main_v666 (F := F) x0,
    V (Proc.devRef .tc main_v702) = val_main_v702 (F := F) x0,
    V (Proc.devRef .tc main_v738) = val_main_v738 (F := F) x0,
    V (Proc.devRef .tc main_v775) = val_main_v775 (F := F) x0,
    V (Proc.devRef .tc main_v812) = val_main_v812 (F := F) x0,
    V (Proc.devRef .tc main_v854) = val_main_v854 (F := F) x0,
    V (Proc.devRef .tc main_v897) = val_main_v897 (F := F) x0,
    V (Proc.devRef .tc main_v939) = val_main_v939 (F := F) x0,
    V (Proc.devRef .tc main_v976) = val_main_v976 (F := F) x0,
    V (Proc.devRef .tc main_v1013) = val_main_v1013 (F := F) x0]

/-- The arguments, the three coordinate arrays and the first n orbital arrays hold their values. -/
structure Good (x0 : (⟨S4096x27x3, .f32⟩ : BufTy).Contents (Elt F)) (x1 : (⟨S16x16x30, .f32⟩ : BufTy).Contents (Elt F)) (n : ℕ)
    (V : Valuation τ sig (Elt F)) : Prop where
  a0 : V (Proc.devRef .tc main_arg0) = x0
  a1 : V (Proc.devRef .tc main_arg1) = x1
  r : V (Proc.devRef .tc main_v1) = val_main_v1 (F := F) x0
  θ : V (Proc.devRef .tc main_v3) = val_main_v3 (F := F) x0
  φ : V (Proc.devRef .tc main_v5) = val_main_v5 (F := F) x0
  res : ∀ j : Fin 30, j.val < n → resHolds x0 V j

end Cert.ReferenceIdeal.RunH

end
-- ==== Proof.RefChunkH.lean ====
/-
  The first six operations of the reference: the position array is sliced along its last axis into the three
  coordinate arrays r, θ, φ on the 4096 × 27 grid (a slice to 4096 × 27 × 1, then a reshape), each the value of its
  stage function at the position array.  Nothing else is written, so the two arguments keep their contents.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The six operations that slice the position array into r, θ, φ. -/
abbrev ops_head : List (HloOp τ sig (Elt F)) :=
  [ unary main_arg0 main_v0 ((extractStridedSlice S4096x27x1 ![0, 0, 0] · slices_S4096x27x3_S4096x27x1_0_0_0) : (⟨S4096x27x3, .f32⟩ : BufTy).Contents (Elt F) → (⟨S4096x27x1, .f32⟩ : BufTy).Contents (Elt F)),
    reshape main_v0 main_v1 rfl shapeCasts_S4096x27x1_S4096x27,
    unary main_arg0 main_v2 ((extractStridedSlice S4096x27x1 ![0, 0, 1] · slices_S4096x27x3_S4096x27x1_0_0_1) : (⟨S4096x27x3, .f32⟩ : BufTy).Contents (Elt F) → (⟨S4096x27x1, .f32⟩ : BufTy).Contents (Elt F)),
    reshape main_v2 main_v3 rfl shapeCasts_S4096x27x1_S4096x27,
    unary main_arg0 main_v4 ((extractStridedSlice S4096x27x1 ![0, 0, 2] · slices_S4096x27x3_S4096x27x1_0_0_2) : (⟨S4096x27x3, .f32⟩ : BufTy).Contents (Elt F) → (⟨S4096x27x1, .f32⟩ : BufTy).Contents (Elt F)),
    reshape main_v4 main_v5 rfl shapeCasts_S4096x27x1_S4096x27 ]

theorem ops_head_sub : (ops_head : List (HloOp τ sig (Elt F))).Forall fun op => op.bufs ⊆ tcRefs τ sig :=
  ⟨unary_bufs_sub .., reshape_bufs_sub .., unary_bufs_sub .., reshape_bufs_sub .., unary_bufs_sub .., reshape_bufs_sub ..⟩

theorem ops_head_fresh : ∀ op ∈ (ops_head : List (HloOp τ sig (Elt F))), op.fresh = ∅ :=
  List.forall_iff_forall_mem.mp (by simp only [List.Forall]; repeat' constructor)

/-- The arrays the six operations write. -/
abbrev W_head : List (Ref sig .tc) := [main_v0, main_v1, main_v2, main_v3, main_v4, main_v5]

theorem ops_head_writes : (ops_head : List (HloOp τ sig (Elt F))).Forall fun op =>
    op.writes ⊆ (W_head.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- After the six operations the arguments are unchanged and r, θ, φ hold their values of the position array. -/
theorem step_head (x0 : (⟨S4096x27x3, .f32⟩ : BufTy).Contents (Elt F)) (x1 : (⟨S16x16x30, .f32⟩ : BufTy).Contents (Elt F))
    (V : Valuation τ sig (Elt F)) (h0 : V (Proc.devRef .tc main_arg0) = x0) (h1 : V (Proc.devRef .tc main_arg1) = x1) :
    Good x0 x1 0 (after ops_head V) where
  a0 := (after_of_writes_sub ops_head V ops_head_writes (by decide)).trans h0
  a1 := (after_of_writes_sub ops_head V ops_head_writes (by decide)).trans h1
  r := by
    simp only [ops_head]
    after_results_simp
    rw [h0]
    all_goals rfl
  θ := by
    simp only [ops_head]
    after_results_simp
    rw [h0]
    all_goals rfl
  φ := by
    simp only [ops_head]
    after_results_simp
    rw [h0]
    all_goals rfl
  res := fun j hj => absurd hj (Nat.not_lt_zero _)

end Cert.ReferenceIdeal.RunH

end
-- ==== Proof.RefChunk00.lean ====
/-
  Orbital chain 0 of the reference: the 35 operations that compute orbital 0's array on the 4096 × 27 grid from the
  coordinate arrays r, θ, φ alone, ending at main_v28.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 0, in program order. -/
abbrev ops_0 : List (HloOp τ sig (Elt F)) :=
  [ nullary main_cst (constant S_ .f32 0x40000000#32),
    unary main_cst main_v6 (broadcastInDim S4096x27 ![] bcast_S_S4096x27 : (⟨S_, .f32⟩ : BufTy).Contents (Elt F) → (⟨S4096x27, .f32⟩ : BufTy).Contents (Elt F)),
    binary main_v6 main_v1 main_v7 (mulf : (⟨S4096x27, .f32⟩ : BufTy).Contents (Elt F) → (⟨S4096x27, .f32⟩ : BufTy).Contents (Elt F) → (⟨S4096x27, .f32⟩ : BufTy).Contents (Elt F)),
    nullary main_cst_0 (constant S_ .f32 0xBF000000#32),
    unary main_cst_0 main_v8 (broadcastInDim S4096x27 ![] bcast_S_S4096x27 : (⟨S_, .f32⟩ : BufTy).Contents (Elt F) → (⟨S4096x27, .f32⟩ : BufTy).Contents (Elt F)),
    binary main_v8 main_v7 main_v9 (mulf : (⟨S4096x27, .f32⟩ : BufTy).Contents (Elt F) → (⟨S4096x27, .f32⟩ : BufTy).Contents (Elt F) → (⟨S4096x27, .f32⟩ : BufTy).Contents (Elt F)),
    unary main_v9 main_v10 (Host.exp : (⟨S4096x27, .f32⟩ : BufTy).Contents (Elt F) → (⟨S4096x27, .f32⟩ : BufTy).Contents (Elt F)),
    nullary main_cst_1 (constant S_ .f32 0x40000000#32),
    unary main_cst_1 main_v11 (broadcastInDim S4096x27 ![] bcast_S_S4096x27 : (⟨S_, .f32⟩ : BufTy).Contents (Elt F) → (⟨S4096x27, .f32⟩ : BufTy).Contents (Elt F)),
    binary main_v11 main_v10 main_v12 (mulf : (⟨S4096x27, .f32⟩ : BufTy).Contents (Elt F) → (⟨S4096x27, .f32⟩ : BufTy).Contents (Elt F) → (⟨S4096x27, .f32⟩ : BufTy).Contents (Elt F)),
    nullary main_cst_2 (constant S_ .f32 0x3F800000#32),
    unary main_cst_2 main_v13 (broadcastInDim S4096x27 ![] bcast_S_S4096x27 : (⟨S_, .f32⟩ : BufTy).Contents (Elt F) → (⟨S4096x27, .f32⟩ : BufTy).Contents (Elt F)),
    binary main_v12 main_v13 main_v14 (mulf : (⟨S4096x27, .f32⟩ : BufTy).Contents (Elt F) → (⟨S4096x27, .f32⟩ : BufTy).Contents (Elt F) → (⟨S4096x27, .f32⟩ : BufTy).Contents (Elt F)),
    nullary main_cst_3 (constant S_ .f32 0x00000000#32),
    unary main_cst_3 main_v15 (broadcastInDim S4096x27 ![] bcast_S_S4096x27 : (⟨S_, .f32⟩ : BufTy).Contents (Elt F) → (⟨S4096x27, .f32⟩ : BufTy).Contents (Elt F)),
    nullary main_cst_4 (constant S_ .f32 0x3F800000#32),
    unary main_cst_4 main_v16 (broadcastInDim S4096x27 ![] bcast_S_S4096x27 : (⟨S_, .f32⟩ : BufTy).Contents (Elt F) → (⟨S4096x27, .f32⟩ : BufTy).Contents (Elt F)),
    binary main_v15 main_v16 main_v17 (addf : (⟨S4096x27, .f32⟩ : BufTy).Contents (Elt F) → (⟨S4096x27, .f32⟩ : BufTy).Contents (Elt F) → (⟨S4096x27, .f32⟩ : BufTy).Contents (Elt F)),
    binary main_v14 main_v17 main_v18 (mulf : (⟨S4096x27, .f32⟩ : BufTy).Contents (Elt F) → (⟨S4096x27, .f32⟩ : BufTy).Contents (Elt F) → (⟨S4096x27, .f32⟩ : BufTy).Contents (Elt F)),
    unary main_v3 main_v19 (Host.cos : (⟨S4096x27, .f32⟩ : BufTy).Contents (Elt F) → (⟨S4096x27, .f32⟩ : BufTy).Contents (Elt F)),
    binary main_v19 main_v19 main_v20 (mulf : (⟨S4096x27, .f32⟩ : BufTy).Contents (Elt F) → (⟨S4096x27, .f32⟩ : BufTy).Contents (Elt F) → (⟨S4096x27, .f32⟩ : BufTy).Contents (Elt F)),
    nullary main_cst_5 (constant S_ .f32 0x3F800000#32),
    unary main_cst_5 main_v21 (broadcastInDim S4096x27 ![] bcast_S_S4096x27 : (⟨S_, .f32⟩ : BufTy).Contents (Elt F) → (⟨S4096x27, .f32⟩ : BufTy).Contents (Elt F)),
    binary main_v21 main_v20 main_v22 (subf : (⟨S4096x27, .f32⟩ : BufTy).Contents (Elt F) → (⟨S4096x27, .f32⟩ : BufTy).Contents (Elt F) → (⟨S4096x27, .f32⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S4096x27, .f32⟩) main_call0_v1) (broadcastInDim S4096x27 ![] bcast_S_S4096x27),
    TRef.binary (TRef.of (T := ⟨S4096x27, .f32⟩) main_call0_v1) (TRef.of (T := ⟨S4096x27, .f32⟩) main_v22) (TRef.of (T := ⟨S4096x27, .f32⟩) main_v23) maximumf,
    unary main_v23 main_v24 (Host.sqrt : (⟨S4096x27, .f32⟩ : BufTy).Contents (Elt F) → (⟨S4096x27, .f32⟩ : BufTy).Contents (Elt F)),
    nullary main_cst_7 (constant S_ .f32 0x3F800000#32),
    unary main_cst_7 main_v25 (broadcastInDim S4096x27 ![] bcast_S_S4096x27 : (⟨S_, .f32⟩ : BufTy).Contents (Elt F) → (⟨S4096x27, .f32⟩ : BufTy).Contents (Elt F)),
    nullary main_cst_8 (constant S_ .f32 0x3E906EBB#32),
    unary main_cst_8 main_v26 (broadcastInDim S4096x27 ![] bcast_S_S4096x27 : (⟨S_, .f32⟩ : BufTy).Contents (Elt F) → (⟨S4096x27, .f32⟩ : BufTy).Contents (Elt F)),
    binary main_v26 main_v25 main_v27 (mulf : (⟨S4096x27, .f32⟩ : BufTy).Contents (Elt F) → (⟨S4096x27, .f32⟩ : BufTy).Contents (Elt F) → (⟨S4096x27, .f32⟩ : BufTy).Contents (Elt F)),
    binary main_v18 main_v27 main_v28 (mulf : (⟨S4096x27, .f32⟩ : BufTy).Contents (Elt F) → (⟨S4096x27, .f32⟩ : BufTy).Contents (Elt F) → (⟨S4096x27, .f32⟩ : BufTy).Contents (Elt F)) ]

theorem ops_0_sub : (ops_0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub ..⟩

theorem ops_0_fresh : ∀ op ∈ (ops_0 : List (HloOp τ sig (Elt F))), op.fresh = ∅ :=
  List.forall_iff_forall_mem.mp (by simp only [List.Forall]; repeat' constructor)

/-- The arrays chain 0 writes. -/
abbrev W_0 : List (Ref sig .tc) := [main_cst, main_v6, main_v7, main_cst_0, main_v8, main_v9, main_v10, main_cst_1, main_v11, main_v12, main_cst_2, main_v13, main_v14, main_cst_3, main_v15, main_cst_4, main_v16, main_v17, main_v18, main_v19, main_v20, main_cst_5, main_v21, main_v22, main_cst_6, main_call0_v0, main_call0_v1, main_v23, main_v24, main_cst_7, main_v25, main_cst_8, main_v26, main_v27, main_v28]

theorem ops_0_writes : (ops_0 : List (HloOp τ sig (Elt F))).Forall fun op =>
    op.writes ⊆ (W_0.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 0's array after the chain is its value of the position array. -/
theorem val_0 (x0 : (⟨S4096x27x3, .f32⟩ : BufTy).Contents (Elt F)) (x1 : (⟨S16x16x30, .f32⟩ : BufTy).Contents (Elt F))
    (V : Valuation τ sig (Elt F)) (h : Good x0 x1 0 V) :
    after ops_0 V (Proc.devRef .tc main_v28) = val_main_v28 (F := F) x0 := by
  have hr := h.r
  have hθ := h.θ
  have hφ := h.φ
  simp only [ops_0]
  after_results_simp
  try rw [hr]
  try rw [hθ]
  try rw [hφ]
  all_goals rfl

/-- The chain keeps what was in place and adds orbital 0's array. -/
theorem step_0 (x0 : (⟨S4096x27x3, .f32⟩ : BufTy).Contents (Elt F)) (x1 : (⟨S16x16x30, .f32⟩ : BufTy).Contents (Elt F))
    (V : Valuation τ sig (Elt F)) (h : Good x0 x1 0 V) : Good x0 x1 1 (after ops_0 V) where
  a0 := (after_of_writes_sub ops_0 V ops_0_writes (by decide)).trans h.a0
  a1 := (after_of_writes_sub ops_0 V ops_0_writes (by decide)).trans h.a1
  r := (after_of_writes_sub ops_0 V ops_0_writes (by decide)).trans h.r
  θ := (after_of_writes_sub ops_0 V ops_0_writes (by decide)).trans h.θ
  φ := (after_of_writes_sub ops_0 V ops_0_writes (by decide)).trans h.φ
  res := by
    intro j hj
    fin_cases j
    · exact val_0 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk01.lean ====
/-
  Orbital chain 1 of the reference: the 39 operations that compute orbital 1's array on the 4096 × 27 grid from the
  coordinate arrays r, θ, φ alone, ending at main_v54.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 1, in program order. -/
abbrev ops_1 : List (HloOp τ sig (Elt F)) :=
  [ nullary main_cst_9 (constant S_ .f32 0x3F800000#32),
    unary main_cst_9 main_v29 (broadcastInDim S4096x27 ![] bcast_S_S4096x27 : (⟨S_, .f32⟩ : BufTy).Contents (Elt F) → (⟨S4096x27, .f32⟩ : BufTy).Contents (Elt F)),
    binary main_v29 main_v1 main_v30 (mulf : (⟨S4096x27, .f32⟩ : BufTy).Contents (Elt F) → (⟨S4096x27, .f32⟩ : BufTy).Contents (Elt F) → (⟨S4096x27, .f32⟩ : BufTy).Contents (Elt F)),
    nullary main_cst_10 (constant S_ .f32 0xBF000000#32),
    unary main_cst_10 main_v31 (broadcastInDim S4096x27 ![] bcast_S_S4096x27 : (⟨S_, .f32⟩ : BufTy).Contents (Elt F) → (⟨S4096x27, .f32⟩ : BufTy).Contents (Elt F)),
    binary main_v31 main_v30 main_v32 (mulf : (⟨S4096x27, .f32⟩ : BufTy).Contents (Elt F) → (⟨S4096x27, .f32⟩ : BufTy).Contents (Elt F) → (⟨S4096x27, .f32⟩ : BufTy).Contents (Elt F)),
    unary main_v32 main_v33 (Host.exp : (⟨S4096x27, .f32⟩ : BufTy).Contents (Elt F) → (⟨S4096x27, .f32⟩ : BufTy).Contents (Elt F)),
    nullary main_cst_11 (constant S_ .f32 0x3EB504F3#32),
    unary main_cst_11 main_v34 (broadcastInDim S4096x27 ![] bcast_S_S4096x27 : (⟨S_, .f32⟩ : BufTy).Contents (Elt F) → (⟨S4096x27, .f32⟩ : BufTy).Contents (Elt F)),
    binary main_v34 main_v33 main_v35 (mulf : (⟨S4096x27, .f32⟩ : BufTy).Contents (Elt F) → (⟨S4096x27, .f32⟩ : BufTy).Contents (Elt F) → (⟨S4096x27, .f32⟩ : BufTy).Contents (Elt F)),
    nullary main_cst_12 (constant S_ .f32 0x3F800000#32),
    unary main_cst_12 main_v36 (broadcastInDim S4096x27 ![] bcast_S_S4096x27 : (⟨S_, .f32⟩ : BufTy).Contents (Elt F) → (⟨S4096x27, .f32⟩ : BufTy).Contents (Elt F)),
    binary main_v35 main_v36 main_v37 (mulf : (⟨S4096x27, .f32⟩ : BufTy).Contents (Elt F) → (⟨S4096x27, .f32⟩ : BufTy).Contents (Elt F) → (⟨S4096x27, .f32⟩ : BufTy).Contents (Elt F)),
    nullary main_cst_13 (constant S_ .f32 0x00000000#32),
    unary main_cst_13 main_v38 (broadcastInDim S4096x27 ![] bcast_S_S4096x27 : (⟨S_, .f32⟩ : BufTy).Contents (Elt F) → (⟨S4096x27, .f32⟩ : BufTy).Contents (Elt F)),
    nullary main_cst_14 (constant S_ .f32 0xBF800000#32),
    unary main_cst_14 main_v39 (broadcastInDim S4096x27 ![] bcast_S_S4096x27 : (⟨S_, .f32⟩ : BufTy).Contents (Elt F) → (⟨S4096x27, .f32⟩ : BufTy).Contents (Elt F)),
    binary main_v38 main_v39 main_v40 (addf : (⟨S4096x27, .f32⟩ : BufTy).Contents (Elt F) → (⟨S4096x27, .f32⟩ : BufTy).Contents (Elt F) → (⟨S4096x27, .f32⟩ : BufTy).Contents (Elt F)),
    binary main_v40 main_v30 main_v41 (mulf : (⟨S4096x27, .f32⟩ : BufTy).Contents (Elt F) → (⟨S4096x27, .f32⟩ : BufTy).Contents (Elt F) → (⟨S4096x27, .f32⟩ : BufTy).Contents (Elt F)),
    nullary main_cst_15 (constant S_ .f32 0x40000000#32),
    unary main_cst_15 main_v42 (broadcastInDim S4096x27 ![] bcast_S_S4096x27 : (⟨S_, .f32⟩ : BufTy).Contents (Elt F) → (⟨S4096x27, .f32⟩ : BufTy).Contents (Elt F)),
    binary main_v41 main_v42 main_v43 (addf : (⟨S4096x27, .f32⟩ : BufTy).Contents (Elt F) → (⟨S4096x27, .f32⟩ : BufTy).Contents (Elt F) → (⟨S4096x27, .f32⟩ : BufTy).Contents (Elt F)),
    binary main_v37 main_v43 main_v44 (mulf : (⟨S4096x27, .f32⟩ : BufTy).Contents (Elt F) → (⟨S4096x27, .f32⟩ : BufTy).Contents (Elt F) → (⟨S4096x27, .f32⟩ : BufTy).Contents (Elt F)),
    unary main_v3 main_v45 (Host.cos : (⟨S4096x27, .f32⟩ : BufTy).Contents (Elt F) → (⟨S4096x27, .f32⟩ : BufTy).Contents (Elt F)),
    binary main_v45 main_v45 main_v46 (mulf : (⟨S4096x27, .f32⟩ : BufTy).Contents (Elt F) → (⟨S4096x27, .f32⟩ : BufTy).Contents (Elt F) → (⟨S4096x27, .f32⟩ : BufTy).Contents (Elt F)),
    nullary main_cst_16 (constant S_ .f32 0x3F800000#32),
    unary main_cst_16 main_v47 (broadcastInDim S4096x27 ![] bcast_S_S4096x27 : (⟨S_, .f32⟩ : BufTy).Contents (Elt F) → (⟨S4096x27, .f32⟩ : BufTy).Contents (Elt F)),
    binary main_v47 main_v46 main_v48 (subf : (⟨S4096x27, .f32⟩ : BufTy).Contents (Elt F) → (⟨S4096x27, .f32⟩ : BufTy).Contents (Elt F) → (⟨S4096x27, .f32⟩ : BufTy).Contents (Elt F)),
    nullary main_cst_17 (constant S_ .f32 0x00000000#32),
    TRef.unary (TRef.of (T := ⟨S_, .f32⟩) main_cst_17) (TRef.of (T := ⟨S_, .f32⟩) main_call1_v0) id,
    TRef.unary (TRef.of (T := ⟨S_, .f32⟩) main_call1_v0) (TRef.of (T := ⟨S4096x27, .f32⟩) main_call1_v1) (broadcastInDim S4096x27 ![] bcast_S_S4096x27),
    TRef.binary (TRef.of (T := ⟨S4096x27, .f32⟩) main_call1_v1) (TRef.of (T := ⟨S4096x27, .f32⟩) main_v48) (TRef.of (T := ⟨S4096x27, .f32⟩) main_v49) maximumf,
    unary main_v49 main_v50 (Host.sqrt : (⟨S4096x27, .f32⟩ : BufTy).Contents (Elt F) → (⟨S4096x27, .f32⟩ : BufTy).Contents (Elt F)),
    nullary main_cst_18 (constant S_ .f32 0x3F800000#32),
    unary main_cst_18 main_v51 (broadcastInDim S4096x27 ![] bcast_S_S4096x27 : (⟨S_, .f32⟩ : BufTy).Contents (Elt F) → (⟨S4096x27, .f32⟩ : BufTy).Contents (Elt F)),
    nullary main_cst_19 (constant S_ .f32 0x3E906EBB#32),
    unary main_cst_19 main_v52 (broadcastInDim S4096x27 ![] bcast_S_S4096x27 : (⟨S_, .f32⟩ : BufTy).Contents (Elt F) → (⟨S4096x27, .f32⟩ : BufTy).Contents (Elt F)),
    binary main_v52 main_v51 main_v53 (mulf : (⟨S4096x27, .f32⟩ : BufTy).Contents (Elt F) → (⟨S4096x27, .f32⟩ : BufTy).Contents (Elt F) → (⟨S4096x27, .f32⟩ : BufTy).Contents (Elt F)),
    binary main_v44 main_v53 main_v54 (mulf : (⟨S4096x27, .f32⟩ : BufTy).Contents (Elt F) → (⟨S4096x27, .f32⟩ : BufTy).Contents (Elt F) → (⟨S4096x27, .f32⟩ : BufTy).Contents (Elt F)) ]

theorem ops_1_sub : (ops_1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub ..⟩

theorem ops_1_fresh : ∀ op ∈ (ops_1 : List (HloOp τ sig (Elt F))), op.fresh = ∅ :=
  List.forall_iff_forall_mem.mp (by simp only [List.Forall]; repeat' constructor)

/-- The arrays chain 1 writes. -/
abbrev W_1 : List (Ref sig .tc) := [main_cst_9, main_v29, main_v30, main_cst_10, main_v31, main_v32, main_v33, main_cst_11, main_v34, main_v35, main_cst_12, main_v36, main_v37, main_cst_13, main_v38, main_cst_14, main_v39, main_v40, main_v41, main_cst_15, main_v42, main_v43, main_v44, main_v45, main_v46, main_cst_16, main_v47, main_v48, main_cst_17, main_call1_v0, main_call1_v1, main_v49, main_v50, main_cst_18, main_v51, main_cst_19, main_v52, main_v53, main_v54]

theorem ops_1_writes : (ops_1 : List (HloOp τ sig (Elt F))).Forall fun op =>
    op.writes ⊆ (W_1.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 1's array after the chain is its value of the position array. -/
theorem val_1 (x0 : (⟨S4096x27x3, .f32⟩ : BufTy).Contents (Elt F)) (x1 : (⟨S16x16x30, .f32⟩ : BufTy).Contents (Elt F))
    (V : Valuation τ sig (Elt F)) (h : Good x0 x1 1 V) :
    after ops_1 V (Proc.devRef .tc main_v54) = val_main_v54 (F := F) x0 := by
  have hr := h.r
  have hθ := h.θ
  have hφ := h.φ
  simp only [ops_1]
  after_results_simp
  try rw [hr]
  try rw [hθ]
  try rw [hφ]
  all_goals rfl

/-- The chain keeps what was in place and adds orbital 1's array. -/
theorem step_1 (x0 : (⟨S4096x27x3, .f32⟩ : BufTy).Contents (Elt F)) (x1 : (⟨S16x16x30, .f32⟩ : BufTy).Contents (Elt F))
    (V : Valuation τ sig (Elt F)) (h : Good x0 x1 1 V) : Good x0 x1 2 (after ops_1 V) where
  a0 := (after_of_writes_sub ops_1 V ops_1_writes (by decide)).trans h.a0
  a1 := (after_of_writes_sub ops_1 V ops_1_writes (by decide)).trans h.a1
  r := (after_of_writes_sub ops_1 V ops_1_writes (by decide)).trans h.r
  θ := (after_of_writes_sub ops_1 V ops_1_writes (by decide)).trans h.θ
  φ := (after_of_writes_sub ops_1 V ops_1_writes (by decide)).trans h.φ
  res := by
    intro j hj
    fin_cases j
    · exact (after_of_writes_sub ops_1 V ops_1_writes (by decide)).trans (h.res 0 (by decide))
    · exact val_1 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk02.lean ====
/-
  Orbital chain 2 of the reference: the 42 operations that compute orbital 2's array on the 4096 × 27 grid from the
  coordinate arrays r, θ, φ alone, ending at main_v83.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 2, in program order. -/
abbrev ops_2 : List (HloOp τ sig (Elt F)) :=
  [ nullary main_cst_20 (constant S_ .f32 0x3F800000#32),
    unary main_cst_20 main_v55 (broadcastInDim S4096x27 ![] bcast_S_S4096x27 : (⟨S_, .f32⟩ : BufTy).Contents (Elt F) → (⟨S4096x27, .f32⟩ : BufTy).Contents (Elt F)),
    binary main_v55 main_v1 main_v56 (mulf : (⟨S4096x27, .f32⟩ : BufTy).Contents (Elt F) → (⟨S4096x27, .f32⟩ : BufTy).Contents (Elt F) → (⟨S4096x27, .f32⟩ : BufTy).Contents (Elt F)),
    nullary main_cst_21 (constant S_ .f32 0xBF000000#32),
    unary main_cst_21 main_v57 (broadcastInDim S4096x27 ![] bcast_S_S4096x27 : (⟨S_, .f32⟩ : BufTy).Contents (Elt F) → (⟨S4096x27, .f32⟩ : BufTy).Contents (Elt F)),
    binary main_v57 main_v56 main_v58 (mulf : (⟨S4096x27, .f32⟩ : BufTy).Contents (Elt F) → (⟨S4096x27, .f32⟩ : BufTy).Contents (Elt F) → (⟨S4096x27, .f32⟩ : BufTy).Contents (Elt F)),
    unary main_v58 main_v59 (Host.exp : (⟨S4096x27, .f32⟩ : BufTy).Contents (Elt F) → (⟨S4096x27, .f32⟩ : BufTy).Contents (Elt F)),
    nullary main_cst_22 (constant S_ .f32 0x3E5105EC#32),
    unary main_cst_22 main_v60 (broadcastInDim S4096x27 ![] bcast_S_S4096x27 : (⟨S_, .f32⟩ : BufTy).Contents (Elt F) → (⟨S4096x27, .f32⟩ : BufTy).Contents (Elt F)),
    binary main_v60 main_v59 main_v61 (mulf : (⟨S4096x27, .f32⟩ : BufTy).Contents (Elt F) → (⟨S4096x27, .f32⟩ : BufTy).Contents (Elt F) → (⟨S4096x27, .f32⟩ : BufTy).Contents (Elt F)),
    binary main_v61 main_v56 main_v62 (mulf : (⟨S4096x27, .f32⟩ : BufTy).Contents (Elt F) → (⟨S4096x27, .f32⟩ : BufTy).Contents (Elt F) → (⟨S4096x27, .f32⟩ : BufTy).Contents (Elt F)),
    nullary main_cst_23 (constant S_ .f32 0x00000000#32),
    unary main_cst_23 main_v63 (broadcastInDim S4096x27 ![] bcast_S_S4096x27 : (⟨S_, .f32⟩ : BufTy).Contents (Elt F) → (⟨S4096x27, .f32⟩ : BufTy).Contents (Elt F)),
    nullary main_cst_24 (constant S_ .f32 0x3F800000#32),
    unary main_cst_24 main_v64 (broadcastInDim S4096x27 ![] bcast_S_S4096x27 : (⟨S_, .f32⟩ : BufTy).Contents (Elt F) → (⟨S4096x27, .f32⟩ : BufTy).Contents (Elt F)),
    binary main_v63 main_v64 main_v65 (addf : (⟨S4096x27, .f32⟩ : BufTy).Contents (Elt F) → (⟨S4096x27, .f32⟩ : BufTy).Contents (Elt F) → (⟨S4096x27, .f32⟩ : BufTy).Contents (Elt F)),
    binary main_v62 main_v65 main_v66 (mulf : (⟨S4096x27, .f32⟩ : BufTy).Contents (Elt F) → (⟨S4096x27, .f32⟩ : BufTy).Contents (Elt F) → (⟨S4096x27, .f32⟩ : BufTy).Contents (Elt F)),
    unary main_v3 main_v67 (Host.cos : (⟨S4096x27, .f32⟩ : BufTy).Contents (Elt F) → (⟨S4096x27, .f32⟩ : BufTy).Contents (Elt F)),
    binary main_v67 main_v67 main_v68 (mulf : (⟨S4096x27, .f32⟩ : BufTy).Contents (Elt F) → (⟨S4096x27, .f32⟩ : BufTy).Contents (Elt F) → (⟨S4096x27, .f32⟩ : BufTy).Contents (Elt F)),
    nullary main_cst_25 (constant S_ .f32 0x3F800000#32),
    unary main_cst_25 main_v69 (broadcastInDim S4096x27 ![] bcast_S_S4096x27 : (⟨S_, .f32⟩ : BufTy).Contents (Elt F) → (⟨S4096x27, .f32⟩ : BufTy).Contents (Elt F)),
    binary main_v69 main_v68 main_v70 (subf : (⟨S4096x27, .f32⟩ : BufTy).Contents (Elt F) → (⟨S4096x27, .f32⟩ : BufTy).Contents (Elt F) → (⟨S4096x27, .f32⟩ : BufTy).Contents (Elt F)),
    nullary main_cst_26 (constant S_ .f32 0x00000000#32),
    TRef.unary (TRef.of (T := ⟨S_, .f32⟩) main_cst_26) (TRef.of (T := ⟨S_, .f32⟩) main_call2_v0) id,
    TRef.unary (TRef.of (T := ⟨S_, .f32⟩) main_call2_v0) (TRef.of (T := ⟨S4096x27, .f32⟩) main_call2_v1) (broadcastInDim S4096x27 ![] bcast_S_S4096x27),
    TRef.binary (TRef.of (T := ⟨S4096x27, .f32⟩) main_call2_v1) (TRef.of (T := ⟨S4096x27, .f32⟩) main_v70) (TRef.of (T := ⟨S4096x27, .f32⟩) main_v71) maximumf,
    unary main_v71 main_v72 (Host.sqrt : (⟨S4096x27, .f32⟩ : BufTy).Contents (Elt F) → (⟨S4096x27, .f32⟩ : BufTy).Contents (Elt F)),
    nullary main_cst_27 (constant S_ .f32 0x3F800000#32),
    unary main_cst_27 main_v73 (broadcastInDim S4096x27 ![] bcast_S_S4096x27 : (⟨S_, .f32⟩ : BufTy).Contents (Elt F) → (⟨S4096x27, .f32⟩ : BufTy).Contents (Elt F)),
    nullary main_cst_28 (constant S_ .f32 0xBF800000#32),
    unary main_cst_28 main_v74 (broadcastInDim S4096x27 ![] bcast_S_S4096x27 : (⟨S_, .f32⟩ : BufTy).Contents (Elt F) → (⟨S4096x27, .f32⟩ : BufTy).Contents (Elt F)),
    binary main_v73 main_v74 main_v75 (mulf : (⟨S4096x27, .f32⟩ : BufTy).Contents (Elt F) → (⟨S4096x27, .f32⟩ : BufTy).Contents (Elt F) → (⟨S4096x27, .f32⟩ : BufTy).Contents (Elt F)),
    binary main_v75 main_v72 main_v76 (mulf : (⟨S4096x27, .f32⟩ : BufTy).Contents (Elt F) → (⟨S4096x27, .f32⟩ : BufTy).Contents (Elt F) → (⟨S4096x27, .f32⟩ : BufTy).Contents (Elt F)),
    nullary main_cst_29 (constant S_ .f32 0x3EFA2A1C#32),
    unary main_cst_29 main_v77 (broadcastInDim S4096x27 ![] bcast_S_S4096x27 : (⟨S_, .f32⟩ : BufTy).Contents (Elt F) → (⟨S4096x27, .f32⟩ : BufTy).Contents (Elt F)),
    binary main_v77 main_v76 main_v78 (mulf : (⟨S4096x27, .f32⟩ : BufTy).Contents (Elt F) → (⟨S4096x27, .f32⟩ : BufTy).Contents (Elt F) → (⟨S4096x27, .f32⟩ : BufTy).Contents (Elt F)),
    nullary main_cst_30 (constant S_ .f32 0x3F800000#32),
    unary main_cst_30 main_v79 (broadcastInDim S4096x27 ![] bcast_S_S4096x27 : (⟨S_, .f32⟩ : BufTy).Contents (Elt F) → (⟨S4096x27, .f32⟩ : BufTy).Contents (Elt F)),
    binary main_v79 main_v5 main_v80 (mulf : (⟨S4096x27, .f32⟩ : BufTy).Contents (Elt F) → (⟨S4096x27, .f32⟩ : BufTy).Contents (Elt F) → (⟨S4096x27, .f32⟩ : BufTy).Contents (Elt F)),
    unary main_v80 main_v81 (Host.sin : (⟨S4096x27, .f32⟩ : BufTy).Contents (Elt F) → (⟨S4096x27, .f32⟩ : BufTy).Contents (Elt F)),
    binary main_v78 main_v81 main_v82 (mulf : (⟨S4096x27, .f32⟩ : BufTy).Contents (Elt F) → (⟨S4096x27, .f32⟩ : BufTy).Contents (Elt F) → (⟨S4096x27, .f32⟩ : BufTy).Contents (Elt F)),
    binary main_v66 main_v82 main_v83 (mulf : (⟨S4096x27, .f32⟩ : BufTy).Contents (Elt F) → (⟨S4096x27, .f32⟩ : BufTy).Contents (Elt F) → (⟨S4096x27, .f32⟩ : BufTy).Contents (Elt F)) ]

theorem ops_2_sub : (ops_2 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_2_fresh : ∀ op ∈ (ops_2 : List (HloOp τ sig (Elt F))), op.fresh = ∅ :=
  List.forall_iff_forall_mem.mp (by simp only [List.Forall]; repeat' constructor)

/-- The arrays chain 2 writes. -/
abbrev W_2 : List (Ref sig .tc) := [main_cst_20, main_v55, main_v56, main_cst_21, main_v57, main_v58, main_v59, main_cst_22, main_v60, main_v61, main_v62, main_cst_23, main_v63, main_cst_24, main_v64, main_v65, main_v66, main_v67, main_v68, main_cst_25, main_v69, main_v70, main_cst_26, main_call2_v0, main_call2_v1, main_v71, main_v72, main_cst_27, main_v73, main_cst_28, main_v74, main_v75, main_v76, main_cst_29, main_v77, main_v78, main_cst_30, main_v79, main_v80, main_v81, main_v82, main_v83]

theorem ops_2_writes : (ops_2 : List (HloOp τ sig (Elt F))).Forall fun op =>
    op.writes ⊆ (W_2.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 2's array after the chain is its value of the position array. -/
theorem val_2 (x0 : (⟨S4096x27x3, .f32⟩ : BufTy).Contents (Elt F)) (x1 : (⟨S16x16x30, .f32⟩ : BufTy).Contents (Elt F))
    (V : Valuation τ sig (Elt F)) (h : Good x0 x1 2 V) :
    after ops_2 V (Proc.devRef .tc main_v83) = val_main_v83 (F := F) x0 := by
  have hr := h.r
  have hθ := h.θ
  have hφ := h.φ
  simp only [ops_2]
  after_results_simp
  try rw [hr]
  try rw [hθ]
  try rw [hφ]
  all_goals rfl

/-- The chain keeps what was in place and adds orbital 2's array. -/
theorem step_2 (x0 : (⟨S4096x27x3, .f32⟩ : BufTy).Contents (Elt F)) (x1 : (⟨S16x16x30, .f32⟩ : BufTy).Contents (Elt F))
    (V : Valuation τ sig (Elt F)) (h : Good x0 x1 2 V) : Good x0 x1 3 (after ops_2 V) where
  a0 := (after_of_writes_sub ops_2 V ops_2_writes (by decide)).trans h.a0
  a1 := (after_of_writes_sub ops_2 V ops_2_writes (by decide)).trans h.a1
  r := (after_of_writes_sub ops_2 V ops_2_writes (by decide)).trans h.r
  θ := (after_of_writes_sub ops_2 V ops_2_writes (by decide)).trans h.θ
  φ := (after_of_writes_sub ops_2 V ops_2_writes (by decide)).trans h.φ
  res := by
    intro j hj
    fin_cases j
    · exact (after_of_writes_sub ops_2 V ops_2_writes (by decide)).trans (h.res 0 (by decide))
    · exact (after_of_writes_sub ops_2 V ops_2_writes (by decide)).trans (h.res 1 (by decide))
    · exact val_2 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk03.lean ====
/-
  Orbital chain 3 of the reference: the 37 operations that compute orbital 3's array on the 4096 × 27 grid from the
  coordinate arrays r, θ, φ alone, ending at main_v108.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 3, in program order. -/
abbrev ops_3 : List (HloOp τ sig (Elt F)) :=
  [ nullary main_cst_31 (constant S_ .f32 0x3F800000#32),
    unary main_cst_31 main_v84 (broadcastInDim S4096x27 ![] bcast_S_S4096x27 : (⟨S_, .f32⟩ : BufTy).Contents (Elt F) → (⟨S4096x27, .f32⟩ : BufTy).Contents (Elt F)),
    binary main_v84 main_v1 main_v85 (mulf : (⟨S4096x27, .f32⟩ : BufTy).Contents (Elt F) → (⟨S4096x27, .f32⟩ : BufTy).Contents (Elt F) → (⟨S4096x27, .f32⟩ : BufTy).Contents (Elt F)),
    nullary main_cst_32 (constant S_ .f32 0xBF000000#32),
    unary main_cst_32 main_v86 (broadcastInDim S4096x27 ![] bcast_S_S4096x27 : (⟨S_, .f32⟩ : BufTy).Contents (Elt F) → (⟨S4096x27, .f32⟩ : BufTy).Contents (Elt F)),
    binary main_v86 main_v85 main_v87 (mulf : (⟨S4096x27, .f32⟩ : BufTy).Contents (Elt F) → (⟨S4096x27, .f32⟩ : BufTy).Contents (Elt F) → (⟨S4096x27, .f32⟩ : BufTy).Contents (Elt F)),
    unary main_v87 main_v88 (Host.exp : (⟨S4096x27, .f32⟩ : BufTy).Contents (Elt F) → (⟨S4096x27, .f32⟩ : BufTy).Contents (Elt F)),
    nullary main_cst_33 (constant S_ .f32 0x3E5105EC#32),
    unary main_cst_33 main_v89 (broadcastInDim S4096x27 ![] bcast_S_S4096x27 : (⟨S_, .f32⟩ : BufTy).Contents (Elt F) → (⟨S4096x27, .f32⟩ : BufTy).Contents (Elt F)),
    binary main_v89 main_v88 main_v90 (mulf : (⟨S4096x27, .f32⟩ : BufTy).Contents (Elt F) → (⟨S4096x27, .f32⟩ : BufTy).Contents (Elt F) → (⟨S4096x27, .f32⟩ : BufTy).Contents (Elt F)),
    binary main_v90 main_v85 main_v91 (mulf : (⟨S4096x27, .f32⟩ : BufTy).Contents (Elt F) → (⟨S4096x27, .f32⟩ : BufTy).Contents (Elt F) → (⟨S4096x27, .f32⟩ : BufTy).Contents (Elt F)),
    nullary main_cst_34 (constant S_ .f32 0x00000000#32),
    unary main_cst_34 main_v92 (broadcastInDim S4096x27 ![] bcast_S_S4096x27 : (⟨S_, .f32⟩ : BufTy).Contents (Elt F) → (⟨S4096x27, .f32⟩ : BufTy).Contents (Elt F)),
    nullary main_cst_35 (constant S_ .f32 0x3F800000#32),
    unary main_cst_35 main_v93 (broadcastInDim S4096x27 ![] bcast_S_S4096x27 : (⟨S_, .f32⟩ : BufTy).Contents (Elt F) → (⟨S4096x27, .f32⟩ : BufTy).Contents (Elt F)),
    binary main_v92 main_v93 main_v94 (addf : (⟨S4096x27, .f32⟩ : BufTy).Contents (Elt F) → (⟨S4096x27, .f32⟩ : BufTy).Contents (Elt F) → (⟨S4096x27, .f32⟩ : BufTy).Contents (Elt F)),
    binary main_v91 main_v94 main_v95 (mulf : (⟨S4096x27, .f32⟩ : BufTy).Contents (Elt F) → (⟨S4096x27, .f32⟩ : BufTy).Contents (Elt F) → (⟨S4096x27, .f32⟩ : BufTy).Contents (Elt F)),
    unary main_v3 main_v96 (Host.cos : (⟨S4096x27, .f32⟩ : BufTy).Contents (Elt F) → (⟨S4096x27, .f32⟩ : BufTy).Contents (Elt F)),
    binary main_v96 main_v96 main_v97 (mulf : (⟨S4096x27, .f32⟩ : BufTy).Contents (Elt F) → (⟨S4096x27, .f32⟩ : BufTy).Contents (Elt F) → (⟨S4096x27, .f32⟩ : BufTy).Contents (Elt F)),
    nullary main_cst_36 (constant S_ .f32 0x3F800000#32),
    unary main_cst_36 main_v98 (broadcastInDim S4096x27 ![] bcast_S_S4096x27 : (⟨S_, .f32⟩ : BufTy).Contents (Elt F) → (⟨S4096x27, .f32⟩ : BufTy).Contents (Elt F)),
    binary main_v98 main_v97 main_v99 (subf : (⟨S4096x27, .f32⟩ : BufTy).Contents (Elt F) → (⟨S4096x27, .f32⟩ : BufTy).Contents (Elt F) → (⟨S4096x27, .f32⟩ : BufTy).Contents (Elt F)),
    nullary main_cst_37 (constant S_ .f32 0x00000000#32),
    TRef.unary (TRef.of (T := ⟨S_, .f32⟩) main_cst_37) (TRef.of (T := ⟨S_, .f32⟩) main_call3_v0) id,
    TRef.unary (TRef.of (T := ⟨S_, .f32⟩) main_call3_v0) (TRef.of (T := ⟨S4096x27, .f32⟩) main_call3_v1) (broadcastInDim S4096x27 ![] bcast_S_S4096x27),
    TRef.binary (TRef.of (T := ⟨S4096x27, .f32⟩) main_call3_v1) (TRef.of (T := ⟨S4096x27, .f32⟩) main_v99) (TRef.of (T := ⟨S4096x27, .f32⟩) main_v100) maximumf,
    unary main_v100 main_v101 (Host.sqrt : (⟨S4096x27, .f32⟩ : BufTy).Contents (Elt F) → (⟨S4096x27, .f32⟩ : BufTy).Contents (Elt F)),
    nullary main_cst_38 (constant S_ .f32 0x3F800000#32),
    unary main_cst_38 main_v102 (broadcastInDim S4096x27 ![] bcast_S_S4096x27 : (⟨S_, .f32⟩ : BufTy).Contents (Elt F) → (⟨S4096x27, .f32⟩ : BufTy).Contents (Elt F)),
    nullary main_cst_39 (constant S_ .f32 0x3F800000#32),
    unary main_cst_39 main_v103 (broadcastInDim S4096x27 ![] bcast_S_S4096x27 : (⟨S_, .f32⟩ : BufTy).Contents (Elt F) → (⟨S4096x27, .f32⟩ : BufTy).Contents (Elt F)),
    binary main_v96 main_v103 main_v104 (mulf : (⟨S4096x27, .f32⟩ : BufTy).Contents (Elt F) → (⟨S4096x27, .f32⟩ : BufTy).Contents (Elt F) → (⟨S4096x27, .f32⟩ : BufTy).Contents (Elt F)),
    binary main_v104 main_v102 main_v105 (mulf : (⟨S4096x27, .f32⟩ : BufTy).Contents (Elt F) → (⟨S4096x27, .f32⟩ : BufTy).Contents (Elt F) → (⟨S4096x27, .f32⟩ : BufTy).Contents (Elt F)),
    nullary main_cst_40 (constant S_ .f32 0x3EFA2A1C#32),
    unary main_cst_40 main_v106 (broadcastInDim S4096x27 ![] bcast_S_S4096x27 : (⟨S_, .f32⟩ : BufTy).Contents (Elt F) → (⟨S4096x27, .f32⟩ : BufTy).Contents (Elt F)),
    binary main_v106 main_v105 main_v107 (mulf : (⟨S4096x27, .f32⟩ : BufTy).Contents (Elt F) → (⟨S4096x27, .f32⟩ : BufTy).Contents (Elt F) → (⟨S4096x27, .f32⟩ : BufTy).Contents (Elt F)),
    binary main_v95 main_v107 main_v108 (mulf : (⟨S4096x27, .f32⟩ : BufTy).Contents (Elt F) → (⟨S4096x27, .f32⟩ : BufTy).Contents (Elt F) → (⟨S4096x27, .f32⟩ : BufTy).Contents (Elt F)) ]

theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub ..⟩

theorem ops_3_fresh : ∀ op ∈ (ops_3 : List (HloOp τ sig (Elt F))), op.fresh = ∅ :=
  List.forall_iff_forall_mem.mp (by simp only [List.Forall]; repeat' constructor)

/-- The arrays chain 3 writes. -/
abbrev W_3 : List (Ref sig .tc) := [main_cst_31, main_v84, main_v85, main_cst_32, main_v86, main_v87, main_v88, main_cst_33, main_v89, main_v90, main_v91, main_cst_34, main_v92, main_cst_35, main_v93, main_v94, main_v95, main_v96, main_v97, main_cst_36, main_v98, main_v99, main_cst_37, main_call3_v0, main_call3_v1, main_v100, main_v101, main_cst_38, main_v102, main_cst_39, main_v103, main_v104, main_v105, main_cst_40, main_v106, main_v107, main_v108]

theorem ops_3_writes : (ops_3 : List (HloOp τ sig (Elt F))).Forall fun op =>
    op.writes ⊆ (W_3.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 3's array after the chain is its value of the position array. -/
theorem val_3 (x0 : (⟨S4096x27x3, .f32⟩ : BufTy).Contents (Elt F)) (x1 : (⟨S16x16x30, .f32⟩ : BufTy).Contents (Elt F))
    (V : Valuation τ sig (Elt F)) (h : Good x0 x1 3 V) :
    after ops_3 V (Proc.devRef .tc main_v108) = val_main_v108 (F := F) x0 := by
  have hr := h.r
  have hθ := h.θ
  have hφ := h.φ
  simp only [ops_3]
  after_results_simp
  try rw [hr]
  try rw [hθ]
  try rw [hφ]
  all_goals rfl

/-- The chain keeps what was in place and adds orbital 3's array. -/
theorem step_3 (x0 : (⟨S4096x27x3, .f32⟩ : BufTy).Contents (Elt F)) (x1 : (⟨S16x16x30, .f32⟩ : BufTy).Contents (Elt F))
    (V : Valuation τ sig (Elt F)) (h : Good x0 x1 3 V) : Good x0 x1 4 (after ops_3 V) where
  a0 := (after_of_writes_sub ops_3 V ops_3_writes (by decide)).trans h.a0
  a1 := (after_of_writes_sub ops_3 V ops_3_writes (by decide)).trans h.a1
  r := (after_of_writes_sub ops_3 V ops_3_writes (by decide)).trans h.r
  θ := (after_of_writes_sub ops_3 V ops_3_writes (by decide)).trans h.θ
  φ := (after_of_writes_sub ops_3 V ops_3_writes (by decide)).trans h.φ
  res := by
    intro j hj
    fin_cases j
    · exact (after_of_writes_sub ops_3 V ops_3_writes (by decide)).trans (h.res 0 (by decide))
    · exact (after_of_writes_sub ops_3 V ops_3_writes (by decide)).trans (h.res 1 (by decide))
    · exact (after_of_writes_sub ops_3 V ops_3_writes (by decide)).trans (h.res 2 (by decide))
    · exact val_3 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk04.lean ====
/-
  Orbital chain 4 of the reference: the 42 operations that compute orbital 4's array on the 4096 × 27 grid from the
  coordinate arrays r, θ, φ alone, ending at main_v137.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 4, in program order. -/
abbrev ops_4 : List (HloOp τ sig (Elt F)) :=
  [ nullary main_cst_41 (constant S_ .f32 0x3F800000#32),
    unary main_cst_41 main_v109 (broadcastInDim S4096x27 ![] bcast_S_S4096x27 : (⟨S_, .f32⟩ : BufTy).Contents (Elt F) → (⟨S4096x27, .f32⟩ : BufTy).Contents (Elt F)),
    binary main_v109 main_v1 main_v110 (mulf : (⟨S4096x27, .f32⟩ : BufTy).Contents (Elt F) → (⟨S4096x27, .f32⟩ : BufTy).Contents (Elt F) → (⟨S4096x27, .f32⟩ : BufTy).Contents (Elt F)),
    nullary main_cst_42 (constant S_ .f32 0xBF000000#32),
    unary main_cst_42 main_v111 (broadcastInDim S4096x27 ![] bcast_S_S4096x27 : (⟨S_, .f32⟩ : BufTy).Contents (Elt F) → (⟨S4096x27, .f32⟩ : BufTy).Contents (Elt F)),
    binary main_v111 main_v110 main_v112 (mulf : (⟨S4096x27, .f32⟩ : BufTy).Contents (Elt F) → (⟨S4096x27, .f32⟩ : BufTy).Contents (Elt F) → (⟨S4096x27, .f32⟩ : BufTy).Contents (Elt F)),
    unary main_v112 main_v113 (Host.exp : (⟨S4096x27, .f32⟩ : BufTy).Contents (Elt F) → (⟨S4096x27, .f32⟩ : BufTy).Contents (Elt F)),
    nullary main_cst_43 (constant S_ .f32 0x3E5105EC#32),
    unary main_cst_43 main_v114 (broadcastInDim S4096x27 ![] bcast_S_S4096x27 : (⟨S_, .f32⟩ : BufTy).Contents (Elt F) → (⟨S4096x27, .f32⟩ : BufTy).Contents (Elt F)),
    binary main_v114 main_v113 main_v115 (mulf : (⟨S4096x27, .f32⟩ : BufTy).Contents (Elt F) → (⟨S4096x27, .f32⟩ : BufTy).Contents (Elt F) → (⟨S4096x27, .f32⟩ : BufTy).Contents (Elt F)),
    binary main_v115 main_v110 main_v116 (mulf : (⟨S4096x27, .f32⟩ : BufTy).Contents (Elt F) → (⟨S4096x27, .f32⟩ : BufTy).Contents (Elt F) → (⟨S4096x27, .f32⟩ : BufTy).Contents (Elt F)),
    nullary main_cst_44 (constant S_ .f32 0x00000000#32),
    unary main_cst_44 main_v117 (broadcastInDim S4096x27 ![] bcast_S_S4096x27 : (⟨S_, .f32⟩ : BufTy).Contents (Elt F) → (⟨S4096x27, .f32⟩ : BufTy).Contents (Elt F)),
    nullary main_cst_45 (constant S_ .f32 0x3F800000#32),
    unary main_cst_45 main_v118 (broadcastInDim S4096x27 ![] bcast_S_S4096x27 : (⟨S_, .f32⟩ : BufTy).Contents (Elt F) → (⟨S4096x27, .f32⟩ : BufTy).Contents (Elt F)),
    binary main_v117 main_v118 main_v119 (addf : (⟨S4096x27, .f32⟩ : BufTy).Contents (Elt F) → (⟨S4096x27, .f32⟩ : BufTy).Contents (Elt F) → (⟨S4096x27, .f32⟩ : BufTy).Contents (Elt F)),
    binary main_v116 main_v119 main_v120 (mulf : (⟨S4096x27, .f32⟩ : BufTy).Contents (Elt F) → (⟨S4096x27, .f32⟩ : BufTy).Contents (Elt F) → (⟨S4096x27, .f32⟩ : BufTy).Contents (Elt F)),
    unary main_v3 main_v121 (Host.cos : (⟨S4096x27, .f32⟩ : BufTy).Contents (Elt F) → (⟨S4096x27, .f32⟩ : BufTy).Contents (Elt F)),
    binary main_v121 main_v121 main_v122 (mulf : (⟨S4096x27, .f32⟩ : BufTy).Contents (Elt F) → (⟨S4096x27, .f32⟩ : BufTy).Contents (Elt F) → (⟨S4096x27, .f32⟩ : BufTy).Contents (Elt F)),
    nullary main_cst_46 (constant S_ .f32 0x3F800000#32),
    unary main_cst_46 main_v123 (broadcastInDim S4096x27 ![] bcast_S_S4096x27 : (⟨S_, .f32⟩ : BufTy).Contents (Elt F) → (⟨S4096x27, .f32⟩ : BufTy).Contents (Elt F)),
    binary main_v123 main_v122 main_v124 (subf : (⟨S4096x27, .f32⟩ : BufTy).Contents (Elt F) → (⟨S4096x27, .f32⟩ : BufTy).Contents (Elt F) → (⟨S4096x27, .f32⟩ : BufTy).Contents (Elt F)),
    nullary main_cst_47 (constant S_ .f32 0x00000000#32),
    TRef.unary (TRef.of (T := ⟨S_, .f32⟩) main_cst_47) (TRef.of (T := ⟨S_, .f32⟩) main_call4_v0) id,
    TRef.unary (TRef.of (T := ⟨S_, .f32⟩) main_call4_v0) (TRef.of (T := ⟨S4096x27, .f32⟩) main_call4_v1) (broadcastInDim S4096x27 ![] bcast_S_S4096x27),
    TRef.binary (TRef.of (T := ⟨S4096x27, .f32⟩) main_call4_v1) (TRef.of (T := ⟨S4096x27, .f32⟩) main_v124) (TRef.of (T := ⟨S4096x27, .f32⟩) main_v125) maximumf,
    unary main_v125 main_v126 (Host.sqrt : (⟨S4096x27, .f32⟩ : BufTy).Contents (Elt F) → (⟨S4096x27, .f32⟩ : BufTy).Contents (Elt F)),
    nullary main_cst_48 (constant S_ .f32 0x3F800000#32),
    unary main_cst_48 main_v127 (broadcastInDim S4096x27 ![] bcast_S_S4096x27 : (⟨S_, .f32⟩ : BufTy).Contents (Elt F) → (⟨S4096x27, .f32⟩ : BufTy).Contents (Elt F)),
    nullary main_cst_49 (constant S_ .f32 0xBF800000#32),
    unary main_cst_49 main_v128 (broadcastInDim S4096x27 ![] bcast_S_S4096x27 : (⟨S_, .f32⟩ : BufTy).Contents (Elt F) → (⟨S4096x27, .f32⟩ : BufTy).Contents (Elt F)),
    binary main_v127 main_v128 main_v129 (mulf : (⟨S4096x27, .f32⟩ : BufTy).Contents (Elt F) → (⟨S4096x27, .f32⟩ : BufTy).Contents (Elt F) → (⟨S4096x27, .f32⟩ : BufTy).Contents (Elt F)),
    binary main_v129 main_v126 main_v130 (mulf : (⟨S4096x27, .f32⟩ : BufTy).Contents (Elt F) → (⟨S4096x27, .f32⟩ : BufTy).Contents (Elt F) → (⟨S4096x27, .f32⟩ : BufTy).Contents (Elt F)),
    nullary main_cst_50 (constant S_ .f32 0x3EFA2A1C#32),
    unary main_cst_50 main_v131 (broadcastInDim S4096x27 ![] bcast_S_S4096x27 : (⟨S_, .f32⟩ : BufTy).Contents (Elt F) → (⟨S4096x27, .f32⟩ : BufTy).Contents (Elt F)),
    binary main_v131 main_v130 main_v132 (mulf : (⟨S4096x27, .f32⟩ : BufTy).Contents (Elt F) → (⟨S4096x27, .f32⟩ : BufTy).Contents (Elt F) → (⟨S4096x27, .f32⟩ : BufTy).Contents (Elt F)),
    nullary main_cst_51 (constant S_ .f32 0x3F800000#32),
    unary main_cst_51 main_v133 (broadcastInDim S4096x27 ![] bcast_S_S4096x27 : (⟨S_, .f32⟩ : BufTy).Contents (Elt F) → (⟨S4096x27, .f32⟩ : BufTy).Contents (Elt F)),
    binary main_v133 main_v5 main_v134 (mulf : (⟨S4096x27, .f32⟩ : BufTy).Contents (Elt F) → (⟨S4096x27, .f32⟩ : BufTy).Contents (Elt F) → (⟨S4096x27, .f32⟩ : BufTy).Contents (Elt F)),
    unary main_v134 main_v135 (Host.cos : (⟨S4096x27, .f32⟩ : BufTy).Contents (Elt F) → (⟨S4096x27, .f32⟩ : BufTy).Contents (Elt F)),
    binary main_v132 main_v135 main_v136 (mulf : (⟨S4096x27, .f32⟩ : BufTy).Contents (Elt F) → (⟨S4096x27, .f32⟩ : BufTy).Contents (Elt F) → (⟨S4096x27, .f32⟩ : BufTy).Contents (Elt F)),
    binary main_v120 main_v136 main_v137 (mulf : (⟨S4096x27, .f32⟩ : BufTy).Contents (Elt F) → (⟨S4096x27, .f32⟩ : BufTy).Contents (Elt F) → (⟨S4096x27, .f32⟩ : BufTy).Contents (Elt F)) ]

theorem ops_4_sub : (ops_4 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_4_fresh : ∀ op ∈ (ops_4 : List (HloOp τ sig (Elt F))), op.fresh = ∅ :=
  List.forall_iff_forall_mem.mp (by simp only [List.Forall]; repeat' constructor)

/-- The arrays chain 4 writes. -/
abbrev W_4 : List (Ref sig .tc) := [main_cst_41, main_v109, main_v110, main_cst_42, main_v111, main_v112, main_v113, main_cst_43, main_v114, main_v115, main_v116, main_cst_44, main_v117, main_cst_45, main_v118, main_v119, main_v120, main_v121, main_v122, main_cst_46, main_v123, main_v124, main_cst_47, main_call4_v0, main_call4_v1, main_v125, main_v126, main_cst_48, main_v127, main_cst_49, main_v128, main_v129, main_v130, main_cst_50, main_v131, main_v132, main_cst_51, main_v133, main_v134, main_v135, main_v136, main_v137]

theorem ops_4_writes : (ops_4 : List (HloOp τ sig (Elt F))).Forall fun op =>
    op.writes ⊆ (W_4.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 4's array after the chain is its value of the position array. -/
theorem val_4 (x0 : (⟨S4096x27x3, .f32⟩ : BufTy).Contents (Elt F)) (x1 : (⟨S16x16x30, .f32⟩ : BufTy).Contents (Elt F))
    (V : Valuation τ sig (Elt F)) (h : Good x0 x1 4 V) :
    after ops_4 V (Proc.devRef .tc main_v137) = val_main_v137 (F := F) x0 := by
  have hr := h.r
  have hθ := h.θ
  have hφ := h.φ
  simp only [ops_4]
  after_results_simp
  try rw [hr]
  try rw [hθ]
  try rw [hφ]
  all_goals rfl

/-- The chain keeps what was in place and adds orbital 4's array. -/
theorem step_4 (x0 : (⟨S4096x27x3, .f32⟩ : BufTy).Contents (Elt F)) (x1 : (⟨S16x16x30, .f32⟩ : BufTy).Contents (Elt F))
    (V : Valuation τ sig (Elt F)) (h : Good x0 x1 4 V) : Good x0 x1 5 (after ops_4 V) where
  a0 := (after_of_writes_sub ops_4 V ops_4_writes (by decide)).trans h.a0
  a1 := (after_of_writes_sub ops_4 V ops_4_writes (by decide)).trans h.a1
  r := (after_of_writes_sub ops_4 V ops_4_writes (by decide)).trans h.r
  θ := (after_of_writes_sub ops_4 V ops_4_writes (by decide)).trans h.θ
  φ := (after_of_writes_sub ops_4 V ops_4_writes (by decide)).trans h.φ
  res := by
    intro j hj
    fin_cases j
    · exact (after_of_writes_sub ops_4 V ops_4_writes (by decide)).trans (h.res 0 (by decide))
    · exact (after_of_writes_sub ops_4 V ops_4_writes (by decide)).trans (h.res 1 (by decide))
    · exact (after_of_writes_sub ops_4 V ops_4_writes (by decide)).trans (h.res 2 (by decide))
    · exact (after_of_writes_sub ops_4 V ops_4_writes (by decide)).trans (h.res 3 (by decide))
    · exact val_4 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk05.lean ====
/-
  Orbital chain 5 of the reference: the 43 operations that compute orbital 5's array on the 4096 × 27 grid from the
  coordinate arrays r, θ, φ alone, ending at main_v166.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 5, in program order. -/
abbrev ops_5 : List (HloOp τ sig (Elt F)) :=
  [ nullary main_cst_52 (constant S_ .f32 0x3F2AAAAB#32),
    unary main_cst_52 main_v138 (broadcastInDim S4096x27 ![] bcast_S_S4096x27 : (⟨S_, .f32⟩ : BufTy).Contents (Elt F) → (⟨S4096x27, .f32⟩ : BufTy).Contents (Elt F)),
    binary main_v138 main_v1 main_v139 (mulf : (⟨S4096x27, .f32⟩ : BufTy).Contents (Elt F) → (⟨S4096x27, .f32⟩ : BufTy).Contents (Elt F) → (⟨S4096x27, .f32⟩ : BufTy).Contents (Elt F)),
    nullary main_cst_53 (constant S_ .f32 0xBF000000#32),
    unary main_cst_53 main_v140 (broadcastInDim S4096x27 ![] bcast_S_S4096x27 : (⟨S_, .f32⟩ : BufTy).Contents (Elt F) → (⟨S4096x27, .f32⟩ : BufTy).Contents (Elt F)),
    binary main_v140 main_v139 main_v141 (mulf : (⟨S4096x27, .f32⟩ : BufTy).Contents (Elt F) → (⟨S4096x27, .f32⟩ : BufTy).Contents (Elt F) → (⟨S4096x27, .f32⟩ : BufTy).Contents (Elt F)),
    unary main_v141 main_v142 (Host.exp : (⟨S4096x27, .f32⟩ : BufTy).Contents (Elt F) → (⟨S4096x27, .f32⟩ : BufTy).Contents (Elt F)),
    nullary main_cst_54 (constant S_ .f32 0x3E036117#32),
    unary main_cst_54 main_v143 (broadcastInDim S4096x27 ![] bcast_S_S4096x27 : (⟨S_, .f32⟩ : BufTy).Contents (Elt F) → (⟨S4096x27, .f32⟩ : BufTy).Contents (Elt F)),
    binary main_v143 main_v142 main_v144 (mulf : (⟨S4096x27, .f32⟩ : BufTy).Contents (Elt F) → (⟨S4096x27, .f32⟩ : BufTy).Contents (Elt F) → (⟨S4096x27, .f32⟩ : BufTy).Contents (Elt F)),
    nullary main_cst_55 (constant S_ .f32 0x3F800000#32),
    unary main_cst_55 main_v145 (broadcastInDim S4096x27 ![] bcast_S_S4096x27 : (⟨S_, .f32⟩ : BufTy).Contents (Elt F) → (⟨S4096x27, .f32⟩ : BufTy).Contents (Elt F)),
    binary main_v144 main_v145 main_v146 (mulf : (⟨S4096x27, .f32⟩ : BufTy).Contents (Elt F) → (⟨S4096x27, .f32⟩ : BufTy).Contents (Elt F) → (⟨S4096x27, .f32⟩ : BufTy).Contents (Elt F)),
    nullary main_cst_56 (constant S_ .f32 0x00000000#32),
    unary main_cst_56 main_v147 (broadcastInDim S4096x27 ![] bcast_S_S4096x27 : (⟨S_, .f32⟩ : BufTy).Contents (Elt F) → (⟨S4096x27, .f32⟩ : BufTy).Contents (Elt F)),
    nullary main_cst_57 (constant S_ .f32 0x3F000000#32),
    unary main_cst_57 main_v148 (broadcastInDim S4096x27 ![] bcast_S_S4096x27 : (⟨S_, .f32⟩ : BufTy).Contents (Elt F) → (⟨S4096x27, .f32⟩ : BufTy).Contents (Elt F)),
    binary main_v147 main_v148 main_v149 (addf : (⟨S4096x27, .f32⟩ : BufTy).Contents (Elt F) → (⟨S4096x27, .f32⟩ : BufTy).Contents (Elt F) → (⟨S4096x27, .f32⟩ : BufTy).Contents (Elt F)),
    binary main_v149 main_v139 main_v150 (mulf : (⟨S4096x27, .f32⟩ : BufTy).Contents (Elt F) → (⟨S4096x27, .f32⟩ : BufTy).Contents (Elt F) → (⟨S4096x27, .f32⟩ : BufTy).Contents (Elt F)),
    nullary main_cst_58 (constant S_ .f32 0xC0400000#32),
    unary main_cst_58 main_v151 (broadcastInDim S4096x27 ![] bcast_S_S4096x27 : (⟨S_, .f32⟩ : BufTy).Contents (Elt F) → (⟨S4096x27, .f32⟩ : BufTy).Contents (Elt F)),
    binary main_v150 main_v151 main_v152 (addf : (⟨S4096x27, .f32⟩ : BufTy).Contents (Elt F) → (⟨S4096x27, .f32⟩ : BufTy).Contents (Elt F) → (⟨S4096x27, .f32⟩ : BufTy).Contents (Elt F)),
    binary main_v152 main_v139 main_v153 (mulf : (⟨S4096x27, .f32⟩ : BufTy).Contents (Elt F) → (⟨S4096x27, .f32⟩ : BufTy).Contents (Elt F) → (⟨S4096x27, .f32⟩ : BufTy).Contents (Elt F)),
    nullary main_cst_59 (constant S_ .f32 0x40400000#32),
    unary main_cst_59 main_v154 (broadcastInDim S4096x27 ![] bcast_S_S4096x27 : (⟨S_, .f32⟩ : BufTy).Contents (Elt F) → (⟨S4096x27, .f32⟩ : BufTy).Contents (Elt F)),
    binary main_v153 main_v154 main_v155 (addf : (⟨S4096x27, .f32⟩ : BufTy).Contents (Elt F) → (⟨S4096x27, .f32⟩ : BufTy).Contents (Elt F) → (⟨S4096x27, .f32⟩ : BufTy).Contents (Elt F)),
    binary main_v146 main_v155 main_v156 (mulf : (⟨S4096x27, .f32⟩ : BufTy).Contents (Elt F) → (⟨S4096x27, .f32⟩ : BufTy).Contents (Elt F) → (⟨S4096x27, .f32⟩ : BufTy).Contents (Elt F)),
    unary main_v3 main_v157 (Host.cos : (⟨S4096x27, .f32⟩ : BufTy).Contents (Elt F) → (⟨S4096x27, .f32⟩ : BufTy).Contents (Elt F)),
    binary main_v157 main_v157 main_v158 (mulf : (⟨S4096x27, .f32⟩ : BufTy).Contents (Elt F) → (⟨S4096x27, .f32⟩ : BufTy).Contents (Elt F) → (⟨S4096x27, .f32⟩ : BufTy).Contents (Elt F)),
    nullary main_cst_60 (constant S_ .f32 0x3F800000#32),
    unary main_cst_60 main_v159 (broadcastInDim S4096x27 ![] bcast_S_S4096x27 : (⟨S_, .f32⟩ : BufTy).Contents (Elt F) → (⟨S4096x27, .f32⟩ : BufTy).Contents (Elt F)),
    binary main_v159 main_v158 main_v160 (subf : (⟨S4096x27, .f32⟩ : BufTy).Contents (Elt F) → (⟨S4096x27, .f32⟩ : BufTy).Contents (Elt F) → (⟨S4096x27, .f32⟩ : BufTy).Contents (Elt F)),
    nullary main_cst_61 (constant S_ .f32 0x00000000#32),
    TRef.unary (TRef.of (T := ⟨S_, .f32⟩) main_cst_61) (TRef.of (T := ⟨S_, .f32⟩) main_call5_v0) id,
    TRef.unary (TRef.of (T := ⟨S_, .f32⟩) main_call5_v0) (TRef.of (T := ⟨S4096x27, .f32⟩) main_call5_v1) (broadcastInDim S4096x27 ![] bcast_S_S4096x27),
    TRef.binary (TRef.of (T := ⟨S4096x27, .f32⟩) main_call5_v1) (TRef.of (T := ⟨S4096x27, .f32⟩) main_v160) (TRef.of (T := ⟨S4096x27, .f32⟩) main_v161) maximumf,
    unary main_v161 main_v162 (Host.sqrt : (⟨S4096x27, .f32⟩ : BufTy).Contents (Elt F) → (⟨S4096x27, .f32⟩ : BufTy).Contents (Elt F)),
    nullary main_cst_62 (constant S_ .f32 0x3F800000#32),
    unary main_cst_62 main_v163 (broadcastInDim S4096x27 ![] bcast_S_S4096x27 : (⟨S_, .f32⟩ : BufTy).Contents (Elt F) → (⟨S4096x27, .f32⟩ : BufTy).Contents (Elt F)),
    nullary main_cst_63 (constant S_ .f32 0x3E906EBB#32),
    unary main_cst_63 main_v164 (broadcastInDim S4096x27 ![] bcast_S_S4096x27 : (⟨S_, .f32⟩ : BufTy).Contents (Elt F) → (⟨S4096x27, .f32⟩ : BufTy).Contents (Elt F)),
    binary main_v164 main_v163 main_v165 (mulf : (⟨S4096x27, .f32⟩ : BufTy).Contents (Elt F) → (⟨S4096x27, .f32⟩ : BufTy).Contents (Elt F) → (⟨S4096x27, .f32⟩ : BufTy).Contents (Elt F)),
    binary main_v156 main_v165 main_v166 (mulf : (⟨S4096x27, .f32⟩ : BufTy).Contents (Elt F) → (⟨S4096x27, .f32⟩ : BufTy).Contents (Elt F) → (⟨S4096x27, .f32⟩ : BufTy).Contents (Elt F)) ]

theorem ops_5_sub : (ops_5 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub ..⟩

theorem ops_5_fresh : ∀ op ∈ (ops_5 : List (HloOp τ sig (Elt F))), op.fresh = ∅ :=
  List.forall_iff_forall_mem.mp (by simp only [List.Forall]; repeat' constructor)

/-- The arrays chain 5 writes. -/
abbrev W_5 : List (Ref sig .tc) := [main_cst_52, main_v138, main_v139, main_cst_53, main_v140, main_v141, main_v142, main_cst_54, main_v143, main_v144, main_cst_55, main_v145, main_v146, main_cst_56, main_v147, main_cst_57, main_v148, main_v149, main_v150, main_cst_58, main_v151, main_v152, main_v153, main_cst_59, main_v154, main_v155, main_v156, main_v157, main_v158, main_cst_60, main_v159, main_v160, main_cst_61, main_call5_v0, main_call5_v1, main_v161, main_v162, main_cst_62, main_v163, main_cst_63, main_v164, main_v165, main_v166]

theorem ops_5_writes : (ops_5 : List (HloOp τ sig (Elt F))).Forall fun op =>
    op.writes ⊆ (W_5.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 5's array after the chain is its value of the position array. -/
theorem val_5 (x0 : (⟨S4096x27x3, .f32⟩ : BufTy).Contents (Elt F)) (x1 : (⟨S16x16x30, .f32⟩ : BufTy).Contents (Elt F))
    (V : Valuation τ sig (Elt F)) (h : Good x0 x1 5 V) :
    after ops_5 V (Proc.devRef .tc main_v166) = val_main_v166 (F := F) x0 := by
  have hr := h.r
  have hθ := h.θ
  have hφ := h.φ
  simp only [ops_5]
  after_results_simp
  try rw [hr]
  try rw [hθ]
  try rw [hφ]
  all_goals rfl

/-- The chain keeps what was in place and adds orbital 5's array. -/
theorem step_5 (x0 : (⟨S4096x27x3, .f32⟩ : BufTy).Contents (Elt F)) (x1 : (⟨S16x16x30, .f32⟩ : BufTy).Contents (Elt F))
    (V : Valuation τ sig (Elt F)) (h : Good x0 x1 5 V) : Good x0 x1 6 (after ops_5 V) where
  a0 := (after_of_writes_sub ops_5 V ops_5_writes (by decide)).trans h.a0
  a1 := (after_of_writes_sub ops_5 V ops_5_writes (by decide)).trans h.a1
  r := (after_of_writes_sub ops_5 V ops_5_writes (by decide)).trans h.r
  θ := (after_of_writes_sub ops_5 V ops_5_writes (by decide)).trans h.θ
  φ := (after_of_writes_sub ops_5 V ops_5_writes (by decide)).trans h.φ
  res := by
    intro j hj
    fin_cases j
    · exact (after_of_writes_sub ops_5 V ops_5_writes (by decide)).trans (h.res 0 (by decide))
    · exact (after_of_writes_sub ops_5 V ops_5_writes (by decide)).trans (h.res 1 (by decide))
    · exact (after_of_writes_sub ops_5 V ops_5_writes (by decide)).trans (h.res 2 (by decide))
    · exact (after_of_writes_sub ops_5 V ops_5_writes (by decide)).trans (h.res 3 (by decide))
    · exact (after_of_writes_sub ops_5 V ops_5_writes (by decide)).trans (h.res 4 (by decide))
    · exact val_5 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk06.lean ====
/-
  Orbital chain 6 of the reference: the 46 operations that compute orbital 6's array on the 4096 × 27 grid from the
  coordinate arrays r, θ, φ alone, ending at main_v198.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 6, in program order. -/
abbrev ops_6 : List (HloOp τ sig (Elt F)) :=
  [ nullary main_cst_64 (constant S_ .f32 0x3F2AAAAB#32),
    unary main_cst_64 main_v167 (broadcastInDim S4096x27 ![] bcast_S_S4096x27 : (⟨S_, .f32⟩ : BufTy).Contents (Elt F) → (⟨S4096x27, .f32⟩ : BufTy).Contents (Elt F)),
    binary main_v167 main_v1 main_v168 (mulf : (⟨S4096x27, .f32⟩ : BufTy).Contents (Elt F) → (⟨S4096x27, .f32⟩ : BufTy).Contents (Elt F) → (⟨S4096x27, .f32⟩ : BufTy).Contents (Elt F)),
    nullary main_cst_65 (constant S_ .f32 0xBF000000#32),
    unary main_cst_65 main_v169 (broadcastInDim S4096x27 ![] bcast_S_S4096x27 : (⟨S_, .f32⟩ : BufTy).Contents (Elt F) → (⟨S4096x27, .f32⟩ : BufTy).Contents (Elt F)),
    binary main_v169 main_v168 main_v170 (mulf : (⟨S4096x27, .f32⟩ : BufTy).Contents (Elt F) → (⟨S4096x27, .f32⟩ : BufTy).Contents (Elt F) → (⟨S4096x27, .f32⟩ : BufTy).Contents (Elt F)),
    unary main_v170 main_v171 (Host.exp : (⟨S4096x27, .f32⟩ : BufTy).Contents (Elt F) → (⟨S4096x27, .f32⟩ : BufTy).Contents (Elt F)),
    nullary main_cst_66 (constant S_ .f32 0x3D39CC60#32),
    unary main_cst_66 main_v172 (broadcastInDim S4096x27 ![] bcast_S_S4096x27 : (⟨S_, .f32⟩ : BufTy).Contents (Elt F) → (⟨S4096x27, .f32⟩ : BufTy).Contents (Elt F)),
    binary main_v172 main_v171 main_v173 (mulf : (⟨S4096x27, .f32⟩ : BufTy).Contents (Elt F) → (⟨S4096x27, .f32⟩ : BufTy).Contents (Elt F) → (⟨S4096x27, .f32⟩ : BufTy).Contents (Elt F)),
    binary main_v173 main_v168 main_v174 (mulf : (⟨S4096x27, .f32⟩ : BufTy).Contents (Elt F) → (⟨S4096x27, .f32⟩ : BufTy).Contents (Elt F) → (⟨S4096x27, .f32⟩ : BufTy).Contents (Elt F)),
    nullary main_cst_67 (constant S_ .f32 0x00000000#32),
    unary main_cst_67 main_v175 (broadcastInDim S4096x27 ![] bcast_S_S4096x27 : (⟨S_, .f32⟩ : BufTy).Contents (Elt F) → (⟨S4096x27, .f32⟩ : BufTy).Contents (Elt F)),
    nullary main_cst_68 (constant S_ .f32 0xBF800000#32),
    unary main_cst_68 main_v176 (broadcastInDim S4096x27 ![] bcast_S_S4096x27 : (⟨S_, .f32⟩ : BufTy).Contents (Elt F) → (⟨S4096x27, .f32⟩ : BufTy).Contents (Elt F)),
    binary main_v175 main_v176 main_v177 (addf : (⟨S4096x27, .f32⟩ : BufTy).Contents (Elt F) → (⟨S4096x27, .f32⟩ : BufTy).Contents (Elt F) → (⟨S4096x27, .f32⟩ : BufTy).Contents (Elt F)),
    binary main_v177 main_v168 main_v178 (mulf : (⟨S4096x27, .f32⟩ : BufTy).Contents (Elt F) → (⟨S4096x27, .f32⟩ : BufTy).Contents (Elt F) → (⟨S4096x27, .f32⟩ : BufTy).Contents (Elt F)),
    nullary main_cst_69 (constant S_ .f32 0x40800000#32),
    unary main_cst_69 main_v179 (broadcastInDim S4096x27 ![] bcast_S_S4096x27 : (⟨S_, .f32⟩ : BufTy).Contents (Elt F) → (⟨S4096x27, .f32⟩ : BufTy).Contents (Elt F)),
    binary main_v178 main_v179 main_v180 (addf : (⟨S4096x27, .f32⟩ : BufTy).Contents (Elt F) → (⟨S4096x27, .f32⟩ : BufTy).Contents (Elt F) → (⟨S4096x27, .f32⟩ : BufTy).Contents (Elt F)),
    binary main_v174 main_v180 main_v181 (mulf : (⟨S4096x27, .f32⟩ : BufTy).Contents (Elt F) → (⟨S4096x27, .f32⟩ : BufTy).Contents (Elt F) → (⟨S4096x27, .f32⟩ : BufTy).Contents (Elt F)),
    unary main_v3 main_v182 (Host.cos : (⟨S4096x27, .f32⟩ : BufTy).Contents (Elt F) → (⟨S4096x27, .f32⟩ : BufTy).Contents (Elt F)),
    binary main_v182 main_v182 main_v183 (mulf : (⟨S4096x27, .f32⟩ : BufTy).Contents (Elt F) → (⟨S4096x27, .f32⟩ : BufTy).Contents (Elt F) → (⟨S4096x27, .f32⟩ : BufTy).Contents (Elt F)),
    nullary main_cst_70 (constant S_ .f32 0x3F800000#32),
    unary main_cst_70 main_v184 (broadcastInDim S4096x27 ![] bcast_S_S4096x27 : (⟨S_, .f32⟩ : BufTy).Contents (Elt F) → (⟨S4096x27, .f32⟩ : BufTy).Contents (Elt F)),
    binary main_v184 main_v183 main_v185 (subf : (⟨S4096x27, .f32⟩ : BufTy).Contents (Elt F) → (⟨S4096x27, .f32⟩ : BufTy).Contents (Elt F) → (⟨S4096x27, .f32⟩ : BufTy).Contents (Elt F)),
    nullary main_cst_71 (constant S_ .f32 0x00000000#32),
    TRef.unary (TRef.of (T := ⟨S_, .f32⟩) main_cst_71) (TRef.of (T := ⟨S_, .f32⟩) main_call6_v0) id,
    TRef.unary (TRef.of (T := ⟨S_, .f32⟩) main_call6_v0) (TRef.of (T := ⟨S4096x27, .f32⟩) main_call6_v1) (broadcastInDim S4096x27 ![] bcast_S_S4096x27),
    TRef.binary (TRef.of (T := ⟨S4096x27, .f32⟩) main_call6_v1) (TRef.of (T := ⟨S4096x27, .f32⟩) main_v185) (TRef.of (T := ⟨S4096x27, .f32⟩) main_v186) maximumf,
    unary main_v186 main_v187 (Host.sqrt : (⟨S4096x27, .f32⟩ : BufTy).Contents (Elt F) → (⟨S4096x27, .f32⟩ : BufTy).Contents (Elt F)),
    nullary main_cst_72 (constant S_ .f32 0x3F800000#32),
    unary main_cst_72 main_v188 (broadcastInDim S4096x27 ![] bcast_S_S4096x27 : (⟨S_, .f32⟩ : BufTy).Contents (Elt F) → (⟨S4096x27, .f32⟩ : BufTy).Contents (Elt F)),
    nullary main_cst_73 (constant S_ .f32 0xBF800000#32),
    unary main_cst_73 main_v189 (broadcastInDim S4096x27 ![] bcast_S_S4096x27 : (⟨S_, .f32⟩ : BufTy).Contents (Elt F) → (⟨S4096x27, .f32⟩ : BufTy).Contents (Elt F)),
    binary main_v188 main_v189 main_v190 (mulf : (⟨S4096x27, .f32⟩ : BufTy).Contents (Elt F) → (⟨S4096x27, .f32⟩ : BufTy).Contents (Elt F) → (⟨S4096x27, .f32⟩ : BufTy).Contents (Elt F)),
    binary main_v190 main_v187 main_v191 (mulf : (⟨S4096x27, .f32⟩ : BufTy).Contents (Elt F) → (⟨S4096x27, .f32⟩ : BufTy).Contents (Elt F) → (⟨S4096x27, .f32⟩ : BufTy).Contents (Elt F)),
    nullary main_cst_74 (constant S_ .f32 0x3EFA2A1C#32),
    unary main_cst_74 main_v192 (broadcastInDim S4096x27 ![] bcast_S_S4096x27 : (⟨S_, .f32⟩ : BufTy).Contents (Elt F) → (⟨S4096x27, .f32⟩ : BufTy).Contents (Elt F)),
    binary main_v192 main_v191 main_v193 (mulf : (⟨S4096x27, .f32⟩ : BufTy).Contents (Elt F) → (⟨S4096x27, .f32⟩ : BufTy).Contents (Elt F) → (⟨S4096x27, .f32⟩ : BufTy).Contents (Elt F)),
    nullary main_cst_75 (constant S_ .f32 0x3F800000#32),
    unary main_cst_75 main_v194 (broadcastInDim S4096x27 ![] bcast_S_S4096x27 : (⟨S_, .f32⟩ : BufTy).Contents (Elt F) → (⟨S4096x27, .f32⟩ : BufTy).Contents (Elt F)),
    binary main_v194 main_v5 main_v195 (mulf : (⟨S4096x27, .f32⟩ : BufTy).Contents (Elt F) → (⟨S4096x27, .f32⟩ : BufTy).Contents (Elt F) → (⟨S4096x27, .f32⟩ : BufTy).Contents (Elt F)),
    unary main_v195 main_v196 (Host.sin : (⟨S4096x27, .f32⟩ : BufTy).Contents (Elt F) → (⟨S4096x27, .f32⟩ : BufTy).Contents (Elt F)),
    binary main_v193 main_v196 main_v197 (mulf : (⟨S4096x27, .f32⟩ : BufTy).Contents (Elt F) → (⟨S4096x27, .f32⟩ : BufTy).Contents (Elt F) → (⟨S4096x27, .f32⟩ : BufTy).Contents (Elt F)),
    binary main_v181 main_v197 main_v198 (mulf : (⟨S4096x27, .f32⟩ : BufTy).Contents (Elt F) → (⟨S4096x27, .f32⟩ : BufTy).Contents (Elt F) → (⟨S4096x27, .f32⟩ : BufTy).Contents (Elt F)) ]

theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_6_fresh : ∀ op ∈ (ops_6 : List (HloOp τ sig (Elt F))), op.fresh = ∅ :=
  List.forall_iff_forall_mem.mp (by simp only [List.Forall]; repeat' constructor)

/-- The arrays chain 6 writes. -/
abbrev W_6 : List (Ref sig .tc) := [main_cst_64, main_v167, main_v168, main_cst_65, main_v169, main_v170, main_v171, main_cst_66, main_v172, main_v173, main_v174, main_cst_67, main_v175, main_cst_68, main_v176, main_v177, main_v178, main_cst_69, main_v179, main_v180, main_v181, main_v182, main_v183, main_cst_70, main_v184, main_v185, main_cst_71, main_call6_v0, main_call6_v1, main_v186, main_v187, main_cst_72, main_v188, main_cst_73, main_v189, main_v190, main_v191, main_cst_74, main_v192, main_v193, main_cst_75, main_v194, main_v195, main_v196, main_v197, main_v198]

theorem ops_6_writes : (ops_6 : List (HloOp τ sig (Elt F))).Forall fun op =>
    op.writes ⊆ (W_6.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 6's array after the chain is its value of the position array. -/
theorem val_6 (x0 : (⟨S4096x27x3, .f32⟩ : BufTy).Contents (Elt F)) (x1 : (⟨S16x16x30, .f32⟩ : BufTy).Contents (Elt F))
    (V : Valuation τ sig (Elt F)) (h : Good x0 x1 6 V) :
    after ops_6 V (Proc.devRef .tc main_v198) = val_main_v198 (F := F) x0 := by
  have hr := h.r
  have hθ := h.θ
  have hφ := h.φ
  simp only [ops_6]
  after_results_simp
  try rw [hr]
  try rw [hθ]
  try rw [hφ]
  all_goals rfl

/-- The chain keeps what was in place and adds orbital 6's array. -/
theorem step_6 (x0 : (⟨S4096x27x3, .f32⟩ : BufTy).Contents (Elt F)) (x1 : (⟨S16x16x30, .f32⟩ : BufTy).Contents (Elt F))
    (V : Valuation τ sig (Elt F)) (h : Good x0 x1 6 V) : Good x0 x1 7 (after ops_6 V) where
  a0 := (after_of_writes_sub ops_6 V ops_6_writes (by decide)).trans h.a0
  a1 := (after_of_writes_sub ops_6 V ops_6_writes (by decide)).trans h.a1
  r := (after_of_writes_sub ops_6 V ops_6_writes (by decide)).trans h.r
  θ := (after_of_writes_sub ops_6 V ops_6_writes (by decide)).trans h.θ
  φ := (after_of_writes_sub ops_6 V ops_6_writes (by decide)).trans h.φ
  res := by
    intro j hj
    fin_cases j
    · exact (after_of_writes_sub ops_6 V ops_6_writes (by decide)).trans (h.res 0 (by decide))
    · exact (after_of_writes_sub ops_6 V ops_6_writes (by decide)).trans (h.res 1 (by decide))
    · exact (after_of_writes_sub ops_6 V ops_6_writes (by decide)).trans (h.res 2 (by decide))
    · exact (after_of_writes_sub ops_6 V ops_6_writes (by decide)).trans (h.res 3 (by decide))
    · exact (after_of_writes_sub ops_6 V ops_6_writes (by decide)).trans (h.res 4 (by decide))
    · exact (after_of_writes_sub ops_6 V ops_6_writes (by decide)).trans (h.res 5 (by decide))
    · exact val_6 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk07.lean ====
/-
  Orbital chain 7 of the reference: the 41 operations that compute orbital 7's array on the 4096 × 27 grid from the
  coordinate arrays r, θ, φ alone, ending at main_v226.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 7, in program order. -/
abbrev ops_7 : List (HloOp τ sig (Elt F)) :=
  [ nullary main_cst_76 (constant S_ .f32 0x3F2AAAAB#32),
    unary main_cst_76 main_v199 (broadcastInDim S4096x27 ![] bcast_S_S4096x27 : (⟨S_, .f32⟩ : BufTy).Contents (Elt F) → (⟨S4096x27, .f32⟩ : BufTy).Contents (Elt F)),
    binary main_v199 main_v1 main_v200 (mulf : (⟨S4096x27, .f32⟩ : BufTy).Contents (Elt F) → (⟨S4096x27, .f32⟩ : BufTy).Contents (Elt F) → (⟨S4096x27, .f32⟩ : BufTy).Contents (Elt F)),
    nullary main_cst_77 (constant S_ .f32 0xBF000000#32),
    unary main_cst_77 main_v201 (broadcastInDim S4096x27 ![] bcast_S_S4096x27 : (⟨S_, .f32⟩ : BufTy).Contents (Elt F) → (⟨S4096x27, .f32⟩ : BufTy).Contents (Elt F)),
    binary main_v201 main_v200 main_v202 (mulf : (⟨S4096x27, .f32⟩ : BufTy).Contents (Elt F) → (⟨S4096x27, .f32⟩ : BufTy).Contents (Elt F) → (⟨S4096x27, .f32⟩ : BufTy).Contents (Elt F)),
    unary main_v202 main_v203 (Host.exp : (⟨S4096x27, .f32⟩ : BufTy).Contents (Elt F) → (⟨S4096x27, .f32⟩ : BufTy).Contents (Elt F)),
    nullary main_cst_78 (constant S_ .f32 0x3D39CC60#32),
    unary main_cst_78 main_v204 (broadcastInDim S4096x27 ![] bcast_S_S4096x27 : (⟨S_, .f32⟩ : BufTy).Contents (Elt F) → (⟨S4096x27, .f32⟩ : BufTy).Contents (Elt F)),
    binary main_v204 main_v203 main_v205 (mulf : (⟨S4096x27, .f32⟩ : BufTy).Contents (Elt F) → (⟨S4096x27, .f32⟩ : BufTy).Contents (Elt F) → (⟨S4096x27, .f32⟩ : BufTy).Contents (Elt F)),
    binary main_v205 main_v200 main_v206 (mulf : (⟨S4096x27, .f32⟩ : BufTy).Contents (Elt F) → (⟨S4096x27, .f32⟩ : BufTy).Contents (Elt F) → (⟨S4096x27, .f32⟩ : BufTy).Contents (Elt F)),
    nullary main_cst_79 (constant S_ .f32 0x00000000#32),
    unary main_cst_79 main_v207 (broadcastInDim S4096x27 ![] bcast_S_S4096x27 : (⟨S_, .f32⟩ : BufTy).Contents (Elt F) → (⟨S4096x27, .f32⟩ : BufTy).Contents (Elt F)),
    nullary main_cst_80 (constant S_ .f32 0xBF800000#32),
    unary main_cst_80 main_v208 (broadcastInDim S4096x27 ![] bcast_S_S4096x27 : (⟨S_, .f32⟩ : BufTy).Contents (Elt F) → (⟨S4096x27, .f32⟩ : BufTy).Contents (Elt F)),
    binary main_v207 main_v208 main_v209 (addf : (⟨S4096x27, .f32⟩ : BufTy).Contents (Elt F) → (⟨S4096x27, .f32⟩ : BufTy).Contents (Elt F) → (⟨S4096x27, .f32⟩ : BufTy).Contents (Elt F)),
    binary main_v209 main_v200 main_v210 (mulf : (⟨S4096x27, .f32⟩ : BufTy).Contents (Elt F) → (⟨S4096x27, .f32⟩ : BufTy).Contents (Elt F) → (⟨S4096x27, .f32⟩ : BufTy).Contents (Elt F)),
    nullary main_cst_81 (constant S_ .f32 0x40800000#32),
    unary main_cst_81 main_v211 (broadcastInDim S4096x27 ![] bcast_S_S4096x27 : (⟨S_, .f32⟩ : BufTy).Contents (Elt F) → (⟨S4096x27, .f32⟩ : BufTy).Contents (Elt F)),
    binary main_v210 main_v211 main_v212 (addf : (⟨S4096x27, .f32⟩ : BufTy).Contents (Elt F) → (⟨S4096x27, .f32⟩ : BufTy).Contents (Elt F) → (⟨S4096x27, .f32⟩ : BufTy).Contents (Elt F)),
    binary main_v206 main_v212 main_v213 (mulf : (⟨S4096x27, .f32⟩ : BufTy).Contents (Elt F) → (⟨S4096x27, .f32⟩ : BufTy).Contents (Elt F) → (⟨S4096x27, .f32⟩ : BufTy).Contents (Elt F)),
    unary main_v3 main_v214 (Host.cos : (⟨S4096x27, .f32⟩ : BufTy).Contents (Elt F) → (⟨S4096x27, .f32⟩ : BufTy).Contents (Elt F)),
    binary main_v214 main_v214 main_v215 (mulf : (⟨S4096x27, .f32⟩ : BufTy).Contents (Elt F) → (⟨S4096x27, .f32⟩ : BufTy).Contents (Elt F) → (⟨S4096x27, .f32⟩ : BufTy).Contents (Elt F)),
    nullary main_cst_82 (constant S_ .f32 0x3F800000#32),
    unary main_cst_82 main_v216 (broadcastInDim S4096x27 ![] bcast_S_S4096x27 : (⟨S_, .f32⟩ : BufTy).Contents (Elt F) → (⟨S4096x27, .f32⟩ : BufTy).Contents (Elt F)),
    binary main_v216 main_v215 main_v217 (subf : (⟨S4096x27, .f32⟩ : BufTy).Contents (Elt F) → (⟨S4096x27, .f32⟩ : BufTy).Contents (Elt F) → (⟨S4096x27, .f32⟩ : BufTy).Contents (Elt F)),
    nullary main_cst_83 (constant S_ .f32 0x00000000#32),
    TRef.unary (TRef.of (T := ⟨S_, .f32⟩) main_cst_83) (TRef.of (T := ⟨S_, .f32⟩) main_call7_v0) id,
    TRef.unary (TRef.of (T := ⟨S_, .f32⟩) main_call7_v0) (TRef.of (T := ⟨S4096x27, .f32⟩) main_call7_v1) (broadcastInDim S4096x27 ![] bcast_S_S4096x27),
    TRef.binary (TRef.of (T := ⟨S4096x27, .f32⟩) main_call7_v1) (TRef.of (T := ⟨S4096x27, .f32⟩) main_v217) (TRef.of (T := ⟨S4096x27, .f32⟩) main_v218) maximumf,
    unary main_v218 main_v219 (Host.sqrt : (⟨S4096x27, .f32⟩ : BufTy).Contents (Elt F) → (⟨S4096x27, .f32⟩ : BufTy).Contents (Elt F)),
    nullary main_cst_84 (constant S_ .f32 0x3F800000#32),
    unary main_cst_84 main_v220 (broadcastInDim S4096x27 ![] bcast_S_S4096x27 : (⟨S_, .f32⟩ : BufTy).Contents (Elt F) → (⟨S4096x27, .f32⟩ : BufTy).Contents (Elt F)),
    nullary main_cst_85 (constant S_ .f32 0x3F800000#32),
    unary main_cst_85 main_v221 (broadcastInDim S4096x27 ![] bcast_S_S4096x27 : (⟨S_, .f32⟩ : BufTy).Contents (Elt F) → (⟨S4096x27, .f32⟩ : BufTy).Contents (Elt F)),
    binary main_v214 main_v221 main_v222 (mulf : (⟨S4096x27, .f32⟩ : BufTy).Contents (Elt F) → (⟨S4096x27, .f32⟩ : BufTy).Contents (Elt F) → (⟨S4096x27, .f32⟩ : BufTy).Contents (Elt F)),
    binary main_v222 main_v220 main_v223 (mulf : (⟨S4096x27, .f32⟩ : BufTy).Contents (Elt F) → (⟨S4096x27, .f32⟩ : BufTy).Contents (Elt F) → (⟨S4096x27, .f32⟩ : BufTy).Contents (Elt F)),
    nullary main_cst_86 (constant S_ .f32 0x3EFA2A1C#32),
    unary main_cst_86 main_v224 (broadcastInDim S4096x27 ![] bcast_S_S4096x27 : (⟨S_, .f32⟩ : BufTy).Contents (Elt F) → (⟨S4096x27, .f32⟩ : BufTy).Contents (Elt F)),
    binary main_v224 main_v223 main_v225 (mulf : (⟨S4096x27, .f32⟩ : BufTy).Contents (Elt F) → (⟨S4096x27, .f32⟩ : BufTy).Contents (Elt F) → (⟨S4096x27, .f32⟩ : BufTy).Contents (Elt F)),
    binary main_v213 main_v225 main_v226 (mulf : (⟨S4096x27, .f32⟩ : BufTy).Contents (Elt F) → (⟨S4096x27, .f32⟩ : BufTy).Contents (Elt F) → (⟨S4096x27, .f32⟩ : BufTy).Contents (Elt F)) ]

theorem ops_7_sub : (ops_7 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub ..⟩

theorem ops_7_fresh : ∀ op ∈ (ops_7 : List (HloOp τ sig (Elt F))), op.fresh = ∅ :=
  List.forall_iff_forall_mem.mp (by simp only [List.Forall]; repeat' constructor)

/-- The arrays chain 7 writes. -/
abbrev W_7 : List (Ref sig .tc) := [main_cst_76, main_v199, main_v200, main_cst_77, main_v201, main_v202, main_v203, main_cst_78, main_v204, main_v205, main_v206, main_cst_79, main_v207, main_cst_80, main_v208, main_v209, main_v210, main_cst_81, main_v211, main_v212, main_v213, main_v214, main_v215, main_cst_82, main_v216, main_v217, main_cst_83, main_call7_v0, main_call7_v1, main_v218, main_v219, main_cst_84, main_v220, main_cst_85, main_v221, main_v222, main_v223, main_cst_86, main_v224, main_v225, main_v226]

theorem ops_7_writes : (ops_7 : List (HloOp τ sig (Elt F))).Forall fun op =>
    op.writes ⊆ (W_7.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 7's array after the chain is its value of the position array. -/
theorem val_7 (x0 : (⟨S4096x27x3, .f32⟩ : BufTy).Contents (Elt F)) (x1 : (⟨S16x16x30, .f32⟩ : BufTy).Contents (Elt F))
    (V : Valuation τ sig (Elt F)) (h : Good x0 x1 7 V) :
    after ops_7 V (Proc.devRef .tc main_v226) = val_main_v226 (F := F) x0 := by
  have hr := h.r
  have hθ := h.θ
  have hφ := h.φ
  simp only [ops_7]
  after_results_simp
  try rw [hr]
  try rw [hθ]
  try rw [hφ]
  all_goals rfl

/-- The chain keeps what was in place and adds orbital 7's array. -/
theorem step_7 (x0 : (⟨S4096x27x3, .f32⟩ : BufTy).Contents (Elt F)) (x1 : (⟨S16x16x30, .f32⟩ : BufTy).Contents (Elt F))
    (V : Valuation τ sig (Elt F)) (h : Good x0 x1 7 V) : Good x0 x1 8 (after ops_7 V) where
  a0 := (after_of_writes_sub ops_7 V ops_7_writes (by decide)).trans h.a0
  a1 := (after_of_writes_sub ops_7 V ops_7_writes (by decide)).trans h.a1
  r := (after_of_writes_sub ops_7 V ops_7_writes (by decide)).trans h.r
  θ := (after_of_writes_sub ops_7 V ops_7_writes (by decide)).trans h.θ
  φ := (after_of_writes_sub ops_7 V ops_7_writes (by decide)).trans h.φ
  res := by
    intro j hj
    fin_cases j
    · exact (after_of_writes_sub ops_7 V ops_7_writes (by decide)).trans (h.res 0 (by decide))
    · exact (after_of_writes_sub ops_7 V ops_7_writes (by decide)).trans (h.res 1 (by decide))
    · exact (after_of_writes_sub ops_7 V ops_7_writes (by decide)).trans (h.res 2 (by decide))
    · exact (after_of_writes_sub ops_7 V ops_7_writes (by decide)).trans (h.res 3 (by decide))
    · exact (after_of_writes_sub ops_7 V ops_7_writes (by decide)).trans (h.res 4 (by decide))
    · exact (after_of_writes_sub ops_7 V ops_7_writes (by decide)).trans (h.res 5 (by decide))
    · exact (after_of_writes_sub ops_7 V ops_7_writes (by decide)).trans (h.res 6 (by decide))
    · exact val_7 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk08.lean ====
/-
  Orbital chain 8 of the reference: the 46 operations that compute orbital 8's array on the 4096 × 27 grid from the
  coordinate arrays r, θ, φ alone, ending at main_v258.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 8, in program order. -/
abbrev ops_8 : List (HloOp τ sig (Elt F)) :=
  [ nullary main_cst_87 (constant S_ .f32 0x3F2AAAAB#32),
    unary main_cst_87 main_v227 (broadcastInDim S4096x27 ![] bcast_S_S4096x27 : (⟨S_, .f32⟩ : BufTy).Contents (Elt F) → (⟨S4096x27, .f32⟩ : BufTy).Contents (Elt F)),
    binary main_v227 main_v1 main_v228 (mulf : (⟨S4096x27, .f32⟩ : BufTy).Contents (Elt F) → (⟨S4096x27, .f32⟩ : BufTy).Contents (Elt F) → (⟨S4096x27, .f32⟩ : BufTy).Contents (Elt F)),
    nullary main_cst_88 (constant S_ .f32 0xBF000000#32),
    unary main_cst_88 main_v229 (broadcastInDim S4096x27 ![] bcast_S_S4096x27 : (⟨S_, .f32⟩ : BufTy).Contents (Elt F) → (⟨S4096x27, .f32⟩ : BufTy).Contents (Elt F)),
    binary main_v229 main_v228 main_v230 (mulf : (⟨S4096x27, .f32⟩ : BufTy).Contents (Elt F) → (⟨S4096x27, .f32⟩ : BufTy).Contents (Elt F) → (⟨S4096x27, .f32⟩ : BufTy).Contents (Elt F)),
    unary main_v230 main_v231 (Host.exp : (⟨S4096x27, .f32⟩ : BufTy).Contents (Elt F) → (⟨S4096x27, .f32⟩ : BufTy).Contents (Elt F)),
    nullary main_cst_89 (constant S_ .f32 0x3D39CC60#32),
    unary main_cst_89 main_v232 (broadcastInDim S4096x27 ![] bcast_S_S4096x27 : (⟨S_, .f32⟩ : BufTy).Contents (Elt F) → (⟨S4096x27, .f32⟩ : BufTy).Contents (Elt F)),
    binary main_v232 main_v231 main_v233 (mulf : (⟨S4096x27, .f32⟩ : BufTy).Contents (Elt F) → (⟨S4096x27, .f32⟩ : BufTy).Contents (Elt F) → (⟨S4096x27, .f32⟩ : BufTy).Contents (Elt F)),
    binary main_v233 main_v228 main_v234 (mulf : (⟨S4096x27, .f32⟩ : BufTy).Contents (Elt F) → (⟨S4096x27, .f32⟩ : BufTy).Contents (Elt F) → (⟨S4096x27, .f32⟩ : BufTy).Contents (Elt F)),
    nullary main_cst_90 (constant S_ .f32 0x00000000#32),
    unary main_cst_90 main_v235 (broadcastInDim S4096x27 ![] bcast_S_S4096x27 : (⟨S_, .f32⟩ : BufTy).Contents (Elt F) → (⟨S4096x27, .f32⟩ : BufTy).Contents (Elt F)),
    nullary main_cst_91 (constant S_ .f32 0xBF800000#32),
    unary main_cst_91 main_v236 (broadcastInDim S4096x27 ![] bcast_S_S4096x27 : (⟨S_, .f32⟩ : BufTy).Contents (Elt F) → (⟨S4096x27, .f32⟩ : BufTy).Contents (Elt F)),
    binary main_v235 main_v236 main_v237 (addf : (⟨S4096x27, .f32⟩ : BufTy).Contents (Elt F) → (⟨S4096x27, .f32⟩ : BufTy).Contents (Elt F) → (⟨S4096x27, .f32⟩ : BufTy).Contents (Elt F)),
    binary main_v237 main_v228 main_v238 (mulf : (⟨S4096x27, .f32⟩ : BufTy).Contents (Elt F) → (⟨S4096x27, .f32⟩ : BufTy).Contents (Elt F) → (⟨S4096x27, .f32⟩ : BufTy).Contents (Elt F)),
    nullary main_cst_92 (constant S_ .f32 0x40800000#32),
    unary main_cst_92 main_v239 (broadcastInDim S4096x27 ![] bcast_S_S4096x27 : (⟨S_, .f32⟩ : BufTy).Contents (Elt F) → (⟨S4096x27, .f32⟩ : BufTy).Contents (Elt F)),
    binary main_v238 main_v239 main_v240 (addf : (⟨S4096x27, .f32⟩ : BufTy).Contents (Elt F) → (⟨S4096x27, .f32⟩ : BufTy).Contents (Elt F) → (⟨S4096x27, .f32⟩ : BufTy).Contents (Elt F)),
    binary main_v234 main_v240 main_v241 (mulf : (⟨S4096x27, .f32⟩ : BufTy).Contents (Elt F) → (⟨S4096x27, .f32⟩ : BufTy).Contents (Elt F) → (⟨S4096x27, .f32⟩ : BufTy).Contents (Elt F)),
    unary main_v3 main_v242 (Host.cos : (⟨S4096x27, .f32⟩ : BufTy).Contents (Elt F) → (⟨S4096x27, .f32⟩ : BufTy).Contents (Elt F)),
    binary main_v242 main_v242 main_v243 (mulf : (⟨S4096x27, .f32⟩ : BufTy).Contents (Elt F) → (⟨S4096x27, .f32⟩ : BufTy).Contents (Elt F) → (⟨S4096x27, .f32⟩ : BufTy).Contents (Elt F)),
    nullary main_cst_93 (constant S_ .f32 0x3F800000#32),
    unary main_cst_93 main_v244 (broadcastInDim S4096x27 ![] bcast_S_S4096x27 : (⟨S_, .f32⟩ : BufTy).Contents (Elt F) → (⟨S4096x27, .f32⟩ : BufTy).Contents (Elt F)),
    binary main_v244 main_v243 main_v245 (subf : (⟨S4096x27, .f32⟩ : BufTy).Contents (Elt F) → (⟨S4096x27, .f32⟩ : BufTy).Contents (Elt F) → (⟨S4096x27, .f32⟩ : BufTy).Contents (Elt F)),
    nullary main_cst_94 (constant S_ .f32 0x00000000#32),
    TRef.unary (TRef.of (T := ⟨S_, .f32⟩) main_cst_94) (TRef.of (T := ⟨S_, .f32⟩) main_call8_v0) id,
    TRef.unary (TRef.of (T := ⟨S_, .f32⟩) main_call8_v0) (TRef.of (T := ⟨S4096x27, .f32⟩) main_call8_v1) (broadcastInDim S4096x27 ![] bcast_S_S4096x27),
    TRef.binary (TRef.of (T := ⟨S4096x27, .f32⟩) main_call8_v1) (TRef.of (T := ⟨S4096x27, .f32⟩) main_v245) (TRef.of (T := ⟨S4096x27, .f32⟩) main_v246) maximumf,
    unary main_v246 main_v247 (Host.sqrt : (⟨S4096x27, .f32⟩ : BufTy).Contents (Elt F) → (⟨S4096x27, .f32⟩ : BufTy).Contents (Elt F)),
    nullary main_cst_95 (constant S_ .f32 0x3F800000#32),
    unary main_cst_95 main_v248 (broadcastInDim S4096x27 ![] bcast_S_S4096x27 : (⟨S_, .f32⟩ : BufTy).Contents (Elt F) → (⟨S4096x27, .f32⟩ : BufTy).Contents (Elt F)),
    nullary main_cst_96 (constant S_ .f32 0xBF800000#32),
    unary main_cst_96 main_v249 (broadcastInDim S4096x27 ![] bcast_S_S4096x27 : (⟨S_, .f32⟩ : BufTy).Contents (Elt F) → (⟨S4096x27, .f32⟩ : BufTy).Contents (Elt F)),
    binary main_v248 main_v249 main_v250 (mulf : (⟨S4096x27, .f32⟩ : BufTy).Contents (Elt F) → (⟨S4096x27, .f32⟩ : BufTy).Contents (Elt F) → (⟨S4096x27, .f32⟩ : BufTy).Contents (Elt F)),
    binary main_v250 main_v247 main_v251 (mulf : (⟨S4096x27, .f32⟩ : BufTy).Contents (Elt F) → (⟨S4096x27, .f32⟩ : BufTy).Contents (Elt F) → (⟨S4096x27, .f32⟩ : BufTy).Contents (Elt F)),
    nullary main_cst_97 (constant S_ .f32 0x3EFA2A1C#32),
    unary main_cst_97 main_v252 (broadcastInDim S4096x27 ![] bcast_S_S4096x27 : (⟨S_, .f32⟩ : BufTy).Contents (Elt F) → (⟨S4096x27, .f32⟩ : BufTy).Contents (Elt F)),
    binary main_v252 main_v251 main_v253 (mulf : (⟨S4096x27, .f32⟩ : BufTy).Contents (Elt F) → (⟨S4096x27, .f32⟩ : BufTy).Contents (Elt F) → (⟨S4096x27, .f32⟩ : BufTy).Contents (Elt F)),
    nullary main_cst_98 (constant S_ .f32 0x3F800000#32),
    unary main_cst_98 main_v254 (broadcastInDim S4096x27 ![] bcast_S_S4096x27 : (⟨S_, .f32⟩ : BufTy).Contents (Elt F) → (⟨S4096x27, .f32⟩ : BufTy).Contents (Elt F)),
    binary main_v254 main_v5 main_v255 (mulf : (⟨S4096x27, .f32⟩ : BufTy).Contents (Elt F) → (⟨S4096x27, .f32⟩ : BufTy).Contents (Elt F) → (⟨S4096x27, .f32⟩ : BufTy).Contents (Elt F)),
    unary main_v255 main_v256 (Host.cos : (⟨S4096x27, .f32⟩ : BufTy).Contents (Elt F) → (⟨S4096x27, .f32⟩ : BufTy).Contents (Elt F)),
    binary main_v253 main_v256 main_v257 (mulf : (⟨S4096x27, .f32⟩ : BufTy).Contents (Elt F) → (⟨S4096x27, .f32⟩ : BufTy).Contents (Elt F) → (⟨S4096x27, .f32⟩ : BufTy).Contents (Elt F)),
    binary main_v241 main_v257 main_v258 (mulf : (⟨S4096x27, .f32⟩ : BufTy).Contents (Elt F) → (⟨S4096x27, .f32⟩ : BufTy).Contents (Elt F) → (⟨S4096x27, .f32⟩ : BufTy).Contents (Elt F)) ]

theorem ops_8_sub : (ops_8 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_8_fresh : ∀ op ∈ (ops_8 : List (HloOp τ sig (Elt F))), op.fresh = ∅ :=
  List.forall_iff_forall_mem.mp (by simp only [List.Forall]; repeat' constructor)

/-- The arrays chain 8 writes. -/
abbrev W_8 : List (Ref sig .tc) := [main_cst_87, main_v227, main_v228, main_cst_88, main_v229, main_v230, main_v231, main_cst_89, main_v232, main_v233, main_v234, main_cst_90, main_v235, main_cst_91, main_v236, main_v237, main_v238, main_cst_92, main_v239, main_v240, main_v241, main_v242, main_v243, main_cst_93, main_v244, main_v245, main_cst_94, main_call8_v0, main_call8_v1, main_v246, main_v247, main_cst_95, main_v248, main_cst_96, main_v249, main_v250, main_v251, main_cst_97, main_v252, main_v253, main_cst_98, main_v254, main_v255, main_v256, main_v257, main_v258]

theorem ops_8_writes : (ops_8 : List (HloOp τ sig (Elt F))).Forall fun op =>
    op.writes ⊆ (W_8.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 8's array after the chain is its value of the position array. -/
theorem val_8 (x0 : (⟨S4096x27x3, .f32⟩ : BufTy).Contents (Elt F)) (x1 : (⟨S16x16x30, .f32⟩ : BufTy).Contents (Elt F))
    (V : Valuation τ sig (Elt F)) (h : Good x0 x1 8 V) :
    after ops_8 V (Proc.devRef .tc main_v258) = val_main_v258 (F := F) x0 := by
  have hr := h.r
  have hθ := h.θ
  have hφ := h.φ
  simp only [ops_8]
  after_results_simp
  try rw [hr]
  try rw [hθ]
  try rw [hφ]
  all_goals rfl

/-- The chain keeps what was in place and adds orbital 8's array. -/
theorem step_8 (x0 : (⟨S4096x27x3, .f32⟩ : BufTy).Contents (Elt F)) (x1 : (⟨S16x16x30, .f32⟩ : BufTy).Contents (Elt F))
    (V : Valuation τ sig (Elt F)) (h : Good x0 x1 8 V) : Good x0 x1 9 (after ops_8 V) where
  a0 := (after_of_writes_sub ops_8 V ops_8_writes (by decide)).trans h.a0
  a1 := (after_of_writes_sub ops_8 V ops_8_writes (by decide)).trans h.a1
  r := (after_of_writes_sub ops_8 V ops_8_writes (by decide)).trans h.r
  θ := (after_of_writes_sub ops_8 V ops_8_writes (by decide)).trans h.θ
  φ := (after_of_writes_sub ops_8 V ops_8_writes (by decide)).trans h.φ
  res := by
    intro j hj
    fin_cases j
    · exact (after_of_writes_sub ops_8 V ops_8_writes (by decide)).trans (h.res 0 (by decide))
    · exact (after_of_writes_sub ops_8 V ops_8_writes (by decide)).trans (h.res 1 (by decide))
    · exact (after_of_writes_sub ops_8 V ops_8_writes (by decide)).trans (h.res 2 (by decide))
    · exact (after_of_writes_sub ops_8 V ops_8_writes (by decide)).trans (h.res 3 (by decide))
    · exact (after_of_writes_sub ops_8 V ops_8_writes (by decide)).trans (h.res 4 (by decide))
    · exact (after_of_writes_sub ops_8 V ops_8_writes (by decide)).trans (h.res 5 (by decide))
    · exact (after_of_writes_sub ops_8 V ops_8_writes (by decide)).trans (h.res 6 (by decide))
    · exact (after_of_writes_sub ops_8 V ops_8_writes (by decide)).trans (h.res 7 (by decide))
    · exact val_8 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk09.lean ====
/-
  Orbital chain 9 of the reference: the 47 operations that compute orbital 9's array on the 4096 × 27 grid from the
  coordinate arrays r, θ, φ alone, ending at main_v291.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 9, in program order. -/
abbrev ops_9 : List (HloOp τ sig (Elt F)) :=
  [ nullary main_cst_99 (constant S_ .f32 0x3F2AAAAB#32),
    unary main_cst_99 main_v259 (broadcastInDim S4096x27 ![] bcast_S_S4096x27 : (⟨S_, .f32⟩ : BufTy).Contents (Elt F) → (⟨S4096x27, .f32⟩ : BufTy).Contents (Elt F)),
    binary main_v259 main_v1 main_v260 (mulf : (⟨S4096x27, .f32⟩ : BufTy).Contents (Elt F) → (⟨S4096x27, .f32⟩ : BufTy).Contents (Elt F) → (⟨S4096x27, .f32⟩ : BufTy).Contents (Elt F)),
    nullary main_cst_100 (constant S_ .f32 0xBF000000#32),
    unary main_cst_100 main_v261 (broadcastInDim S4096x27 ![] bcast_S_S4096x27 : (⟨S_, .f32⟩ : BufTy).Contents (Elt F) → (⟨S4096x27, .f32⟩ : BufTy).Contents (Elt F)),
    binary main_v261 main_v260 main_v262 (mulf : (⟨S4096x27, .f32⟩ : BufTy).Contents (Elt F) → (⟨S4096x27, .f32⟩ : BufTy).Contents (Elt F) → (⟨S4096x27, .f32⟩ : BufTy).Contents (Elt F)),
    unary main_v262 main_v263 (Host.exp : (⟨S4096x27, .f32⟩ : BufTy).Contents (Elt F) → (⟨S4096x27, .f32⟩ : BufTy).Contents (Elt F)),
    nullary main_cst_101 (constant S_ .f32 0x3CA62EDE#32),
    unary main_cst_101 main_v264 (broadcastInDim S4096x27 ![] bcast_S_S4096x27 : (⟨S_, .f32⟩ : BufTy).Contents (Elt F) → (⟨S4096x27, .f32⟩ : BufTy).Contents (Elt F)),
    binary main_v264 main_v263 main_v265 (mulf : (⟨S4096x27, .f32⟩ : BufTy).Contents (Elt F) → (⟨S4096x27, .f32⟩ : BufTy).Contents (Elt F) → (⟨S4096x27, .f32⟩ : BufTy).Contents (Elt F)),
    binary main_v260 main_v260 main_v266 (mulf : (⟨S4096x27, .f32⟩ : BufTy).Contents (Elt F) → (⟨S4096x27, .f32⟩ : BufTy).Contents (Elt F) → (⟨S4096x27, .f32⟩ : BufTy).Contents (Elt F)),
    binary main_v265 main_v266 main_v267 (mulf : (⟨S4096x27, .f32⟩ : BufTy).Contents (Elt F) → (⟨S4096x27, .f32⟩ : BufTy).Contents (Elt F) → (⟨S4096x27, .f32⟩ : BufTy).Contents (Elt F)),
    nullary main_cst_102 (constant S_ .f32 0x00000000#32),
    unary main_cst_102 main_v268 (broadcastInDim S4096x27 ![] bcast_S_S4096x27 : (⟨S_, .f32⟩ : BufTy).Contents (Elt F) → (⟨S4096x27, .f32⟩ : BufTy).Contents (Elt F)),
    nullary main_cst_103 (constant S_ .f32 0x3F800000#32),
    unary main_cst_103 main_v269 (broadcastInDim S4096x27 ![] bcast_S_S4096x27 : (⟨S_, .f32⟩ : BufTy).Contents (Elt F) → (⟨S4096x27, .f32⟩ : BufTy).Contents (Elt F)),
    binary main_v268 main_v269 main_v270 (addf : (⟨S4096x27, .f32⟩ : BufTy).Contents (Elt F) → (⟨S4096x27, .f32⟩ : BufTy).Contents (Elt F) → (⟨S4096x27, .f32⟩ : BufTy).Contents (Elt F)),
    binary main_v267 main_v270 main_v271 (mulf : (⟨S4096x27, .f32⟩ : BufTy).Contents (Elt F) → (⟨S4096x27, .f32⟩ : BufTy).Contents (Elt F) → (⟨S4096x27, .f32⟩ : BufTy).Contents (Elt F)),
    unary main_v3 main_v272 (Host.cos : (⟨S4096x27, .f32⟩ : BufTy).Contents (Elt F) → (⟨S4096x27, .f32⟩ : BufTy).Contents (Elt F)),
    binary main_v272 main_v272 main_v273 (mulf : (⟨S4096x27, .f32⟩ : BufTy).Contents (Elt F) → (⟨S4096x27, .f32⟩ : BufTy).Contents (Elt F) → (⟨S4096x27, .f32⟩ : BufTy).Contents (Elt F)),
    nullary main_cst_104 (constant S_ .f32 0x3F800000#32),
    unary main_cst_104 main_v274 (broadcastInDim S4096x27 ![] bcast_S_S4096x27 : (⟨S_, .f32⟩ : BufTy).Contents (Elt F) → (⟨S4096x27, .f32⟩ : BufTy).Contents (Elt F)),
    binary main_v274 main_v273 main_v275 (subf : (⟨S4096x27, .f32⟩ : BufTy).Contents (Elt F) → (⟨S4096x27, .f32⟩ : BufTy).Contents (Elt F) → (⟨S4096x27, .f32⟩ : BufTy).Contents (Elt F)),
    nullary main_cst_105 (constant S_ .f32 0x00000000#32),
    TRef.unary (TRef.of (T := ⟨S_, .f32⟩) main_cst_105) (TRef.of (T := ⟨S_, .f32⟩) main_call9_v0) id,
    TRef.unary (TRef.of (T := ⟨S_, .f32⟩) main_call9_v0) (TRef.of (T := ⟨S4096x27, .f32⟩) main_call9_v1) (broadcastInDim S4096x27 ![] bcast_S_S4096x27),
    TRef.binary (TRef.of (T := ⟨S4096x27, .f32⟩) main_call9_v1) (TRef.of (T := ⟨S4096x27, .f32⟩) main_v275) (TRef.of (T := ⟨S4096x27, .f32⟩) main_v276) maximumf,
    unary main_v276 main_v277 (Host.sqrt : (⟨S4096x27, .f32⟩ : BufTy).Contents (Elt F) → (⟨S4096x27, .f32⟩ : BufTy).Contents (Elt F)),
    nullary main_cst_106 (constant S_ .f32 0x3F800000#32),
    unary main_cst_106 main_v278 (broadcastInDim S4096x27 ![] bcast_S_S4096x27 : (⟨S_, .f32⟩ : BufTy).Contents (Elt F) → (⟨S4096x27, .f32⟩ : BufTy).Contents (Elt F)),
    nullary main_cst_107 (constant S_ .f32 0xBF800000#32),
    unary main_cst_107 main_v279 (broadcastInDim S4096x27 ![] bcast_S_S4096x27 : (⟨S_, .f32⟩ : BufTy).Contents (Elt F) → (⟨S4096x27, .f32⟩ : BufTy).Contents (Elt F)),
    binary main_v278 main_v279 main_v280 (mulf : (⟨S4096x27, .f32⟩ : BufTy).Contents (Elt F) → (⟨S4096x27, .f32⟩ : BufTy).Contents (Elt F) → (⟨S4096x27, .f32⟩ : BufTy).Contents (Elt F)),
    binary main_v280 main_v277 main_v281 (mulf : (⟨S4096x27, .f32⟩ : BufTy).Contents (Elt F) → (⟨S4096x27, .f32⟩ : BufTy).Contents (Elt F) → (⟨S4096x27, .f32⟩ : BufTy).Contents (Elt F)),
    nullary main_cst_108 (constant S_ .f32 0xC0400000#32),
    unary main_cst_108 main_v282 (broadcastInDim S4096x27 ![] bcast_S_S4096x27 : (⟨S_, .f32⟩ : BufTy).Contents (Elt F) → (⟨S4096x27, .f32⟩ : BufTy).Contents (Elt F)),
    binary main_v281 main_v282 main_v283 (mulf : (⟨S4096x27, .f32⟩ : BufTy).Contents (Elt F) → (⟨S4096x27, .f32⟩ : BufTy).Contents (Elt F) → (⟨S4096x27, .f32⟩ : BufTy).Contents (Elt F)),
    binary main_v283 main_v277 main_v284 (mulf : (⟨S4096x27, .f32⟩ : BufTy).Contents (Elt F) → (⟨S4096x27, .f32⟩ : BufTy).Contents (Elt F) → (⟨S4096x27, .f32⟩ : BufTy).Contents (Elt F)),
    nullary main_cst_109 (constant S_ .f32 0x3E3A762B#32),
    unary main_cst_109 main_v285 (broadcastInDim S4096x27 ![] bcast_S_S4096x27 : (⟨S_, .f32⟩ : BufTy).Contents (Elt F) → (⟨S4096x27, .f32⟩ : BufTy).Contents (Elt F)),
    binary main_v285 main_v284 main_v286 (mulf : (⟨S4096x27, .f32⟩ : BufTy).Contents (Elt F) → (⟨S4096x27, .f32⟩ : BufTy).Contents (Elt F) → (⟨S4096x27, .f32⟩ : BufTy).Contents (Elt F)),
    nullary main_cst_110 (constant S_ .f32 0x40000000#32),
    unary main_cst_110 main_v287 (broadcastInDim S4096x27 ![] bcast_S_S4096x27 : (⟨S_, .f32⟩ : BufTy).Contents (Elt F) → (⟨S4096x27, .f32⟩ : BufTy).Contents (Elt F)),
    binary main_v287 main_v5 main_v288 (mulf : (⟨S4096x27, .f32⟩ : BufTy).Contents (Elt F) → (⟨S4096x27, .f32⟩ : BufTy).Contents (Elt F) → (⟨S4096x27, .f32⟩ : BufTy).Contents (Elt F)),
    unary main_v288 main_v289 (Host.sin : (⟨S4096x27, .f32⟩ : BufTy).Contents (Elt F) → (⟨S4096x27, .f32⟩ : BufTy).Contents (Elt F)),
    binary main_v286 main_v289 main_v290 (mulf : (⟨S4096x27, .f32⟩ : BufTy).Contents (Elt F) → (⟨S4096x27, .f32⟩ : BufTy).Contents (Elt F) → (⟨S4096x27, .f32⟩ : BufTy).Contents (Elt F)),
    binary main_v271 main_v290 main_v291 (mulf : (⟨S4096x27, .f32⟩ : BufTy).Contents (Elt F) → (⟨S4096x27, .f32⟩ : BufTy).Contents (Elt F) → (⟨S4096x27, .f32⟩ : BufTy).Contents (Elt F)) ]

theorem ops_9_sub : (ops_9 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_9_fresh : ∀ op ∈ (ops_9 : List (HloOp τ sig (Elt F))), op.fresh = ∅ :=
  List.forall_iff_forall_mem.mp (by simp only [List.Forall]; repeat' constructor)

/-- The arrays chain 9 writes. -/
abbrev W_9 : List (Ref sig .tc) := [main_cst_99, main_v259, main_v260, main_cst_100, main_v261, main_v262, main_v263, main_cst_101, main_v264, main_v265, main_v266, main_v267, main_cst_102, main_v268, main_cst_103, main_v269, main_v270, main_v271, main_v272, main_v273, main_cst_104, main_v274, main_v275, main_cst_105, main_call9_v0, main_call9_v1, main_v276, main_v277, main_cst_106, main_v278, main_cst_107, main_v279, main_v280, main_v281, main_cst_108, main_v282, main_v283, main_v284, main_cst_109, main_v285, main_v286, main_cst_110, main_v287, main_v288, main_v289, main_v290, main_v291]

theorem ops_9_writes : (ops_9 : List (HloOp τ sig (Elt F))).Forall fun op =>
    op.writes ⊆ (W_9.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 9's array after the chain is its value of the position array. -/
theorem val_9 (x0 : (⟨S4096x27x3, .f32⟩ : BufTy).Contents (Elt F)) (x1 : (⟨S16x16x30, .f32⟩ : BufTy).Contents (Elt F))
    (V : Valuation τ sig (Elt F)) (h : Good x0 x1 9 V) :
    after ops_9 V (Proc.devRef .tc main_v291) = val_main_v291 (F := F) x0 := by
  have hr := h.r
  have hθ := h.θ
  have hφ := h.φ
  simp only [ops_9]
  after_results_simp
  try rw [hr]
  try rw [hθ]
  try rw [hφ]
  all_goals rfl

/-- The chain keeps what was in place and adds orbital 9's array. -/
theorem step_9 (x0 : (⟨S4096x27x3, .f32⟩ : BufTy).Contents (Elt F)) (x1 : (⟨S16x16x30, .f32⟩ : BufTy).Contents (Elt F))
    (V : Valuation τ sig (Elt F)) (h : Good x0 x1 9 V) : Good x0 x1 10 (after ops_9 V) where
  a0 := (after_of_writes_sub ops_9 V ops_9_writes (by decide)).trans h.a0
  a1 := (after_of_writes_sub ops_9 V ops_9_writes (by decide)).trans h.a1
  r := (after_of_writes_sub ops_9 V ops_9_writes (by decide)).trans h.r
  θ := (after_of_writes_sub ops_9 V ops_9_writes (by decide)).trans h.θ
  φ := (after_of_writes_sub ops_9 V ops_9_writes (by decide)).trans h.φ
  res := by
    intro j hj
    fin_cases j
    · exact (after_of_writes_sub ops_9 V ops_9_writes (by decide)).trans (h.res 0 (by decide))
    · exact (after_of_writes_sub ops_9 V ops_9_writes (by decide)).trans (h.res 1 (by decide))
    · exact (after_of_writes_sub ops_9 V ops_9_writes (by decide)).trans (h.res 2 (by decide))
    · exact (after_of_writes_sub ops_9 V ops_9_writes (by decide)).trans (h.res 3 (by decide))
    · exact (after_of_writes_sub ops_9 V ops_9_writes (by decide)).trans (h.res 4 (by decide))
    · exact (after_of_writes_sub ops_9 V ops_9_writes (by decide)).trans (h.res 5 (by decide))
    · exact (after_of_writes_sub ops_9 V ops_9_writes (by decide)).trans (h.res 6 (by decide))
    · exact (after_of_writes_sub ops_9 V ops_9_writes (by decide)).trans (h.res 7 (by decide))
    · exact (after_of_writes_sub ops_9 V ops_9_writes (by decide)).trans (h.res 8 (by decide))
    · exact val_9 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk10.lean ====
/-
  Orbital chain 10 of the reference: the 47 operations that compute orbital 10's array on the 4096 × 27 grid from the
  coordinate arrays r, θ, φ alone, ending at main_v324.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 10, in program order. -/
abbrev ops_10 : List (HloOp τ sig (Elt F)) :=
  [ nullary main_cst_111 (constant S_ .f32 0x3F2AAAAB#32),
    unary main_cst_111 main_v292 (broadcastInDim S4096x27 ![] bcast_S_S4096x27 : (⟨S_, .f32⟩ : BufTy).Contents (Elt F) → (⟨S4096x27, .f32⟩ : BufTy).Contents (Elt F)),
    binary main_v292 main_v1 main_v293 (mulf : (⟨S4096x27, .f32⟩ : BufTy).Contents (Elt F) → (⟨S4096x27, .f32⟩ : BufTy).Contents (Elt F) → (⟨S4096x27, .f32⟩ : BufTy).Contents (Elt F)),
    nullary main_cst_112 (constant S_ .f32 0xBF000000#32),
    unary main_cst_112 main_v294 (broadcastInDim S4096x27 ![] bcast_S_S4096x27 : (⟨S_, .f32⟩ : BufTy).Contents (Elt F) → (⟨S4096x27, .f32⟩ : BufTy).Contents (Elt F)),
    binary main_v294 main_v293 main_v295 (mulf : (⟨S4096x27, .f32⟩ : BufTy).Contents (Elt F) → (⟨S4096x27, .f32⟩ : BufTy).Contents (Elt F) → (⟨S4096x27, .f32⟩ : BufTy).Contents (Elt F)),
    unary main_v295 main_v296 (Host.exp : (⟨S4096x27, .f32⟩ : BufTy).Contents (Elt F) → (⟨S4096x27, .f32⟩ : BufTy).Contents (Elt F)),
    nullary main_cst_113 (constant S_ .f32 0x3CA62EDE#32),
    unary main_cst_113 main_v297 (broadcastInDim S4096x27 ![] bcast_S_S4096x27 : (⟨S_, .f32⟩ : BufTy).Contents (Elt F) → (⟨S4096x27, .f32⟩ : BufTy).Contents (Elt F)),
    binary main_v297 main_v296 main_v298 (mulf : (⟨S4096x27, .f32⟩ : BufTy).Contents (Elt F) → (⟨S4096x27, .f32⟩ : BufTy).Contents (Elt F) → (⟨S4096x27, .f32⟩ : BufTy).Contents (Elt F)),
    binary main_v293 main_v293 main_v299 (mulf : (⟨S4096x27, .f32⟩ : BufTy).Contents (Elt F) → (⟨S4096x27, .f32⟩ : BufTy).Contents (Elt F) → (⟨S4096x27, .f32⟩ : BufTy).Contents (Elt F)),
    binary main_v298 main_v299 main_v300 (mulf : (⟨S4096x27, .f32⟩ : BufTy).Contents (Elt F) → (⟨S4096x27, .f32⟩ : BufTy).Contents (Elt F) → (⟨S4096x27, .f32⟩ : BufTy).Contents (Elt F)),
    nullary main_cst_114 (constant S_ .f32 0x00000000#32),
    unary main_cst_114 main_v301 (broadcastInDim S4096x27 ![] bcast_S_S4096x27 : (⟨S_, .f32⟩ : BufTy).Contents (Elt F) → (⟨S4096x27, .f32⟩ : BufTy).Contents (Elt F)),
    nullary main_cst_115 (constant S_ .f32 0x3F800000#32),
    unary main_cst_115 main_v302 (broadcastInDim S4096x27 ![] bcast_S_S4096x27 : (⟨S_, .f32⟩ : BufTy).Contents (Elt F) → (⟨S4096x27, .f32⟩ : BufTy).Contents (Elt F)),
    binary main_v301 main_v302 main_v303 (addf : (⟨S4096x27, .f32⟩ : BufTy).Contents (Elt F) → (⟨S4096x27, .f32⟩ : BufTy).Contents (Elt F) → (⟨S4096x27, .f32⟩ : BufTy).Contents (Elt F)),
    binary main_v300 main_v303 main_v304 (mulf : (⟨S4096x27, .f32⟩ : BufTy).Contents (Elt F) → (⟨S4096x27, .f32⟩ : BufTy).Contents (Elt F) → (⟨S4096x27, .f32⟩ : BufTy).Contents (Elt F)),
    unary main_v3 main_v305 (Host.cos : (⟨S4096x27, .f32⟩ : BufTy).Contents (Elt F) → (⟨S4096x27, .f32⟩ : BufTy).Contents (Elt F)),
    binary main_v305 main_v305 main_v306 (mulf : (⟨S4096x27, .f32⟩ : BufTy).Contents (Elt F) → (⟨S4096x27, .f32⟩ : BufTy).Contents (Elt F) → (⟨S4096x27, .f32⟩ : BufTy).Contents (Elt F)),
    nullary main_cst_116 (constant S_ .f32 0x3F800000#32),
    unary main_cst_116 main_v307 (broadcastInDim S4096x27 ![] bcast_S_S4096x27 : (⟨S_, .f32⟩ : BufTy).Contents (Elt F) → (⟨S4096x27, .f32⟩ : BufTy).Contents (Elt F)),
    binary main_v307 main_v306 main_v308 (subf : (⟨S4096x27, .f32⟩ : BufTy).Contents (Elt F) → (⟨S4096x27, .f32⟩ : BufTy).Contents (Elt F) → (⟨S4096x27, .f32⟩ : BufTy).Contents (Elt F)),
    nullary main_cst_117 (constant S_ .f32 0x00000000#32),
    TRef.unary (TRef.of (T := ⟨S_, .f32⟩) main_cst_117) (TRef.of (T := ⟨S_, .f32⟩) main_call10_v0) id,
    TRef.unary (TRef.of (T := ⟨S_, .f32⟩) main_call10_v0) (TRef.of (T := ⟨S4096x27, .f32⟩) main_call10_v1) (broadcastInDim S4096x27 ![] bcast_S_S4096x27),
    TRef.binary (TRef.of (T := ⟨S4096x27, .f32⟩) main_call10_v1) (TRef.of (T := ⟨S4096x27, .f32⟩) main_v308) (TRef.of (T := ⟨S4096x27, .f32⟩) main_v309) maximumf,
    unary main_v309 main_v310 (Host.sqrt : (⟨S4096x27, .f32⟩ : BufTy).Contents (Elt F) → (⟨S4096x27, .f32⟩ : BufTy).Contents (Elt F)),
    nullary main_cst_118 (constant S_ .f32 0x3F800000#32),
    unary main_cst_118 main_v311 (broadcastInDim S4096x27 ![] bcast_S_S4096x27 : (⟨S_, .f32⟩ : BufTy).Contents (Elt F) → (⟨S4096x27, .f32⟩ : BufTy).Contents (Elt F)),
    nullary main_cst_119 (constant S_ .f32 0xBF800000#32),
    unary main_cst_119 main_v312 (broadcastInDim S4096x27 ![] bcast_S_S4096x27 : (⟨S_, .f32⟩ : BufTy).Contents (Elt F) → (⟨S4096x27, .f32⟩ : BufTy).Contents (Elt F)),
    binary main_v311 main_v312 main_v313 (mulf : (⟨S4096x27, .f32⟩ : BufTy).Contents (Elt F) → (⟨S4096x27, .f32⟩ : BufTy).Contents (Elt F) → (⟨S4096x27, .f32⟩ : BufTy).Contents (Elt F)),
    binary main_v313 main_v310 main_v314 (mulf : (⟨S4096x27, .f32⟩ : BufTy).Contents (Elt F) → (⟨S4096x27, .f32⟩ : BufTy).Contents (Elt F) → (⟨S4096x27, .f32⟩ : BufTy).Contents (Elt F)),
    nullary main_cst_120 (constant S_ .f32 0x40400000#32),
    unary main_cst_120 main_v315 (broadcastInDim S4096x27 ![] bcast_S_S4096x27 : (⟨S_, .f32⟩ : BufTy).Contents (Elt F) → (⟨S4096x27, .f32⟩ : BufTy).Contents (Elt F)),
    binary main_v305 main_v315 main_v316 (mulf : (⟨S4096x27, .f32⟩ : BufTy).Contents (Elt F) → (⟨S4096x27, .f32⟩ : BufTy).Contents (Elt F) → (⟨S4096x27, .f32⟩ : BufTy).Contents (Elt F)),
    binary main_v316 main_v314 main_v317 (mulf : (⟨S4096x27, .f32⟩ : BufTy).Contents (Elt F) → (⟨S4096x27, .f32⟩ : BufTy).Contents (Elt F) → (⟨S4096x27, .f32⟩ : BufTy).Contents (Elt F)),
    nullary main_cst_121 (constant S_ .f32 0x3EBA762B#32),
    unary main_cst_121 main_v318 (broadcastInDim S4096x27 ![] bcast_S_S4096x27 : (⟨S_, .f32⟩ : BufTy).Contents (Elt F) → (⟨S4096x27, .f32⟩ : BufTy).Contents (Elt F)),
    binary main_v318 main_v317 main_v319 (mulf : (⟨S4096x27, .f32⟩ : BufTy).Contents (Elt F) → (⟨S4096x27, .f32⟩ : BufTy).Contents (Elt F) → (⟨S4096x27, .f32⟩ : BufTy).Contents (Elt F)),
    nullary main_cst_122 (constant S_ .f32 0x3F800000#32),
    unary main_cst_122 main_v320 (broadcastInDim S4096x27 ![] bcast_S_S4096x27 : (⟨S_, .f32⟩ : BufTy).Contents (Elt F) → (⟨S4096x27, .f32⟩ : BufTy).Contents (Elt F)),
    binary main_v320 main_v5 main_v321 (mulf : (⟨S4096x27, .f32⟩ : BufTy).Contents (Elt F) → (⟨S4096x27, .f32⟩ : BufTy).Contents (Elt F) → (⟨S4096x27, .f32⟩ : BufTy).Contents (Elt F)),
    unary main_v321 main_v322 (Host.sin : (⟨S4096x27, .f32⟩ : BufTy).Contents (Elt F) → (⟨S4096x27, .f32⟩ : BufTy).Contents (Elt F)),
    binary main_v319 main_v322 main_v323 (mulf : (⟨S4096x27, .f32⟩ : BufTy).Contents (Elt F) → (⟨S4096x27, .f32⟩ : BufTy).Contents (Elt F) → (⟨S4096x27, .f32⟩ : BufTy).Contents (Elt F)),
    binary main_v304 main_v323 main_v324 (mulf : (⟨S4096x27, .f32⟩ : BufTy).Contents (Elt F) → (⟨S4096x27, .f32⟩ : BufTy).Contents (Elt F) → (⟨S4096x27, .f32⟩ : BufTy).Contents (Elt F)) ]

theorem ops_10_sub : (ops_10 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_10_fresh : ∀ op ∈ (ops_10 : List (HloOp τ sig (Elt F))), op.fresh = ∅ :=
  List.forall_iff_forall_mem.mp (by simp only [List.Forall]; repeat' constructor)

/-- The arrays chain 10 writes. -/
abbrev W_10 : List (Ref sig .tc) := [main_cst_111, main_v292, main_v293, main_cst_112, main_v294, main_v295, main_v296, main_cst_113, main_v297, main_v298, main_v299, main_v300, main_cst_114, main_v301, main_cst_115, main_v302, main_v303, main_v304, main_v305, main_v306, main_cst_116, main_v307, main_v308, main_cst_117, main_call10_v0, main_call10_v1, main_v309, main_v310, main_cst_118, main_v311, main_cst_119, main_v312, main_v313, main_v314, main_cst_120, main_v315, main_v316, main_v317, main_cst_121, main_v318, main_v319, main_cst_122, main_v320, main_v321, main_v322, main_v323, main_v324]

theorem ops_10_writes : (ops_10 : List (HloOp τ sig (Elt F))).Forall fun op =>
    op.writes ⊆ (W_10.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 10's array after the chain is its value of the position array. -/
theorem val_10 (x0 : (⟨S4096x27x3, .f32⟩ : BufTy).Contents (Elt F)) (x1 : (⟨S16x16x30, .f32⟩ : BufTy).Contents (Elt F))
    (V : Valuation τ sig (Elt F)) (h : Good x0 x1 10 V) :
    after ops_10 V (Proc.devRef .tc main_v324) = val_main_v324 (F := F) x0 := by
  have hr := h.r
  have hθ := h.θ
  have hφ := h.φ
  simp only [ops_10]
  after_results_simp
  try rw [hr]
  try rw [hθ]
  try rw [hφ]
  all_goals rfl

/-- The chain keeps what was in place and adds orbital 10's array. -/
theorem step_10 (x0 : (⟨S4096x27x3, .f32⟩ : BufTy).Contents (Elt F)) (x1 : (⟨S16x16x30, .f32⟩ : BufTy).Contents (Elt F))
    (V : Valuation τ sig (Elt F)) (h : Good x0 x1 10 V) : Good x0 x1 11 (after ops_10 V) where
  a0 := (after_of_writes_sub ops_10 V ops_10_writes (by decide)).trans h.a0
  a1 := (after_of_writes_sub ops_10 V ops_10_writes (by decide)).trans h.a1
  r := (after_of_writes_sub ops_10 V ops_10_writes (by decide)).trans h.r
  θ := (after_of_writes_sub ops_10 V ops_10_writes (by decide)).trans h.θ
  φ := (after_of_writes_sub ops_10 V ops_10_writes (by decide)).trans h.φ
  res := by
    intro j hj
    fin_cases j
    · exact (after_of_writes_sub ops_10 V ops_10_writes (by decide)).trans (h.res 0 (by decide))
    · exact (after_of_writes_sub ops_10 V ops_10_writes (by decide)).trans (h.res 1 (by decide))
    · exact (after_of_writes_sub ops_10 V ops_10_writes (by decide)).trans (h.res 2 (by decide))
    · exact (after_of_writes_sub ops_10 V ops_10_writes (by decide)).trans (h.res 3 (by decide))
    · exact (after_of_writes_sub ops_10 V ops_10_writes (by decide)).trans (h.res 4 (by decide))
    · exact (after_of_writes_sub ops_10 V ops_10_writes (by decide)).trans (h.res 5 (by decide))
    · exact (after_of_writes_sub ops_10 V ops_10_writes (by decide)).trans (h.res 6 (by decide))
    · exact (after_of_writes_sub ops_10 V ops_10_writes (by decide)).trans (h.res 7 (by decide))
    · exact (after_of_writes_sub ops_10 V ops_10_writes (by decide)).trans (h.res 8 (by decide))
    · exact (after_of_writes_sub ops_10 V ops_10_writes (by decide)).trans (h.res 9 (by decide))
    · exact val_10 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk11.lean ====
/-
  Orbital chain 11 of the reference: the 49 operations that compute orbital 11's array on the 4096 × 27 grid from the
  coordinate arrays r, θ, φ alone, ending at main_v358.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 11, in program order. -/
abbrev ops_11 : List (HloOp τ sig (Elt F)) :=
  [ nullary main_cst_123 (constant S_ .f32 0x3F2AAAAB#32),
    unary main_cst_123 main_v325 (broadcastInDim S4096x27 ![] bcast_S_S4096x27 : (⟨S_, .f32⟩ : BufTy).Contents (Elt F) → (⟨S4096x27, .f32⟩ : BufTy).Contents (Elt F)),
    binary main_v325 main_v1 main_v326 (mulf : (⟨S4096x27, .f32⟩ : BufTy).Contents (Elt F) → (⟨S4096x27, .f32⟩ : BufTy).Contents (Elt F) → (⟨S4096x27, .f32⟩ : BufTy).Contents (Elt F)),
    nullary main_cst_124 (constant S_ .f32 0xBF000000#32),
    unary main_cst_124 main_v327 (broadcastInDim S4096x27 ![] bcast_S_S4096x27 : (⟨S_, .f32⟩ : BufTy).Contents (Elt F) → (⟨S4096x27, .f32⟩ : BufTy).Contents (Elt F)),
    binary main_v327 main_v326 main_v328 (mulf : (⟨S4096x27, .f32⟩ : BufTy).Contents (Elt F) → (⟨S4096x27, .f32⟩ : BufTy).Contents (Elt F) → (⟨S4096x27, .f32⟩ : BufTy).Contents (Elt F)),
    unary main_v328 main_v329 (Host.exp : (⟨S4096x27, .f32⟩ : BufTy).Contents (Elt F) → (⟨S4096x27, .f32⟩ : BufTy).Contents (Elt F)),
    nullary main_cst_125 (constant S_ .f32 0x3CA62EDE#32),
    unary main_cst_125 main_v330 (broadcastInDim S4096x27 ![] bcast_S_S4096x27 : (⟨S_, .f32⟩ : BufTy).Contents (Elt F) → (⟨S4096x27, .f32⟩ : BufTy).Contents (Elt F)),
    binary main_v330 main_v329 main_v331 (mulf : (⟨S4096x27, .f32⟩ : BufTy).Contents (Elt F) → (⟨S4096x27, .f32⟩ : BufTy).Contents (Elt F) → (⟨S4096x27, .f32⟩ : BufTy).Contents (Elt F)),
    binary main_v326 main_v326 main_v332 (mulf : (⟨S4096x27, .f32⟩ : BufTy).Contents (Elt F) → (⟨S4096x27, .f32⟩ : BufTy).Contents (Elt F) → (⟨S4096x27, .f32⟩ : BufTy).Contents (Elt F)),
    binary main_v331 main_v332 main_v333 (mulf : (⟨S4096x27, .f32⟩ : BufTy).Contents (Elt F) → (⟨S4096x27, .f32⟩ : BufTy).Contents (Elt F) → (⟨S4096x27, .f32⟩ : BufTy).Contents (Elt F)),
    nullary main_cst_126 (constant S_ .f32 0x00000000#32),
    unary main_cst_126 main_v334 (broadcastInDim S4096x27 ![] bcast_S_S4096x27 : (⟨S_, .f32⟩ : BufTy).Contents (Elt F) → (⟨S4096x27, .f32⟩ : BufTy).Contents (Elt F)),
    nullary main_cst_127 (constant S_ .f32 0x3F800000#32),
    unary main_cst_127 main_v335 (broadcastInDim S4096x27 ![] bcast_S_S4096x27 : (⟨S_, .f32⟩ : BufTy).Contents (Elt F) → (⟨S4096x27, .f32⟩ : BufTy).Contents (Elt F)),
    binary main_v334 main_v335 main_v336 (addf : (⟨S4096x27, .f32⟩ : BufTy).Contents (Elt F) → (⟨S4096x27, .f32⟩ : BufTy).Contents (Elt F) → (⟨S4096x27, .f32⟩ : BufTy).Contents (Elt F)),
    binary main_v333 main_v336 main_v337 (mulf : (⟨S4096x27, .f32⟩ : BufTy).Contents (Elt F) → (⟨S4096x27, .f32⟩ : BufTy).Contents (Elt F) → (⟨S4096x27, .f32⟩ : BufTy).Contents (Elt F)),
    unary main_v3 main_v338 (Host.cos : (⟨S4096x27, .f32⟩ : BufTy).Contents (Elt F) → (⟨S4096x27, .f32⟩ : BufTy).Contents (Elt F)),
    binary main_v338 main_v338 main_v339 (mulf : (⟨S4096x27, .f32⟩ : BufTy).Contents (Elt F) → (⟨S4096x27, .f32⟩ : BufTy).Contents (Elt F) → (⟨S4096x27, .f32⟩ : BufTy).Contents (Elt F)),
    nullary main_cst_128 (constant S_ .f32 0x3F800000#32),
    unary main_cst_128 main_v340 (broadcastInDim S4096x27 ![] bcast_S_S4096x27 : (⟨S_, .f32⟩ : BufTy).Contents (Elt F) → (⟨S4096x27, .f32⟩ : BufTy).Contents (Elt F)),
    binary main_v340 main_v339 main_v341 (subf : (⟨S4096x27, .f32⟩ : BufTy).Contents (Elt F) → (⟨S4096x27, .f32⟩ : BufTy).Contents (Elt F) → (⟨S4096x27, .f32⟩ : BufTy).Contents (Elt F)),
    nullary main_cst_129 (constant S_ .f32 0x00000000#32),
    TRef.unary (TRef.of (T := ⟨S_, .f32⟩) main_cst_129) (TRef.of (T := ⟨S_, .f32⟩) main_call11_v0) id,
    TRef.unary (TRef.of (T := ⟨S_, .f32⟩) main_call11_v0) (TRef.of (T := ⟨S4096x27, .f32⟩) main_call11_v1) (broadcastInDim S4096x27 ![] bcast_S_S4096x27),
    TRef.binary (TRef.of (T := ⟨S4096x27, .f32⟩) main_call11_v1) (TRef.of (T := ⟨S4096x27, .f32⟩) main_v341) (TRef.of (T := ⟨S4096x27, .f32⟩) main_v342) maximumf,
    unary main_v342 main_v343 (Host.sqrt : (⟨S4096x27, .f32⟩ : BufTy).Contents (Elt F) → (⟨S4096x27, .f32⟩ : BufTy).Contents (Elt F)),
    nullary main_cst_130 (constant S_ .f32 0x3F800000#32),
    unary main_cst_130 main_v344 (broadcastInDim S4096x27 ![] bcast_S_S4096x27 : (⟨S_, .f32⟩ : BufTy).Contents (Elt F) → (⟨S4096x27, .f32⟩ : BufTy).Contents (Elt F)),
    nullary main_cst_131 (constant S_ .f32 0x3F800000#32),
    unary main_cst_131 main_v345 (broadcastInDim S4096x27 ![] bcast_S_S4096x27 : (⟨S_, .f32⟩ : BufTy).Contents (Elt F) → (⟨S4096x27, .f32⟩ : BufTy).Contents (Elt F)),
    binary main_v338 main_v345 main_v346 (mulf : (⟨S4096x27, .f32⟩ : BufTy).Contents (Elt F) → (⟨S4096x27, .f32⟩ : BufTy).Contents (Elt F) → (⟨S4096x27, .f32⟩ : BufTy).Contents (Elt F)),
    binary main_v346 main_v344 main_v347 (mulf : (⟨S4096x27, .f32⟩ : BufTy).Contents (Elt F) → (⟨S4096x27, .f32⟩ : BufTy).Contents (Elt F) → (⟨S4096x27, .f32⟩ : BufTy).Contents (Elt F)),
    nullary main_cst_132 (constant S_ .f32 0x40400000#32),
    unary main_cst_132 main_v348 (broadcastInDim S4096x27 ![] bcast_S_S4096x27 : (⟨S_, .f32⟩ : BufTy).Contents (Elt F) → (⟨S4096x27, .f32⟩ : BufTy).Contents (Elt F)),
    binary main_v348 main_v338 main_v349 (mulf : (⟨S4096x27, .f32⟩ : BufTy).Contents (Elt F) → (⟨S4096x27, .f32⟩ : BufTy).Contents (Elt F) → (⟨S4096x27, .f32⟩ : BufTy).Contents (Elt F)),
    binary main_v349 main_v347 main_v350 (mulf : (⟨S4096x27, .f32⟩ : BufTy).Contents (Elt F) → (⟨S4096x27, .f32⟩ : BufTy).Contents (Elt F) → (⟨S4096x27, .f32⟩ : BufTy).Contents (Elt F)),
    nullary main_cst_133 (constant S_ .f32 0x3F800000#32),
    unary main_cst_133 main_v351 (broadcastInDim S4096x27 ![] bcast_S_S4096x27 : (⟨S_, .f32⟩ : BufTy).Contents (Elt F) → (⟨S4096x27, .f32⟩ : BufTy).Contents (Elt F)),
    binary main_v351 main_v344 main_v352 (mulf : (⟨S4096x27, .f32⟩ : BufTy).Contents (Elt F) → (⟨S4096x27, .f32⟩ : BufTy).Contents (Elt F) → (⟨S4096x27, .f32⟩ : BufTy).Contents (Elt F)),
    binary main_v350 main_v352 main_v353 (subf : (⟨S4096x27, .f32⟩ : BufTy).Contents (Elt F) → (⟨S4096x27, .f32⟩ : BufTy).Contents (Elt F) → (⟨S4096x27, .f32⟩ : BufTy).Contents (Elt F)),
    nullary main_cst_134 (constant S_ .f32 0x40000000#32),
    unary main_cst_134 main_v354 (broadcastInDim S4096x27 ![] bcast_S_S4096x27 : (⟨S_, .f32⟩ : BufTy).Contents (Elt F) → (⟨S4096x27, .f32⟩ : BufTy).Contents (Elt F)),
    binary main_v353 main_v354 main_v355 (Host.divf : (⟨S4096x27, .f32⟩ : BufTy).Contents (Elt F) → (⟨S4096x27, .f32⟩ : BufTy).Contents (Elt F) → (⟨S4096x27, .f32⟩ : BufTy).Contents (Elt F)),
    nullary main_cst_135 (constant S_ .f32 0x3F217B01#32),
    unary main_cst_135 main_v356 (broadcastInDim S4096x27 ![] bcast_S_S4096x27 : (⟨S_, .f32⟩ : BufTy).Contents (Elt F) → (⟨S4096x27, .f32⟩ : BufTy).Contents (Elt F)),
    binary main_v356 main_v355 main_v357 (mulf : (⟨S4096x27, .f32⟩ : BufTy).Contents (Elt F) → (⟨S4096x27, .f32⟩ : BufTy).Contents (Elt F) → (⟨S4096x27, .f32⟩ : BufTy).Contents (Elt F)),
    binary main_v337 main_v357 main_v358 (mulf : (⟨S4096x27, .f32⟩ : BufTy).Contents (Elt F) → (⟨S4096x27, .f32⟩ : BufTy).Contents (Elt F) → (⟨S4096x27, .f32⟩ : BufTy).Contents (Elt F)) ]

theorem ops_11_sub : (ops_11 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

theorem ops_11_fresh : ∀ op ∈ (ops_11 : List (HloOp τ sig (Elt F))), op.fresh = ∅ :=
  List.forall_iff_forall_mem.mp (by simp only [List.Forall]; repeat' constructor)

/-- The arrays chain 11 writes. -/
abbrev W_11 : List (Ref sig .tc) := [main_cst_123, main_v325, main_v326, main_cst_124, main_v327, main_v328, main_v329, main_cst_125, main_v330, main_v331, main_v332, main_v333, main_cst_126, main_v334, main_cst_127, main_v335, main_v336, main_v337, main_v338, main_v339, main_cst_128, main_v340, main_v341, main_cst_129, main_call11_v0, main_call11_v1, main_v342, main_v343, main_cst_130, main_v344, main_cst_131, main_v345, main_v346, main_v347, main_cst_132, main_v348, main_v349, main_v350, main_cst_133, main_v351, main_v352, main_v353, main_cst_134, main_v354, main_v355, main_cst_135, main_v356, main_v357, main_v358]

theorem ops_11_writes : (ops_11 : List (HloOp τ sig (Elt F))).Forall fun op =>
    op.writes ⊆ (W_11.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 11's array after the chain is its value of the position array. -/
theorem val_11 (x0 : (⟨S4096x27x3, .f32⟩ : BufTy).Contents (Elt F)) (x1 : (⟨S16x16x30, .f32⟩ : BufTy).Contents (Elt F))
    (V : Valuation τ sig (Elt F)) (h : Good x0 x1 11 V) :
    after ops_11 V (Proc.devRef .tc main_v358) = val_main_v358 (F := F) x0 := by
  have hr := h.r
  have hθ := h.θ
  have hφ := h.φ
  simp only [ops_11]
  after_results_simp
  try rw [hr]
  try rw [hθ]
  try rw [hφ]
  all_goals rfl

/-- The chain keeps what was in place and adds orbital 11's array. -/
theorem step_11 (x0 : (⟨S4096x27x3, .f32⟩ : BufTy).Contents (Elt F)) (x1 : (⟨S16x16x30, .f32⟩ : BufTy).Contents (Elt F))
    (V : Valuation τ sig (Elt F)) (h : Good x0 x1 11 V) : Good x0 x1 12 (after ops_11 V) where
  a0 := (after_of_writes_sub ops_11 V ops_11_writes (by decide)).trans h.a0
  a1 := (after_of_writes_sub ops_11 V ops_11_writes (by decide)).trans h.a1
  r := (after_of_writes_sub ops_11 V ops_11_writes (by decide)).trans h.r
  θ := (after_of_writes_sub ops_11 V ops_11_writes (by decide)).trans h.θ
  φ := (after_of_writes_sub ops_11 V ops_11_writes (by decide)).trans h.φ
  res := by
    intro j hj
    fin_cases j
    · exact (after_of_writes_sub ops_11 V ops_11_writes (by decide)).trans (h.res 0 (by decide))
    · exact (after_of_writes_sub ops_11 V ops_11_writes (by decide)).trans (h.res 1 (by decide))
    · exact (after_of_writes_sub ops_11 V ops_11_writes (by decide)).trans (h.res 2 (by decide))
    · exact (after_of_writes_sub ops_11 V ops_11_writes (by decide)).trans (h.res 3 (by decide))
    · exact (after_of_writes_sub ops_11 V ops_11_writes (by decide)).trans (h.res 4 (by decide))
    · exact (after_of_writes_sub ops_11 V ops_11_writes (by decide)).trans (h.res 5 (by decide))
    · exact (after_of_writes_sub ops_11 V ops_11_writes (by decide)).trans (h.res 6 (by decide))
    · exact (after_of_writes_sub ops_11 V ops_11_writes (by decide)).trans (h.res 7 (by decide))
    · exact (after_of_writes_sub ops_11 V ops_11_writes (by decide)).trans (h.res 8 (by decide))
    · exact (after_of_writes_sub ops_11 V ops_11_writes (by decide)).trans (h.res 9 (by decide))
    · exact (after_of_writes_sub ops_11 V ops_11_writes (by decide)).trans (h.res 10 (by decide))
    · exact val_11 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk12.lean ====
/-
  Orbital chain 12 of the reference: the 47 operations that compute orbital 12's array on the 4096 × 27 grid from the
  coordinate arrays r, θ, φ alone, ending at main_v391.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 12, in program order. -/
abbrev ops_12 : List (HloOp τ sig (Elt F)) :=
  [ nullary main_cst_136 (constant S_ .f32 0x3F2AAAAB#32),
    unary main_cst_136 main_v359 (broadcastInDim S4096x27 ![] bcast_S_S4096x27 : (⟨S_, .f32⟩ : BufTy).Contents (Elt F) → (⟨S4096x27, .f32⟩ : BufTy).Contents (Elt F)),
    binary main_v359 main_v1 main_v360 (mulf : (⟨S4096x27, .f32⟩ : BufTy).Contents (Elt F) → (⟨S4096x27, .f32⟩ : BufTy).Contents (Elt F) → (⟨S4096x27, .f32⟩ : BufTy).Contents (Elt F)),
    nullary main_cst_137 (constant S_ .f32 0xBF000000#32),
    unary main_cst_137 main_v361 (broadcastInDim S4096x27 ![] bcast_S_S4096x27 : (⟨S_, .f32⟩ : BufTy).Contents (Elt F) → (⟨S4096x27, .f32⟩ : BufTy).Contents (Elt F)),
    binary main_v361 main_v360 main_v362 (mulf : (⟨S4096x27, .f32⟩ : BufTy).Contents (Elt F) → (⟨S4096x27, .f32⟩ : BufTy).Contents (Elt F) → (⟨S4096x27, .f32⟩ : BufTy).Contents (Elt F)),
    unary main_v362 main_v363 (Host.exp : (⟨S4096x27, .f32⟩ : BufTy).Contents (Elt F) → (⟨S4096x27, .f32⟩ : BufTy).Contents (Elt F)),
    nullary main_cst_138 (constant S_ .f32 0x3CA62EDE#32),
    unary main_cst_138 main_v364 (broadcastInDim S4096x27 ![] bcast_S_S4096x27 : (⟨S_, .f32⟩ : BufTy).Contents (Elt F) → (⟨S4096x27, .f32⟩ : BufTy).Contents (Elt F)),
    binary main_v364 main_v363 main_v365 (mulf : (⟨S4096x27, .f32⟩ : BufTy).Contents (Elt F) → (⟨S4096x27, .f32⟩ : BufTy).Contents (Elt F) → (⟨S4096x27, .f32⟩ : BufTy).Contents (Elt F)),
    binary main_v360 main_v360 main_v366 (mulf : (⟨S4096x27, .f32⟩ : BufTy).Contents (Elt F) → (⟨S4096x27, .f32⟩ : BufTy).Contents (Elt F) → (⟨S4096x27, .f32⟩ : BufTy).Contents (Elt F)),
    binary main_v365 main_v366 main_v367 (mulf : (⟨S4096x27, .f32⟩ : BufTy).Contents (Elt F) → (⟨S4096x27, .f32⟩ : BufTy).Contents (Elt F) → (⟨S4096x27, .f32⟩ : BufTy).Contents (Elt F)),
    nullary main_cst_139 (constant S_ .f32 0x00000000#32),
    unary main_cst_139 main_v368 (broadcastInDim S4096x27 ![] bcast_S_S4096x27 : (⟨S_, .f32⟩ : BufTy).Contents (Elt F) → (⟨S4096x27, .f32⟩ : BufTy).Contents (Elt F)),
    nullary main_cst_140 (constant S_ .f32 0x3F800000#32),
    unary main_cst_140 main_v369 (broadcastInDim S4096x27 ![] bcast_S_S4096x27 : (⟨S_, .f32⟩ : BufTy).Contents (Elt F) → (⟨S4096x27, .f32⟩ : BufTy).Contents (Elt F)),
    binary main_v368 main_v369 main_v370 (addf : (⟨S4096x27, .f32⟩ : BufTy).Contents (Elt F) → (⟨S4096x27, .f32⟩ : BufTy).Contents (Elt F) → (⟨S4096x27, .f32⟩ : BufTy).Contents (Elt F)),
    binary main_v367 main_v370 main_v371 (mulf : (⟨S4096x27, .f32⟩ : BufTy).Contents (Elt F) → (⟨S4096x27, .f32⟩ : BufTy).Contents (Elt F) → (⟨S4096x27, .f32⟩ : BufTy).Contents (Elt F)),
    unary main_v3 main_v372 (Host.cos : (⟨S4096x27, .f32⟩ : BufTy).Contents (Elt F) → (⟨S4096x27, .f32⟩ : BufTy).Contents (Elt F)),
    binary main_v372 main_v372 main_v373 (mulf : (⟨S4096x27, .f32⟩ : BufTy).Contents (Elt F) → (⟨S4096x27, .f32⟩ : BufTy).Contents (Elt F) → (⟨S4096x27, .f32⟩ : BufTy).Contents (Elt F)),
    nullary main_cst_141 (constant S_ .f32 0x3F800000#32),
    unary main_cst_141 main_v374 (broadcastInDim S4096x27 ![] bcast_S_S4096x27 : (⟨S_, .f32⟩ : BufTy).Contents (Elt F) → (⟨S4096x27, .f32⟩ : BufTy).Contents (Elt F)),
    binary main_v374 main_v373 main_v375 (subf : (⟨S4096x27, .f32⟩ : BufTy).Contents (Elt F) → (⟨S4096x27, .f32⟩ : BufTy).Contents (Elt F) → (⟨S4096x27, .f32⟩ : BufTy).Contents (Elt F)),
    nullary main_cst_142 (constant S_ .f32 0x00000000#32),
    TRef.unary (TRef.of (T := ⟨S_, .f32⟩) main_cst_142) (TRef.of (T := ⟨S_, .f32⟩) main_call12_v0) id,
    TRef.unary (TRef.of (T := ⟨S_, .f32⟩) main_call12_v0) (TRef.of (T := ⟨S4096x27, .f32⟩) main_call12_v1) (broadcastInDim S4096x27 ![] bcast_S_S4096x27),
    TRef.binary (TRef.of (T := ⟨S4096x27, .f32⟩) main_call12_v1) (TRef.of (T := ⟨S4096x27, .f32⟩) main_v375) (TRef.of (T := ⟨S4096x27, .f32⟩) main_v376) maximumf,
    unary main_v376 main_v377 (Host.sqrt : (⟨S4096x27, .f32⟩ : BufTy).Contents (Elt F) → (⟨S4096x27, .f32⟩ : BufTy).Contents (Elt F)),
    nullary main_cst_143 (constant S_ .f32 0x3F800000#32),
    unary main_cst_143 main_v378 (broadcastInDim S4096x27 ![] bcast_S_S4096x27 : (⟨S_, .f32⟩ : BufTy).Contents (Elt F) → (⟨S4096x27, .f32⟩ : BufTy).Contents (Elt F)),
    nullary main_cst_144 (constant S_ .f32 0xBF800000#32),
    unary main_cst_144 main_v379 (broadcastInDim S4096x27 ![] bcast_S_S4096x27 : (⟨S_, .f32⟩ : BufTy).Contents (Elt F) → (⟨S4096x27, .f32⟩ : BufTy).Contents (Elt F)),
    binary main_v378 main_v379 main_v380 (mulf : (⟨S4096x27, .f32⟩ : BufTy).Contents (Elt F) → (⟨S4096x27, .f32⟩ : BufTy).Contents (Elt F) → (⟨S4096x27, .f32⟩ : BufTy).Contents (Elt F)),
    binary main_v380 main_v377 main_v381 (mulf : (⟨S4096x27, .f32⟩ : BufTy).Contents (Elt F) → (⟨S4096x27, .f32⟩ : BufTy).Contents (Elt F) → (⟨S4096x27, .f32⟩ : BufTy).Contents (Elt F)),
    nullary main_cst_145 (constant S_ .f32 0x40400000#32),
    unary main_cst_145 main_v382 (broadcastInDim S4096x27 ![] bcast_S_S4096x27 : (⟨S_, .f32⟩ : BufTy).Contents (Elt F) → (⟨S4096x27, .f32⟩ : BufTy).Contents (Elt F)),
    binary main_v372 main_v382 main_v383 (mulf : (⟨S4096x27, .f32⟩ : BufTy).Contents (Elt F) → (⟨S4096x27, .f32⟩ : BufTy).Contents (Elt F) → (⟨S4096x27, .f32⟩ : BufTy).Contents (Elt F)),
    binary main_v383 main_v381 main_v384 (mulf : (⟨S4096x27, .f32⟩ : BufTy).Contents (Elt F) → (⟨S4096x27, .f32⟩ : BufTy).Contents (Elt F) → (⟨S4096x27, .f32⟩ : BufTy).Contents (Elt F)),
    nullary main_cst_146 (constant S_ .f32 0x3EBA762B#32),
    unary main_cst_146 main_v385 (broadcastInDim S4096x27 ![] bcast_S_S4096x27 : (⟨S_, .f32⟩ : BufTy).Contents (Elt F) → (⟨S4096x27, .f32⟩ : BufTy).Contents (Elt F)),
    binary main_v385 main_v384 main_v386 (mulf : (⟨S4096x27, .f32⟩ : BufTy).Contents (Elt F) → (⟨S4096x27, .f32⟩ : BufTy).Contents (Elt F) → (⟨S4096x27, .f32⟩ : BufTy).Contents (Elt F)),
    nullary main_cst_147 (constant S_ .f32 0x3F800000#32),
    unary main_cst_147 main_v387 (broadcastInDim S4096x27 ![] bcast_S_S4096x27 : (⟨S_, .f32⟩ : BufTy).Contents (Elt F) → (⟨S4096x27, .f32⟩ : BufTy).Contents (Elt F)),
    binary main_v387 main_v5 main_v388 (mulf : (⟨S4096x27, .f32⟩ : BufTy).Contents (Elt F) → (⟨S4096x27, .f32⟩ : BufTy).Contents (Elt F) → (⟨S4096x27, .f32⟩ : BufTy).Contents (Elt F)),
    unary main_v388 main_v389 (Host.cos : (⟨S4096x27, .f32⟩ : BufTy).Contents (Elt F) → (⟨S4096x27, .f32⟩ : BufTy).Contents (Elt F)),
    binary main_v386 main_v389 main_v390 (mulf : (⟨S4096x27, .f32⟩ : BufTy).Contents (Elt F) → (⟨S4096x27, .f32⟩ : BufTy).Contents (Elt F) → (⟨S4096x27, .f32⟩ : BufTy).Contents (Elt F)),
    binary main_v371 main_v390 main_v391 (mulf : (⟨S4096x27, .f32⟩ : BufTy).Contents (Elt F) → (⟨S4096x27, .f32⟩ : BufTy).Contents (Elt F) → (⟨S4096x27, .f32⟩ : BufTy).Contents (Elt F)) ]

theorem ops_12_sub : (ops_12 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_12_fresh : ∀ op ∈ (ops_12 : List (HloOp τ sig (Elt F))), op.fresh = ∅ :=
  List.forall_iff_forall_mem.mp (by simp only [List.Forall]; repeat' constructor)

/-- The arrays chain 12 writes. -/
abbrev W_12 : List (Ref sig .tc) := [main_cst_136, main_v359, main_v360, main_cst_137, main_v361, main_v362, main_v363, main_cst_138, main_v364, main_v365, main_v366, main_v367, main_cst_139, main_v368, main_cst_140, main_v369, main_v370, main_v371, main_v372, main_v373, main_cst_141, main_v374, main_v375, main_cst_142, main_call12_v0, main_call12_v1, main_v376, main_v377, main_cst_143, main_v378, main_cst_144, main_v379, main_v380, main_v381, main_cst_145, main_v382, main_v383, main_v384, main_cst_146, main_v385, main_v386, main_cst_147, main_v387, main_v388, main_v389, main_v390, main_v391]

theorem ops_12_writes : (ops_12 : List (HloOp τ sig (Elt F))).Forall fun op =>
    op.writes ⊆ (W_12.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 12's array after the chain is its value of the position array. -/
theorem val_12 (x0 : (⟨S4096x27x3, .f32⟩ : BufTy).Contents (Elt F)) (x1 : (⟨S16x16x30, .f32⟩ : BufTy).Contents (Elt F))
    (V : Valuation τ sig (Elt F)) (h : Good x0 x1 12 V) :
    after ops_12 V (Proc.devRef .tc main_v391) = val_main_v391 (F := F) x0 := by
  have hr := h.r
  have hθ := h.θ
  have hφ := h.φ
  simp only [ops_12]
  after_results_simp
  try rw [hr]
  try rw [hθ]
  try rw [hφ]
  all_goals rfl

/-- The chain keeps what was in place and adds orbital 12's array. -/
theorem step_12 (x0 : (⟨S4096x27x3, .f32⟩ : BufTy).Contents (Elt F)) (x1 : (⟨S16x16x30, .f32⟩ : BufTy).Contents (Elt F))
    (V : Valuation τ sig (Elt F)) (h : Good x0 x1 12 V) : Good x0 x1 13 (after ops_12 V) where
  a0 := (after_of_writes_sub ops_12 V ops_12_writes (by decide)).trans h.a0
  a1 := (after_of_writes_sub ops_12 V ops_12_writes (by decide)).trans h.a1
  r := (after_of_writes_sub ops_12 V ops_12_writes (by decide)).trans h.r
  θ := (after_of_writes_sub ops_12 V ops_12_writes (by decide)).trans h.θ
  φ := (after_of_writes_sub ops_12 V ops_12_writes (by decide)).trans h.φ
  res := by
    intro j hj
    fin_cases j
    · exact (after_of_writes_sub ops_12 V ops_12_writes (by decide)).trans (h.res 0 (by decide))
    · exact (after_of_writes_sub ops_12 V ops_12_writes (by decide)).trans (h.res 1 (by decide))
    · exact (after_of_writes_sub ops_12 V ops_12_writes (by decide)).trans (h.res 2 (by decide))
    · exact (after_of_writes_sub ops_12 V ops_12_writes (by decide)).trans (h.res 3 (by decide))
    · exact (after_of_writes_sub ops_12 V ops_12_writes (by decide)).trans (h.res 4 (by decide))
    · exact (after_of_writes_sub ops_12 V ops_12_writes (by decide)).trans (h.res 5 (by decide))
    · exact (after_of_writes_sub ops_12 V ops_12_writes (by decide)).trans (h.res 6 (by decide))
    · exact (after_of_writes_sub ops_12 V ops_12_writes (by decide)).trans (h.res 7 (by decide))
    · exact (after_of_writes_sub ops_12 V ops_12_writes (by decide)).trans (h.res 8 (by decide))
    · exact (after_of_writes_sub ops_12 V ops_12_writes (by decide)).trans (h.res 9 (by decide))
    · exact (after_of_writes_sub ops_12 V ops_12_writes (by decide)).trans (h.res 10 (by decide))
    · exact (after_of_writes_sub ops_12 V ops_12_writes (by decide)).trans (h.res 11 (by decide))
    · exact val_12 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk13.lean ====
/-
  Orbital chain 13 of the reference: the 47 operations that compute orbital 13's array on the 4096 × 27 grid from the
  coordinate arrays r, θ, φ alone, ending at main_v424.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 13, in program order. -/
abbrev ops_13 : List (HloOp τ sig (Elt F)) :=
  [ nullary main_cst_148 (constant S_ .f32 0x3F2AAAAB#32),
    unary main_cst_148 main_v392 (broadcastInDim S4096x27 ![] bcast_S_S4096x27 : (⟨S_, .f32⟩ : BufTy).Contents (Elt F) → (⟨S4096x27, .f32⟩ : BufTy).Contents (Elt F)),
    binary main_v392 main_v1 main_v393 (mulf : (⟨S4096x27, .f32⟩ : BufTy).Contents (Elt F) → (⟨S4096x27, .f32⟩ : BufTy).Contents (Elt F) → (⟨S4096x27, .f32⟩ : BufTy).Contents (Elt F)),
    nullary main_cst_149 (constant S_ .f32 0xBF000000#32),
    unary main_cst_149 main_v394 (broadcastInDim S4096x27 ![] bcast_S_S4096x27 : (⟨S_, .f32⟩ : BufTy).Contents (Elt F) → (⟨S4096x27, .f32⟩ : BufTy).Contents (Elt F)),
    binary main_v394 main_v393 main_v395 (mulf : (⟨S4096x27, .f32⟩ : BufTy).Contents (Elt F) → (⟨S4096x27, .f32⟩ : BufTy).Contents (Elt F) → (⟨S4096x27, .f32⟩ : BufTy).Contents (Elt F)),
    unary main_v395 main_v396 (Host.exp : (⟨S4096x27, .f32⟩ : BufTy).Contents (Elt F) → (⟨S4096x27, .f32⟩ : BufTy).Contents (Elt F)),
    nullary main_cst_150 (constant S_ .f32 0x3CA62EDE#32),
    unary main_cst_150 main_v397 (broadcastInDim S4096x27 ![] bcast_S_S4096x27 : (⟨S_, .f32⟩ : BufTy).Contents (Elt F) → (⟨S4096x27, .f32⟩ : BufTy).Contents (Elt F)),
    binary main_v397 main_v396 main_v398 (mulf : (⟨S4096x27, .f32⟩ : BufTy).Contents (Elt F) → (⟨S4096x27, .f32⟩ : BufTy).Contents (Elt F) → (⟨S4096x27, .f32⟩ : BufTy).Contents (Elt F)),
    binary main_v393 main_v393 main_v399 (mulf : (⟨S4096x27, .f32⟩ : BufTy).Contents (Elt F) → (⟨S4096x27, .f32⟩ : BufTy).Contents (Elt F) → (⟨S4096x27, .f32⟩ : BufTy).Contents (Elt F)),
    binary main_v398 main_v399 main_v400 (mulf : (⟨S4096x27, .f32⟩ : BufTy).Contents (Elt F) → (⟨S4096x27, .f32⟩ : BufTy).Contents (Elt F) → (⟨S4096x27, .f32⟩ : BufTy).Contents (Elt F)),
    nullary main_cst_151 (constant S_ .f32 0x00000000#32),
    unary main_cst_151 main_v401 (broadcastInDim S4096x27 ![] bcast_S_S4096x27 : (⟨S_, .f32⟩ : BufTy).Contents (Elt F) → (⟨S4096x27, .f32⟩ : BufTy).Contents (Elt F)),
    nullary main_cst_152 (constant S_ .f32 0x3F800000#32),
    unary main_cst_152 main_v402 (broadcastInDim S4096x27 ![] bcast_S_S4096x27 : (⟨S_, .f32⟩ : BufTy).Contents (Elt F) → (⟨S4096x27, .f32⟩ : BufTy).Contents (Elt F)),
    binary main_v401 main_v402 main_v403 (addf : (⟨S4096x27, .f32⟩ : BufTy).Contents (Elt F) → (⟨S4096x27, .f32⟩ : BufTy).Contents (Elt F) → (⟨S4096x27, .f32⟩ : BufTy).Contents (Elt F)),
    binary main_v400 main_v403 main_v404 (mulf : (⟨S4096x27, .f32⟩ : BufTy).Contents (Elt F) → (⟨S4096x27, .f32⟩ : BufTy).Contents (Elt F) → (⟨S4096x27, .f32⟩ : BufTy).Contents (Elt F)),
    unary main_v3 main_v405 (Host.cos : (⟨S4096x27, .f32⟩ : BufTy).Contents (Elt F) → (⟨S4096x27, .f32⟩ : BufTy).Contents (Elt F)),
    binary main_v405 main_v405 main_v406 (mulf : (⟨S4096x27, .f32⟩ : BufTy).Contents (Elt F) → (⟨S4096x27, .f32⟩ : BufTy).Contents (Elt F) → (⟨S4096x27, .f32⟩ : BufTy).Contents (Elt F)),
    nullary main_cst_153 (constant S_ .f32 0x3F800000#32),
    unary main_cst_153 main_v407 (broadcastInDim S4096x27 ![] bcast_S_S4096x27 : (⟨S_, .f32⟩ : BufTy).Contents (Elt F) → (⟨S4096x27, .f32⟩ : BufTy).Contents (Elt F)),
    binary main_v407 main_v406 main_v408 (subf : (⟨S4096x27, .f32⟩ : BufTy).Contents (Elt F) → (⟨S4096x27, .f32⟩ : BufTy).Contents (Elt F) → (⟨S4096x27, .f32⟩ : BufTy).Contents (Elt F)),
    nullary main_cst_154 (constant S_ .f32 0x00000000#32),
    TRef.unary (TRef.of (T := ⟨S_, .f32⟩) main_cst_154) (TRef.of (T := ⟨S_, .f32⟩) main_call13_v0) id,
    TRef.unary (TRef.of (T := ⟨S_, .f32⟩) main_call13_v0) (TRef.of (T := ⟨S4096x27, .f32⟩) main_call13_v1) (broadcastInDim S4096x27 ![] bcast_S_S4096x27),
    TRef.binary (TRef.of (T := ⟨S4096x27, .f32⟩) main_call13_v1) (TRef.of (T := ⟨S4096x27, .f32⟩) main_v408) (TRef.of (T := ⟨S4096x27, .f32⟩) main_v409) maximumf,
    unary main_v409 main_v410 (Host.sqrt : (⟨S4096x27, .f32⟩ : BufTy).Contents (Elt F) → (⟨S4096x27, .f32⟩ : BufTy).Contents (Elt F)),
    nullary main_cst_155 (constant S_ .f32 0x3F800000#32),
    unary main_cst_155 main_v411 (broadcastInDim S4096x27 ![] bcast_S_S4096x27 : (⟨S_, .f32⟩ : BufTy).Contents (Elt F) → (⟨S4096x27, .f32⟩ : BufTy).Contents (Elt F)),
    nullary main_cst_156 (constant S_ .f32 0xBF800000#32),
    unary main_cst_156 main_v412 (broadcastInDim S4096x27 ![] bcast_S_S4096x27 : (⟨S_, .f32⟩ : BufTy).Contents (Elt F) → (⟨S4096x27, .f32⟩ : BufTy).Contents (Elt F)),
    binary main_v411 main_v412 main_v413 (mulf : (⟨S4096x27, .f32⟩ : BufTy).Contents (Elt F) → (⟨S4096x27, .f32⟩ : BufTy).Contents (Elt F) → (⟨S4096x27, .f32⟩ : BufTy).Contents (Elt F)),
    binary main_v413 main_v410 main_v414 (mulf : (⟨S4096x27, .f32⟩ : BufTy).Contents (Elt F) → (⟨S4096x27, .f32⟩ : BufTy).Contents (Elt F) → (⟨S4096x27, .f32⟩ : BufTy).Contents (Elt F)),
    nullary main_cst_157 (constant S_ .f32 0xC0400000#32),
    unary main_cst_157 main_v415 (broadcastInDim S4096x27 ![] bcast_S_S4096x27 : (⟨S_, .f32⟩ : BufTy).Contents (Elt F) → (⟨S4096x27, .f32⟩ : BufTy).Contents (Elt F)),
    binary main_v414 main_v415 main_v416 (mulf : (⟨S4096x27, .f32⟩ : BufTy).Contents (Elt F) → (⟨S4096x27, .f32⟩ : BufTy).Contents (Elt F) → (⟨S4096x27, .f32⟩ : BufTy).Contents (Elt F)),
    binary main_v416 main_v410 main_v417 (mulf : (⟨S4096x27, .f32⟩ : BufTy).Contents (Elt F) → (⟨S4096x27, .f32⟩ : BufTy).Contents (Elt F) → (⟨S4096x27, .f32⟩ : BufTy).Contents (Elt F)),
    nullary main_cst_158 (constant S_ .f32 0x3E3A762B#32),
    unary main_cst_158 main_v418 (broadcastInDim S4096x27 ![] bcast_S_S4096x27 : (⟨S_, .f32⟩ : BufTy).Contents (Elt F) → (⟨S4096x27, .f32⟩ : BufTy).Contents (Elt F)),
    binary main_v418 main_v417 main_v419 (mulf : (⟨S4096x27, .f32⟩ : BufTy).Contents (Elt F) → (⟨S4096x27, .f32⟩ : BufTy).Contents (Elt F) → (⟨S4096x27, .f32⟩ : BufTy).Contents (Elt F)),
    nullary main_cst_159 (constant S_ .f32 0x40000000#32),
    unary main_cst_159 main_v420 (broadcastInDim S4096x27 ![] bcast_S_S4096x27 : (⟨S_, .f32⟩ : BufTy).Contents (Elt F) → (⟨S4096x27, .f32⟩ : BufTy).Contents (Elt F)),
    binary main_v420 main_v5 main_v421 (mulf : (⟨S4096x27, .f32⟩ : BufTy).Contents (Elt F) → (⟨S4096x27, .f32⟩ : BufTy).Contents (Elt F) → (⟨S4096x27, .f32⟩ : BufTy).Contents (Elt F)),
    unary main_v421 main_v422 (Host.cos : (⟨S4096x27, .f32⟩ : BufTy).Contents (Elt F) → (⟨S4096x27, .f32⟩ : BufTy).Contents (Elt F)),
    binary main_v419 main_v422 main_v423 (mulf : (⟨S4096x27, .f32⟩ : BufTy).Contents (Elt F) → (⟨S4096x27, .f32⟩ : BufTy).Contents (Elt F) → (⟨S4096x27, .f32⟩ : BufTy).Contents (Elt F)),
    binary main_v404 main_v423 main_v424 (mulf : (⟨S4096x27, .f32⟩ : BufTy).Contents (Elt F) → (⟨S4096x27, .f32⟩ : BufTy).Contents (Elt F) → (⟨S4096x27, .f32⟩ : BufTy).Contents (Elt F)) ]

theorem ops_13_sub : (ops_13 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_13_fresh : ∀ op ∈ (ops_13 : List (HloOp τ sig (Elt F))), op.fresh = ∅ :=
  List.forall_iff_forall_mem.mp (by simp only [List.Forall]; repeat' constructor)

/-- The arrays chain 13 writes. -/
abbrev W_13 : List (Ref sig .tc) := [main_cst_148, main_v392, main_v393, main_cst_149, main_v394, main_v395, main_v396, main_cst_150, main_v397, main_v398, main_v399, main_v400, main_cst_151, main_v401, main_cst_152, main_v402, main_v403, main_v404, main_v405, main_v406, main_cst_153, main_v407, main_v408, main_cst_154, main_call13_v0, main_call13_v1, main_v409, main_v410, main_cst_155, main_v411, main_cst_156, main_v412, main_v413, main_v414, main_cst_157, main_v415, main_v416, main_v417, main_cst_158, main_v418, main_v419, main_cst_159, main_v420, main_v421, main_v422, main_v423, main_v424]

theorem ops_13_writes : (ops_13 : List (HloOp τ sig (Elt F))).Forall fun op =>
    op.writes ⊆ (W_13.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 13's array after the chain is its value of the position array. -/
theorem val_13 (x0 : (⟨S4096x27x3, .f32⟩ : BufTy).Contents (Elt F)) (x1 : (⟨S16x16x30, .f32⟩ : BufTy).Contents (Elt F))
    (V : Valuation τ sig (Elt F)) (h : Good x0 x1 13 V) :
    after ops_13 V (Proc.devRef .tc main_v424) = val_main_v424 (F := F) x0 := by
  have hr := h.r
  have hθ := h.θ
  have hφ := h.φ
  simp only [ops_13]
  after_results_simp
  try rw [hr]
  try rw [hθ]
  try rw [hφ]
  all_goals rfl

/-- The chain keeps what was in place and adds orbital 13's array. -/
theorem step_13 (x0 : (⟨S4096x27x3, .f32⟩ : BufTy).Contents (Elt F)) (x1 : (⟨S16x16x30, .f32⟩ : BufTy).Contents (Elt F))
    (V : Valuation τ sig (Elt F)) (h : Good x0 x1 13 V) : Good x0 x1 14 (after ops_13 V) where
  a0 := (after_of_writes_sub ops_13 V ops_13_writes (by decide)).trans h.a0
  a1 := (after_of_writes_sub ops_13 V ops_13_writes (by decide)).trans h.a1
  r := (after_of_writes_sub ops_13 V ops_13_writes (by decide)).trans h.r
  θ := (after_of_writes_sub ops_13 V ops_13_writes (by decide)).trans h.θ
  φ := (after_of_writes_sub ops_13 V ops_13_writes (by decide)).trans h.φ
  res := by
    intro j hj
    fin_cases j
    · exact (after_of_writes_sub ops_13 V ops_13_writes (by decide)).trans (h.res 0 (by decide))
    · exact (after_of_writes_sub ops_13 V ops_13_writes (by decide)).trans (h.res 1 (by decide))
    · exact (after_of_writes_sub ops_13 V ops_13_writes (by decide)).trans (h.res 2 (by decide))
    · exact (after_of_writes_sub ops_13 V ops_13_writes (by decide)).trans (h.res 3 (by decide))
    · exact (after_of_writes_sub ops_13 V ops_13_writes (by decide)).trans (h.res 4 (by decide))
    · exact (after_of_writes_sub ops_13 V ops_13_writes (by decide)).trans (h.res 5 (by decide))
    · exact (after_of_writes_sub ops_13 V ops_13_writes (by decide)).trans (h.res 6 (by decide))
    · exact (after_of_writes_sub ops_13 V ops_13_writes (by decide)).trans (h.res 7 (by decide))
    · exact (after_of_writes_sub ops_13 V ops_13_writes (by decide)).trans (h.res 8 (by decide))
    · exact (after_of_writes_sub ops_13 V ops_13_writes (by decide)).trans (h.res 9 (by decide))
    · exact (after_of_writes_sub ops_13 V ops_13_writes (by decide)).trans (h.res 10 (by decide))
    · exact (after_of_writes_sub ops_13 V ops_13_writes (by decide)).trans (h.res 11 (by decide))
    · exact (after_of_writes_sub ops_13 V ops_13_writes (by decide)).trans (h.res 12 (by decide))
    · exact val_13 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk14.lean ====
/-
  Orbital chain 14 of the reference: the 47 operations that compute orbital 14's array on the 4096 × 27 grid from the
  coordinate arrays r, θ, φ alone, ending at main_v456.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 14, in program order. -/
abbrev ops_14 : List (HloOp τ sig (Elt F)) :=
  [ nullary main_cst_160 (constant S_ .f32 0x3F000000#32),
    unary main_cst_160 main_v425 (broadcastInDim S4096x27 ![] bcast_S_S4096x27 : (⟨S_, .f32⟩ : BufTy).Contents (Elt F) → (⟨S4096x27, .f32⟩ : BufTy).Contents (Elt F)),
    binary main_v425 main_v1 main_v426 (mulf : (⟨S4096x27, .f32⟩ : BufTy).Contents (Elt F) → (⟨S4096x27, .f32⟩ : BufTy).Contents (Elt F) → (⟨S4096x27, .f32⟩ : BufTy).Contents (Elt F)),
    nullary main_cst_161 (constant S_ .f32 0xBF000000#32),
    unary main_cst_161 main_v427 (broadcastInDim S4096x27 ![] bcast_S_S4096x27 : (⟨S_, .f32⟩ : BufTy).Contents (Elt F) → (⟨S4096x27, .f32⟩ : BufTy).Contents (Elt F)),
    binary main_v427 main_v426 main_v428 (mulf : (⟨S4096x27, .f32⟩ : BufTy).Contents (Elt F) → (⟨S4096x27, .f32⟩ : BufTy).Contents (Elt F) → (⟨S4096x27, .f32⟩ : BufTy).Contents (Elt F)),
    unary main_v428 main_v429 (Host.exp : (⟨S4096x27, .f32⟩ : BufTy).Contents (Elt F) → (⟨S4096x27, .f32⟩ : BufTy).Contents (Elt F)),
    nullary main_cst_162 (constant S_ .f32 0x3D800000#32),
    unary main_cst_162 main_v430 (broadcastInDim S4096x27 ![] bcast_S_S4096x27 : (⟨S_, .f32⟩ : BufTy).Contents (Elt F) → (⟨S4096x27, .f32⟩ : BufTy).Contents (Elt F)),
    binary main_v430 main_v429 main_v431 (mulf : (⟨S4096x27, .f32⟩ : BufTy).Contents (Elt F) → (⟨S4096x27, .f32⟩ : BufTy).Contents (Elt F) → (⟨S4096x27, .f32⟩ : BufTy).Contents (Elt F)),
    nullary main_cst_163 (constant S_ .f32 0x3F800000#32),
    unary main_cst_163 main_v432 (broadcastInDim S4096x27 ![] bcast_S_S4096x27 : (⟨S_, .f32⟩ : BufTy).Contents (Elt F) → (⟨S4096x27, .f32⟩ : BufTy).Contents (Elt F)),
    binary main_v431 main_v432 main_v433 (mulf : (⟨S4096x27, .f32⟩ : BufTy).Contents (Elt F) → (⟨S4096x27, .f32⟩ : BufTy).Contents (Elt F) → (⟨S4096x27, .f32⟩ : BufTy).Contents (Elt F)),
    nullary main_cst_164 (constant S_ .f32 0x00000000#32),
    unary main_cst_164 main_v434 (broadcastInDim S4096x27 ![] bcast_S_S4096x27 : (⟨S_, .f32⟩ : BufTy).Contents (Elt F) → (⟨S4096x27, .f32⟩ : BufTy).Contents (Elt F)),
    nullary main_cst_165 (constant S_ .f32 0xBE2AAAAB#32),
    unary main_cst_165 main_v435 (broadcastInDim S4096x27 ![] bcast_S_S4096x27 : (⟨S_, .f32⟩ : BufTy).Contents (Elt F) → (⟨S4096x27, .f32⟩ : BufTy).Contents (Elt F)),
    binary main_v434 main_v435 main_v436 (addf : (⟨S4096x27, .f32⟩ : BufTy).Contents (Elt F) → (⟨S4096x27, .f32⟩ : BufTy).Contents (Elt F) → (⟨S4096x27, .f32⟩ : BufTy).Contents (Elt F)),
    binary main_v436 main_v426 main_v437 (mulf : (⟨S4096x27, .f32⟩ : BufTy).Contents (Elt F) → (⟨S4096x27, .f32⟩ : BufTy).Contents (Elt F) → (⟨S4096x27, .f32⟩ : BufTy).Contents (Elt F)),
    nullary main_cst_166 (constant S_ .f32 0x40000000#32),
    unary main_cst_166 main_v438 (broadcastInDim S4096x27 ![] bcast_S_S4096x27 : (⟨S_, .f32⟩ : BufTy).Contents (Elt F) → (⟨S4096x27, .f32⟩ : BufTy).Contents (Elt F)),
    binary main_v437 main_v438 main_v439 (addf : (⟨S4096x27, .f32⟩ : BufTy).Contents (Elt F) → (⟨S4096x27, .f32⟩ : BufTy).Contents (Elt F) → (⟨S4096x27, .f32⟩ : BufTy).Contents (Elt F)),
    binary main_v439 main_v426 main_v440 (mulf : (⟨S4096x27, .f32⟩ : BufTy).Contents (Elt F) → (⟨S4096x27, .f32⟩ : BufTy).Contents (Elt F) → (⟨S4096x27, .f32⟩ : BufTy).Contents (Elt F)),
    nullary main_cst_167 (constant S_ .f32 0xC0C00000#32),
    unary main_cst_167 main_v441 (broadcastInDim S4096x27 ![] bcast_S_S4096x27 : (⟨S_, .f32⟩ : BufTy).Contents (Elt F) → (⟨S4096x27, .f32⟩ : BufTy).Contents (Elt F)),
    binary main_v440 main_v441 main_v442 (addf : (⟨S4096x27, .f32⟩ : BufTy).Contents (Elt F) → (⟨S4096x27, .f32⟩ : BufTy).Contents (Elt F) → (⟨S4096x27, .f32⟩ : BufTy).Contents (Elt F)),
    binary main_v442 main_v426 main_v443 (mulf : (⟨S4096x27, .f32⟩ : BufTy).Contents (Elt F) → (⟨S4096x27, .f32⟩ : BufTy).Contents (Elt F) → (⟨S4096x27, .f32⟩ : BufTy).Contents (Elt F)),
    nullary main_cst_168 (constant S_ .f32 0x40800000#32),
    unary main_cst_168 main_v444 (broadcastInDim S4096x27 ![] bcast_S_S4096x27 : (⟨S_, .f32⟩ : BufTy).Contents (Elt F) → (⟨S4096x27, .f32⟩ : BufTy).Contents (Elt F)),
    binary main_v443 main_v444 main_v445 (addf : (⟨S4096x27, .f32⟩ : BufTy).Contents (Elt F) → (⟨S4096x27, .f32⟩ : BufTy).Contents (Elt F) → (⟨S4096x27, .f32⟩ : BufTy).Contents (Elt F)),
    binary main_v433 main_v445 main_v446 (mulf : (⟨S4096x27, .f32⟩ : BufTy).Contents (Elt F) → (⟨S4096x27, .f32⟩ : BufTy).Contents (Elt F) → (⟨S4096x27, .f32⟩ : BufTy).Contents (Elt F)),
    unary main_v3 main_v447 (Host.cos : (⟨S4096x27, .f32⟩ : BufTy).Contents (Elt F) → (⟨S4096x27, .f32⟩ : BufTy).Contents (Elt F)),
    binary main_v447 main_v447 main_v448 (mulf : (⟨S4096x27, .f32⟩ : BufTy).Contents (Elt F) → (⟨S4096x27, .f32⟩ : BufTy).Contents (Elt F) → (⟨S4096x27, .f32⟩ : BufTy).Contents (Elt F)),
    nullary main_cst_169 (constant S_ .f32 0x3F800000#32),
    unary main_cst_169 main_v449 (broadcastInDim S4096x27 ![] bcast_S_S4096x27 : (⟨S_, .f32⟩ : BufTy).Contents (Elt F) → (⟨S4096x27, .f32⟩ : BufTy).Contents (Elt F)),
    binary main_v449 main_v448 main_v450 (subf : (⟨S4096x27, .f32⟩ : BufTy).Contents (Elt F) → (⟨S4096x27, .f32⟩ : BufTy).Contents (Elt F) → (⟨S4096x27, .f32⟩ : BufTy).Contents (Elt F)),
    nullary main_cst_170 (constant S_ .f32 0x00000000#32),
    TRef.unary (TRef.of (T := ⟨S_, .f32⟩) main_cst_170) (TRef.of (T := ⟨S_, .f32⟩) main_call14_v0) id,
    TRef.unary (TRef.of (T := ⟨S_, .f32⟩) main_call14_v0) (TRef.of (T := ⟨S4096x27, .f32⟩) main_call14_v1) (broadcastInDim S4096x27 ![] bcast_S_S4096x27),
    TRef.binary (TRef.of (T := ⟨S4096x27, .f32⟩) main_call14_v1) (TRef.of (T := ⟨S4096x27, .f32⟩) main_v450) (TRef.of (T := ⟨S4096x27, .f32⟩) main_v451) maximumf,
    unary main_v451 main_v452 (Host.sqrt : (⟨S4096x27, .f32⟩ : BufTy).Contents (Elt F) → (⟨S4096x27, .f32⟩ : BufTy).Contents (Elt F)),
    nullary main_cst_171 (constant S_ .f32 0x3F800000#32),
    unary main_cst_171 main_v453 (broadcastInDim S4096x27 ![] bcast_S_S4096x27 : (⟨S_, .f32⟩ : BufTy).Contents (Elt F) → (⟨S4096x27, .f32⟩ : BufTy).Contents (Elt F)),
    nullary main_cst_172 (constant S_ .f32 0x3E906EBB#32),
    unary main_cst_172 main_v454 (broadcastInDim S4096x27 ![] bcast_S_S4096x27 : (⟨S_, .f32⟩ : BufTy).Contents (Elt F) → (⟨S4096x27, .f32⟩ : BufTy).Contents (Elt F)),
    binary main_v454 main_v453 main_v455 (mulf : (⟨S4096x27, .f32⟩ : BufTy).Contents (Elt F) → (⟨S4096x27, .f32⟩ : BufTy).Contents (Elt F) → (⟨S4096x27, .f32⟩ : BufTy).Contents (Elt F)),
    binary main_v446 main_v455 main_v456 (mulf : (⟨S4096x27, .f32⟩ : BufTy).Contents (Elt F) → (⟨S4096x27, .f32⟩ : BufTy).Contents (Elt F) → (⟨S4096x27, .f32⟩ : BufTy).Contents (Elt F)) ]

theorem ops_14_sub : (ops_14 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub ..⟩

theorem ops_14_fresh : ∀ op ∈ (ops_14 : List (HloOp τ sig (Elt F))), op.fresh = ∅ :=
  List.forall_iff_forall_mem.mp (by simp only [List.Forall]; repeat' constructor)

/-- The arrays chain 14 writes. -/
abbrev W_14 : List (Ref sig .tc) := [main_cst_160, main_v425, main_v426, main_cst_161, main_v427, main_v428, main_v429, main_cst_162, main_v430, main_v431, main_cst_163, main_v432, main_v433, main_cst_164, main_v434, main_cst_165, main_v435, main_v436, main_v437, main_cst_166, main_v438, main_v439, main_v440, main_cst_167, main_v441, main_v442, main_v443, main_cst_168, main_v444, main_v445, main_v446, main_v447, main_v448, main_cst_169, main_v449, main_v450, main_cst_170, main_call14_v0, main_call14_v1, main_v451, main_v452, main_cst_171, main_v453, main_cst_172, main_v454, main_v455, main_v456]

theorem ops_14_writes : (ops_14 : List (HloOp τ sig (Elt F))).Forall fun op =>
    op.writes ⊆ (W_14.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 14's array after the chain is its value of the position array. -/
theorem val_14 (x0 : (⟨S4096x27x3, .f32⟩ : BufTy).Contents (Elt F)) (x1 : (⟨S16x16x30, .f32⟩ : BufTy).Contents (Elt F))
    (V : Valuation τ sig (Elt F)) (h : Good x0 x1 14 V) :
    after ops_14 V (Proc.devRef .tc main_v456) = val_main_v456 (F := F) x0 := by
  have hr := h.r
  have hθ := h.θ
  have hφ := h.φ
  simp only [ops_14]
  after_results_simp
  try rw [hr]
  try rw [hθ]
  try rw [hφ]
  all_goals rfl

/-- The chain keeps what was in place and adds orbital 14's array. -/
theorem step_14 (x0 : (⟨S4096x27x3, .f32⟩ : BufTy).Contents (Elt F)) (x1 : (⟨S16x16x30, .f32⟩ : BufTy).Contents (Elt F))
    (V : Valuation τ sig (Elt F)) (h : Good x0 x1 14 V) : Good x0 x1 15 (after ops_14 V) where
  a0 := (after_of_writes_sub ops_14 V ops_14_writes (by decide)).trans h.a0
  a1 := (after_of_writes_sub ops_14 V ops_14_writes (by decide)).trans h.a1
  r := (after_of_writes_sub ops_14 V ops_14_writes (by decide)).trans h.r
  θ := (after_of_writes_sub ops_14 V ops_14_writes (by decide)).trans h.θ
  φ := (after_of_writes_sub ops_14 V ops_14_writes (by decide)).trans h.φ
  res := by
    intro j hj
    fin_cases j
    · exact (after_of_writes_sub ops_14 V ops_14_writes (by decide)).trans (h.res 0 (by decide))
    · exact (after_of_writes_sub ops_14 V ops_14_writes (by decide)).trans (h.res 1 (by decide))
    · exact (after_of_writes_sub ops_14 V ops_14_writes (by decide)).trans (h.res 2 (by decide))
    · exact (after_of_writes_sub ops_14 V ops_14_writes (by decide)).trans (h.res 3 (by decide))
    · exact (after_of_writes_sub ops_14 V ops_14_writes (by decide)).trans (h.res 4 (by decide))
    · exact (after_of_writes_sub ops_14 V ops_14_writes (by decide)).trans (h.res 5 (by decide))
    · exact (after_of_writes_sub ops_14 V ops_14_writes (by decide)).trans (h.res 6 (by decide))
    · exact (after_of_writes_sub ops_14 V ops_14_writes (by decide)).trans (h.res 7 (by decide))
    · exact (after_of_writes_sub ops_14 V ops_14_writes (by decide)).trans (h.res 8 (by decide))
    · exact (after_of_writes_sub ops_14 V ops_14_writes (by decide)).trans (h.res 9 (by decide))
    · exact (after_of_writes_sub ops_14 V ops_14_writes (by decide)).trans (h.res 10 (by decide))
    · exact (after_of_writes_sub ops_14 V ops_14_writes (by decide)).trans (h.res 11 (by decide))
    · exact (after_of_writes_sub ops_14 V ops_14_writes (by decide)).trans (h.res 12 (by decide))
    · exact (after_of_writes_sub ops_14 V ops_14_writes (by decide)).trans (h.res 13 (by decide))
    · exact val_14 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk15.lean ====
/-
  Orbital chain 15 of the reference: the 50 operations that compute orbital 15's array on the 4096 × 27 grid from the
  coordinate arrays r, θ, φ alone, ending at main_v491.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 15, in program order. -/
abbrev ops_15 : List (HloOp τ sig (Elt F)) :=
  [ nullary main_cst_173 (constant S_ .f32 0x3F000000#32),
    unary main_cst_173 main_v457 (broadcastInDim S4096x27 ![] bcast_S_S4096x27 : (⟨S_, .f32⟩ : BufTy).Contents (Elt F) → (⟨S4096x27, .f32⟩ : BufTy).Contents (Elt F)),
    binary main_v457 main_v1 main_v458 (mulf : (⟨S4096x27, .f32⟩ : BufTy).Contents (Elt F) → (⟨S4096x27, .f32⟩ : BufTy).Contents (Elt F) → (⟨S4096x27, .f32⟩ : BufTy).Contents (Elt F)),
    nullary main_cst_174 (constant S_ .f32 0xBF000000#32),
    unary main_cst_174 main_v459 (broadcastInDim S4096x27 ![] bcast_S_S4096x27 : (⟨S_, .f32⟩ : BufTy).Contents (Elt F) → (⟨S4096x27, .f32⟩ : BufTy).Contents (Elt F)),
    binary main_v459 main_v458 main_v460 (mulf : (⟨S4096x27, .f32⟩ : BufTy).Contents (Elt F) → (⟨S4096x27, .f32⟩ : BufTy).Contents (Elt F) → (⟨S4096x27, .f32⟩ : BufTy).Contents (Elt F)),
    unary main_v460 main_v461 (Host.exp : (⟨S4096x27, .f32⟩ : BufTy).Contents (Elt F) → (⟨S4096x27, .f32⟩ : BufTy).Contents (Elt F)),
    nullary main_cst_175 (constant S_ .f32 0x3C8432A5#32),
    unary main_cst_175 main_v462 (broadcastInDim S4096x27 ![] bcast_S_S4096x27 : (⟨S_, .f32⟩ : BufTy).Contents (Elt F) → (⟨S4096x27, .f32⟩ : BufTy).Contents (Elt F)),
    binary main_v462 main_v461 main_v463 (mulf : (⟨S4096x27, .f32⟩ : BufTy).Contents (Elt F) → (⟨S4096x27, .f32⟩ : BufTy).Contents (Elt F) → (⟨S4096x27, .f32⟩ : BufTy).Contents (Elt F)),
    binary main_v463 main_v458 main_v464 (mulf : (⟨S4096x27, .f32⟩ : BufTy).Contents (Elt F) → (⟨S4096x27, .f32⟩ : BufTy).Contents (Elt F) → (⟨S4096x27, .f32⟩ : BufTy).Contents (Elt F)),
    nullary main_cst_176 (constant S_ .f32 0x00000000#32),
    unary main_cst_176 main_v465 (broadcastInDim S4096x27 ![] bcast_S_S4096x27 : (⟨S_, .f32⟩ : BufTy).Contents (Elt F) → (⟨S4096x27, .f32⟩ : BufTy).Contents (Elt F)),
    nullary main_cst_177 (constant S_ .f32 0x3F000000#32),
    unary main_cst_177 main_v466 (broadcastInDim S4096x27 ![] bcast_S_S4096x27 : (⟨S_, .f32⟩ : BufTy).Contents (Elt F) → (⟨S4096x27, .f32⟩ : BufTy).Contents (Elt F)),
    binary main_v465 main_v466 main_v467 (addf : (⟨S4096x27, .f32⟩ : BufTy).Contents (Elt F) → (⟨S4096x27, .f32⟩ : BufTy).Contents (Elt F) → (⟨S4096x27, .f32⟩ : BufTy).Contents (Elt F)),
    binary main_v467 main_v458 main_v468 (mulf : (⟨S4096x27, .f32⟩ : BufTy).Contents (Elt F) → (⟨S4096x27, .f32⟩ : BufTy).Contents (Elt F) → (⟨S4096x27, .f32⟩ : BufTy).Contents (Elt F)),
    nullary main_cst_178 (constant S_ .f32 0xC0A00000#32),
    unary main_cst_178 main_v469 (broadcastInDim S4096x27 ![] bcast_S_S4096x27 : (⟨S_, .f32⟩ : BufTy).Contents (Elt F) → (⟨S4096x27, .f32⟩ : BufTy).Contents (Elt F)),
    binary main_v468 main_v469 main_v470 (addf : (⟨S4096x27, .f32⟩ : BufTy).Contents (Elt F) → (⟨S4096x27, .f32⟩ : BufTy).Contents (Elt F) → (⟨S4096x27, .f32⟩ : BufTy).Contents (Elt F)),
    binary main_v470 main_v458 main_v471 (mulf : (⟨S4096x27, .f32⟩ : BufTy).Contents (Elt F) → (⟨S4096x27, .f32⟩ : BufTy).Contents (Elt F) → (⟨S4096x27, .f32⟩ : BufTy).Contents (Elt F)),
    nullary main_cst_179 (constant S_ .f32 0x41200000#32),
    unary main_cst_179 main_v472 (broadcastInDim S4096x27 ![] bcast_S_S4096x27 : (⟨S_, .f32⟩ : BufTy).Contents (Elt F) → (⟨S4096x27, .f32⟩ : BufTy).Contents (Elt F)),
    binary main_v471 main_v472 main_v473 (addf : (⟨S4096x27, .f32⟩ : BufTy).Contents (Elt F) → (⟨S4096x27, .f32⟩ : BufTy).Contents (Elt F) → (⟨S4096x27, .f32⟩ : BufTy).Contents (Elt F)),
    binary main_v464 main_v473 main_v474 (mulf : (⟨S4096x27, .f32⟩ : BufTy).Contents (Elt F) → (⟨S4096x27, .f32⟩ : BufTy).Contents (Elt F) → (⟨S4096x27, .f32⟩ : BufTy).Contents (Elt F)),
    unary main_v3 main_v475 (Host.cos : (⟨S4096x27, .f32⟩ : BufTy).Contents (Elt F) → (⟨S4096x27, .f32⟩ : BufTy).Contents (Elt F)),
    binary main_v475 main_v475 main_v476 (mulf : (⟨S4096x27, .f32⟩ : BufTy).Contents (Elt F) → (⟨S4096x27, .f32⟩ : BufTy).Contents (Elt F) → (⟨S4096x27, .f32⟩ : BufTy).Contents (Elt F)),
    nullary main_cst_180 (constant S_ .f32 0x3F800000#32),
    unary main_cst_180 main_v477 (broadcastInDim S4096x27 ![] bcast_S_S4096x27 : (⟨S_, .f32⟩ : BufTy).Contents (Elt F) → (⟨S4096x27, .f32⟩ : BufTy).Contents (Elt F)),
    binary main_v477 main_v476 main_v478 (subf : (⟨S4096x27, .f32⟩ : BufTy).Contents (Elt F) → (⟨S4096x27, .f32⟩ : BufTy).Contents (Elt F) → (⟨S4096x27, .f32⟩ : BufTy).Contents (Elt F)),
    nullary main_cst_181 (constant S_ .f32 0x00000000#32),
    TRef.unary (TRef.of (T := ⟨S_, .f32⟩) main_cst_181) (TRef.of (T := ⟨S_, .f32⟩) main_call15_v0) id,
    TRef.unary (TRef.of (T := ⟨S_, .f32⟩) main_call15_v0) (TRef.of (T := ⟨S4096x27, .f32⟩) main_call15_v1) (broadcastInDim S4096x27 ![] bcast_S_S4096x27),
    TRef.binary (TRef.of (T := ⟨S4096x27, .f32⟩) main_call15_v1) (TRef.of (T := ⟨S4096x27, .f32⟩) main_v478) (TRef.of (T := ⟨S4096x27, .f32⟩) main_v479) maximumf,
    unary main_v479 main_v480 (Host.sqrt : (⟨S4096x27, .f32⟩ : BufTy).Contents (Elt F) → (⟨S4096x27, .f32⟩ : BufTy).Contents (Elt F)),
    nullary main_cst_182 (constant S_ .f32 0x3F800000#32),
    unary main_cst_182 main_v481 (broadcastInDim S4096x27 ![] bcast_S_S4096x27 : (⟨S_, .f32⟩ : BufTy).Contents (Elt F) → (⟨S4096x27, .f32⟩ : BufTy).Contents (Elt F)),
    nullary main_cst_183 (constant S_ .f32 0xBF800000#32),
    unary main_cst_183 main_v482 (broadcastInDim S4096x27 ![] bcast_S_S4096x27 : (⟨S_, .f32⟩ : BufTy).Contents (Elt F) → (⟨S4096x27, .f32⟩ : BufTy).Contents (Elt F)),
    binary main_v481 main_v482 main_v483 (mulf : (⟨S4096x27, .f32⟩ : BufTy).Contents (Elt F) → (⟨S4096x27, .f32⟩ : BufTy).Contents (Elt F) → (⟨S4096x27, .f32⟩ : BufTy).Contents (Elt F)),
    binary main_v483 main_v480 main_v484 (mulf : (⟨S4096x27, .f32⟩ : BufTy).Contents (Elt F) → (⟨S4096x27, .f32⟩ : BufTy).Contents (Elt F) → (⟨S4096x27, .f32⟩ : BufTy).Contents (Elt F)),
    nullary main_cst_184 (constant S_ .f32 0x3EFA2A1C#32),
    unary main_cst_184 main_v485 (broadcastInDim S4096x27 ![] bcast_S_S4096x27 : (⟨S_, .f32⟩ : BufTy).Contents (Elt F) → (⟨S4096x27, .f32⟩ : BufTy).Contents (Elt F)),
    binary main_v485 main_v484 main_v486 (mulf : (⟨S4096x27, .f32⟩ : BufTy).Contents (Elt F) → (⟨S4096x27, .f32⟩ : BufTy).Contents (Elt F) → (⟨S4096x27, .f32⟩ : BufTy).Contents (Elt F)),
    nullary main_cst_185 (constant S_ .f32 0x3F800000#32),
    unary main_cst_185 main_v487 (broadcastInDim S4096x27 ![] bcast_S_S4096x27 : (⟨S_, .f32⟩ : BufTy).Contents (Elt F) → (⟨S4096x27, .f32⟩ : BufTy).Contents (Elt F)),
    binary main_v487 main_v5 main_v488 (mulf : (⟨S4096x27, .f32⟩ : BufTy).Contents (Elt F) → (⟨S4096x27, .f32⟩ : BufTy).Contents (Elt F) → (⟨S4096x27, .f32⟩ : BufTy).Contents (Elt F)),
    unary main_v488 main_v489 (Host.sin : (⟨S4096x27, .f32⟩ : BufTy).Contents (Elt F) → (⟨S4096x27, .f32⟩ : BufTy).Contents (Elt F)),
    binary main_v486 main_v489 main_v490 (mulf : (⟨S4096x27, .f32⟩ : BufTy).Contents (Elt F) → (⟨S4096x27, .f32⟩ : BufTy).Contents (Elt F) → (⟨S4096x27, .f32⟩ : BufTy).Contents (Elt F)),
    binary main_v474 main_v490 main_v491 (mulf : (⟨S4096x27, .f32⟩ : BufTy).Contents (Elt F) → (⟨S4096x27, .f32⟩ : BufTy).Contents (Elt F) → (⟨S4096x27, .f32⟩ : BufTy).Contents (Elt F)) ]

theorem ops_15_sub : (ops_15 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_15_fresh : ∀ op ∈ (ops_15 : List (HloOp τ sig (Elt F))), op.fresh = ∅ :=
  List.forall_iff_forall_mem.mp (by simp only [List.Forall]; repeat' constructor)

/-- The arrays chain 15 writes. -/
abbrev W_15 : List (Ref sig .tc) := [main_cst_173, main_v457, main_v458, main_cst_174, main_v459, main_v460, main_v461, main_cst_175, main_v462, main_v463, main_v464, main_cst_176, main_v465, main_cst_177, main_v466, main_v467, main_v468, main_cst_178, main_v469, main_v470, main_v471, main_cst_179, main_v472, main_v473, main_v474, main_v475, main_v476, main_cst_180, main_v477, main_v478, main_cst_181, main_call15_v0, main_call15_v1, main_v479, main_v480, main_cst_182, main_v481, main_cst_183, main_v482, main_v483, main_v484, main_cst_184, main_v485, main_v486, main_cst_185, main_v487, main_v488, main_v489, main_v490, main_v491]

theorem ops_15_writes : (ops_15 : List (HloOp τ sig (Elt F))).Forall fun op =>
    op.writes ⊆ (W_15.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 15's array after the chain is its value of the position array. -/
theorem val_15 (x0 : (⟨S4096x27x3, .f32⟩ : BufTy).Contents (Elt F)) (x1 : (⟨S16x16x30, .f32⟩ : BufTy).Contents (Elt F))
    (V : Valuation τ sig (Elt F)) (h : Good x0 x1 15 V) :
    after ops_15 V (Proc.devRef .tc main_v491) = val_main_v491 (F := F) x0 := by
  have hr := h.r
  have hθ := h.θ
  have hφ := h.φ
  simp only [ops_15]
  after_results_simp
  try rw [hr]
  try rw [hθ]
  try rw [hφ]
  all_goals rfl

/-- The chain keeps what was in place and adds orbital 15's array. -/
theorem step_15 (x0 : (⟨S4096x27x3, .f32⟩ : BufTy).Contents (Elt F)) (x1 : (⟨S16x16x30, .f32⟩ : BufTy).Contents (Elt F))
    (V : Valuation τ sig (Elt F)) (h : Good x0 x1 15 V) : Good x0 x1 16 (after ops_15 V) where
  a0 := (after_of_writes_sub ops_15 V ops_15_writes (by decide)).trans h.a0
  a1 := (after_of_writes_sub ops_15 V ops_15_writes (by decide)).trans h.a1
  r := (after_of_writes_sub ops_15 V ops_15_writes (by decide)).trans h.r
  θ := (after_of_writes_sub ops_15 V ops_15_writes (by decide)).trans h.θ
  φ := (after_of_writes_sub ops_15 V ops_15_writes (by decide)).trans h.φ
  res := by
    intro j hj
    fin_cases j
    · exact (after_of_writes_sub ops_15 V ops_15_writes (by decide)).trans (h.res 0 (by decide))
    · exact (after_of_writes_sub ops_15 V ops_15_writes (by decide)).trans (h.res 1 (by decide))
    · exact (after_of_writes_sub ops_15 V ops_15_writes (by decide)).trans (h.res 2 (by decide))
    · exact (after_of_writes_sub ops_15 V ops_15_writes (by decide)).trans (h.res 3 (by decide))
    · exact (after_of_writes_sub ops_15 V ops_15_writes (by decide)).trans (h.res 4 (by decide))
    · exact (after_of_writes_sub ops_15 V ops_15_writes (by decide)).trans (h.res 5 (by decide))
    · exact (after_of_writes_sub ops_15 V ops_15_writes (by decide)).trans (h.res 6 (by decide))
    · exact (after_of_writes_sub ops_15 V ops_15_writes (by decide)).trans (h.res 7 (by decide))
    · exact (after_of_writes_sub ops_15 V ops_15_writes (by decide)).trans (h.res 8 (by decide))
    · exact (after_of_writes_sub ops_15 V ops_15_writes (by decide)).trans (h.res 9 (by decide))
    · exact (after_of_writes_sub ops_15 V ops_15_writes (by decide)).trans (h.res 10 (by decide))
    · exact (after_of_writes_sub ops_15 V ops_15_writes (by decide)).trans (h.res 11 (by decide))
    · exact (after_of_writes_sub ops_15 V ops_15_writes (by decide)).trans (h.res 12 (by decide))
    · exact (after_of_writes_sub ops_15 V ops_15_writes (by decide)).trans (h.res 13 (by decide))
    · exact (after_of_writes_sub ops_15 V ops_15_writes (by decide)).trans (h.res 14 (by decide))
    · exact val_15 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk16.lean ====
/-
  Orbital chain 16 of the reference: the 45 operations that compute orbital 16's array on the 4096 × 27 grid from the
  coordinate arrays r, θ, φ alone, ending at main_v522.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 16, in program order. -/
abbrev ops_16 : List (HloOp τ sig (Elt F)) :=
  [ nullary main_cst_186 (constant S_ .f32 0x3F000000#32),
    unary main_cst_186 main_v492 (broadcastInDim S4096x27 ![] bcast_S_S4096x27 : (⟨S_, .f32⟩ : BufTy).Contents (Elt F) → (⟨S4096x27, .f32⟩ : BufTy).Contents (Elt F)),
    binary main_v492 main_v1 main_v493 (mulf : (⟨S4096x27, .f32⟩ : BufTy).Contents (Elt F) → (⟨S4096x27, .f32⟩ : BufTy).Contents (Elt F) → (⟨S4096x27, .f32⟩ : BufTy).Contents (Elt F)),
    nullary main_cst_187 (constant S_ .f32 0xBF000000#32),
    unary main_cst_187 main_v494 (broadcastInDim S4096x27 ![] bcast_S_S4096x27 : (⟨S_, .f32⟩ : BufTy).Contents (Elt F) → (⟨S4096x27, .f32⟩ : BufTy).Contents (Elt F)),
    binary main_v494 main_v493 main_v495 (mulf : (⟨S4096x27, .f32⟩ : BufTy).Contents (Elt F) → (⟨S4096x27, .f32⟩ : BufTy).Contents (Elt F) → (⟨S4096x27, .f32⟩ : BufTy).Contents (Elt F)),
    unary main_v495 main_v496 (Host.exp : (⟨S4096x27, .f32⟩ : BufTy).Contents (Elt F) → (⟨S4096x27, .f32⟩ : BufTy).Contents (Elt F)),
    nullary main_cst_188 (constant S_ .f32 0x3C8432A5#32),
    unary main_cst_188 main_v497 (broadcastInDim S4096x27 ![] bcast_S_S4096x27 : (⟨S_, .f32⟩ : BufTy).Contents (Elt F) → (⟨S4096x27, .f32⟩ : BufTy).Contents (Elt F)),
    binary main_v497 main_v496 main_v498 (mulf : (⟨S4096x27, .f32⟩ : BufTy).Contents (Elt F) → (⟨S4096x27, .f32⟩ : BufTy).Contents (Elt F) → (⟨S4096x27, .f32⟩ : BufTy).Contents (Elt F)),
    binary main_v498 main_v493 main_v499 (mulf : (⟨S4096x27, .f32⟩ : BufTy).Contents (Elt F) → (⟨S4096x27, .f32⟩ : BufTy).Contents (Elt F) → (⟨S4096x27, .f32⟩ : BufTy).Contents (Elt F)),
    nullary main_cst_189 (constant S_ .f32 0x00000000#32),
    unary main_cst_189 main_v500 (broadcastInDim S4096x27 ![] bcast_S_S4096x27 : (⟨S_, .f32⟩ : BufTy).Contents (Elt F) → (⟨S4096x27, .f32⟩ : BufTy).Contents (Elt F)),
    nullary main_cst_190 (constant S_ .f32 0x3F000000#32),
    unary main_cst_190 main_v501 (broadcastInDim S4096x27 ![] bcast_S_S4096x27 : (⟨S_, .f32⟩ : BufTy).Contents (Elt F) → (⟨S4096x27, .f32⟩ : BufTy).Contents (Elt F)),
    binary main_v500 main_v501 main_v502 (addf : (⟨S4096x27, .f32⟩ : BufTy).Contents (Elt F) → (⟨S4096x27, .f32⟩ : BufTy).Contents (Elt F) → (⟨S4096x27, .f32⟩ : BufTy).Contents (Elt F)),
    binary main_v502 main_v493 main_v503 (mulf : (⟨S4096x27, .f32⟩ : BufTy).Contents (Elt F) → (⟨S4096x27, .f32⟩ : BufTy).Contents (Elt F) → (⟨S4096x27, .f32⟩ : BufTy).Contents (Elt F)),
    nullary main_cst_191 (constant S_ .f32 0xC0A00000#32),
    unary main_cst_191 main_v504 (broadcastInDim S4096x27 ![] bcast_S_S4096x27 : (⟨S_, .f32⟩ : BufTy).Contents (Elt F) → (⟨S4096x27, .f32⟩ : BufTy).Contents (Elt F)),
    binary main_v503 main_v504 main_v505 (addf : (⟨S4096x27, .f32⟩ : BufTy).Contents (Elt F) → (⟨S4096x27, .f32⟩ : BufTy).Contents (Elt F) → (⟨S4096x27, .f32⟩ : BufTy).Contents (Elt F)),
    binary main_v505 main_v493 main_v506 (mulf : (⟨S4096x27, .f32⟩ : BufTy).Contents (Elt F) → (⟨S4096x27, .f32⟩ : BufTy).Contents (Elt F) → (⟨S4096x27, .f32⟩ : BufTy).Contents (Elt F)),
    nullary main_cst_192 (constant S_ .f32 0x41200000#32),
    unary main_cst_192 main_v507 (broadcastInDim S4096x27 ![] bcast_S_S4096x27 : (⟨S_, .f32⟩ : BufTy).Contents (Elt F) → (⟨S4096x27, .f32⟩ : BufTy).Contents (Elt F)),
    binary main_v506 main_v507 main_v508 (addf : (⟨S4096x27, .f32⟩ : BufTy).Contents (Elt F) → (⟨S4096x27, .f32⟩ : BufTy).Contents (Elt F) → (⟨S4096x27, .f32⟩ : BufTy).Contents (Elt F)),
    binary main_v499 main_v508 main_v509 (mulf : (⟨S4096x27, .f32⟩ : BufTy).Contents (Elt F) → (⟨S4096x27, .f32⟩ : BufTy).Contents (Elt F) → (⟨S4096x27, .f32⟩ : BufTy).Contents (Elt F)),
    unary main_v3 main_v510 (Host.cos : (⟨S4096x27, .f32⟩ : BufTy).Contents (Elt F) → (⟨S4096x27, .f32⟩ : BufTy).Contents (Elt F)),
    binary main_v510 main_v510 main_v511 (mulf : (⟨S4096x27, .f32⟩ : BufTy).Contents (Elt F) → (⟨S4096x27, .f32⟩ : BufTy).Contents (Elt F) → (⟨S4096x27, .f32⟩ : BufTy).Contents (Elt F)),
    nullary main_cst_193 (constant S_ .f32 0x3F800000#32),
    unary main_cst_193 main_v512 (broadcastInDim S4096x27 ![] bcast_S_S4096x27 : (⟨S_, .f32⟩ : BufTy).Contents (Elt F) → (⟨S4096x27, .f32⟩ : BufTy).Contents (Elt F)),
    binary main_v512 main_v511 main_v513 (subf : (⟨S4096x27, .f32⟩ : BufTy).Contents (Elt F) → (⟨S4096x27, .f32⟩ : BufTy).Contents (Elt F) → (⟨S4096x27, .f32⟩ : BufTy).Contents (Elt F)),
    nullary main_cst_194 (constant S_ .f32 0x00000000#32),
    TRef.unary (TRef.of (T := ⟨S_, .f32⟩) main_cst_194) (TRef.of (T := ⟨S_, .f32⟩) main_call16_v0) id,
    TRef.unary (TRef.of (T := ⟨S_, .f32⟩) main_call16_v0) (TRef.of (T := ⟨S4096x27, .f32⟩) main_call16_v1) (broadcastInDim S4096x27 ![] bcast_S_S4096x27),
    TRef.binary (TRef.of (T := ⟨S4096x27, .f32⟩) main_call16_v1) (TRef.of (T := ⟨S4096x27, .f32⟩) main_v513) (TRef.of (T := ⟨S4096x27, .f32⟩) main_v514) maximumf,
    unary main_v514 main_v515 (Host.sqrt : (⟨S4096x27, .f32⟩ : BufTy).Contents (Elt F) → (⟨S4096x27, .f32⟩ : BufTy).Contents (Elt F)),
    nullary main_cst_195 (constant S_ .f32 0x3F800000#32),
    unary main_cst_195 main_v516 (broadcastInDim S4096x27 ![] bcast_S_S4096x27 : (⟨S_, .f32⟩ : BufTy).Contents (Elt F) → (⟨S4096x27, .f32⟩ : BufTy).Contents (Elt F)),
    nullary main_cst_196 (constant S_ .f32 0x3F800000#32),
    unary main_cst_196 main_v517 (broadcastInDim S4096x27 ![] bcast_S_S4096x27 : (⟨S_, .f32⟩ : BufTy).Contents (Elt F) → (⟨S4096x27, .f32⟩ : BufTy).Contents (Elt F)),
    binary main_v510 main_v517 main_v518 (mulf : (⟨S4096x27, .f32⟩ : BufTy).Contents (Elt F) → (⟨S4096x27, .f32⟩ : BufTy).Contents (Elt F) → (⟨S4096x27, .f32⟩ : BufTy).Contents (Elt F)),
    binary main_v518 main_v516 main_v519 (mulf : (⟨S4096x27, .f32⟩ : BufTy).Contents (Elt F) → (⟨S4096x27, .f32⟩ : BufTy).Contents (Elt F) → (⟨S4096x27, .f32⟩ : BufTy).Contents (Elt F)),
    nullary main_cst_197 (constant S_ .f32 0x3EFA2A1C#32),
    unary main_cst_197 main_v520 (broadcastInDim S4096x27 ![] bcast_S_S4096x27 : (⟨S_, .f32⟩ : BufTy).Contents (Elt F) → (⟨S4096x27, .f32⟩ : BufTy).Contents (Elt F)),
    binary main_v520 main_v519 main_v521 (mulf : (⟨S4096x27, .f32⟩ : BufTy).Contents (Elt F) → (⟨S4096x27, .f32⟩ : BufTy).Contents (Elt F) → (⟨S4096x27, .f32⟩ : BufTy).Contents (Elt F)),
    binary main_v509 main_v521 main_v522 (mulf : (⟨S4096x27, .f32⟩ : BufTy).Contents (Elt F) → (⟨S4096x27, .f32⟩ : BufTy).Contents (Elt F) → (⟨S4096x27, .f32⟩ : BufTy).Contents (Elt F)) ]

theorem ops_16_sub : (ops_16 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub ..⟩

theorem ops_16_fresh : ∀ op ∈ (ops_16 : List (HloOp τ sig (Elt F))), op.fresh = ∅ :=
  List.forall_iff_forall_mem.mp (by simp only [List.Forall]; repeat' constructor)

/-- The arrays chain 16 writes. -/
abbrev W_16 : List (Ref sig .tc) := [main_cst_186, main_v492, main_v493, main_cst_187, main_v494, main_v495, main_v496, main_cst_188, main_v497, main_v498, main_v499, main_cst_189, main_v500, main_cst_190, main_v501, main_v502, main_v503, main_cst_191, main_v504, main_v505, main_v506, main_cst_192, main_v507, main_v508, main_v509, main_v510, main_v511, main_cst_193, main_v512, main_v513, main_cst_194, main_call16_v0, main_call16_v1, main_v514, main_v515, main_cst_195, main_v516, main_cst_196, main_v517, main_v518, main_v519, main_cst_197, main_v520, main_v521, main_v522]

theorem ops_16_writes : (ops_16 : List (HloOp τ sig (Elt F))).Forall fun op =>
    op.writes ⊆ (W_16.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 16's array after the chain is its value of the position array. -/
theorem val_16 (x0 : (⟨S4096x27x3, .f32⟩ : BufTy).Contents (Elt F)) (x1 : (⟨S16x16x30, .f32⟩ : BufTy).Contents (Elt F))
    (V : Valuation τ sig (Elt F)) (h : Good x0 x1 16 V) :
    after ops_16 V (Proc.devRef .tc main_v522) = val_main_v522 (F := F) x0 := by
  have hr := h.r
  have hθ := h.θ
  have hφ := h.φ
  simp only [ops_16]
  after_results_simp
  try rw [hr]
  try rw [hθ]
  try rw [hφ]
  all_goals rfl

/-- The chain keeps what was in place and adds orbital 16's array. -/
theorem step_16 (x0 : (⟨S4096x27x3, .f32⟩ : BufTy).Contents (Elt F)) (x1 : (⟨S16x16x30, .f32⟩ : BufTy).Contents (Elt F))
    (V : Valuation τ sig (Elt F)) (h : Good x0 x1 16 V) : Good x0 x1 17 (after ops_16 V) where
  a0 := (after_of_writes_sub ops_16 V ops_16_writes (by decide)).trans h.a0
  a1 := (after_of_writes_sub ops_16 V ops_16_writes (by decide)).trans h.a1
  r := (after_of_writes_sub ops_16 V ops_16_writes (by decide)).trans h.r
  θ := (after_of_writes_sub ops_16 V ops_16_writes (by decide)).trans h.θ
  φ := (after_of_writes_sub ops_16 V ops_16_writes (by decide)).trans h.φ
  res := by
    intro j hj
    fin_cases j
    · exact (after_of_writes_sub ops_16 V ops_16_writes (by decide)).trans (h.res 0 (by decide))
    · exact (after_of_writes_sub ops_16 V ops_16_writes (by decide)).trans (h.res 1 (by decide))
    · exact (after_of_writes_sub ops_16 V ops_16_writes (by decide)).trans (h.res 2 (by decide))
    · exact (after_of_writes_sub ops_16 V ops_16_writes (by decide)).trans (h.res 3 (by decide))
    · exact (after_of_writes_sub ops_16 V ops_16_writes (by decide)).trans (h.res 4 (by decide))
    · exact (after_of_writes_sub ops_16 V ops_16_writes (by decide)).trans (h.res 5 (by decide))
    · exact (after_of_writes_sub ops_16 V ops_16_writes (by decide)).trans (h.res 6 (by decide))
    · exact (after_of_writes_sub ops_16 V ops_16_writes (by decide)).trans (h.res 7 (by decide))
    · exact (after_of_writes_sub ops_16 V ops_16_writes (by decide)).trans (h.res 8 (by decide))
    · exact (after_of_writes_sub ops_16 V ops_16_writes (by decide)).trans (h.res 9 (by decide))
    · exact (after_of_writes_sub ops_16 V ops_16_writes (by decide)).trans (h.res 10 (by decide))
    · exact (after_of_writes_sub ops_16 V ops_16_writes (by decide)).trans (h.res 11 (by decide))
    · exact (after_of_writes_sub ops_16 V ops_16_writes (by decide)).trans (h.res 12 (by decide))
    · exact (after_of_writes_sub ops_16 V ops_16_writes (by decide)).trans (h.res 13 (by decide))
    · exact (after_of_writes_sub ops_16 V ops_16_writes (by decide)).trans (h.res 14 (by decide))
    · exact (after_of_writes_sub ops_16 V ops_16_writes (by decide)).trans (h.res 15 (by decide))
    · exact val_16 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk17.lean ====
/-
  Orbital chain 17 of the reference: the 50 operations that compute orbital 17's array on the 4096 × 27 grid from the
  coordinate arrays r, θ, φ alone, ending at main_v557.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 17, in program order. -/
abbrev ops_17 : List (HloOp τ sig (Elt F)) :=
  [ nullary main_cst_198 (constant S_ .f32 0x3F000000#32),
    unary main_cst_198 main_v523 (broadcastInDim S4096x27 ![] bcast_S_S4096x27 : (⟨S_, .f32⟩ : BufTy).Contents (Elt F) → (⟨S4096x27, .f32⟩ : BufTy).Contents (Elt F)),
    binary main_v523 main_v1 main_v524 (mulf : (⟨S4096x27, .f32⟩ : BufTy).Contents (Elt F) → (⟨S4096x27, .f32⟩ : BufTy).Contents (Elt F) → (⟨S4096x27, .f32⟩ : BufTy).Contents (Elt F)),
    nullary main_cst_199 (constant S_ .f32 0xBF000000#32),
    unary main_cst_199 main_v525 (broadcastInDim S4096x27 ![] bcast_S_S4096x27 : (⟨S_, .f32⟩ : BufTy).Contents (Elt F) → (⟨S4096x27, .f32⟩ : BufTy).Contents (Elt F)),
    binary main_v525 main_v524 main_v526 (mulf : (⟨S4096x27, .f32⟩ : BufTy).Contents (Elt F) → (⟨S4096x27, .f32⟩ : BufTy).Contents (Elt F) → (⟨S4096x27, .f32⟩ : BufTy).Contents (Elt F)),
    unary main_v526 main_v527 (Host.exp : (⟨S4096x27, .f32⟩ : BufTy).Contents (Elt F) → (⟨S4096x27, .f32⟩ : BufTy).Contents (Elt F)),
    nullary main_cst_200 (constant S_ .f32 0x3C8432A5#32),
    unary main_cst_200 main_v528 (broadcastInDim S4096x27 ![] bcast_S_S4096x27 : (⟨S_, .f32⟩ : BufTy).Contents (Elt F) → (⟨S4096x27, .f32⟩ : BufTy).Contents (Elt F)),
    binary main_v528 main_v527 main_v529 (mulf : (⟨S4096x27, .f32⟩ : BufTy).Contents (Elt F) → (⟨S4096x27, .f32⟩ : BufTy).Contents (Elt F) → (⟨S4096x27, .f32⟩ : BufTy).Contents (Elt F)),
    binary main_v529 main_v524 main_v530 (mulf : (⟨S4096x27, .f32⟩ : BufTy).Contents (Elt F) → (⟨S4096x27, .f32⟩ : BufTy).Contents (Elt F) → (⟨S4096x27, .f32⟩ : BufTy).Contents (Elt F)),
    nullary main_cst_201 (constant S_ .f32 0x00000000#32),
    unary main_cst_201 main_v531 (broadcastInDim S4096x27 ![] bcast_S_S4096x27 : (⟨S_, .f32⟩ : BufTy).Contents (Elt F) → (⟨S4096x27, .f32⟩ : BufTy).Contents (Elt F)),
    nullary main_cst_202 (constant S_ .f32 0x3F000000#32),
    unary main_cst_202 main_v532 (broadcastInDim S4096x27 ![] bcast_S_S4096x27 : (⟨S_, .f32⟩ : BufTy).Contents (Elt F) → (⟨S4096x27, .f32⟩ : BufTy).Contents (Elt F)),
    binary main_v531 main_v532 main_v533 (addf : (⟨S4096x27, .f32⟩ : BufTy).Contents (Elt F) → (⟨S4096x27, .f32⟩ : BufTy).Contents (Elt F) → (⟨S4096x27, .f32⟩ : BufTy).Contents (Elt F)),
    binary main_v533 main_v524 main_v534 (mulf : (⟨S4096x27, .f32⟩ : BufTy).Contents (Elt F) → (⟨S4096x27, .f32⟩ : BufTy).Contents (Elt F) → (⟨S4096x27, .f32⟩ : BufTy).Contents (Elt F)),
    nullary main_cst_203 (constant S_ .f32 0xC0A00000#32),
    unary main_cst_203 main_v535 (broadcastInDim S4096x27 ![] bcast_S_S4096x27 : (⟨S_, .f32⟩ : BufTy).Contents (Elt F) → (⟨S4096x27, .f32⟩ : BufTy).Contents (Elt F)),
    binary main_v534 main_v535 main_v536 (addf : (⟨S4096x27, .f32⟩ : BufTy).Contents (Elt F) → (⟨S4096x27, .f32⟩ : BufTy).Contents (Elt F) → (⟨S4096x27, .f32⟩ : BufTy).Contents (Elt F)),
    binary main_v536 main_v524 main_v537 (mulf : (⟨S4096x27, .f32⟩ : BufTy).Contents (Elt F) → (⟨S4096x27, .f32⟩ : BufTy).Contents (Elt F) → (⟨S4096x27, .f32⟩ : BufTy).Contents (Elt F)),
    nullary main_cst_204 (constant S_ .f32 0x41200000#32),
    unary main_cst_204 main_v538 (broadcastInDim S4096x27 ![] bcast_S_S4096x27 : (⟨S_, .f32⟩ : BufTy).Contents (Elt F) → (⟨S4096x27, .f32⟩ : BufTy).Contents (Elt F)),
    binary main_v537 main_v538 main_v539 (addf : (⟨S4096x27, .f32⟩ : BufTy).Contents (Elt F) → (⟨S4096x27, .f32⟩ : BufTy).Contents (Elt F) → (⟨S4096x27, .f32⟩ : BufTy).Contents (Elt F)),
    binary main_v530 main_v539 main_v540 (mulf : (⟨S4096x27, .f32⟩ : BufTy).Contents (Elt F) → (⟨S4096x27, .f32⟩ : BufTy).Contents (Elt F) → (⟨S4096x27, .f32⟩ : BufTy).Contents (Elt F)),
    unary main_v3 main_v541 (Host.cos : (⟨S4096x27, .f32⟩ : BufTy).Contents (Elt F) → (⟨S4096x27, .f32⟩ : BufTy).Contents (Elt F)),
    binary main_v541 main_v541 main_v542 (mulf : (⟨S4096x27, .f32⟩ : BufTy).Contents (Elt F) → (⟨S4096x27, .f32⟩ : BufTy).Contents (Elt F) → (⟨S4096x27, .f32⟩ : BufTy).Contents (Elt F)),
    nullary main_cst_205 (constant S_ .f32 0x3F800000#32),
    unary main_cst_205 main_v543 (broadcastInDim S4096x27 ![] bcast_S_S4096x27 : (⟨S_, .f32⟩ : BufTy).Contents (Elt F) → (⟨S4096x27, .f32⟩ : BufTy).Contents (Elt F)),
    binary main_v543 main_v542 main_v544 (subf : (⟨S4096x27, .f32⟩ : BufTy).Contents (Elt F) → (⟨S4096x27, .f32⟩ : BufTy).Contents (Elt F) → (⟨S4096x27, .f32⟩ : BufTy).Contents (Elt F)),
    nullary main_cst_206 (constant S_ .f32 0x00000000#32),
    TRef.unary (TRef.of (T := ⟨S_, .f32⟩) main_cst_206) (TRef.of (T := ⟨S_, .f32⟩) main_call17_v0) id,
    TRef.unary (TRef.of (T := ⟨S_, .f32⟩) main_call17_v0) (TRef.of (T := ⟨S4096x27, .f32⟩) main_call17_v1) (broadcastInDim S4096x27 ![] bcast_S_S4096x27),
    TRef.binary (TRef.of (T := ⟨S4096x27, .f32⟩) main_call17_v1) (TRef.of (T := ⟨S4096x27, .f32⟩) main_v544) (TRef.of (T := ⟨S4096x27, .f32⟩) main_v545) maximumf,
    unary main_v545 main_v546 (Host.sqrt : (⟨S4096x27, .f32⟩ : BufTy).Contents (Elt F) → (⟨S4096x27, .f32⟩ : BufTy).Contents (Elt F)),
    nullary main_cst_207 (constant S_ .f32 0x3F800000#32),
    unary main_cst_207 main_v547 (broadcastInDim S4096x27 ![] bcast_S_S4096x27 : (⟨S_, .f32⟩ : BufTy).Contents (Elt F) → (⟨S4096x27, .f32⟩ : BufTy).Contents (Elt F)),
    nullary main_cst_208 (constant S_ .f32 0xBF800000#32),
    unary main_cst_208 main_v548 (broadcastInDim S4096x27 ![] bcast_S_S4096x27 : (⟨S_, .f32⟩ : BufTy).Contents (Elt F) → (⟨S4096x27, .f32⟩ : BufTy).Contents (Elt F)),
    binary main_v547 main_v548 main_v549 (mulf : (⟨S4096x27, .f32⟩ : BufTy).Contents (Elt F) → (⟨S4096x27, .f32⟩ : BufTy).Contents (Elt F) → (⟨S4096x27, .f32⟩ : BufTy).Contents (Elt F)),
    binary main_v549 main_v546 main_v550 (mulf : (⟨S4096x27, .f32⟩ : BufTy).Contents (Elt F) → (⟨S4096x27, .f32⟩ : BufTy).Contents (Elt F) → (⟨S4096x27, .f32⟩ : BufTy).Contents (Elt F)),
    nullary main_cst_209 (constant S_ .f32 0x3EFA2A1C#32),
    unary main_cst_209 main_v551 (broadcastInDim S4096x27 ![] bcast_S_S4096x27 : (⟨S_, .f32⟩ : BufTy).Contents (Elt F) → (⟨S4096x27, .f32⟩ : BufTy).Contents (Elt F)),
    binary main_v551 main_v550 main_v552 (mulf : (⟨S4096x27, .f32⟩ : BufTy).Contents (Elt F) → (⟨S4096x27, .f32⟩ : BufTy).Contents (Elt F) → (⟨S4096x27, .f32⟩ : BufTy).Contents (Elt F)),
    nullary main_cst_210 (constant S_ .f32 0x3F800000#32),
    unary main_cst_210 main_v553 (broadcastInDim S4096x27 ![] bcast_S_S4096x27 : (⟨S_, .f32⟩ : BufTy).Contents (Elt F) → (⟨S4096x27, .f32⟩ : BufTy).Contents (Elt F)),
    binary main_v553 main_v5 main_v554 (mulf : (⟨S4096x27, .f32⟩ : BufTy).Contents (Elt F) → (⟨S4096x27, .f32⟩ : BufTy).Contents (Elt F) → (⟨S4096x27, .f32⟩ : BufTy).Contents (Elt F)),
    unary main_v554 main_v555 (Host.cos : (⟨S4096x27, .f32⟩ : BufTy).Contents (Elt F) → (⟨S4096x27, .f32⟩ : BufTy).Contents (Elt F)),
    binary main_v552 main_v555 main_v556 (mulf : (⟨S4096x27, .f32⟩ : BufTy).Contents (Elt F) → (⟨S4096x27, .f32⟩ : BufTy).Contents (Elt F) → (⟨S4096x27, .f32⟩ : BufTy).Contents (Elt F)),
    binary main_v540 main_v556 main_v557 (mulf : (⟨S4096x27, .f32⟩ : BufTy).Contents (Elt F) → (⟨S4096x27, .f32⟩ : BufTy).Contents (Elt F) → (⟨S4096x27, .f32⟩ : BufTy).Contents (Elt F)) ]

theorem ops_17_sub : (ops_17 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_17_fresh : ∀ op ∈ (ops_17 : List (HloOp τ sig (Elt F))), op.fresh = ∅ :=
  List.forall_iff_forall_mem.mp (by simp only [List.Forall]; repeat' constructor)

/-- The arrays chain 17 writes. -/
abbrev W_17 : List (Ref sig .tc) := [main_cst_198, main_v523, main_v524, main_cst_199, main_v525, main_v526, main_v527, main_cst_200, main_v528, main_v529, main_v530, main_cst_201, main_v531, main_cst_202, main_v532, main_v533, main_v534, main_cst_203, main_v535, main_v536, main_v537, main_cst_204, main_v538, main_v539, main_v540, main_v541, main_v542, main_cst_205, main_v543, main_v544, main_cst_206, main_call17_v0, main_call17_v1, main_v545, main_v546, main_cst_207, main_v547, main_cst_208, main_v548, main_v549, main_v550, main_cst_209, main_v551, main_v552, main_cst_210, main_v553, main_v554, main_v555, main_v556, main_v557]

theorem ops_17_writes : (ops_17 : List (HloOp τ sig (Elt F))).Forall fun op =>
    op.writes ⊆ (W_17.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 17's array after the chain is its value of the position array. -/
theorem val_17 (x0 : (⟨S4096x27x3, .f32⟩ : BufTy).Contents (Elt F)) (x1 : (⟨S16x16x30, .f32⟩ : BufTy).Contents (Elt F))
    (V : Valuation τ sig (Elt F)) (h : Good x0 x1 17 V) :
    after ops_17 V (Proc.devRef .tc main_v557) = val_main_v557 (F := F) x0 := by
  have hr := h.r
  have hθ := h.θ
  have hφ := h.φ
  simp only [ops_17]
  after_results_simp
  try rw [hr]
  try rw [hθ]
  try rw [hφ]
  all_goals rfl

/-- The chain keeps what was in place and adds orbital 17's array. -/
theorem step_17 (x0 : (⟨S4096x27x3, .f32⟩ : BufTy).Contents (Elt F)) (x1 : (⟨S16x16x30, .f32⟩ : BufTy).Contents (Elt F))
    (V : Valuation τ sig (Elt F)) (h : Good x0 x1 17 V) : Good x0 x1 18 (after ops_17 V) where
  a0 := (after_of_writes_sub ops_17 V ops_17_writes (by decide)).trans h.a0
  a1 := (after_of_writes_sub ops_17 V ops_17_writes (by decide)).trans h.a1
  r := (after_of_writes_sub ops_17 V ops_17_writes (by decide)).trans h.r
  θ := (after_of_writes_sub ops_17 V ops_17_writes (by decide)).trans h.θ
  φ := (after_of_writes_sub ops_17 V ops_17_writes (by decide)).trans h.φ
  res := by
    intro j hj
    fin_cases j
    · exact (after_of_writes_sub ops_17 V ops_17_writes (by decide)).trans (h.res 0 (by decide))
    · exact (after_of_writes_sub ops_17 V ops_17_writes (by decide)).trans (h.res 1 (by decide))
    · exact (after_of_writes_sub ops_17 V ops_17_writes (by decide)).trans (h.res 2 (by decide))
    · exact (after_of_writes_sub ops_17 V ops_17_writes (by decide)).trans (h.res 3 (by decide))
    · exact (after_of_writes_sub ops_17 V ops_17_writes (by decide)).trans (h.res 4 (by decide))
    · exact (after_of_writes_sub ops_17 V ops_17_writes (by decide)).trans (h.res 5 (by decide))
    · exact (after_of_writes_sub ops_17 V ops_17_writes (by decide)).trans (h.res 6 (by decide))
    · exact (after_of_writes_sub ops_17 V ops_17_writes (by decide)).trans (h.res 7 (by decide))
    · exact (after_of_writes_sub ops_17 V ops_17_writes (by decide)).trans (h.res 8 (by decide))
    · exact (after_of_writes_sub ops_17 V ops_17_writes (by decide)).trans (h.res 9 (by decide))
    · exact (after_of_writes_sub ops_17 V ops_17_writes (by decide)).trans (h.res 10 (by decide))
    · exact (after_of_writes_sub ops_17 V ops_17_writes (by decide)).trans (h.res 11 (by decide))
    · exact (after_of_writes_sub ops_17 V ops_17_writes (by decide)).trans (h.res 12 (by decide))
    · exact (after_of_writes_sub ops_17 V ops_17_writes (by decide)).trans (h.res 13 (by decide))
    · exact (after_of_writes_sub ops_17 V ops_17_writes (by decide)).trans (h.res 14 (by decide))
    · exact (after_of_writes_sub ops_17 V ops_17_writes (by decide)).trans (h.res 15 (by decide))
    · exact (after_of_writes_sub ops_17 V ops_17_writes (by decide)).trans (h.res 16 (by decide))
    · exact val_17 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk18.lean ====
/-
  Orbital chain 18 of the reference: the 51 operations that compute orbital 18's array on the 4096 × 27 grid from the
  coordinate arrays r, θ, φ alone, ending at main_v593.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 18, in program order. -/
abbrev ops_18 : List (HloOp τ sig (Elt F)) :=
  [ nullary main_cst_211 (constant S_ .f32 0x3F000000#32),
    unary main_cst_211 main_v558 (broadcastInDim S4096x27 ![] bcast_S_S4096x27 : (⟨S_, .f32⟩ : BufTy).Contents (Elt F) → (⟨S4096x27, .f32⟩ : BufTy).Contents (Elt F)),
    binary main_v558 main_v1 main_v559 (mulf : (⟨S4096x27, .f32⟩ : BufTy).Contents (Elt F) → (⟨S4096x27, .f32⟩ : BufTy).Contents (Elt F) → (⟨S4096x27, .f32⟩ : BufTy).Contents (Elt F)),
    nullary main_cst_212 (constant S_ .f32 0xBF000000#32),
    unary main_cst_212 main_v560 (broadcastInDim S4096x27 ![] bcast_S_S4096x27 : (⟨S_, .f32⟩ : BufTy).Contents (Elt F) → (⟨S4096x27, .f32⟩ : BufTy).Contents (Elt F)),
    binary main_v560 main_v559 main_v561 (mulf : (⟨S4096x27, .f32⟩ : BufTy).Contents (Elt F) → (⟨S4096x27, .f32⟩ : BufTy).Contents (Elt F) → (⟨S4096x27, .f32⟩ : BufTy).Contents (Elt F)),
    unary main_v561 main_v562 (Host.exp : (⟨S4096x27, .f32⟩ : BufTy).Contents (Elt F) → (⟨S4096x27, .f32⟩ : BufTy).Contents (Elt F)),
    nullary main_cst_213 (constant S_ .f32 0x3B98A61F#32),
    unary main_cst_213 main_v563 (broadcastInDim S4096x27 ![] bcast_S_S4096x27 : (⟨S_, .f32⟩ : BufTy).Contents (Elt F) → (⟨S4096x27, .f32⟩ : BufTy).Contents (Elt F)),
    binary main_v563 main_v562 main_v564 (mulf : (⟨S4096x27, .f32⟩ : BufTy).Contents (Elt F) → (⟨S4096x27, .f32⟩ : BufTy).Contents (Elt F) → (⟨S4096x27, .f32⟩ : BufTy).Contents (Elt F)),
    binary main_v559 main_v559 main_v565 (mulf : (⟨S4096x27, .f32⟩ : BufTy).Contents (Elt F) → (⟨S4096x27, .f32⟩ : BufTy).Contents (Elt F) → (⟨S4096x27, .f32⟩ : BufTy).Contents (Elt F)),
    binary main_v564 main_v565 main_v566 (mulf : (⟨S4096x27, .f32⟩ : BufTy).Contents (Elt F) → (⟨S4096x27, .f32⟩ : BufTy).Contents (Elt F) → (⟨S4096x27, .f32⟩ : BufTy).Contents (Elt F)),
    nullary main_cst_214 (constant S_ .f32 0x00000000#32),
    unary main_cst_214 main_v567 (broadcastInDim S4096x27 ![] bcast_S_S4096x27 : (⟨S_, .f32⟩ : BufTy).Contents (Elt F) → (⟨S4096x27, .f32⟩ : BufTy).Contents (Elt F)),
    nullary main_cst_215 (constant S_ .f32 0xBF800000#32),
    unary main_cst_215 main_v568 (broadcastInDim S4096x27 ![] bcast_S_S4096x27 : (⟨S_, .f32⟩ : BufTy).Contents (Elt F) → (⟨S4096x27, .f32⟩ : BufTy).Contents (Elt F)),
    binary main_v567 main_v568 main_v569 (addf : (⟨S4096x27, .f32⟩ : BufTy).Contents (Elt F) → (⟨S4096x27, .f32⟩ : BufTy).Contents (Elt F) → (⟨S4096x27, .f32⟩ : BufTy).Contents (Elt F)),
    binary main_v569 main_v559 main_v570 (mulf : (⟨S4096x27, .f32⟩ : BufTy).Contents (Elt F) → (⟨S4096x27, .f32⟩ : BufTy).Contents (Elt F) → (⟨S4096x27, .f32⟩ : BufTy).Contents (Elt F)),
    nullary main_cst_216 (constant S_ .f32 0x40C00000#32),
    unary main_cst_216 main_v571 (broadcastInDim S4096x27 ![] bcast_S_S4096x27 : (⟨S_, .f32⟩ : BufTy).Contents (Elt F) → (⟨S4096x27, .f32⟩ : BufTy).Contents (Elt F)),
    binary main_v570 main_v571 main_v572 (addf : (⟨S4096x27, .f32⟩ : BufTy).Contents (Elt F) → (⟨S4096x27, .f32⟩ : BufTy).Contents (Elt F) → (⟨S4096x27, .f32⟩ : BufTy).Contents (Elt F)),
    binary main_v566 main_v572 main_v573 (mulf : (⟨S4096x27, .f32⟩ : BufTy).Contents (Elt F) → (⟨S4096x27, .f32⟩ : BufTy).Contents (Elt F) → (⟨S4096x27, .f32⟩ : BufTy).Contents (Elt F)),
    unary main_v3 main_v574 (Host.cos : (⟨S4096x27, .f32⟩ : BufTy).Contents (Elt F) → (⟨S4096x27, .f32⟩ : BufTy).Contents (Elt F)),
    binary main_v574 main_v574 main_v575 (mulf : (⟨S4096x27, .f32⟩ : BufTy).Contents (Elt F) → (⟨S4096x27, .f32⟩ : BufTy).Contents (Elt F) → (⟨S4096x27, .f32⟩ : BufTy).Contents (Elt F)),
    nullary main_cst_217 (constant S_ .f32 0x3F800000#32),
    unary main_cst_217 main_v576 (broadcastInDim S4096x27 ![] bcast_S_S4096x27 : (⟨S_, .f32⟩ : BufTy).Contents (Elt F) → (⟨S4096x27, .f32⟩ : BufTy).Contents (Elt F)),
    binary main_v576 main_v575 main_v577 (subf : (⟨S4096x27, .f32⟩ : BufTy).Contents (Elt F) → (⟨S4096x27, .f32⟩ : BufTy).Contents (Elt F) → (⟨S4096x27, .f32⟩ : BufTy).Contents (Elt F)),
    nullary main_cst_218 (constant S_ .f32 0x00000000#32),
    TRef.unary (TRef.of (T := ⟨S_, .f32⟩) main_cst_218) (TRef.of (T := ⟨S_, .f32⟩) main_call18_v0) id,
    TRef.unary (TRef.of (T := ⟨S_, .f32⟩) main_call18_v0) (TRef.of (T := ⟨S4096x27, .f32⟩) main_call18_v1) (broadcastInDim S4096x27 ![] bcast_S_S4096x27),
    TRef.binary (TRef.of (T := ⟨S4096x27, .f32⟩) main_call18_v1) (TRef.of (T := ⟨S4096x27, .f32⟩) main_v577) (TRef.of (T := ⟨S4096x27, .f32⟩) main_v578) maximumf,
    unary main_v578 main_v579 (Host.sqrt : (⟨S4096x27, .f32⟩ : BufTy).Contents (Elt F) → (⟨S4096x27, .f32⟩ : BufTy).Contents (Elt F)),
    nullary main_cst_219 (constant S_ .f32 0x3F800000#32),
    unary main_cst_219 main_v580 (broadcastInDim S4096x27 ![] bcast_S_S4096x27 : (⟨S_, .f32⟩ : BufTy).Contents (Elt F) → (⟨S4096x27, .f32⟩ : BufTy).Contents (Elt F)),
    nullary main_cst_220 (constant S_ .f32 0xBF800000#32),
    unary main_cst_220 main_v581 (broadcastInDim S4096x27 ![] bcast_S_S4096x27 : (⟨S_, .f32⟩ : BufTy).Contents (Elt F) → (⟨S4096x27, .f32⟩ : BufTy).Contents (Elt F)),
    binary main_v580 main_v581 main_v582 (mulf : (⟨S4096x27, .f32⟩ : BufTy).Contents (Elt F) → (⟨S4096x27, .f32⟩ : BufTy).Contents (Elt F) → (⟨S4096x27, .f32⟩ : BufTy).Contents (Elt F)),
    binary main_v582 main_v579 main_v583 (mulf : (⟨S4096x27, .f32⟩ : BufTy).Contents (Elt F) → (⟨S4096x27, .f32⟩ : BufTy).Contents (Elt F) → (⟨S4096x27, .f32⟩ : BufTy).Contents (Elt F)),
    nullary main_cst_221 (constant S_ .f32 0xC0400000#32),
    unary main_cst_221 main_v584 (broadcastInDim S4096x27 ![] bcast_S_S4096x27 : (⟨S_, .f32⟩ : BufTy).Contents (Elt F) → (⟨S4096x27, .f32⟩ : BufTy).Contents (Elt F)),
    binary main_v583 main_v584 main_v585 (mulf : (⟨S4096x27, .f32⟩ : BufTy).Contents (Elt F) → (⟨S4096x27, .f32⟩ : BufTy).Contents (Elt F) → (⟨S4096x27, .f32⟩ : BufTy).Contents (Elt F)),
    binary main_v585 main_v579 main_v586 (mulf : (⟨S4096x27, .f32⟩ : BufTy).Contents (Elt F) → (⟨S4096x27, .f32⟩ : BufTy).Contents (Elt F) → (⟨S4096x27, .f32⟩ : BufTy).Contents (Elt F)),
    nullary main_cst_222 (constant S_ .f32 0x3E3A762B#32),
    unary main_cst_222 main_v587 (broadcastInDim S4096x27 ![] bcast_S_S4096x27 : (⟨S_, .f32⟩ : BufTy).Contents (Elt F) → (⟨S4096x27, .f32⟩ : BufTy).Contents (Elt F)),
    binary main_v587 main_v586 main_v588 (mulf : (⟨S4096x27, .f32⟩ : BufTy).Contents (Elt F) → (⟨S4096x27, .f32⟩ : BufTy).Contents (Elt F) → (⟨S4096x27, .f32⟩ : BufTy).Contents (Elt F)),
    nullary main_cst_223 (constant S_ .f32 0x40000000#32),
    unary main_cst_223 main_v589 (broadcastInDim S4096x27 ![] bcast_S_S4096x27 : (⟨S_, .f32⟩ : BufTy).Contents (Elt F) → (⟨S4096x27, .f32⟩ : BufTy).Contents (Elt F)),
    binary main_v589 main_v5 main_v590 (mulf : (⟨S4096x27, .f32⟩ : BufTy).Contents (Elt F) → (⟨S4096x27, .f32⟩ : BufTy).Contents (Elt F) → (⟨S4096x27, .f32⟩ : BufTy).Contents (Elt F)),
    unary main_v590 main_v591 (Host.sin : (⟨S4096x27, .f32⟩ : BufTy).Contents (Elt F) → (⟨S4096x27, .f32⟩ : BufTy).Contents (Elt F)),
    binary main_v588 main_v591 main_v592 (mulf : (⟨S4096x27, .f32⟩ : BufTy).Contents (Elt F) → (⟨S4096x27, .f32⟩ : BufTy).Contents (Elt F) → (⟨S4096x27, .f32⟩ : BufTy).Contents (Elt F)),
    binary main_v573 main_v592 main_v593 (mulf : (⟨S4096x27, .f32⟩ : BufTy).Contents (Elt F) → (⟨S4096x27, .f32⟩ : BufTy).Contents (Elt F) → (⟨S4096x27, .f32⟩ : BufTy).Contents (Elt F)) ]

theorem ops_18_sub : (ops_18 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_18_fresh : ∀ op ∈ (ops_18 : List (HloOp τ sig (Elt F))), op.fresh = ∅ :=
  List.forall_iff_forall_mem.mp (by simp only [List.Forall]; repeat' constructor)

/-- The arrays chain 18 writes. -/
abbrev W_18 : List (Ref sig .tc) := [main_cst_211, main_v558, main_v559, main_cst_212, main_v560, main_v561, main_v562, main_cst_213, main_v563, main_v564, main_v565, main_v566, main_cst_214, main_v567, main_cst_215, main_v568, main_v569, main_v570, main_cst_216, main_v571, main_v572, main_v573, main_v574, main_v575, main_cst_217, main_v576, main_v577, main_cst_218, main_call18_v0, main_call18_v1, main_v578, main_v579, main_cst_219, main_v580, main_cst_220, main_v581, main_v582, main_v583, main_cst_221, main_v584, main_v585, main_v586, main_cst_222, main_v587, main_v588, main_cst_223, main_v589, main_v590, main_v591, main_v592, main_v593]

theorem ops_18_writes : (ops_18 : List (HloOp τ sig (Elt F))).Forall fun op =>
    op.writes ⊆ (W_18.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 18's array after the chain is its value of the position array. -/
theorem val_18 (x0 : (⟨S4096x27x3, .f32⟩ : BufTy).Contents (Elt F)) (x1 : (⟨S16x16x30, .f32⟩ : BufTy).Contents (Elt F))
    (V : Valuation τ sig (Elt F)) (h : Good x0 x1 18 V) :
    after ops_18 V (Proc.devRef .tc main_v593) = val_main_v593 (F := F) x0 := by
  have hr := h.r
  have hθ := h.θ
  have hφ := h.φ
  simp only [ops_18]
  after_results_simp
  try rw [hr]
  try rw [hθ]
  try rw [hφ]
  all_goals rfl

/-- The chain keeps what was in place and adds orbital 18's array. -/
theorem step_18 (x0 : (⟨S4096x27x3, .f32⟩ : BufTy).Contents (Elt F)) (x1 : (⟨S16x16x30, .f32⟩ : BufTy).Contents (Elt F))
    (V : Valuation τ sig (Elt F)) (h : Good x0 x1 18 V) : Good x0 x1 19 (after ops_18 V) where
  a0 := (after_of_writes_sub ops_18 V ops_18_writes (by decide)).trans h.a0
  a1 := (after_of_writes_sub ops_18 V ops_18_writes (by decide)).trans h.a1
  r := (after_of_writes_sub ops_18 V ops_18_writes (by decide)).trans h.r
  θ := (after_of_writes_sub ops_18 V ops_18_writes (by decide)).trans h.θ
  φ := (after_of_writes_sub ops_18 V ops_18_writes (by decide)).trans h.φ
  res := by
    intro j hj
    fin_cases j
    · exact (after_of_writes_sub ops_18 V ops_18_writes (by decide)).trans (h.res 0 (by decide))
    · exact (after_of_writes_sub ops_18 V ops_18_writes (by decide)).trans (h.res 1 (by decide))
    · exact (after_of_writes_sub ops_18 V ops_18_writes (by decide)).trans (h.res 2 (by decide))
    · exact (after_of_writes_sub ops_18 V ops_18_writes (by decide)).trans (h.res 3 (by decide))
    · exact (after_of_writes_sub ops_18 V ops_18_writes (by decide)).trans (h.res 4 (by decide))
    · exact (after_of_writes_sub ops_18 V ops_18_writes (by decide)).trans (h.res 5 (by decide))
    · exact (after_of_writes_sub ops_18 V ops_18_writes (by decide)).trans (h.res 6 (by decide))
    · exact (after_of_writes_sub ops_18 V ops_18_writes (by decide)).trans (h.res 7 (by decide))
    · exact (after_of_writes_sub ops_18 V ops_18_writes (by decide)).trans (h.res 8 (by decide))
    · exact (after_of_writes_sub ops_18 V ops_18_writes (by decide)).trans (h.res 9 (by decide))
    · exact (after_of_writes_sub ops_18 V ops_18_writes (by decide)).trans (h.res 10 (by decide))
    · exact (after_of_writes_sub ops_18 V ops_18_writes (by decide)).trans (h.res 11 (by decide))
    · exact (after_of_writes_sub ops_18 V ops_18_writes (by decide)).trans (h.res 12 (by decide))
    · exact (after_of_writes_sub ops_18 V ops_18_writes (by decide)).trans (h.res 13 (by decide))
    · exact (after_of_writes_sub ops_18 V ops_18_writes (by decide)).trans (h.res 14 (by decide))
    · exact (after_of_writes_sub ops_18 V ops_18_writes (by decide)).trans (h.res 15 (by decide))
    · exact (after_of_writes_sub ops_18 V ops_18_writes (by decide)).trans (h.res 16 (by decide))
    · exact (after_of_writes_sub ops_18 V ops_18_writes (by decide)).trans (h.res 17 (by decide))
    · exact val_18 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk19.lean ====
/-
  Orbital chain 19 of the reference: the 51 operations that compute orbital 19's array on the 4096 × 27 grid from the
  coordinate arrays r, θ, φ alone, ending at main_v629.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 19, in program order. -/
abbrev ops_19 : List (HloOp τ sig (Elt F)) :=
  [ nullary main_cst_224 (constant S_ .f32 0x3F000000#32),
    unary main_cst_224 main_v594 (broadcastInDim S4096x27 ![] bcast_S_S4096x27 : (⟨S_, .f32⟩ : BufTy).Contents (Elt F) → (⟨S4096x27, .f32⟩ : BufTy).Contents (Elt F)),
    binary main_v594 main_v1 main_v595 (mulf : (⟨S4096x27, .f32⟩ : BufTy).Contents (Elt F) → (⟨S4096x27, .f32⟩ : BufTy).Contents (Elt F) → (⟨S4096x27, .f32⟩ : BufTy).Contents (Elt F)),
    nullary main_cst_225 (constant S_ .f32 0xBF000000#32),
    unary main_cst_225 main_v596 (broadcastInDim S4096x27 ![] bcast_S_S4096x27 : (⟨S_, .f32⟩ : BufTy).Contents (Elt F) → (⟨S4096x27, .f32⟩ : BufTy).Contents (Elt F)),
    binary main_v596 main_v595 main_v597 (mulf : (⟨S4096x27, .f32⟩ : BufTy).Contents (Elt F) → (⟨S4096x27, .f32⟩ : BufTy).Contents (Elt F) → (⟨S4096x27, .f32⟩ : BufTy).Contents (Elt F)),
    unary main_v597 main_v598 (Host.exp : (⟨S4096x27, .f32⟩ : BufTy).Contents (Elt F) → (⟨S4096x27, .f32⟩ : BufTy).Contents (Elt F)),
    nullary main_cst_226 (constant S_ .f32 0x3B98A61F#32),
    unary main_cst_226 main_v599 (broadcastInDim S4096x27 ![] bcast_S_S4096x27 : (⟨S_, .f32⟩ : BufTy).Contents (Elt F) → (⟨S4096x27, .f32⟩ : BufTy).Contents (Elt F)),
    binary main_v599 main_v598 main_v600 (mulf : (⟨S4096x27, .f32⟩ : BufTy).Contents (Elt F) → (⟨S4096x27, .f32⟩ : BufTy).Contents (Elt F) → (⟨S4096x27, .f32⟩ : BufTy).Contents (Elt F)),
    binary main_v595 main_v595 main_v601 (mulf : (⟨S4096x27, .f32⟩ : BufTy).Contents (Elt F) → (⟨S4096x27, .f32⟩ : BufTy).Contents (Elt F) → (⟨S4096x27, .f32⟩ : BufTy).Contents (Elt F)),
    binary main_v600 main_v601 main_v602 (mulf : (⟨S4096x27, .f32⟩ : BufTy).Contents (Elt F) → (⟨S4096x27, .f32⟩ : BufTy).Contents (Elt F) → (⟨S4096x27, .f32⟩ : BufTy).Contents (Elt F)),
    nullary main_cst_227 (constant S_ .f32 0x00000000#32),
    unary main_cst_227 main_v603 (broadcastInDim S4096x27 ![] bcast_S_S4096x27 : (⟨S_, .f32⟩ : BufTy).Contents (Elt F) → (⟨S4096x27, .f32⟩ : BufTy).Contents (Elt F)),
    nullary main_cst_228 (constant S_ .f32 0xBF800000#32),
    unary main_cst_228 main_v604 (broadcastInDim S4096x27 ![] bcast_S_S4096x27 : (⟨S_, .f32⟩ : BufTy).Contents (Elt F) → (⟨S4096x27, .f32⟩ : BufTy).Contents (Elt F)),
    binary main_v603 main_v604 main_v605 (addf : (⟨S4096x27, .f32⟩ : BufTy).Contents (Elt F) → (⟨S4096x27, .f32⟩ : BufTy).Contents (Elt F) → (⟨S4096x27, .f32⟩ : BufTy).Contents (Elt F)),
    binary main_v605 main_v595 main_v606 (mulf : (⟨S4096x27, .f32⟩ : BufTy).Contents (Elt F) → (⟨S4096x27, .f32⟩ : BufTy).Contents (Elt F) → (⟨S4096x27, .f32⟩ : BufTy).Contents (Elt F)),
    nullary main_cst_229 (constant S_ .f32 0x40C00000#32),
    unary main_cst_229 main_v607 (broadcastInDim S4096x27 ![] bcast_S_S4096x27 : (⟨S_, .f32⟩ : BufTy).Contents (Elt F) → (⟨S4096x27, .f32⟩ : BufTy).Contents (Elt F)),
    binary main_v606 main_v607 main_v608 (addf : (⟨S4096x27, .f32⟩ : BufTy).Contents (Elt F) → (⟨S4096x27, .f32⟩ : BufTy).Contents (Elt F) → (⟨S4096x27, .f32⟩ : BufTy).Contents (Elt F)),
    binary main_v602 main_v608 main_v609 (mulf : (⟨S4096x27, .f32⟩ : BufTy).Contents (Elt F) → (⟨S4096x27, .f32⟩ : BufTy).Contents (Elt F) → (⟨S4096x27, .f32⟩ : BufTy).Contents (Elt F)),
    unary main_v3 main_v610 (Host.cos : (⟨S4096x27, .f32⟩ : BufTy).Contents (Elt F) → (⟨S4096x27, .f32⟩ : BufTy).Contents (Elt F)),
    binary main_v610 main_v610 main_v611 (mulf : (⟨S4096x27, .f32⟩ : BufTy).Contents (Elt F) → (⟨S4096x27, .f32⟩ : BufTy).Contents (Elt F) → (⟨S4096x27, .f32⟩ : BufTy).Contents (Elt F)),
    nullary main_cst_230 (constant S_ .f32 0x3F800000#32),
    unary main_cst_230 main_v612 (broadcastInDim S4096x27 ![] bcast_S_S4096x27 : (⟨S_, .f32⟩ : BufTy).Contents (Elt F) → (⟨S4096x27, .f32⟩ : BufTy).Contents (Elt F)),
    binary main_v612 main_v611 main_v613 (subf : (⟨S4096x27, .f32⟩ : BufTy).Contents (Elt F) → (⟨S4096x27, .f32⟩ : BufTy).Contents (Elt F) → (⟨S4096x27, .f32⟩ : BufTy).Contents (Elt F)),
    nullary main_cst_231 (constant S_ .f32 0x00000000#32),
    TRef.unary (TRef.of (T := ⟨S_, .f32⟩) main_cst_231) (TRef.of (T := ⟨S_, .f32⟩) main_call19_v0) id,
    TRef.unary (TRef.of (T := ⟨S_, .f32⟩) main_call19_v0) (TRef.of (T := ⟨S4096x27, .f32⟩) main_call19_v1) (broadcastInDim S4096x27 ![] bcast_S_S4096x27),
    TRef.binary (TRef.of (T := ⟨S4096x27, .f32⟩) main_call19_v1) (TRef.of (T := ⟨S4096x27, .f32⟩) main_v613) (TRef.of (T := ⟨S4096x27, .f32⟩) main_v614) maximumf,
    unary main_v614 main_v615 (Host.sqrt : (⟨S4096x27, .f32⟩ : BufTy).Contents (Elt F) → (⟨S4096x27, .f32⟩ : BufTy).Contents (Elt F)),
    nullary main_cst_232 (constant S_ .f32 0x3F800000#32),
    unary main_cst_232 main_v616 (broadcastInDim S4096x27 ![] bcast_S_S4096x27 : (⟨S_, .f32⟩ : BufTy).Contents (Elt F) → (⟨S4096x27, .f32⟩ : BufTy).Contents (Elt F)),
    nullary main_cst_233 (constant S_ .f32 0xBF800000#32),
    unary main_cst_233 main_v617 (broadcastInDim S4096x27 ![] bcast_S_S4096x27 : (⟨S_, .f32⟩ : BufTy).Contents (Elt F) → (⟨S4096x27, .f32⟩ : BufTy).Contents (Elt F)),
    binary main_v616 main_v617 main_v618 (mulf : (⟨S4096x27, .f32⟩ : BufTy).Contents (Elt F) → (⟨S4096x27, .f32⟩ : BufTy).Contents (Elt F) → (⟨S4096x27, .f32⟩ : BufTy).Contents (Elt F)),
    binary main_v618 main_v615 main_v619 (mulf : (⟨S4096x27, .f32⟩ : BufTy).Contents (Elt F) → (⟨S4096x27, .f32⟩ : BufTy).Contents (Elt F) → (⟨S4096x27, .f32⟩ : BufTy).Contents (Elt F)),
    nullary main_cst_234 (constant S_ .f32 0x40400000#32),
    unary main_cst_234 main_v620 (broadcastInDim S4096x27 ![] bcast_S_S4096x27 : (⟨S_, .f32⟩ : BufTy).Contents (Elt F) → (⟨S4096x27, .f32⟩ : BufTy).Contents (Elt F)),
    binary main_v610 main_v620 main_v621 (mulf : (⟨S4096x27, .f32⟩ : BufTy).Contents (Elt F) → (⟨S4096x27, .f32⟩ : BufTy).Contents (Elt F) → (⟨S4096x27, .f32⟩ : BufTy).Contents (Elt F)),
    binary main_v621 main_v619 main_v622 (mulf : (⟨S4096x27, .f32⟩ : BufTy).Contents (Elt F) → (⟨S4096x27, .f32⟩ : BufTy).Contents (Elt F) → (⟨S4096x27, .f32⟩ : BufTy).Contents (Elt F)),
    nullary main_cst_235 (constant S_ .f32 0x3EBA762B#32),
    unary main_cst_235 main_v623 (broadcastInDim S4096x27 ![] bcast_S_S4096x27 : (⟨S_, .f32⟩ : BufTy).Contents (Elt F) → (⟨S4096x27, .f32⟩ : BufTy).Contents (Elt F)),
    binary main_v623 main_v622 main_v624 (mulf : (⟨S4096x27, .f32⟩ : BufTy).Contents (Elt F) → (⟨S4096x27, .f32⟩ : BufTy).Contents (Elt F) → (⟨S4096x27, .f32⟩ : BufTy).Contents (Elt F)),
    nullary main_cst_236 (constant S_ .f32 0x3F800000#32),
    unary main_cst_236 main_v625 (broadcastInDim S4096x27 ![] bcast_S_S4096x27 : (⟨S_, .f32⟩ : BufTy).Contents (Elt F) → (⟨S4096x27, .f32⟩ : BufTy).Contents (Elt F)),
    binary main_v625 main_v5 main_v626 (mulf : (⟨S4096x27, .f32⟩ : BufTy).Contents (Elt F) → (⟨S4096x27, .f32⟩ : BufTy).Contents (Elt F) → (⟨S4096x27, .f32⟩ : BufTy).Contents (Elt F)),
    unary main_v626 main_v627 (Host.sin : (⟨S4096x27, .f32⟩ : BufTy).Contents (Elt F) → (⟨S4096x27, .f32⟩ : BufTy).Contents (Elt F)),
    binary main_v624 main_v627 main_v628 (mulf : (⟨S4096x27, .f32⟩ : BufTy).Contents (Elt F) → (⟨S4096x27, .f32⟩ : BufTy).Contents (Elt F) → (⟨S4096x27, .f32⟩ : BufTy).Contents (Elt F)),
    binary main_v609 main_v628 main_v629 (mulf : (⟨S4096x27, .f32⟩ : BufTy).Contents (Elt F) → (⟨S4096x27, .f32⟩ : BufTy).Contents (Elt F) → (⟨S4096x27, .f32⟩ : BufTy).Contents (Elt F)) ]

theorem ops_19_sub : (ops_19 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_19_fresh : ∀ op ∈ (ops_19 : List (HloOp τ sig (Elt F))), op.fresh = ∅ :=
  List.forall_iff_forall_mem.mp (by simp only [List.Forall]; repeat' constructor)

/-- The arrays chain 19 writes. -/
abbrev W_19 : List (Ref sig .tc) := [main_cst_224, main_v594, main_v595, main_cst_225, main_v596, main_v597, main_v598, main_cst_226, main_v599, main_v600, main_v601, main_v602, main_cst_227, main_v603, main_cst_228, main_v604, main_v605, main_v606, main_cst_229, main_v607, main_v608, main_v609, main_v610, main_v611, main_cst_230, main_v612, main_v613, main_cst_231, main_call19_v0, main_call19_v1, main_v614, main_v615, main_cst_232, main_v616, main_cst_233, main_v617, main_v618, main_v619, main_cst_234, main_v620, main_v621, main_v622, main_cst_235, main_v623, main_v624, main_cst_236, main_v625, main_v626, main_v627, main_v628, main_v629]

theorem ops_19_writes : (ops_19 : List (HloOp τ sig (Elt F))).Forall fun op =>
    op.writes ⊆ (W_19.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 19's array after the chain is its value of the position array. -/
theorem val_19 (x0 : (⟨S4096x27x3, .f32⟩ : BufTy).Contents (Elt F)) (x1 : (⟨S16x16x30, .f32⟩ : BufTy).Contents (Elt F))
    (V : Valuation τ sig (Elt F)) (h : Good x0 x1 19 V) :
    after ops_19 V (Proc.devRef .tc main_v629) = val_main_v629 (F := F) x0 := by
  have hr := h.r
  have hθ := h.θ
  have hφ := h.φ
  simp only [ops_19]
  after_results_simp
  try rw [hr]
  try rw [hθ]
  try rw [hφ]
  all_goals rfl

/-- The chain keeps what was in place and adds orbital 19's array. -/
theorem step_19 (x0 : (⟨S4096x27x3, .f32⟩ : BufTy).Contents (Elt F)) (x1 : (⟨S16x16x30, .f32⟩ : BufTy).Contents (Elt F))
    (V : Valuation τ sig (Elt F)) (h : Good x0 x1 19 V) : Good x0 x1 20 (after ops_19 V) where
  a0 := (after_of_writes_sub ops_19 V ops_19_writes (by decide)).trans h.a0
  a1 := (after_of_writes_sub ops_19 V ops_19_writes (by decide)).trans h.a1
  r := (after_of_writes_sub ops_19 V ops_19_writes (by decide)).trans h.r
  θ := (after_of_writes_sub ops_19 V ops_19_writes (by decide)).trans h.θ
  φ := (after_of_writes_sub ops_19 V ops_19_writes (by decide)).trans h.φ
  res := by
    intro j hj
    fin_cases j
    · exact (after_of_writes_sub ops_19 V ops_19_writes (by decide)).trans (h.res 0 (by decide))
    · exact (after_of_writes_sub ops_19 V ops_19_writes (by decide)).trans (h.res 1 (by decide))
    · exact (after_of_writes_sub ops_19 V ops_19_writes (by decide)).trans (h.res 2 (by decide))
    · exact (after_of_writes_sub ops_19 V ops_19_writes (by decide)).trans (h.res 3 (by decide))
    · exact (after_of_writes_sub ops_19 V ops_19_writes (by decide)).trans (h.res 4 (by decide))
    · exact (after_of_writes_sub ops_19 V ops_19_writes (by decide)).trans (h.res 5 (by decide))
    · exact (after_of_writes_sub ops_19 V ops_19_writes (by decide)).trans (h.res 6 (by decide))
    · exact (after_of_writes_sub ops_19 V ops_19_writes (by decide)).trans (h.res 7 (by decide))
    · exact (after_of_writes_sub ops_19 V ops_19_writes (by decide)).trans (h.res 8 (by decide))
    · exact (after_of_writes_sub ops_19 V ops_19_writes (by decide)).trans (h.res 9 (by decide))
    · exact (after_of_writes_sub ops_19 V ops_19_writes (by decide)).trans (h.res 10 (by decide))
    · exact (after_of_writes_sub ops_19 V ops_19_writes (by decide)).trans (h.res 11 (by decide))
    · exact (after_of_writes_sub ops_19 V ops_19_writes (by decide)).trans (h.res 12 (by decide))
    · exact (after_of_writes_sub ops_19 V ops_19_writes (by decide)).trans (h.res 13 (by decide))
    · exact (after_of_writes_sub ops_19 V ops_19_writes (by decide)).trans (h.res 14 (by decide))
    · exact (after_of_writes_sub ops_19 V ops_19_writes (by decide)).trans (h.res 15 (by decide))
    · exact (after_of_writes_sub ops_19 V ops_19_writes (by decide)).trans (h.res 16 (by decide))
    · exact (after_of_writes_sub ops_19 V ops_19_writes (by decide)).trans (h.res 17 (by decide))
    · exact (after_of_writes_sub ops_19 V ops_19_writes (by decide)).trans (h.res 18 (by decide))
    · exact val_19 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk20.lean ====
/-
  Orbital chain 20 of the reference: the 53 operations that compute orbital 20's array on the 4096 × 27 grid from the
  coordinate arrays r, θ, φ alone, ending at main_v666.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 20, in program order. -/
abbrev ops_20 : List (HloOp τ sig (Elt F)) :=
  [ nullary main_cst_237 (constant S_ .f32 0x3F000000#32),
    unary main_cst_237 main_v630 (broadcastInDim S4096x27 ![] bcast_S_S4096x27 : (⟨S_, .f32⟩ : BufTy).Contents (Elt F) → (⟨S4096x27, .f32⟩ : BufTy).Contents (Elt F)),
    binary main_v630 main_v1 main_v631 (mulf : (⟨S4096x27, .f32⟩ : BufTy).Contents (Elt F) → (⟨S4096x27, .f32⟩ : BufTy).Contents (Elt F) → (⟨S4096x27, .f32⟩ : BufTy).Contents (Elt F)),
    nullary main_cst_238 (constant S_ .f32 0xBF000000#32),
    unary main_cst_238 main_v632 (broadcastInDim S4096x27 ![] bcast_S_S4096x27 : (⟨S_, .f32⟩ : BufTy).Contents (Elt F) → (⟨S4096x27, .f32⟩ : BufTy).Contents (Elt F)),
    binary main_v632 main_v631 main_v633 (mulf : (⟨S4096x27, .f32⟩ : BufTy).Contents (Elt F) → (⟨S4096x27, .f32⟩ : BufTy).Contents (Elt F) → (⟨S4096x27, .f32⟩ : BufTy).Contents (Elt F)),
    unary main_v633 main_v634 (Host.exp : (⟨S4096x27, .f32⟩ : BufTy).Contents (Elt F) → (⟨S4096x27, .f32⟩ : BufTy).Contents (Elt F)),
    nullary main_cst_239 (constant S_ .f32 0x3B98A61F#32),
    unary main_cst_239 main_v635 (broadcastInDim S4096x27 ![] bcast_S_S4096x27 : (⟨S_, .f32⟩ : BufTy).Contents (Elt F) → (⟨S4096x27, .f32⟩ : BufTy).Contents (Elt F)),
    binary main_v635 main_v634 main_v636 (mulf : (⟨S4096x27, .f32⟩ : BufTy).Contents (Elt F) → (⟨S4096x27, .f32⟩ : BufTy).Contents (Elt F) → (⟨S4096x27, .f32⟩ : BufTy).Contents (Elt F)),
    binary main_v631 main_v631 main_v637 (mulf : (⟨S4096x27, .f32⟩ : BufTy).Contents (Elt F) → (⟨S4096x27, .f32⟩ : BufTy).Contents (Elt F) → (⟨S4096x27, .f32⟩ : BufTy).Contents (Elt F)),
    binary main_v636 main_v637 main_v638 (mulf : (⟨S4096x27, .f32⟩ : BufTy).Contents (Elt F) → (⟨S4096x27, .f32⟩ : BufTy).Contents (Elt F) → (⟨S4096x27, .f32⟩ : BufTy).Contents (Elt F)),
    nullary main_cst_240 (constant S_ .f32 0x00000000#32),
    unary main_cst_240 main_v639 (broadcastInDim S4096x27 ![] bcast_S_S4096x27 : (⟨S_, .f32⟩ : BufTy).Contents (Elt F) → (⟨S4096x27, .f32⟩ : BufTy).Contents (Elt F)),
    nullary main_cst_241 (constant S_ .f32 0xBF800000#32),
    unary main_cst_241 main_v640 (broadcastInDim S4096x27 ![] bcast_S_S4096x27 : (⟨S_, .f32⟩ : BufTy).Contents (Elt F) → (⟨S4096x27, .f32⟩ : BufTy).Contents (Elt F)),
    binary main_v639 main_v640 main_v641 (addf : (⟨S4096x27, .f32⟩ : BufTy).Contents (Elt F) → (⟨S4096x27, .f32⟩ : BufTy).Contents (Elt F) → (⟨S4096x27, .f32⟩ : BufTy).Contents (Elt F)),
    binary main_v641 main_v631 main_v642 (mulf : (⟨S4096x27, .f32⟩ : BufTy).Contents (Elt F) → (⟨S4096x27, .f32⟩ : BufTy).Contents (Elt F) → (⟨S4096x27, .f32⟩ : BufTy).Contents (Elt F)),
    nullary main_cst_242 (constant S_ .f32 0x40C00000#32),
    unary main_cst_242 main_v643 (broadcastInDim S4096x27 ![] bcast_S_S4096x27 : (⟨S_, .f32⟩ : BufTy).Contents (Elt F) → (⟨S4096x27, .f32⟩ : BufTy).Contents (Elt F)),
    binary main_v642 main_v643 main_v644 (addf : (⟨S4096x27, .f32⟩ : BufTy).Contents (Elt F) → (⟨S4096x27, .f32⟩ : BufTy).Contents (Elt F) → (⟨S4096x27, .f32⟩ : BufTy).Contents (Elt F)),
    binary main_v638 main_v644 main_v645 (mulf : (⟨S4096x27, .f32⟩ : BufTy).Contents (Elt F) → (⟨S4096x27, .f32⟩ : BufTy).Contents (Elt F) → (⟨S4096x27, .f32⟩ : BufTy).Contents (Elt F)),
    unary main_v3 main_v646 (Host.cos : (⟨S4096x27, .f32⟩ : BufTy).Contents (Elt F) → (⟨S4096x27, .f32⟩ : BufTy).Contents (Elt F)),
    binary main_v646 main_v646 main_v647 (mulf : (⟨S4096x27, .f32⟩ : BufTy).Contents (Elt F) → (⟨S4096x27, .f32⟩ : BufTy).Contents (Elt F) → (⟨S4096x27, .f32⟩ : BufTy).Contents (Elt F)),
    nullary main_cst_243 (constant S_ .f32 0x3F800000#32),
    unary main_cst_243 main_v648 (broadcastInDim S4096x27 ![] bcast_S_S4096x27 : (⟨S_, .f32⟩ : BufTy).Contents (Elt F) → (⟨S4096x27, .f32⟩ : BufTy).Contents (Elt F)),
    binary main_v648 main_v647 main_v649 (subf : (⟨S4096x27, .f32⟩ : BufTy).Contents (Elt F) → (⟨S4096x27, .f32⟩ : BufTy).Contents (Elt F) → (⟨S4096x27, .f32⟩ : BufTy).Contents (Elt F)),
    nullary main_cst_244 (constant S_ .f32 0x00000000#32),
    TRef.unary (TRef.of (T := ⟨S_, .f32⟩) main_cst_244) (TRef.of (T := ⟨S_, .f32⟩) main_call20_v0) id,
    TRef.unary (TRef.of (T := ⟨S_, .f32⟩) main_call20_v0) (TRef.of (T := ⟨S4096x27, .f32⟩) main_call20_v1) (broadcastInDim S4096x27 ![] bcast_S_S4096x27),
    TRef.binary (TRef.of (T := ⟨S4096x27, .f32⟩) main_call20_v1) (TRef.of (T := ⟨S4096x27, .f32⟩) main_v649) (TRef.of (T := ⟨S4096x27, .f32⟩) main_v650) maximumf,
    unary main_v650 main_v651 (Host.sqrt : (⟨S4096x27, .f32⟩ : BufTy).Contents (Elt F) → (⟨S4096x27, .f32⟩ : BufTy).Contents (Elt F)),
    nullary main_cst_245 (constant S_ .f32 0x3F800000#32),
    unary main_cst_245 main_v652 (broadcastInDim S4096x27 ![] bcast_S_S4096x27 : (⟨S_, .f32⟩ : BufTy).Contents (Elt F) → (⟨S4096x27, .f32⟩ : BufTy).Contents (Elt F)),
    nullary main_cst_246 (constant S_ .f32 0x3F800000#32),
    unary main_cst_246 main_v653 (broadcastInDim S4096x27 ![] bcast_S_S4096x27 : (⟨S_, .f32⟩ : BufTy).Contents (Elt F) → (⟨S4096x27, .f32⟩ : BufTy).Contents (Elt F)),
    binary main_v646 main_v653 main_v654 (mulf : (⟨S4096x27, .f32⟩ : BufTy).Contents (Elt F) → (⟨S4096x27, .f32⟩ : BufTy).Contents (Elt F) → (⟨S4096x27, .f32⟩ : BufTy).Contents (Elt F)),
    binary main_v654 main_v652 main_v655 (mulf : (⟨S4096x27, .f32⟩ : BufTy).Contents (Elt F) → (⟨S4096x27, .f32⟩ : BufTy).Contents (Elt F) → (⟨S4096x27, .f32⟩ : BufTy).Contents (Elt F)),
    nullary main_cst_247 (constant S_ .f32 0x40400000#32),
    unary main_cst_247 main_v656 (broadcastInDim S4096x27 ![] bcast_S_S4096x27 : (⟨S_, .f32⟩ : BufTy).Contents (Elt F) → (⟨S4096x27, .f32⟩ : BufTy).Contents (Elt F)),
    binary main_v656 main_v646 main_v657 (mulf : (⟨S4096x27, .f32⟩ : BufTy).Contents (Elt F) → (⟨S4096x27, .f32⟩ : BufTy).Contents (Elt F) → (⟨S4096x27, .f32⟩ : BufTy).Contents (Elt F)),
    binary main_v657 main_v655 main_v658 (mulf : (⟨S4096x27, .f32⟩ : BufTy).Contents (Elt F) → (⟨S4096x27, .f32⟩ : BufTy).Contents (Elt F) → (⟨S4096x27, .f32⟩ : BufTy).Contents (Elt F)),
    nullary main_cst_248 (constant S_ .f32 0x3F800000#32),
    unary main_cst_248 main_v659 (broadcastInDim S4096x27 ![] bcast_S_S4096x27 : (⟨S_, .f32⟩ : BufTy).Contents (Elt F) → (⟨S4096x27, .f32⟩ : BufTy).Contents (Elt F)),
    binary main_v659 main_v652 main_v660 (mulf : (⟨S4096x27, .f32⟩ : BufTy).Contents (Elt F) → (⟨S4096x27, .f32⟩ : BufTy).Contents (Elt F) → (⟨S4096x27, .f32⟩ : BufTy).Contents (Elt F)),
    binary main_v658 main_v660 main_v661 (subf : (⟨S4096x27, .f32⟩ : BufTy).Contents (Elt F) → (⟨S4096x27, .f32⟩ : BufTy).Contents (Elt F) → (⟨S4096x27, .f32⟩ : BufTy).Contents (Elt F)),
    nullary main_cst_249 (constant S_ .f32 0x40000000#32),
    unary main_cst_249 main_v662 (broadcastInDim S4096x27 ![] bcast_S_S4096x27 : (⟨S_, .f32⟩ : BufTy).Contents (Elt F) → (⟨S4096x27, .f32⟩ : BufTy).Contents (Elt F)),
    binary main_v661 main_v662 main_v663 (Host.divf : (⟨S4096x27, .f32⟩ : BufTy).Contents (Elt F) → (⟨S4096x27, .f32⟩ : BufTy).Contents (Elt F) → (⟨S4096x27, .f32⟩ : BufTy).Contents (Elt F)),
    nullary main_cst_250 (constant S_ .f32 0x3F217B01#32),
    unary main_cst_250 main_v664 (broadcastInDim S4096x27 ![] bcast_S_S4096x27 : (⟨S_, .f32⟩ : BufTy).Contents (Elt F) → (⟨S4096x27, .f32⟩ : BufTy).Contents (Elt F)),
    binary main_v664 main_v663 main_v665 (mulf : (⟨S4096x27, .f32⟩ : BufTy).Contents (Elt F) → (⟨S4096x27, .f32⟩ : BufTy).Contents (Elt F) → (⟨S4096x27, .f32⟩ : BufTy).Contents (Elt F)),
    binary main_v645 main_v665 main_v666 (mulf : (⟨S4096x27, .f32⟩ : BufTy).Contents (Elt F) → (⟨S4096x27, .f32⟩ : BufTy).Contents (Elt F) → (⟨S4096x27, .f32⟩ : BufTy).Contents (Elt F)) ]

theorem ops_20_sub : (ops_20 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

theorem ops_20_fresh : ∀ op ∈ (ops_20 : List (HloOp τ sig (Elt F))), op.fresh = ∅ :=
  List.forall_iff_forall_mem.mp (by simp only [List.Forall]; repeat' constructor)

/-- The arrays chain 20 writes. -/
abbrev W_20 : List (Ref sig .tc) := [main_cst_237, main_v630, main_v631, main_cst_238, main_v632, main_v633, main_v634, main_cst_239, main_v635, main_v636, main_v637, main_v638, main_cst_240, main_v639, main_cst_241, main_v640, main_v641, main_v642, main_cst_242, main_v643, main_v644, main_v645, main_v646, main_v647, main_cst_243, main_v648, main_v649, main_cst_244, main_call20_v0, main_call20_v1, main_v650, main_v651, main_cst_245, main_v652, main_cst_246, main_v653, main_v654, main_v655, main_cst_247, main_v656, main_v657, main_v658, main_cst_248, main_v659, main_v660, main_v661, main_cst_249, main_v662, main_v663, main_cst_250, main_v664, main_v665, main_v666]

theorem ops_20_writes : (ops_20 : List (HloOp τ sig (Elt F))).Forall fun op =>
    op.writes ⊆ (W_20.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 20's array after the chain is its value of the position array. -/
theorem val_20 (x0 : (⟨S4096x27x3, .f32⟩ : BufTy).Contents (Elt F)) (x1 : (⟨S16x16x30, .f32⟩ : BufTy).Contents (Elt F))
    (V : Valuation τ sig (Elt F)) (h : Good x0 x1 20 V) :
    after ops_20 V (Proc.devRef .tc main_v666) = val_main_v666 (F := F) x0 := by
  have hr := h.r
  have hθ := h.θ
  have hφ := h.φ
  simp only [ops_20]
  after_results_simp
  try rw [hr]
  try rw [hθ]
  try rw [hφ]
  all_goals rfl

/-- The chain keeps what was in place and adds orbital 20's array. -/
theorem step_20 (x0 : (⟨S4096x27x3, .f32⟩ : BufTy).Contents (Elt F)) (x1 : (⟨S16x16x30, .f32⟩ : BufTy).Contents (Elt F))
    (V : Valuation τ sig (Elt F)) (h : Good x0 x1 20 V) : Good x0 x1 21 (after ops_20 V) where
  a0 := (after_of_writes_sub ops_20 V ops_20_writes (by decide)).trans h.a0
  a1 := (after_of_writes_sub ops_20 V ops_20_writes (by decide)).trans h.a1
  r := (after_of_writes_sub ops_20 V ops_20_writes (by decide)).trans h.r
  θ := (after_of_writes_sub ops_20 V ops_20_writes (by decide)).trans h.θ
  φ := (after_of_writes_sub ops_20 V ops_20_writes (by decide)).trans h.φ
  res := by
    intro j hj
    fin_cases j
    · exact (after_of_writes_sub ops_20 V ops_20_writes (by decide)).trans (h.res 0 (by decide))
    · exact (after_of_writes_sub ops_20 V ops_20_writes (by decide)).trans (h.res 1 (by decide))
    · exact (after_of_writes_sub ops_20 V ops_20_writes (by decide)).trans (h.res 2 (by decide))
    · exact (after_of_writes_sub ops_20 V ops_20_writes (by decide)).trans (h.res 3 (by decide))
    · exact (after_of_writes_sub ops_20 V ops_20_writes (by decide)).trans (h.res 4 (by decide))
    · exact (after_of_writes_sub ops_20 V ops_20_writes (by decide)).trans (h.res 5 (by decide))
    · exact (after_of_writes_sub ops_20 V ops_20_writes (by decide)).trans (h.res 6 (by decide))
    · exact (after_of_writes_sub ops_20 V ops_20_writes (by decide)).trans (h.res 7 (by decide))
    · exact (after_of_writes_sub ops_20 V ops_20_writes (by decide)).trans (h.res 8 (by decide))
    · exact (after_of_writes_sub ops_20 V ops_20_writes (by decide)).trans (h.res 9 (by decide))
    · exact (after_of_writes_sub ops_20 V ops_20_writes (by decide)).trans (h.res 10 (by decide))
    · exact (after_of_writes_sub ops_20 V ops_20_writes (by decide)).trans (h.res 11 (by decide))
    · exact (after_of_writes_sub ops_20 V ops_20_writes (by decide)).trans (h.res 12 (by decide))
    · exact (after_of_writes_sub ops_20 V ops_20_writes (by decide)).trans (h.res 13 (by decide))
    · exact (after_of_writes_sub ops_20 V ops_20_writes (by decide)).trans (h.res 14 (by decide))
    · exact (after_of_writes_sub ops_20 V ops_20_writes (by decide)).trans (h.res 15 (by decide))
    · exact (after_of_writes_sub ops_20 V ops_20_writes (by decide)).trans (h.res 16 (by decide))
    · exact (after_of_writes_sub ops_20 V ops_20_writes (by decide)).trans (h.res 17 (by decide))
    · exact (after_of_writes_sub ops_20 V ops_20_writes (by decide)).trans (h.res 18 (by decide))
    · exact (after_of_writes_sub ops_20 V ops_20_writes (by decide)).trans (h.res 19 (by decide))
    · exact val_20 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk21.lean ====
/-
  Orbital chain 21 of the reference: the 51 operations that compute orbital 21's array on the 4096 × 27 grid from the
  coordinate arrays r, θ, φ alone, ending at main_v702.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 21, in program order. -/
abbrev ops_21 : List (HloOp τ sig (Elt F)) :=
  [ nullary main_cst_251 (constant S_ .f32 0x3F000000#32),
    unary main_cst_251 main_v667 (broadcastInDim S4096x27 ![] bcast_S_S4096x27 : (⟨S_, .f32⟩ : BufTy).Contents (Elt F) → (⟨S4096x27, .f32⟩ : BufTy).Contents (Elt F)),
    binary main_v667 main_v1 main_v668 (mulf : (⟨S4096x27, .f32⟩ : BufTy).Contents (Elt F) → (⟨S4096x27, .f32⟩ : BufTy).Contents (Elt F) → (⟨S4096x27, .f32⟩ : BufTy).Contents (Elt F)),
    nullary main_cst_252 (constant S_ .f32 0xBF000000#32),
    unary main_cst_252 main_v669 (broadcastInDim S4096x27 ![] bcast_S_S4096x27 : (⟨S_, .f32⟩ : BufTy).Contents (Elt F) → (⟨S4096x27, .f32⟩ : BufTy).Contents (Elt F)),
    binary main_v669 main_v668 main_v670 (mulf : (⟨S4096x27, .f32⟩ : BufTy).Contents (Elt F) → (⟨S4096x27, .f32⟩ : BufTy).Contents (Elt F) → (⟨S4096x27, .f32⟩ : BufTy).Contents (Elt F)),
    unary main_v670 main_v671 (Host.exp : (⟨S4096x27, .f32⟩ : BufTy).Contents (Elt F) → (⟨S4096x27, .f32⟩ : BufTy).Contents (Elt F)),
    nullary main_cst_253 (constant S_ .f32 0x3B98A61F#32),
    unary main_cst_253 main_v672 (broadcastInDim S4096x27 ![] bcast_S_S4096x27 : (⟨S_, .f32⟩ : BufTy).Contents (Elt F) → (⟨S4096x27, .f32⟩ : BufTy).Contents (Elt F)),
    binary main_v672 main_v671 main_v673 (mulf : (⟨S4096x27, .f32⟩ : BufTy).Contents (Elt F) → (⟨S4096x27, .f32⟩ : BufTy).Contents (Elt F) → (⟨S4096x27, .f32⟩ : BufTy).Contents (Elt F)),
    binary main_v668 main_v668 main_v674 (mulf : (⟨S4096x27, .f32⟩ : BufTy).Contents (Elt F) → (⟨S4096x27, .f32⟩ : BufTy).Contents (Elt F) → (⟨S4096x27, .f32⟩ : BufTy).Contents (Elt F)),
    binary main_v673 main_v674 main_v675 (mulf : (⟨S4096x27, .f32⟩ : BufTy).Contents (Elt F) → (⟨S4096x27, .f32⟩ : BufTy).Contents (Elt F) → (⟨S4096x27, .f32⟩ : BufTy).Contents (Elt F)),
    nullary main_cst_254 (constant S_ .f32 0x00000000#32),
    unary main_cst_254 main_v676 (broadcastInDim S4096x27 ![] bcast_S_S4096x27 : (⟨S_, .f32⟩ : BufTy).Contents (Elt F) → (⟨S4096x27, .f32⟩ : BufTy).Contents (Elt F)),
    nullary main_cst_255 (constant S_ .f32 0xBF800000#32),
    unary main_cst_255 main_v677 (broadcastInDim S4096x27 ![] bcast_S_S4096x27 : (⟨S_, .f32⟩ : BufTy).Contents (Elt F) → (⟨S4096x27, .f32⟩ : BufTy).Contents (Elt F)),
    binary main_v676 main_v677 main_v678 (addf : (⟨S4096x27, .f32⟩ : BufTy).Contents (Elt F) → (⟨S4096x27, .f32⟩ : BufTy).Contents (Elt F) → (⟨S4096x27, .f32⟩ : BufTy).Contents (Elt F)),
    binary main_v678 main_v668 main_v679 (mulf : (⟨S4096x27, .f32⟩ : BufTy).Contents (Elt F) → (⟨S4096x27, .f32⟩ : BufTy).Contents (Elt F) → (⟨S4096x27, .f32⟩ : BufTy).Contents (Elt F)),
    nullary main_cst_256 (constant S_ .f32 0x40C00000#32),
    unary main_cst_256 main_v680 (broadcastInDim S4096x27 ![] bcast_S_S4096x27 : (⟨S_, .f32⟩ : BufTy).Contents (Elt F) → (⟨S4096x27, .f32⟩ : BufTy).Contents (Elt F)),
    binary main_v679 main_v680 main_v681 (addf : (⟨S4096x27, .f32⟩ : BufTy).Contents (Elt F) → (⟨S4096x27, .f32⟩ : BufTy).Contents (Elt F) → (⟨S4096x27, .f32⟩ : BufTy).Contents (Elt F)),
    binary main_v675 main_v681 main_v682 (mulf : (⟨S4096x27, .f32⟩ : BufTy).Contents (Elt F) → (⟨S4096x27, .f32⟩ : BufTy).Contents (Elt F) → (⟨S4096x27, .f32⟩ : BufTy).Contents (Elt F)),
    unary main_v3 main_v683 (Host.cos : (⟨S4096x27, .f32⟩ : BufTy).Contents (Elt F) → (⟨S4096x27, .f32⟩ : BufTy).Contents (Elt F)),
    binary main_v683 main_v683 main_v684 (mulf : (⟨S4096x27, .f32⟩ : BufTy).Contents (Elt F) → (⟨S4096x27, .f32⟩ : BufTy).Contents (Elt F) → (⟨S4096x27, .f32⟩ : BufTy).Contents (Elt F)),
    nullary main_cst_257 (constant S_ .f32 0x3F800000#32),
    unary main_cst_257 main_v685 (broadcastInDim S4096x27 ![] bcast_S_S4096x27 : (⟨S_, .f32⟩ : BufTy).Contents (Elt F) → (⟨S4096x27, .f32⟩ : BufTy).Contents (Elt F)),
    binary main_v685 main_v684 main_v686 (subf : (⟨S4096x27, .f32⟩ : BufTy).Contents (Elt F) → (⟨S4096x27, .f32⟩ : BufTy).Contents (Elt F) → (⟨S4096x27, .f32⟩ : BufTy).Contents (Elt F)),
    nullary main_cst_258 (constant S_ .f32 0x00000000#32),
    TRef.unary (TRef.of (T := ⟨S_, .f32⟩) main_cst_258) (TRef.of (T := ⟨S_, .f32⟩) main_call21_v0) id,
    TRef.unary (TRef.of (T := ⟨S_, .f32⟩) main_call21_v0) (TRef.of (T := ⟨S4096x27, .f32⟩) main_call21_v1) (broadcastInDim S4096x27 ![] bcast_S_S4096x27),
    TRef.binary (TRef.of (T := ⟨S4096x27, .f32⟩) main_call21_v1) (TRef.of (T := ⟨S4096x27, .f32⟩) main_v686) (TRef.of (T := ⟨S4096x27, .f32⟩) main_v687) maximumf,
    unary main_v687 main_v688 (Host.sqrt : (⟨S4096x27, .f32⟩ : BufTy).Contents (Elt F) → (⟨S4096x27, .f32⟩ : BufTy).Contents (Elt F)),
    nullary main_cst_259 (constant S_ .f32 0x3F800000#32),
    unary main_cst_259 main_v689 (broadcastInDim S4096x27 ![] bcast_S_S4096x27 : (⟨S_, .f32⟩ : BufTy).Contents (Elt F) → (⟨S4096x27, .f32⟩ : BufTy).Contents (Elt F)),
    nullary main_cst_260 (constant S_ .f32 0xBF800000#32),
    unary main_cst_260 main_v690 (broadcastInDim S4096x27 ![] bcast_S_S4096x27 : (⟨S_, .f32⟩ : BufTy).Contents (Elt F) → (⟨S4096x27, .f32⟩ : BufTy).Contents (Elt F)),
    binary main_v689 main_v690 main_v691 (mulf : (⟨S4096x27, .f32⟩ : BufTy).Contents (Elt F) → (⟨S4096x27, .f32⟩ : BufTy).Contents (Elt F) → (⟨S4096x27, .f32⟩ : BufTy).Contents (Elt F)),
    binary main_v691 main_v688 main_v692 (mulf : (⟨S4096x27, .f32⟩ : BufTy).Contents (Elt F) → (⟨S4096x27, .f32⟩ : BufTy).Contents (Elt F) → (⟨S4096x27, .f32⟩ : BufTy).Contents (Elt F)),
    nullary main_cst_261 (constant S_ .f32 0x40400000#32),
    unary main_cst_261 main_v693 (broadcastInDim S4096x27 ![] bcast_S_S4096x27 : (⟨S_, .f32⟩ : BufTy).Contents (Elt F) → (⟨S4096x27, .f32⟩ : BufTy).Contents (Elt F)),
    binary main_v683 main_v693 main_v694 (mulf : (⟨S4096x27, .f32⟩ : BufTy).Contents (Elt F) → (⟨S4096x27, .f32⟩ : BufTy).Contents (Elt F) → (⟨S4096x27, .f32⟩ : BufTy).Contents (Elt F)),
    binary main_v694 main_v692 main_v695 (mulf : (⟨S4096x27, .f32⟩ : BufTy).Contents (Elt F) → (⟨S4096x27, .f32⟩ : BufTy).Contents (Elt F) → (⟨S4096x27, .f32⟩ : BufTy).Contents (Elt F)),
    nullary main_cst_262 (constant S_ .f32 0x3EBA762B#32),
    unary main_cst_262 main_v696 (broadcastInDim S4096x27 ![] bcast_S_S4096x27 : (⟨S_, .f32⟩ : BufTy).Contents (Elt F) → (⟨S4096x27, .f32⟩ : BufTy).Contents (Elt F)),
    binary main_v696 main_v695 main_v697 (mulf : (⟨S4096x27, .f32⟩ : BufTy).Contents (Elt F) → (⟨S4096x27, .f32⟩ : BufTy).Contents (Elt F) → (⟨S4096x27, .f32⟩ : BufTy).Contents (Elt F)),
    nullary main_cst_263 (constant S_ .f32 0x3F800000#32),
    unary main_cst_263 main_v698 (broadcastInDim S4096x27 ![] bcast_S_S4096x27 : (⟨S_, .f32⟩ : BufTy).Contents (Elt F) → (⟨S4096x27, .f32⟩ : BufTy).Contents (Elt F)),
    binary main_v698 main_v5 main_v699 (mulf : (⟨S4096x27, .f32⟩ : BufTy).Contents (Elt F) → (⟨S4096x27, .f32⟩ : BufTy).Contents (Elt F) → (⟨S4096x27, .f32⟩ : BufTy).Contents (Elt F)),
    unary main_v699 main_v700 (Host.cos : (⟨S4096x27, .f32⟩ : BufTy).Contents (Elt F) → (⟨S4096x27, .f32⟩ : BufTy).Contents (Elt F)),
    binary main_v697 main_v700 main_v701 (mulf : (⟨S4096x27, .f32⟩ : BufTy).Contents (Elt F) → (⟨S4096x27, .f32⟩ : BufTy).Contents (Elt F) → (⟨S4096x27, .f32⟩ : BufTy).Contents (Elt F)),
    binary main_v682 main_v701 main_v702 (mulf : (⟨S4096x27, .f32⟩ : BufTy).Contents (Elt F) → (⟨S4096x27, .f32⟩ : BufTy).Contents (Elt F) → (⟨S4096x27, .f32⟩ : BufTy).Contents (Elt F)) ]

theorem ops_21_sub : (ops_21 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_21_fresh : ∀ op ∈ (ops_21 : List (HloOp τ sig (Elt F))), op.fresh = ∅ :=
  List.forall_iff_forall_mem.mp (by simp only [List.Forall]; repeat' constructor)

/-- The arrays chain 21 writes. -/
abbrev W_21 : List (Ref sig .tc) := [main_cst_251, main_v667, main_v668, main_cst_252, main_v669, main_v670, main_v671, main_cst_253, main_v672, main_v673, main_v674, main_v675, main_cst_254, main_v676, main_cst_255, main_v677, main_v678, main_v679, main_cst_256, main_v680, main_v681, main_v682, main_v683, main_v684, main_cst_257, main_v685, main_v686, main_cst_258, main_call21_v0, main_call21_v1, main_v687, main_v688, main_cst_259, main_v689, main_cst_260, main_v690, main_v691, main_v692, main_cst_261, main_v693, main_v694, main_v695, main_cst_262, main_v696, main_v697, main_cst_263, main_v698, main_v699, main_v700, main_v701, main_v702]

theorem ops_21_writes : (ops_21 : List (HloOp τ sig (Elt F))).Forall fun op =>
    op.writes ⊆ (W_21.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 21's array after the chain is its value of the position array. -/
theorem val_21 (x0 : (⟨S4096x27x3, .f32⟩ : BufTy).Contents (Elt F)) (x1 : (⟨S16x16x30, .f32⟩ : BufTy).Contents (Elt F))
    (V : Valuation τ sig (Elt F)) (h : Good x0 x1 21 V) :
    after ops_21 V (Proc.devRef .tc main_v702) = val_main_v702 (F := F) x0 := by
  have hr := h.r
  have hθ := h.θ
  have hφ := h.φ
  simp only [ops_21]
  after_results_simp
  try rw [hr]
  try rw [hθ]
  try rw [hφ]
  all_goals rfl

/-- The chain keeps what was in place and adds orbital 21's array. -/
theorem step_21 (x0 : (⟨S4096x27x3, .f32⟩ : BufTy).Contents (Elt F)) (x1 : (⟨S16x16x30, .f32⟩ : BufTy).Contents (Elt F))
    (V : Valuation τ sig (Elt F)) (h : Good x0 x1 21 V) : Good x0 x1 22 (after ops_21 V) where
  a0 := (after_of_writes_sub ops_21 V ops_21_writes (by decide)).trans h.a0
  a1 := (after_of_writes_sub ops_21 V ops_21_writes (by decide)).trans h.a1
  r := (after_of_writes_sub ops_21 V ops_21_writes (by decide)).trans h.r
  θ := (after_of_writes_sub ops_21 V ops_21_writes (by decide)).trans h.θ
  φ := (after_of_writes_sub ops_21 V ops_21_writes (by decide)).trans h.φ
  res := by
    intro j hj
    fin_cases j
    · exact (after_of_writes_sub ops_21 V ops_21_writes (by decide)).trans (h.res 0 (by decide))
    · exact (after_of_writes_sub ops_21 V ops_21_writes (by decide)).trans (h.res 1 (by decide))
    · exact (after_of_writes_sub ops_21 V ops_21_writes (by decide)).trans (h.res 2 (by decide))
    · exact (after_of_writes_sub ops_21 V ops_21_writes (by decide)).trans (h.res 3 (by decide))
    · exact (after_of_writes_sub ops_21 V ops_21_writes (by decide)).trans (h.res 4 (by decide))
    · exact (after_of_writes_sub ops_21 V ops_21_writes (by decide)).trans (h.res 5 (by decide))
    · exact (after_of_writes_sub ops_21 V ops_21_writes (by decide)).trans (h.res 6 (by decide))
    · exact (after_of_writes_sub ops_21 V ops_21_writes (by decide)).trans (h.res 7 (by decide))
    · exact (after_of_writes_sub ops_21 V ops_21_writes (by decide)).trans (h.res 8 (by decide))
    · exact (after_of_writes_sub ops_21 V ops_21_writes (by decide)).trans (h.res 9 (by decide))
    · exact (after_of_writes_sub ops_21 V ops_21_writes (by decide)).trans (h.res 10 (by decide))
    · exact (after_of_writes_sub ops_21 V ops_21_writes (by decide)).trans (h.res 11 (by decide))
    · exact (after_of_writes_sub ops_21 V ops_21_writes (by decide)).trans (h.res 12 (by decide))
    · exact (after_of_writes_sub ops_21 V ops_21_writes (by decide)).trans (h.res 13 (by decide))
    · exact (after_of_writes_sub ops_21 V ops_21_writes (by decide)).trans (h.res 14 (by decide))
    · exact (after_of_writes_sub ops_21 V ops_21_writes (by decide)).trans (h.res 15 (by decide))
    · exact (after_of_writes_sub ops_21 V ops_21_writes (by decide)).trans (h.res 16 (by decide))
    · exact (after_of_writes_sub ops_21 V ops_21_writes (by decide)).trans (h.res 17 (by decide))
    · exact (after_of_writes_sub ops_21 V ops_21_writes (by decide)).trans (h.res 18 (by decide))
    · exact (after_of_writes_sub ops_21 V ops_21_writes (by decide)).trans (h.res 19 (by decide))
    · exact (after_of_writes_sub ops_21 V ops_21_writes (by decide)).trans (h.res 20 (by decide))
    · exact val_21 x0 x1 V h
    · exact absurd hj (by decide)
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk22.lean ====
/-
  Orbital chain 22 of the reference: the 51 operations that compute orbital 22's array on the 4096 × 27 grid from the
  coordinate arrays r, θ, φ alone, ending at main_v738.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 22, in program order. -/
abbrev ops_22 : List (HloOp τ sig (Elt F)) :=
  [ nullary main_cst_264 (constant S_ .f32 0x3F000000#32),
    unary main_cst_264 main_v703 (broadcastInDim S4096x27 ![] bcast_S_S4096x27 : (⟨S_, .f32⟩ : BufTy).Contents (Elt F) → (⟨S4096x27, .f32⟩ : BufTy).Contents (Elt F)),
    binary main_v703 main_v1 main_v704 (mulf : (⟨S4096x27, .f32⟩ : BufTy).Contents (Elt F) → (⟨S4096x27, .f32⟩ : BufTy).Contents (Elt F) → (⟨S4096x27, .f32⟩ : BufTy).Contents (Elt F)),
    nullary main_cst_265 (constant S_ .f32 0xBF000000#32),
    unary main_cst_265 main_v705 (broadcastInDim S4096x27 ![] bcast_S_S4096x27 : (⟨S_, .f32⟩ : BufTy).Contents (Elt F) → (⟨S4096x27, .f32⟩ : BufTy).Contents (Elt F)),
    binary main_v705 main_v704 main_v706 (mulf : (⟨S4096x27, .f32⟩ : BufTy).Contents (Elt F) → (⟨S4096x27, .f32⟩ : BufTy).Contents (Elt F) → (⟨S4096x27, .f32⟩ : BufTy).Contents (Elt F)),
    unary main_v706 main_v707 (Host.exp : (⟨S4096x27, .f32⟩ : BufTy).Contents (Elt F) → (⟨S4096x27, .f32⟩ : BufTy).Contents (Elt F)),
    nullary main_cst_266 (constant S_ .f32 0x3B98A61F#32),
    unary main_cst_266 main_v708 (broadcastInDim S4096x27 ![] bcast_S_S4096x27 : (⟨S_, .f32⟩ : BufTy).Contents (Elt F) → (⟨S4096x27, .f32⟩ : BufTy).Contents (Elt F)),
    binary main_v708 main_v707 main_v709 (mulf : (⟨S4096x27, .f32⟩ : BufTy).Contents (Elt F) → (⟨S4096x27, .f32⟩ : BufTy).Contents (Elt F) → (⟨S4096x27, .f32⟩ : BufTy).Contents (Elt F)),
    binary main_v704 main_v704 main_v710 (mulf : (⟨S4096x27, .f32⟩ : BufTy).Contents (Elt F) → (⟨S4096x27, .f32⟩ : BufTy).Contents (Elt F) → (⟨S4096x27, .f32⟩ : BufTy).Contents (Elt F)),
    binary main_v709 main_v710 main_v711 (mulf : (⟨S4096x27, .f32⟩ : BufTy).Contents (Elt F) → (⟨S4096x27, .f32⟩ : BufTy).Contents (Elt F) → (⟨S4096x27, .f32⟩ : BufTy).Contents (Elt F)),
    nullary main_cst_267 (constant S_ .f32 0x00000000#32),
    unary main_cst_267 main_v712 (broadcastInDim S4096x27 ![] bcast_S_S4096x27 : (⟨S_, .f32⟩ : BufTy).Contents (Elt F) → (⟨S4096x27, .f32⟩ : BufTy).Contents (Elt F)),
    nullary main_cst_268 (constant S_ .f32 0xBF800000#32),
    unary main_cst_268 main_v713 (broadcastInDim S4096x27 ![] bcast_S_S4096x27 : (⟨S_, .f32⟩ : BufTy).Contents (Elt F) → (⟨S4096x27, .f32⟩ : BufTy).Contents (Elt F)),
    binary main_v712 main_v713 main_v714 (addf : (⟨S4096x27, .f32⟩ : BufTy).Contents (Elt F) → (⟨S4096x27, .f32⟩ : BufTy).Contents (Elt F) → (⟨S4096x27, .f32⟩ : BufTy).Contents (Elt F)),
    binary main_v714 main_v704 main_v715 (mulf : (⟨S4096x27, .f32⟩ : BufTy).Contents (Elt F) → (⟨S4096x27, .f32⟩ : BufTy).Contents (Elt F) → (⟨S4096x27, .f32⟩ : BufTy).Contents (Elt F)),
    nullary main_cst_269 (constant S_ .f32 0x40C00000#32),
    unary main_cst_269 main_v716 (broadcastInDim S4096x27 ![] bcast_S_S4096x27 : (⟨S_, .f32⟩ : BufTy).Contents (Elt F) → (⟨S4096x27, .f32⟩ : BufTy).Contents (Elt F)),
    binary main_v715 main_v716 main_v717 (addf : (⟨S4096x27, .f32⟩ : BufTy).Contents (Elt F) → (⟨S4096x27, .f32⟩ : BufTy).Contents (Elt F) → (⟨S4096x27, .f32⟩ : BufTy).Contents (Elt F)),
    binary main_v711 main_v717 main_v718 (mulf : (⟨S4096x27, .f32⟩ : BufTy).Contents (Elt F) → (⟨S4096x27, .f32⟩ : BufTy).Contents (Elt F) → (⟨S4096x27, .f32⟩ : BufTy).Contents (Elt F)),
    unary main_v3 main_v719 (Host.cos : (⟨S4096x27, .f32⟩ : BufTy).Contents (Elt F) → (⟨S4096x27, .f32⟩ : BufTy).Contents (Elt F)),
    binary main_v719 main_v719 main_v720 (mulf : (⟨S4096x27, .f32⟩ : BufTy).Contents (Elt F) → (⟨S4096x27, .f32⟩ : BufTy).Contents (Elt F) → (⟨S4096x27, .f32⟩ : BufTy).Contents (Elt F)),
    nullary main_cst_270 (constant S_ .f32 0x3F800000#32),
    unary main_cst_270 main_v721 (broadcastInDim S4096x27 ![] bcast_S_S4096x27 : (⟨S_, .f32⟩ : BufTy).Contents (Elt F) → (⟨S4096x27, .f32⟩ : BufTy).Contents (Elt F)),
    binary main_v721 main_v720 main_v722 (subf : (⟨S4096x27, .f32⟩ : BufTy).Contents (Elt F) → (⟨S4096x27, .f32⟩ : BufTy).Contents (Elt F) → (⟨S4096x27, .f32⟩ : BufTy).Contents (Elt F)),
    nullary main_cst_271 (constant S_ .f32 0x00000000#32),
    TRef.unary (TRef.of (T := ⟨S_, .f32⟩) main_cst_271) (TRef.of (T := ⟨S_, .f32⟩) main_call22_v0) id,
    TRef.unary (TRef.of (T := ⟨S_, .f32⟩) main_call22_v0) (TRef.of (T := ⟨S4096x27, .f32⟩) main_call22_v1) (broadcastInDim S4096x27 ![] bcast_S_S4096x27),
    TRef.binary (TRef.of (T := ⟨S4096x27, .f32⟩) main_call22_v1) (TRef.of (T := ⟨S4096x27, .f32⟩) main_v722) (TRef.of (T := ⟨S4096x27, .f32⟩) main_v723) maximumf,
    unary main_v723 main_v724 (Host.sqrt : (⟨S4096x27, .f32⟩ : BufTy).Contents (Elt F) → (⟨S4096x27, .f32⟩ : BufTy).Contents (Elt F)),
    nullary main_cst_272 (constant S_ .f32 0x3F800000#32),
    unary main_cst_272 main_v725 (broadcastInDim S4096x27 ![] bcast_S_S4096x27 : (⟨S_, .f32⟩ : BufTy).Contents (Elt F) → (⟨S4096x27, .f32⟩ : BufTy).Contents (Elt F)),
    nullary main_cst_273 (constant S_ .f32 0xBF800000#32),
    unary main_cst_273 main_v726 (broadcastInDim S4096x27 ![] bcast_S_S4096x27 : (⟨S_, .f32⟩ : BufTy).Contents (Elt F) → (⟨S4096x27, .f32⟩ : BufTy).Contents (Elt F)),
    binary main_v725 main_v726 main_v727 (mulf : (⟨S4096x27, .f32⟩ : BufTy).Contents (Elt F) → (⟨S4096x27, .f32⟩ : BufTy).Contents (Elt F) → (⟨S4096x27, .f32⟩ : BufTy).Contents (Elt F)),
    binary main_v727 main_v724 main_v728 (mulf : (⟨S4096x27, .f32⟩ : BufTy).Contents (Elt F) → (⟨S4096x27, .f32⟩ : BufTy).Contents (Elt F) → (⟨S4096x27, .f32⟩ : BufTy).Contents (Elt F)),
    nullary main_cst_274 (constant S_ .f32 0xC0400000#32),
    unary main_cst_274 main_v729 (broadcastInDim S4096x27 ![] bcast_S_S4096x27 : (⟨S_, .f32⟩ : BufTy).Contents (Elt F) → (⟨S4096x27, .f32⟩ : BufTy).Contents (Elt F)),
    binary main_v728 main_v729 main_v730 (mulf : (⟨S4096x27, .f32⟩ : BufTy).Contents (Elt F) → (⟨S4096x27, .f32⟩ : BufTy).Contents (Elt F) → (⟨S4096x27, .f32⟩ : BufTy).Contents (Elt F)),
    binary main_v730 main_v724 main_v731 (mulf : (⟨S4096x27, .f32⟩ : BufTy).Contents (Elt F) → (⟨S4096x27, .f32⟩ : BufTy).Contents (Elt F) → (⟨S4096x27, .f32⟩ : BufTy).Contents (Elt F)),
    nullary main_cst_275 (constant S_ .f32 0x3E3A762B#32),
    unary main_cst_275 main_v732 (broadcastInDim S4096x27 ![] bcast_S_S4096x27 : (⟨S_, .f32⟩ : BufTy).Contents (Elt F) → (⟨S4096x27, .f32⟩ : BufTy).Contents (Elt F)),
    binary main_v732 main_v731 main_v733 (mulf : (⟨S4096x27, .f32⟩ : BufTy).Contents (Elt F) → (⟨S4096x27, .f32⟩ : BufTy).Contents (Elt F) → (⟨S4096x27, .f32⟩ : BufTy).Contents (Elt F)),
    nullary main_cst_276 (constant S_ .f32 0x40000000#32),
    unary main_cst_276 main_v734 (broadcastInDim S4096x27 ![] bcast_S_S4096x27 : (⟨S_, .f32⟩ : BufTy).Contents (Elt F) → (⟨S4096x27, .f32⟩ : BufTy).Contents (Elt F)),
    binary main_v734 main_v5 main_v735 (mulf : (⟨S4096x27, .f32⟩ : BufTy).Contents (Elt F) → (⟨S4096x27, .f32⟩ : BufTy).Contents (Elt F) → (⟨S4096x27, .f32⟩ : BufTy).Contents (Elt F)),
    unary main_v735 main_v736 (Host.cos : (⟨S4096x27, .f32⟩ : BufTy).Contents (Elt F) → (⟨S4096x27, .f32⟩ : BufTy).Contents (Elt F)),
    binary main_v733 main_v736 main_v737 (mulf : (⟨S4096x27, .f32⟩ : BufTy).Contents (Elt F) → (⟨S4096x27, .f32⟩ : BufTy).Contents (Elt F) → (⟨S4096x27, .f32⟩ : BufTy).Contents (Elt F)),
    binary main_v718 main_v737 main_v738 (mulf : (⟨S4096x27, .f32⟩ : BufTy).Contents (Elt F) → (⟨S4096x27, .f32⟩ : BufTy).Contents (Elt F) → (⟨S4096x27, .f32⟩ : BufTy).Contents (Elt F)) ]

theorem ops_22_sub : (ops_22 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_22_fresh : ∀ op ∈ (ops_22 : List (HloOp τ sig (Elt F))), op.fresh = ∅ :=
  List.forall_iff_forall_mem.mp (by simp only [List.Forall]; repeat' constructor)

/-- The arrays chain 22 writes. -/
abbrev W_22 : List (Ref sig .tc) := [main_cst_264, main_v703, main_v704, main_cst_265, main_v705, main_v706, main_v707, main_cst_266, main_v708, main_v709, main_v710, main_v711, main_cst_267, main_v712, main_cst_268, main_v713, main_v714, main_v715, main_cst_269, main_v716, main_v717, main_v718, main_v719, main_v720, main_cst_270, main_v721, main_v722, main_cst_271, main_call22_v0, main_call22_v1, main_v723, main_v724, main_cst_272, main_v725, main_cst_273, main_v726, main_v727, main_v728, main_cst_274, main_v729, main_v730, main_v731, main_cst_275, main_v732, main_v733, main_cst_276, main_v734, main_v735, main_v736, main_v737, main_v738]

theorem ops_22_writes : (ops_22 : List (HloOp τ sig (Elt F))).Forall fun op =>
    op.writes ⊆ (W_22.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 22's array after the chain is its value of the position array. -/
theorem val_22 (x0 : (⟨S4096x27x3, .f32⟩ : BufTy).Contents (Elt F)) (x1 : (⟨S16x16x30, .f32⟩ : BufTy).Contents (Elt F))
    (V : Valuation τ sig (Elt F)) (h : Good x0 x1 22 V) :
    after ops_22 V (Proc.devRef .tc main_v738) = val_main_v738 (F := F) x0 := by
  have hr := h.r
  have hθ := h.θ
  have hφ := h.φ
  simp only [ops_22]
  after_results_simp
  try rw [hr]
  try rw [hθ]
  try rw [hφ]
  all_goals rfl

/-- The chain keeps what was in place and adds orbital 22's array. -/
theorem step_22 (x0 : (⟨S4096x27x3, .f32⟩ : BufTy).Contents (Elt F)) (x1 : (⟨S16x16x30, .f32⟩ : BufTy).Contents (Elt F))
    (V : Valuation τ sig (Elt F)) (h : Good x0 x1 22 V) : Good x0 x1 23 (after ops_22 V) where
  a0 := (after_of_writes_sub ops_22 V ops_22_writes (by decide)).trans h.a0
  a1 := (after_of_writes_sub ops_22 V ops_22_writes (by decide)).trans h.a1
  r := (after_of_writes_sub ops_22 V ops_22_writes (by decide)).trans h.r
  θ := (after_of_writes_sub ops_22 V ops_22_writes (by decide)).trans h.θ
  φ := (after_of_writes_sub ops_22 V ops_22_writes (by decide)).trans h.φ
  res := by
    intro j hj
    fin_cases j
    · exact (after_of_writes_sub ops_22 V ops_22_writes (by decide)).trans (h.res 0 (by decide))
    · exact (after_of_writes_sub ops_22 V ops_22_writes (by decide)).trans (h.res 1 (by decide))
    · exact (after_of_writes_sub ops_22 V ops_22_writes (by decide)).trans (h.res 2 (by decide))
    · exact (after_of_writes_sub ops_22 V ops_22_writes (by decide)).trans (h.res 3 (by decide))
    · exact (after_of_writes_sub ops_22 V ops_22_writes (by decide)).trans (h.res 4 (by decide))
    · exact (after_of_writes_sub ops_22 V ops_22_writes (by decide)).trans (h.res 5 (by decide))
    · exact (after_of_writes_sub ops_22 V ops_22_writes (by decide)).trans (h.res 6 (by decide))
    · exact (after_of_writes_sub ops_22 V ops_22_writes (by decide)).trans (h.res 7 (by decide))
    · exact (after_of_writes_sub ops_22 V ops_22_writes (by decide)).trans (h.res 8 (by decide))
    · exact (after_of_writes_sub ops_22 V ops_22_writes (by decide)).trans (h.res 9 (by decide))
    · exact (after_of_writes_sub ops_22 V ops_22_writes (by decide)).trans (h.res 10 (by decide))
    · exact (after_of_writes_sub ops_22 V ops_22_writes (by decide)).trans (h.res 11 (by decide))
    · exact (after_of_writes_sub ops_22 V ops_22_writes (by decide)).trans (h.res 12 (by decide))
    · exact (after_of_writes_sub ops_22 V ops_22_writes (by decide)).trans (h.res 13 (by decide))
    · exact (after_of_writes_sub ops_22 V ops_22_writes (by decide)).trans (h.res 14 (by decide))
    · exact (after_of_writes_sub ops_22 V ops_22_writes (by decide)).trans (h.res 15 (by decide))
    · exact (after_of_writes_sub ops_22 V ops_22_writes (by decide)).trans (h.res 16 (by decide))
    · exact (after_of_writes_sub ops_22 V ops_22_writes (by decide)).trans (h.res 17 (by decide))
    · exact (after_of_writes_sub ops_22 V ops_22_writes (by decide)).trans (h.res 18 (by decide))
    · exact (after_of_writes_sub ops_22 V ops_22_writes (by decide)).trans (h.res 19 (by decide))
    · exact (after_of_writes_sub ops_22 V ops_22_writes (by decide)).trans (h.res 20 (by decide))
    · exact (after_of_writes_sub ops_22 V ops_22_writes (by decide)).trans (h.res 21 (by decide))
    · exact val_22 x0 x1 V h
    · exact absurd hj (by decide)
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk23.lean ====
/-
  Orbital chain 23 of the reference: the 52 operations that compute orbital 23's array on the 4096 × 27 grid from the
  coordinate arrays r, θ, φ alone, ending at main_v775.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 23, in program order. -/
abbrev ops_23 : List (HloOp τ sig (Elt F)) :=
  [ nullary main_cst_277 (constant S_ .f32 0x3F000000#32),
    unary main_cst_277 main_v739 (broadcastInDim S4096x27 ![] bcast_S_S4096x27 : (⟨S_, .f32⟩ : BufTy).Contents (Elt F) → (⟨S4096x27, .f32⟩ : BufTy).Contents (Elt F)),
    binary main_v739 main_v1 main_v740 (mulf : (⟨S4096x27, .f32⟩ : BufTy).Contents (Elt F) → (⟨S4096x27, .f32⟩ : BufTy).Contents (Elt F) → (⟨S4096x27, .f32⟩ : BufTy).Contents (Elt F)),
    nullary main_cst_278 (constant S_ .f32 0xBF000000#32),
    unary main_cst_278 main_v741 (broadcastInDim S4096x27 ![] bcast_S_S4096x27 : (⟨S_, .f32⟩ : BufTy).Contents (Elt F) → (⟨S4096x27, .f32⟩ : BufTy).Contents (Elt F)),
    binary main_v741 main_v740 main_v742 (mulf : (⟨S4096x27, .f32⟩ : BufTy).Contents (Elt F) → (⟨S4096x27, .f32⟩ : BufTy).Contents (Elt F) → (⟨S4096x27, .f32⟩ : BufTy).Contents (Elt F)),
    unary main_v742 main_v743 (Host.exp : (⟨S4096x27, .f32⟩ : BufTy).Contents (Elt F) → (⟨S4096x27, .f32⟩ : BufTy).Contents (Elt F)),
    nullary main_cst_279 (constant S_ .f32 0x3AE6C891#32),
    unary main_cst_279 main_v744 (broadcastInDim S4096x27 ![] bcast_S_S4096x27 : (⟨S_, .f32⟩ : BufTy).Contents (Elt F) → (⟨S4096x27, .f32⟩ : BufTy).Contents (Elt F)),
    binary main_v744 main_v743 main_v745 (mulf : (⟨S4096x27, .f32⟩ : BufTy).Contents (Elt F) → (⟨S4096x27, .f32⟩ : BufTy).Contents (Elt F) → (⟨S4096x27, .f32⟩ : BufTy).Contents (Elt F)),
    binary main_v740 main_v740 main_v746 (mulf : (⟨S4096x27, .f32⟩ : BufTy).Contents (Elt F) → (⟨S4096x27, .f32⟩ : BufTy).Contents (Elt F) → (⟨S4096x27, .f32⟩ : BufTy).Contents (Elt F)),
    binary main_v746 main_v740 main_v747 (mulf : (⟨S4096x27, .f32⟩ : BufTy).Contents (Elt F) → (⟨S4096x27, .f32⟩ : BufTy).Contents (Elt F) → (⟨S4096x27, .f32⟩ : BufTy).Contents (Elt F)),
    binary main_v745 main_v747 main_v748 (mulf : (⟨S4096x27, .f32⟩ : BufTy).Contents (Elt F) → (⟨S4096x27, .f32⟩ : BufTy).Contents (Elt F) → (⟨S4096x27, .f32⟩ : BufTy).Contents (Elt F)),
    nullary main_cst_280 (constant S_ .f32 0x00000000#32),
    unary main_cst_280 main_v749 (broadcastInDim S4096x27 ![] bcast_S_S4096x27 : (⟨S_, .f32⟩ : BufTy).Contents (Elt F) → (⟨S4096x27, .f32⟩ : BufTy).Contents (Elt F)),
    nullary main_cst_281 (constant S_ .f32 0x3F800000#32),
    unary main_cst_281 main_v750 (broadcastInDim S4096x27 ![] bcast_S_S4096x27 : (⟨S_, .f32⟩ : BufTy).Contents (Elt F) → (⟨S4096x27, .f32⟩ : BufTy).Contents (Elt F)),
    binary main_v749 main_v750 main_v751 (addf : (⟨S4096x27, .f32⟩ : BufTy).Contents (Elt F) → (⟨S4096x27, .f32⟩ : BufTy).Contents (Elt F) → (⟨S4096x27, .f32⟩ : BufTy).Contents (Elt F)),
    binary main_v748 main_v751 main_v752 (mulf : (⟨S4096x27, .f32⟩ : BufTy).Contents (Elt F) → (⟨S4096x27, .f32⟩ : BufTy).Contents (Elt F) → (⟨S4096x27, .f32⟩ : BufTy).Contents (Elt F)),
    unary main_v3 main_v753 (Host.cos : (⟨S4096x27, .f32⟩ : BufTy).Contents (Elt F) → (⟨S4096x27, .f32⟩ : BufTy).Contents (Elt F)),
    binary main_v753 main_v753 main_v754 (mulf : (⟨S4096x27, .f32⟩ : BufTy).Contents (Elt F) → (⟨S4096x27, .f32⟩ : BufTy).Contents (Elt F) → (⟨S4096x27, .f32⟩ : BufTy).Contents (Elt F)),
    nullary main_cst_282 (constant S_ .f32 0x3F800000#32),
    unary main_cst_282 main_v755 (broadcastInDim S4096x27 ![] bcast_S_S4096x27 : (⟨S_, .f32⟩ : BufTy).Contents (Elt F) → (⟨S4096x27, .f32⟩ : BufTy).Contents (Elt F)),
    binary main_v755 main_v754 main_v756 (subf : (⟨S4096x27, .f32⟩ : BufTy).Contents (Elt F) → (⟨S4096x27, .f32⟩ : BufTy).Contents (Elt F) → (⟨S4096x27, .f32⟩ : BufTy).Contents (Elt F)),
    nullary main_cst_283 (constant S_ .f32 0x00000000#32),
    TRef.unary (TRef.of (T := ⟨S_, .f32⟩) main_cst_283) (TRef.of (T := ⟨S_, .f32⟩) main_call23_v0) id,
    TRef.unary (TRef.of (T := ⟨S_, .f32⟩) main_call23_v0) (TRef.of (T := ⟨S4096x27, .f32⟩) main_call23_v1) (broadcastInDim S4096x27 ![] bcast_S_S4096x27),
    TRef.binary (TRef.of (T := ⟨S4096x27, .f32⟩) main_call23_v1) (TRef.of (T := ⟨S4096x27, .f32⟩) main_v756) (TRef.of (T := ⟨S4096x27, .f32⟩) main_v757) maximumf,
    unary main_v757 main_v758 (Host.sqrt : (⟨S4096x27, .f32⟩ : BufTy).Contents (Elt F) → (⟨S4096x27, .f32⟩ : BufTy).Contents (Elt F)),
    nullary main_cst_284 (constant S_ .f32 0x3F800000#32),
    unary main_cst_284 main_v759 (broadcastInDim S4096x27 ![] bcast_S_S4096x27 : (⟨S_, .f32⟩ : BufTy).Contents (Elt F) → (⟨S4096x27, .f32⟩ : BufTy).Contents (Elt F)),
    nullary main_cst_285 (constant S_ .f32 0xBF800000#32),
    unary main_cst_285 main_v760 (broadcastInDim S4096x27 ![] bcast_S_S4096x27 : (⟨S_, .f32⟩ : BufTy).Contents (Elt F) → (⟨S4096x27, .f32⟩ : BufTy).Contents (Elt F)),
    binary main_v759 main_v760 main_v761 (mulf : (⟨S4096x27, .f32⟩ : BufTy).Contents (Elt F) → (⟨S4096x27, .f32⟩ : BufTy).Contents (Elt F) → (⟨S4096x27, .f32⟩ : BufTy).Contents (Elt F)),
    binary main_v761 main_v758 main_v762 (mulf : (⟨S4096x27, .f32⟩ : BufTy).Contents (Elt F) → (⟨S4096x27, .f32⟩ : BufTy).Contents (Elt F) → (⟨S4096x27, .f32⟩ : BufTy).Contents (Elt F)),
    nullary main_cst_286 (constant S_ .f32 0xC0400000#32),
    unary main_cst_286 main_v763 (broadcastInDim S4096x27 ![] bcast_S_S4096x27 : (⟨S_, .f32⟩ : BufTy).Contents (Elt F) → (⟨S4096x27, .f32⟩ : BufTy).Contents (Elt F)),
    binary main_v762 main_v763 main_v764 (mulf : (⟨S4096x27, .f32⟩ : BufTy).Contents (Elt F) → (⟨S4096x27, .f32⟩ : BufTy).Contents (Elt F) → (⟨S4096x27, .f32⟩ : BufTy).Contents (Elt F)),
    binary main_v764 main_v758 main_v765 (mulf : (⟨S4096x27, .f32⟩ : BufTy).Contents (Elt F) → (⟨S4096x27, .f32⟩ : BufTy).Contents (Elt F) → (⟨S4096x27, .f32⟩ : BufTy).Contents (Elt F)),
    nullary main_cst_287 (constant S_ .f32 0xC0A00000#32),
    unary main_cst_287 main_v766 (broadcastInDim S4096x27 ![] bcast_S_S4096x27 : (⟨S_, .f32⟩ : BufTy).Contents (Elt F) → (⟨S4096x27, .f32⟩ : BufTy).Contents (Elt F)),
    binary main_v765 main_v766 main_v767 (mulf : (⟨S4096x27, .f32⟩ : BufTy).Contents (Elt F) → (⟨S4096x27, .f32⟩ : BufTy).Contents (Elt F) → (⟨S4096x27, .f32⟩ : BufTy).Contents (Elt F)),
    binary main_v767 main_v758 main_v768 (mulf : (⟨S4096x27, .f32⟩ : BufTy).Contents (Elt F) → (⟨S4096x27, .f32⟩ : BufTy).Contents (Elt F) → (⟨S4096x27, .f32⟩ : BufTy).Contents (Elt F)),
    nullary main_cst_288 (constant S_ .f32 0x3D211F09#32),
    unary main_cst_288 main_v769 (broadcastInDim S4096x27 ![] bcast_S_S4096x27 : (⟨S_, .f32⟩ : BufTy).Contents (Elt F) → (⟨S4096x27, .f32⟩ : BufTy).Contents (Elt F)),
    binary main_v769 main_v768 main_v770 (mulf : (⟨S4096x27, .f32⟩ : BufTy).Contents (Elt F) → (⟨S4096x27, .f32⟩ : BufTy).Contents (Elt F) → (⟨S4096x27, .f32⟩ : BufTy).Contents (Elt F)),
    nullary main_cst_289 (constant S_ .f32 0x40400000#32),
    unary main_cst_289 main_v771 (broadcastInDim S4096x27 ![] bcast_S_S4096x27 : (⟨S_, .f32⟩ : BufTy).Contents (Elt F) → (⟨S4096x27, .f32⟩ : BufTy).Contents (Elt F)),
    binary main_v771 main_v5 main_v772 (mulf : (⟨S4096x27, .f32⟩ : BufTy).Contents (Elt F) → (⟨S4096x27, .f32⟩ : BufTy).Contents (Elt F) → (⟨S4096x27, .f32⟩ : BufTy).Contents (Elt F)),
    unary main_v772 main_v773 (Host.sin : (⟨S4096x27, .f32⟩ : BufTy).Contents (Elt F) → (⟨S4096x27, .f32⟩ : BufTy).Contents (Elt F)),
    binary main_v770 main_v773 main_v774 (mulf : (⟨S4096x27, .f32⟩ : BufTy).Contents (Elt F) → (⟨S4096x27, .f32⟩ : BufTy).Contents (Elt F) → (⟨S4096x27, .f32⟩ : BufTy).Contents (Elt F)),
    binary main_v752 main_v774 main_v775 (mulf : (⟨S4096x27, .f32⟩ : BufTy).Contents (Elt F) → (⟨S4096x27, .f32⟩ : BufTy).Contents (Elt F) → (⟨S4096x27, .f32⟩ : BufTy).Contents (Elt F)) ]

theorem ops_23_sub : (ops_23 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_23_fresh : ∀ op ∈ (ops_23 : List (HloOp τ sig (Elt F))), op.fresh = ∅ :=
  List.forall_iff_forall_mem.mp (by simp only [List.Forall]; repeat' constructor)

/-- The arrays chain 23 writes. -/
abbrev W_23 : List (Ref sig .tc) := [main_cst_277, main_v739, main_v740, main_cst_278, main_v741, main_v742, main_v743, main_cst_279, main_v744, main_v745, main_v746, main_v747, main_v748, main_cst_280, main_v749, main_cst_281, main_v750, main_v751, main_v752, main_v753, main_v754, main_cst_282, main_v755, main_v756, main_cst_283, main_call23_v0, main_call23_v1, main_v757, main_v758, main_cst_284, main_v759, main_cst_285, main_v760, main_v761, main_v762, main_cst_286, main_v763, main_v764, main_v765, main_cst_287, main_v766, main_v767, main_v768, main_cst_288, main_v769, main_v770, main_cst_289, main_v771, main_v772, main_v773, main_v774, main_v775]

theorem ops_23_writes : (ops_23 : List (HloOp τ sig (Elt F))).Forall fun op =>
    op.writes ⊆ (W_23.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 23's array after the chain is its value of the position array. -/
theorem val_23 (x0 : (⟨S4096x27x3, .f32⟩ : BufTy).Contents (Elt F)) (x1 : (⟨S16x16x30, .f32⟩ : BufTy).Contents (Elt F))
    (V : Valuation τ sig (Elt F)) (h : Good x0 x1 23 V) :
    after ops_23 V (Proc.devRef .tc main_v775) = val_main_v775 (F := F) x0 := by
  have hr := h.r
  have hθ := h.θ
  have hφ := h.φ
  simp only [ops_23]
  after_results_simp
  try rw [hr]
  try rw [hθ]
  try rw [hφ]
  all_goals rfl

/-- The chain keeps what was in place and adds orbital 23's array. -/
theorem step_23 (x0 : (⟨S4096x27x3, .f32⟩ : BufTy).Contents (Elt F)) (x1 : (⟨S16x16x30, .f32⟩ : BufTy).Contents (Elt F))
    (V : Valuation τ sig (Elt F)) (h : Good x0 x1 23 V) : Good x0 x1 24 (after ops_23 V) where
  a0 := (after_of_writes_sub ops_23 V ops_23_writes (by decide)).trans h.a0
  a1 := (after_of_writes_sub ops_23 V ops_23_writes (by decide)).trans h.a1
  r := (after_of_writes_sub ops_23 V ops_23_writes (by decide)).trans h.r
  θ := (after_of_writes_sub ops_23 V ops_23_writes (by decide)).trans h.θ
  φ := (after_of_writes_sub ops_23 V ops_23_writes (by decide)).trans h.φ
  res := by
    intro j hj
    fin_cases j
    · exact (after_of_writes_sub ops_23 V ops_23_writes (by decide)).trans (h.res 0 (by decide))
    · exact (after_of_writes_sub ops_23 V ops_23_writes (by decide)).trans (h.res 1 (by decide))
    · exact (after_of_writes_sub ops_23 V ops_23_writes (by decide)).trans (h.res 2 (by decide))
    · exact (after_of_writes_sub ops_23 V ops_23_writes (by decide)).trans (h.res 3 (by decide))
    · exact (after_of_writes_sub ops_23 V ops_23_writes (by decide)).trans (h.res 4 (by decide))
    · exact (after_of_writes_sub ops_23 V ops_23_writes (by decide)).trans (h.res 5 (by decide))
    · exact (after_of_writes_sub ops_23 V ops_23_writes (by decide)).trans (h.res 6 (by decide))
    · exact (after_of_writes_sub ops_23 V ops_23_writes (by decide)).trans (h.res 7 (by decide))
    · exact (after_of_writes_sub ops_23 V ops_23_writes (by decide)).trans (h.res 8 (by decide))
    · exact (after_of_writes_sub ops_23 V ops_23_writes (by decide)).trans (h.res 9 (by decide))
    · exact (after_of_writes_sub ops_23 V ops_23_writes (by decide)).trans (h.res 10 (by decide))
    · exact (after_of_writes_sub ops_23 V ops_23_writes (by decide)).trans (h.res 11 (by decide))
    · exact (after_of_writes_sub ops_23 V ops_23_writes (by decide)).trans (h.res 12 (by decide))
    · exact (after_of_writes_sub ops_23 V ops_23_writes (by decide)).trans (h.res 13 (by decide))
    · exact (after_of_writes_sub ops_23 V ops_23_writes (by decide)).trans (h.res 14 (by decide))
    · exact (after_of_writes_sub ops_23 V ops_23_writes (by decide)).trans (h.res 15 (by decide))
    · exact (after_of_writes_sub ops_23 V ops_23_writes (by decide)).trans (h.res 16 (by decide))
    · exact (after_of_writes_sub ops_23 V ops_23_writes (by decide)).trans (h.res 17 (by decide))
    · exact (after_of_writes_sub ops_23 V ops_23_writes (by decide)).trans (h.res 18 (by decide))
    · exact (after_of_writes_sub ops_23 V ops_23_writes (by decide)).trans (h.res 19 (by decide))
    · exact (after_of_writes_sub ops_23 V ops_23_writes (by decide)).trans (h.res 20 (by decide))
    · exact (after_of_writes_sub ops_23 V ops_23_writes (by decide)).trans (h.res 21 (by decide))
    · exact (after_of_writes_sub ops_23 V ops_23_writes (by decide)).trans (h.res 22 (by decide))
    · exact val_23 x0 x1 V h
    · exact absurd hj (by decide)
    · exact absurd hj (by decide)
    · exact absurd hj (by decide)
    · exact absurd hj (by decide)
    · exact absurd hj (by decide)
    · exact absurd hj (by decide)

end Cert.ReferenceIdeal.RunH

end
-- ==== Proof.RefChunk24.lean ====
/-
  Orbital chain 24 of the reference: the 52 operations that compute orbital 24's array on the 4096 × 27 grid from the
  coordinate arrays r, θ, φ alone, ending at main_v812.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 24, in program order. -/
abbrev ops_24 : List (HloOp τ sig (Elt F)) :=
  [ nullary main_cst_290 (constant S_ .f32 0x3F000000#32),
    unary main_cst_290 main_v776 (broadcastInDim S4096x27 ![] bcast_S_S4096x27 : (⟨S_, .f32⟩ : BufTy).Contents (Elt F) → (⟨S4096x27, .f32⟩ : BufTy).Contents (Elt F)),
    binary main_v776 main_v1 main_v777 (mulf : (⟨S4096x27, .f32⟩ : BufTy).Contents (Elt F) → (⟨S4096x27, .f32⟩ : BufTy).Contents (Elt F) → (⟨S4096x27, .f32⟩ : BufTy).Contents (Elt F)),
    nullary main_cst_291 (constant S_ .f32 0xBF000000#32),
    unary main_cst_291 main_v778 (broadcastInDim S4096x27 ![] bcast_S_S4096x27 : (⟨S_, .f32⟩ : BufTy).Contents (Elt F) → (⟨S4096x27, .f32⟩ : BufTy).Contents (Elt F)),
    binary main_v778 main_v777 main_v779 (mulf : (⟨S4096x27, .f32⟩ : BufTy).Contents (Elt F) → (⟨S4096x27, .f32⟩ : BufTy).Contents (Elt F) → (⟨S4096x27, .f32⟩ : BufTy).Contents (Elt F)),
    unary main_v779 main_v780 (Host.exp : (⟨S4096x27, .f32⟩ : BufTy).Contents (Elt F) → (⟨S4096x27, .f32⟩ : BufTy).Contents (Elt F)),
    nullary main_cst_292 (constant S_ .f32 0x3AE6C891#32),
    unary main_cst_292 main_v781 (broadcastInDim S4096x27 ![] bcast_S_S4096x27 : (⟨S_, .f32⟩ : BufTy).Contents (Elt F) → (⟨S4096x27, .f32⟩ : BufTy).Contents (Elt F)),
    binary main_v781 main_v780 main_v782 (mulf : (⟨S4096x27, .f32⟩ : BufTy).Contents (Elt F) → (⟨S4096x27, .f32⟩ : BufTy).Contents (Elt F) → (⟨S4096x27, .f32⟩ : BufTy).Contents (Elt F)),
    binary main_v777 main_v777 main_v783 (mulf : (⟨S4096x27, .f32⟩ : BufTy).Contents (Elt F) → (⟨S4096x27, .f32⟩ : BufTy).Contents (Elt F) → (⟨S4096x27, .f32⟩ : BufTy).Contents (Elt F)),
    binary main_v783 main_v777 main_v784 (mulf : (⟨S4096x27, .f32⟩ : BufTy).Contents (Elt F) → (⟨S4096x27, .f32⟩ : BufTy).Contents (Elt F) → (⟨S4096x27, .f32⟩ : BufTy).Contents (Elt F)),
    binary main_v782 main_v784 main_v785 (mulf : (⟨S4096x27, .f32⟩ : BufTy).Contents (Elt F) → (⟨S4096x27, .f32⟩ : BufTy).Contents (Elt F) → (⟨S4096x27, .f32⟩ : BufTy).Contents (Elt F)),
    nullary main_cst_293 (constant S_ .f32 0x00000000#32),
    unary main_cst_293 main_v786 (broadcastInDim S4096x27 ![] bcast_S_S4096x27 : (⟨S_, .f32⟩ : BufTy).Contents (Elt F) → (⟨S4096x27, .f32⟩ : BufTy).Contents (Elt F)),
    nullary main_cst_294 (constant S_ .f32 0x3F800000#32),
    unary main_cst_294 main_v787 (broadcastInDim S4096x27 ![] bcast_S_S4096x27 : (⟨S_, .f32⟩ : BufTy).Contents (Elt F) → (⟨S4096x27, .f32⟩ : BufTy).Contents (Elt F)),
    binary main_v786 main_v787 main_v788 (addf : (⟨S4096x27, .f32⟩ : BufTy).Contents (Elt F) → (⟨S4096x27, .f32⟩ : BufTy).Contents (Elt F) → (⟨S4096x27, .f32⟩ : BufTy).Contents (Elt F)),
    binary main_v785 main_v788 main_v789 (mulf : (⟨S4096x27, .f32⟩ : BufTy).Contents (Elt F) → (⟨S4096x27, .f32⟩ : BufTy).Contents (Elt F) → (⟨S4096x27, .f32⟩ : BufTy).Contents (Elt F)),
    unary main_v3 main_v790 (Host.cos : (⟨S4096x27, .f32⟩ : BufTy).Contents (Elt F) → (⟨S4096x27, .f32⟩ : BufTy).Contents (Elt F)),
    binary main_v790 main_v790 main_v791 (mulf : (⟨S4096x27, .f32⟩ : BufTy).Contents (Elt F) → (⟨S4096x27, .f32⟩ : BufTy).Contents (Elt F) → (⟨S4096x27, .f32⟩ : BufTy).Contents (Elt F)),
    nullary main_cst_295 (constant S_ .f32 0x3F800000#32),
    unary main_cst_295 main_v792 (broadcastInDim S4096x27 ![] bcast_S_S4096x27 : (⟨S_, .f32⟩ : BufTy).Contents (Elt F) → (⟨S4096x27, .f32⟩ : BufTy).Contents (Elt F)),
    binary main_v792 main_v791 main_v793 (subf : (⟨S4096x27, .f32⟩ : BufTy).Contents (Elt F) → (⟨S4096x27, .f32⟩ : BufTy).Contents (Elt F) → (⟨S4096x27, .f32⟩ : BufTy).Contents (Elt F)),
    nullary main_cst_296 (constant S_ .f32 0x00000000#32),
    TRef.unary (TRef.of (T := ⟨S_, .f32⟩) main_cst_296) (TRef.of (T := ⟨S_, .f32⟩) main_call24_v0) id,
    TRef.unary (TRef.of (T := ⟨S_, .f32⟩) main_call24_v0) (TRef.of (T := ⟨S4096x27, .f32⟩) main_call24_v1) (broadcastInDim S4096x27 ![] bcast_S_S4096x27),
    TRef.binary (TRef.of (T := ⟨S4096x27, .f32⟩) main_call24_v1) (TRef.of (T := ⟨S4096x27, .f32⟩) main_v793) (TRef.of (T := ⟨S4096x27, .f32⟩) main_v794) maximumf,
    unary main_v794 main_v795 (Host.sqrt : (⟨S4096x27, .f32⟩ : BufTy).Contents (Elt F) → (⟨S4096x27, .f32⟩ : BufTy).Contents (Elt F)),
    nullary main_cst_297 (constant S_ .f32 0x3F800000#32),
    unary main_cst_297 main_v796 (broadcastInDim S4096x27 ![] bcast_S_S4096x27 : (⟨S_, .f32⟩ : BufTy).Contents (Elt F) → (⟨S4096x27, .f32⟩ : BufTy).Contents (Elt F)),
    nullary main_cst_298 (constant S_ .f32 0xBF800000#32),
    unary main_cst_298 main_v797 (broadcastInDim S4096x27 ![] bcast_S_S4096x27 : (⟨S_, .f32⟩ : BufTy).Contents (Elt F) → (⟨S4096x27, .f32⟩ : BufTy).Contents (Elt F)),
    binary main_v796 main_v797 main_v798 (mulf : (⟨S4096x27, .f32⟩ : BufTy).Contents (Elt F) → (⟨S4096x27, .f32⟩ : BufTy).Contents (Elt F) → (⟨S4096x27, .f32⟩ : BufTy).Contents (Elt F)),
    binary main_v798 main_v795 main_v799 (mulf : (⟨S4096x27, .f32⟩ : BufTy).Contents (Elt F) → (⟨S4096x27, .f32⟩ : BufTy).Contents (Elt F) → (⟨S4096x27, .f32⟩ : BufTy).Contents (Elt F)),
    nullary main_cst_299 (constant S_ .f32 0xC0400000#32),
    unary main_cst_299 main_v800 (broadcastInDim S4096x27 ![] bcast_S_S4096x27 : (⟨S_, .f32⟩ : BufTy).Contents (Elt F) → (⟨S4096x27, .f32⟩ : BufTy).Contents (Elt F)),
    binary main_v799 main_v800 main_v801 (mulf : (⟨S4096x27, .f32⟩ : BufTy).Contents (Elt F) → (⟨S4096x27, .f32⟩ : BufTy).Contents (Elt F) → (⟨S4096x27, .f32⟩ : BufTy).Contents (Elt F)),
    binary main_v801 main_v795 main_v802 (mulf : (⟨S4096x27, .f32⟩ : BufTy).Contents (Elt F) → (⟨S4096x27, .f32⟩ : BufTy).Contents (Elt F) → (⟨S4096x27, .f32⟩ : BufTy).Contents (Elt F)),
    nullary main_cst_300 (constant S_ .f32 0x40A00000#32),
    unary main_cst_300 main_v803 (broadcastInDim S4096x27 ![] bcast_S_S4096x27 : (⟨S_, .f32⟩ : BufTy).Contents (Elt F) → (⟨S4096x27, .f32⟩ : BufTy).Contents (Elt F)),
    binary main_v790 main_v803 main_v804 (mulf : (⟨S4096x27, .f32⟩ : BufTy).Contents (Elt F) → (⟨S4096x27, .f32⟩ : BufTy).Contents (Elt F) → (⟨S4096x27, .f32⟩ : BufTy).Contents (Elt F)),
    binary main_v804 main_v802 main_v805 (mulf : (⟨S4096x27, .f32⟩ : BufTy).Contents (Elt F) → (⟨S4096x27, .f32⟩ : BufTy).Contents (Elt F) → (⟨S4096x27, .f32⟩ : BufTy).Contents (Elt F)),
    nullary main_cst_301 (constant S_ .f32 0x3DC55519#32),
    unary main_cst_301 main_v806 (broadcastInDim S4096x27 ![] bcast_S_S4096x27 : (⟨S_, .f32⟩ : BufTy).Contents (Elt F) → (⟨S4096x27, .f32⟩ : BufTy).Contents (Elt F)),
    binary main_v806 main_v805 main_v807 (mulf : (⟨S4096x27, .f32⟩ : BufTy).Contents (Elt F) → (⟨S4096x27, .f32⟩ : BufTy).Contents (Elt F) → (⟨S4096x27, .f32⟩ : BufTy).Contents (Elt F)),
    nullary main_cst_302 (constant S_ .f32 0x40000000#32),
    unary main_cst_302 main_v808 (broadcastInDim S4096x27 ![] bcast_S_S4096x27 : (⟨S_, .f32⟩ : BufTy).Contents (Elt F) → (⟨S4096x27, .f32⟩ : BufTy).Contents (Elt F)),
    binary main_v808 main_v5 main_v809 (mulf : (⟨S4096x27, .f32⟩ : BufTy).Contents (Elt F) → (⟨S4096x27, .f32⟩ : BufTy).Contents (Elt F) → (⟨S4096x27, .f32⟩ : BufTy).Contents (Elt F)),
    unary main_v809 main_v810 (Host.sin : (⟨S4096x27, .f32⟩ : BufTy).Contents (Elt F) → (⟨S4096x27, .f32⟩ : BufTy).Contents (Elt F)),
    binary main_v807 main_v810 main_v811 (mulf : (⟨S4096x27, .f32⟩ : BufTy).Contents (Elt F) → (⟨S4096x27, .f32⟩ : BufTy).Contents (Elt F) → (⟨S4096x27, .f32⟩ : BufTy).Contents (Elt F)),
    binary main_v789 main_v811 main_v812 (mulf : (⟨S4096x27, .f32⟩ : BufTy).Contents (Elt F) → (⟨S4096x27, .f32⟩ : BufTy).Contents (Elt F) → (⟨S4096x27, .f32⟩ : BufTy).Contents (Elt F)) ]

theorem ops_24_sub : (ops_24 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_24_fresh : ∀ op ∈ (ops_24 : List (HloOp τ sig (Elt F))), op.fresh = ∅ :=
  List.forall_iff_forall_mem.mp (by simp only [List.Forall]; repeat' constructor)

/-- The arrays chain 24 writes. -/
abbrev W_24 : List (Ref sig .tc) := [main_cst_290, main_v776, main_v777, main_cst_291, main_v778, main_v779, main_v780, main_cst_292, main_v781, main_v782, main_v783, main_v784, main_v785, main_cst_293, main_v786, main_cst_294, main_v787, main_v788, main_v789, main_v790, main_v791, main_cst_295, main_v792, main_v793, main_cst_296, main_call24_v0, main_call24_v1, main_v794, main_v795, main_cst_297, main_v796, main_cst_298, main_v797, main_v798, main_v799, main_cst_299, main_v800, main_v801, main_v802, main_cst_300, main_v803, main_v804, main_v805, main_cst_301, main_v806, main_v807, main_cst_302, main_v808, main_v809, main_v810, main_v811, main_v812]

theorem ops_24_writes : (ops_24 : List (HloOp τ sig (Elt F))).Forall fun op =>
    op.writes ⊆ (W_24.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 24's array after the chain is its value of the position array. -/
theorem val_24 (x0 : (⟨S4096x27x3, .f32⟩ : BufTy).Contents (Elt F)) (x1 : (⟨S16x16x30, .f32⟩ : BufTy).Contents (Elt F))
    (V : Valuation τ sig (Elt F)) (h : Good x0 x1 24 V) :
    after ops_24 V (Proc.devRef .tc main_v812) = val_main_v812 (F := F) x0 := by
  have hr := h.r
  have hθ := h.θ
  have hφ := h.φ
  simp only [ops_24]
  after_results_simp
  try rw [hr]
  try rw [hθ]
  try rw [hφ]
  all_goals rfl

/-- The chain keeps what was in place and adds orbital 24's array. -/
theorem step_24 (x0 : (⟨S4096x27x3, .f32⟩ : BufTy).Contents (Elt F)) (x1 : (⟨S16x16x30, .f32⟩ : BufTy).Contents (Elt F))
    (V : Valuation τ sig (Elt F)) (h : Good x0 x1 24 V) : Good x0 x1 25 (after ops_24 V) where
  a0 := (after_of_writes_sub ops_24 V ops_24_writes (by decide)).trans h.a0
  a1 := (after_of_writes_sub ops_24 V ops_24_writes (by decide)).trans h.a1
  r := (after_of_writes_sub ops_24 V ops_24_writes (by decide)).trans h.r
  θ := (after_of_writes_sub ops_24 V ops_24_writes (by decide)).trans h.θ
  φ := (after_of_writes_sub ops_24 V ops_24_writes (by decide)).trans h.φ
  res := by
    intro j hj
    fin_cases j
    · exact (after_of_writes_sub ops_24 V ops_24_writes (by decide)).trans (h.res 0 (by decide))
    · exact (after_of_writes_sub ops_24 V ops_24_writes (by decide)).trans (h.res 1 (by decide))
    · exact (after_of_writes_sub ops_24 V ops_24_writes (by decide)).trans (h.res 2 (by decide))
    · exact (after_of_writes_sub ops_24 V ops_24_writes (by decide)).trans (h.res 3 (by decide))
    · exact (after_of_writes_sub ops_24 V ops_24_writes (by decide)).trans (h.res 4 (by decide))
    · exact (after_of_writes_sub ops_24 V ops_24_writes (by decide)).trans (h.res 5 (by decide))
    · exact (after_of_writes_sub ops_24 V ops_24_writes (by decide)).trans (h.res 6 (by decide))
    · exact (after_of_writes_sub ops_24 V ops_24_writes (by decide)).trans (h.res 7 (by decide))
    · exact (after_of_writes_sub ops_24 V ops_24_writes (by decide)).trans (h.res 8 (by decide))
    · exact (after_of_writes_sub ops_24 V ops_24_writes (by decide)).trans (h.res 9 (by decide))
    · exact (after_of_writes_sub ops_24 V ops_24_writes (by decide)).trans (h.res 10 (by decide))
    · exact (after_of_writes_sub ops_24 V ops_24_writes (by decide)).trans (h.res 11 (by decide))
    · exact (after_of_writes_sub ops_24 V ops_24_writes (by decide)).trans (h.res 12 (by decide))
    · exact (after_of_writes_sub ops_24 V ops_24_writes (by decide)).trans (h.res 13 (by decide))
    · exact (after_of_writes_sub ops_24 V ops_24_writes (by decide)).trans (h.res 14 (by decide))
    · exact (after_of_writes_sub ops_24 V ops_24_writes (by decide)).trans (h.res 15 (by decide))
    · exact (after_of_writes_sub ops_24 V ops_24_writes (by decide)).trans (h.res 16 (by decide))
    · exact (after_of_writes_sub ops_24 V ops_24_writes (by decide)).trans (h.res 17 (by decide))
    · exact (after_of_writes_sub ops_24 V ops_24_writes (by decide)).trans (h.res 18 (by decide))
    · exact (after_of_writes_sub ops_24 V ops_24_writes (by decide)).trans (h.res 19 (by decide))
    · exact (after_of_writes_sub ops_24 V ops_24_writes (by decide)).trans (h.res 20 (by decide))
    · exact (after_of_writes_sub ops_24 V ops_24_writes (by decide)).trans (h.res 21 (by decide))
    · exact (after_of_writes_sub ops_24 V ops_24_writes (by decide)).trans (h.res 22 (by decide))
    · exact (after_of_writes_sub ops_24 V ops_24_writes (by decide)).trans (h.res 23 (by decide))
    · exact val_24 x0 x1 V h
    · exact absurd hj (by decide)
    · exact absurd hj (by decide)
    · exact absurd hj (by decide)
    · exact absurd hj (by decide)
    · exact absurd hj (by decide)

end Cert.ReferenceIdeal.RunH

end
-- ==== Proof.RefChunk25.lean ====
/-
  Orbital chain 25 of the reference: the 59 operations that compute orbital 25's array on the 4096 × 27 grid from the
  coordinate arrays r, θ, φ alone, ending at main_v854.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 25, in program order. -/
abbrev ops_25 : List (HloOp τ sig (Elt F)) :=
  [ nullary main_cst_303 (constant S_ .f32 0x3F000000#32),
    unary main_cst_303 main_v813 (broadcastInDim S4096x27 ![] bcast_S_S4096x27 : (⟨S_, .f32⟩ : BufTy).Contents (Elt F) → (⟨S4096x27, .f32⟩ : BufTy).Contents (Elt F)),
    binary main_v813 main_v1 main_v814 (mulf : (⟨S4096x27, .f32⟩ : BufTy).Contents (Elt F) → (⟨S4096x27, .f32⟩ : BufTy).Contents (Elt F) → (⟨S4096x27, .f32⟩ : BufTy).Contents (Elt F)),
    nullary main_cst_304 (constant S_ .f32 0xBF000000#32),
    unary main_cst_304 main_v815 (broadcastInDim S4096x27 ![] bcast_S_S4096x27 : (⟨S_, .f32⟩ : BufTy).Contents (Elt F) → (⟨S4096x27, .f32⟩ : BufTy).Contents (Elt F)),
    binary main_v815 main_v814 main_v816 (mulf : (⟨S4096x27, .f32⟩ : BufTy).Contents (Elt F) → (⟨S4096x27, .f32⟩ : BufTy).Contents (Elt F) → (⟨S4096x27, .f32⟩ : BufTy).Contents (Elt F)),
    unary main_v816 main_v817 (Host.exp : (⟨S4096x27, .f32⟩ : BufTy).Contents (Elt F) → (⟨S4096x27, .f32⟩ : BufTy).Contents (Elt F)),
    nullary main_cst_305 (constant S_ .f32 0x3AE6C891#32),
    unary main_cst_305 main_v818 (broadcastInDim S4096x27 ![] bcast_S_S4096x27 : (⟨S_, .f32⟩ : BufTy).Contents (Elt F) → (⟨S4096x27, .f32⟩ : BufTy).Contents (Elt F)),
    binary main_v818 main_v817 main_v819 (mulf : (⟨S4096x27, .f32⟩ : BufTy).Contents (Elt F) → (⟨S4096x27, .f32⟩ : BufTy).Contents (Elt F) → (⟨S4096x27, .f32⟩ : BufTy).Contents (Elt F)),
    binary main_v814 main_v814 main_v820 (mulf : (⟨S4096x27, .f32⟩ : BufTy).Contents (Elt F) → (⟨S4096x27, .f32⟩ : BufTy).Contents (Elt F) → (⟨S4096x27, .f32⟩ : BufTy).Contents (Elt F)),
    binary main_v820 main_v814 main_v821 (mulf : (⟨S4096x27, .f32⟩ : BufTy).Contents (Elt F) → (⟨S4096x27, .f32⟩ : BufTy).Contents (Elt F) → (⟨S4096x27, .f32⟩ : BufTy).Contents (Elt F)),
    binary main_v819 main_v821 main_v822 (mulf : (⟨S4096x27, .f32⟩ : BufTy).Contents (Elt F) → (⟨S4096x27, .f32⟩ : BufTy).Contents (Elt F) → (⟨S4096x27, .f32⟩ : BufTy).Contents (Elt F)),
    nullary main_cst_306 (constant S_ .f32 0x00000000#32),
    unary main_cst_306 main_v823 (broadcastInDim S4096x27 ![] bcast_S_S4096x27 : (⟨S_, .f32⟩ : BufTy).Contents (Elt F) → (⟨S4096x27, .f32⟩ : BufTy).Contents (Elt F)),
    nullary main_cst_307 (constant S_ .f32 0x3F800000#32),
    unary main_cst_307 main_v824 (broadcastInDim S4096x27 ![] bcast_S_S4096x27 : (⟨S_, .f32⟩ : BufTy).Contents (Elt F) → (⟨S4096x27, .f32⟩ : BufTy).Contents (Elt F)),
    binary main_v823 main_v824 main_v825 (addf : (⟨S4096x27, .f32⟩ : BufTy).Contents (Elt F) → (⟨S4096x27, .f32⟩ : BufTy).Contents (Elt F) → (⟨S4096x27, .f32⟩ : BufTy).Contents (Elt F)),
    binary main_v822 main_v825 main_v826 (mulf : (⟨S4096x27, .f32⟩ : BufTy).Contents (Elt F) → (⟨S4096x27, .f32⟩ : BufTy).Contents (Elt F) → (⟨S4096x27, .f32⟩ : BufTy).Contents (Elt F)),
    unary main_v3 main_v827 (Host.cos : (⟨S4096x27, .f32⟩ : BufTy).Contents (Elt F) → (⟨S4096x27, .f32⟩ : BufTy).Contents (Elt F)),
    binary main_v827 main_v827 main_v828 (mulf : (⟨S4096x27, .f32⟩ : BufTy).Contents (Elt F) → (⟨S4096x27, .f32⟩ : BufTy).Contents (Elt F) → (⟨S4096x27, .f32⟩ : BufTy).Contents (Elt F)),
    nullary main_cst_308 (constant S_ .f32 0x3F800000#32),
    unary main_cst_308 main_v829 (broadcastInDim S4096x27 ![] bcast_S_S4096x27 : (⟨S_, .f32⟩ : BufTy).Contents (Elt F) → (⟨S4096x27, .f32⟩ : BufTy).Contents (Elt F)),
    binary main_v829 main_v828 main_v830 (subf : (⟨S4096x27, .f32⟩ : BufTy).Contents (Elt F) → (⟨S4096x27, .f32⟩ : BufTy).Contents (Elt F) → (⟨S4096x27, .f32⟩ : BufTy).Contents (Elt F)),
    nullary main_cst_309 (constant S_ .f32 0x00000000#32),
    TRef.unary (TRef.of (T := ⟨S_, .f32⟩) main_cst_309) (TRef.of (T := ⟨S_, .f32⟩) main_call25_v0) id,
    TRef.unary (TRef.of (T := ⟨S_, .f32⟩) main_call25_v0) (TRef.of (T := ⟨S4096x27, .f32⟩) main_call25_v1) (broadcastInDim S4096x27 ![] bcast_S_S4096x27),
    TRef.binary (TRef.of (T := ⟨S4096x27, .f32⟩) main_call25_v1) (TRef.of (T := ⟨S4096x27, .f32⟩) main_v830) (TRef.of (T := ⟨S4096x27, .f32⟩) main_v831) maximumf,
    unary main_v831 main_v832 (Host.sqrt : (⟨S4096x27, .f32⟩ : BufTy).Contents (Elt F) → (⟨S4096x27, .f32⟩ : BufTy).Contents (Elt F)),
    nullary main_cst_310 (constant S_ .f32 0x3F800000#32),
    unary main_cst_310 main_v833 (broadcastInDim S4096x27 ![] bcast_S_S4096x27 : (⟨S_, .f32⟩ : BufTy).Contents (Elt F) → (⟨S4096x27, .f32⟩ : BufTy).Contents (Elt F)),
    nullary main_cst_311 (constant S_ .f32 0xBF800000#32),
    unary main_cst_311 main_v834 (broadcastInDim S4096x27 ![] bcast_S_S4096x27 : (⟨S_, .f32⟩ : BufTy).Contents (Elt F) → (⟨S4096x27, .f32⟩ : BufTy).Contents (Elt F)),
    binary main_v833 main_v834 main_v835 (mulf : (⟨S4096x27, .f32⟩ : BufTy).Contents (Elt F) → (⟨S4096x27, .f32⟩ : BufTy).Contents (Elt F) → (⟨S4096x27, .f32⟩ : BufTy).Contents (Elt F)),
    binary main_v835 main_v832 main_v836 (mulf : (⟨S4096x27, .f32⟩ : BufTy).Contents (Elt F) → (⟨S4096x27, .f32⟩ : BufTy).Contents (Elt F) → (⟨S4096x27, .f32⟩ : BufTy).Contents (Elt F)),
    nullary main_cst_312 (constant S_ .f32 0x40400000#32),
    unary main_cst_312 main_v837 (broadcastInDim S4096x27 ![] bcast_S_S4096x27 : (⟨S_, .f32⟩ : BufTy).Contents (Elt F) → (⟨S4096x27, .f32⟩ : BufTy).Contents (Elt F)),
    binary main_v827 main_v837 main_v838 (mulf : (⟨S4096x27, .f32⟩ : BufTy).Contents (Elt F) → (⟨S4096x27, .f32⟩ : BufTy).Contents (Elt F) → (⟨S4096x27, .f32⟩ : BufTy).Contents (Elt F)),
    binary main_v838 main_v836 main_v839 (mulf : (⟨S4096x27, .f32⟩ : BufTy).Contents (Elt F) → (⟨S4096x27, .f32⟩ : BufTy).Contents (Elt F) → (⟨S4096x27, .f32⟩ : BufTy).Contents (Elt F)),
    nullary main_cst_313 (constant S_ .f32 0x40A00000#32),
    unary main_cst_313 main_v840 (broadcastInDim S4096x27 ![] bcast_S_S4096x27 : (⟨S_, .f32⟩ : BufTy).Contents (Elt F) → (⟨S4096x27, .f32⟩ : BufTy).Contents (Elt F)),
    binary main_v840 main_v827 main_v841 (mulf : (⟨S4096x27, .f32⟩ : BufTy).Contents (Elt F) → (⟨S4096x27, .f32⟩ : BufTy).Contents (Elt F) → (⟨S4096x27, .f32⟩ : BufTy).Contents (Elt F)),
    binary main_v841 main_v839 main_v842 (mulf : (⟨S4096x27, .f32⟩ : BufTy).Contents (Elt F) → (⟨S4096x27, .f32⟩ : BufTy).Contents (Elt F) → (⟨S4096x27, .f32⟩ : BufTy).Contents (Elt F)),
    nullary main_cst_314 (constant S_ .f32 0x40400000#32),
    unary main_cst_314 main_v843 (broadcastInDim S4096x27 ![] bcast_S_S4096x27 : (⟨S_, .f32⟩ : BufTy).Contents (Elt F) → (⟨S4096x27, .f32⟩ : BufTy).Contents (Elt F)),
    binary main_v843 main_v836 main_v844 (mulf : (⟨S4096x27, .f32⟩ : BufTy).Contents (Elt F) → (⟨S4096x27, .f32⟩ : BufTy).Contents (Elt F) → (⟨S4096x27, .f32⟩ : BufTy).Contents (Elt F)),
    binary main_v842 main_v844 main_v845 (subf : (⟨S4096x27, .f32⟩ : BufTy).Contents (Elt F) → (⟨S4096x27, .f32⟩ : BufTy).Contents (Elt F) → (⟨S4096x27, .f32⟩ : BufTy).Contents (Elt F)),
    nullary main_cst_315 (constant S_ .f32 0x40000000#32),
    unary main_cst_315 main_v846 (broadcastInDim S4096x27 ![] bcast_S_S4096x27 : (⟨S_, .f32⟩ : BufTy).Contents (Elt F) → (⟨S4096x27, .f32⟩ : BufTy).Contents (Elt F)),
    binary main_v845 main_v846 main_v847 (Host.divf : (⟨S4096x27, .f32⟩ : BufTy).Contents (Elt F) → (⟨S4096x27, .f32⟩ : BufTy).Contents (Elt F) → (⟨S4096x27, .f32⟩ : BufTy).Contents (Elt F)),
    nullary main_cst_316 (constant S_ .f32 0x3E9C0145#32),
    unary main_cst_316 main_v848 (broadcastInDim S4096x27 ![] bcast_S_S4096x27 : (⟨S_, .f32⟩ : BufTy).Contents (Elt F) → (⟨S4096x27, .f32⟩ : BufTy).Contents (Elt F)),
    binary main_v848 main_v847 main_v849 (mulf : (⟨S4096x27, .f32⟩ : BufTy).Contents (Elt F) → (⟨S4096x27, .f32⟩ : BufTy).Contents (Elt F) → (⟨S4096x27, .f32⟩ : BufTy).Contents (Elt F)),
    nullary main_cst_317 (constant S_ .f32 0x3F800000#32),
    unary main_cst_317 main_v850 (broadcastInDim S4096x27 ![] bcast_S_S4096x27 : (⟨S_, .f32⟩ : BufTy).Contents (Elt F) → (⟨S4096x27, .f32⟩ : BufTy).Contents (Elt F)),
    binary main_v850 main_v5 main_v851 (mulf : (⟨S4096x27, .f32⟩ : BufTy).Contents (Elt F) → (⟨S4096x27, .f32⟩ : BufTy).Contents (Elt F) → (⟨S4096x27, .f32⟩ : BufTy).Contents (Elt F)),
    unary main_v851 main_v852 (Host.sin : (⟨S4096x27, .f32⟩ : BufTy).Contents (Elt F) → (⟨S4096x27, .f32⟩ : BufTy).Contents (Elt F)),
    binary main_v849 main_v852 main_v853 (mulf : (⟨S4096x27, .f32⟩ : BufTy).Contents (Elt F) → (⟨S4096x27, .f32⟩ : BufTy).Contents (Elt F) → (⟨S4096x27, .f32⟩ : BufTy).Contents (Elt F)),
    binary main_v826 main_v853 main_v854 (mulf : (⟨S4096x27, .f32⟩ : BufTy).Contents (Elt F) → (⟨S4096x27, .f32⟩ : BufTy).Contents (Elt F) → (⟨S4096x27, .f32⟩ : BufTy).Contents (Elt F)) ]

theorem ops_25_sub : (ops_25 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_25_fresh : ∀ op ∈ (ops_25 : List (HloOp τ sig (Elt F))), op.fresh = ∅ :=
  List.forall_iff_forall_mem.mp (by simp only [List.Forall]; repeat' constructor)

/-- The arrays chain 25 writes. -/
abbrev W_25 : List (Ref sig .tc) := [main_cst_303, main_v813, main_v814, main_cst_304, main_v815, main_v816, main_v817, main_cst_305, main_v818, main_v819, main_v820, main_v821, main_v822, main_cst_306, main_v823, main_cst_307, main_v824, main_v825, main_v826, main_v827, main_v828, main_cst_308, main_v829, main_v830, main_cst_309, main_call25_v0, main_call25_v1, main_v831, main_v832, main_cst_310, main_v833, main_cst_311, main_v834, main_v835, main_v836, main_cst_312, main_v837, main_v838, main_v839, main_cst_313, main_v840, main_v841, main_v842, main_cst_314, main_v843, main_v844, main_v845, main_cst_315, main_v846, main_v847, main_cst_316, main_v848, main_v849, main_cst_317, main_v850, main_v851, main_v852, main_v853, main_v854]

theorem ops_25_writes : (ops_25 : List (HloOp τ sig (Elt F))).Forall fun op =>
    op.writes ⊆ (W_25.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 25's array after the chain is its value of the position array. -/
theorem val_25 (x0 : (⟨S4096x27x3, .f32⟩ : BufTy).Contents (Elt F)) (x1 : (⟨S16x16x30, .f32⟩ : BufTy).Contents (Elt F))
    (V : Valuation τ sig (Elt F)) (h : Good x0 x1 25 V) :
    after ops_25 V (Proc.devRef .tc main_v854) = val_main_v854 (F := F) x0 := by
  have hr := h.r
  have hθ := h.θ
  have hφ := h.φ
  simp only [ops_25]
  after_results_simp
  try rw [hr]
  try rw [hθ]
  try rw [hφ]
  all_goals rfl

/-- The chain keeps what was in place and adds orbital 25's array. -/
theorem step_25 (x0 : (⟨S4096x27x3, .f32⟩ : BufTy).Contents (Elt F)) (x1 : (⟨S16x16x30, .f32⟩ : BufTy).Contents (Elt F))
    (V : Valuation τ sig (Elt F)) (h : Good x0 x1 25 V) : Good x0 x1 26 (after ops_25 V) where
  a0 := (after_of_writes_sub ops_25 V ops_25_writes (by decide)).trans h.a0
  a1 := (after_of_writes_sub ops_25 V ops_25_writes (by decide)).trans h.a1
  r := (after_of_writes_sub ops_25 V ops_25_writes (by decide)).trans h.r
  θ := (after_of_writes_sub ops_25 V ops_25_writes (by decide)).trans h.θ
  φ := (after_of_writes_sub ops_25 V ops_25_writes (by decide)).trans h.φ
  res := by
    intro j hj
    fin_cases j
    · exact (after_of_writes_sub ops_25 V ops_25_writes (by decide)).trans (h.res 0 (by decide))
    · exact (after_of_writes_sub ops_25 V ops_25_writes (by decide)).trans (h.res 1 (by decide))
    · exact (after_of_writes_sub ops_25 V ops_25_writes (by decide)).trans (h.res 2 (by decide))
    · exact (after_of_writes_sub ops_25 V ops_25_writes (by decide)).trans (h.res 3 (by decide))
    · exact (after_of_writes_sub ops_25 V ops_25_writes (by decide)).trans (h.res 4 (by decide))
    · exact (after_of_writes_sub ops_25 V ops_25_writes (by decide)).trans (h.res 5 (by decide))
    · exact (after_of_writes_sub ops_25 V ops_25_writes (by decide)).trans (h.res 6 (by decide))
    · exact (after_of_writes_sub ops_25 V ops_25_writes (by decide)).trans (h.res 7 (by decide))
    · exact (after_of_writes_sub ops_25 V ops_25_writes (by decide)).trans (h.res 8 (by decide))
    · exact (after_of_writes_sub ops_25 V ops_25_writes (by decide)).trans (h.res 9 (by decide))
    · exact (after_of_writes_sub ops_25 V ops_25_writes (by decide)).trans (h.res 10 (by decide))
    · exact (after_of_writes_sub ops_25 V ops_25_writes (by decide)).trans (h.res 11 (by decide))
    · exact (after_of_writes_sub ops_25 V ops_25_writes (by decide)).trans (h.res 12 (by decide))
    · exact (after_of_writes_sub ops_25 V ops_25_writes (by decide)).trans (h.res 13 (by decide))
    · exact (after_of_writes_sub ops_25 V ops_25_writes (by decide)).trans (h.res 14 (by decide))
    · exact (after_of_writes_sub ops_25 V ops_25_writes (by decide)).trans (h.res 15 (by decide))
    · exact (after_of_writes_sub ops_25 V ops_25_writes (by decide)).trans (h.res 16 (by decide))
    · exact (after_of_writes_sub ops_25 V ops_25_writes (by decide)).trans (h.res 17 (by decide))
    · exact (after_of_writes_sub ops_25 V ops_25_writes (by decide)).trans (h.res 18 (by decide))
    · exact (after_of_writes_sub ops_25 V ops_25_writes (by decide)).trans (h.res 19 (by decide))
    · exact (after_of_writes_sub ops_25 V ops_25_writes (by decide)).trans (h.res 20 (by decide))
    · exact (after_of_writes_sub ops_25 V ops_25_writes (by decide)).trans (h.res 21 (by decide))
    · exact (after_of_writes_sub ops_25 V ops_25_writes (by decide)).trans (h.res 22 (by decide))
    · exact (after_of_writes_sub ops_25 V ops_25_writes (by decide)).trans (h.res 23 (by decide))
    · exact (after_of_writes_sub ops_25 V ops_25_writes (by decide)).trans (h.res 24 (by decide))
    · exact val_25 x0 x1 V h
    · exact absurd hj (by decide)
    · exact absurd hj (by decide)
    · exact absurd hj (by decide)
    · exact absurd hj (by decide)

end Cert.ReferenceIdeal.RunH

end
-- ==== Proof.RefChunk26.lean ====
/-
  Orbital chain 26 of the reference: the 61 operations that compute orbital 26's array on the 4096 × 27 grid from the
  coordinate arrays r, θ, φ alone, ending at main_v897.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 26, in program order. -/
abbrev ops_26 : List (HloOp τ sig (Elt F)) :=
  [ nullary main_cst_318 (constant S_ .f32 0x3F000000#32),
    unary main_cst_318 main_v855 (broadcastInDim S4096x27 ![] bcast_S_S4096x27 : (⟨S_, .f32⟩ : BufTy).Contents (Elt F) → (⟨S4096x27, .f32⟩ : BufTy).Contents (Elt F)),
    binary main_v855 main_v1 main_v856 (mulf : (⟨S4096x27, .f32⟩ : BufTy).Contents (Elt F) → (⟨S4096x27, .f32⟩ : BufTy).Contents (Elt F) → (⟨S4096x27, .f32⟩ : BufTy).Contents (Elt F)),
    nullary main_cst_319 (constant S_ .f32 0xBF000000#32),
    unary main_cst_319 main_v857 (broadcastInDim S4096x27 ![] bcast_S_S4096x27 : (⟨S_, .f32⟩ : BufTy).Contents (Elt F) → (⟨S4096x27, .f32⟩ : BufTy).Contents (Elt F)),
    binary main_v857 main_v856 main_v858 (mulf : (⟨S4096x27, .f32⟩ : BufTy).Contents (Elt F) → (⟨S4096x27, .f32⟩ : BufTy).Contents (Elt F) → (⟨S4096x27, .f32⟩ : BufTy).Contents (Elt F)),
    unary main_v858 main_v859 (Host.exp : (⟨S4096x27, .f32⟩ : BufTy).Contents (Elt F) → (⟨S4096x27, .f32⟩ : BufTy).Contents (Elt F)),
    nullary main_cst_320 (constant S_ .f32 0x3AE6C891#32),
    unary main_cst_320 main_v860 (broadcastInDim S4096x27 ![] bcast_S_S4096x27 : (⟨S_, .f32⟩ : BufTy).Contents (Elt F) → (⟨S4096x27, .f32⟩ : BufTy).Contents (Elt F)),
    binary main_v860 main_v859 main_v861 (mulf : (⟨S4096x27, .f32⟩ : BufTy).Contents (Elt F) → (⟨S4096x27, .f32⟩ : BufTy).Contents (Elt F) → (⟨S4096x27, .f32⟩ : BufTy).Contents (Elt F)),
    binary main_v856 main_v856 main_v862 (mulf : (⟨S4096x27, .f32⟩ : BufTy).Contents (Elt F) → (⟨S4096x27, .f32⟩ : BufTy).Contents (Elt F) → (⟨S4096x27, .f32⟩ : BufTy).Contents (Elt F)),
    binary main_v862 main_v856 main_v863 (mulf : (⟨S4096x27, .f32⟩ : BufTy).Contents (Elt F) → (⟨S4096x27, .f32⟩ : BufTy).Contents (Elt F) → (⟨S4096x27, .f32⟩ : BufTy).Contents (Elt F)),
    binary main_v861 main_v863 main_v864 (mulf : (⟨S4096x27, .f32⟩ : BufTy).Contents (Elt F) → (⟨S4096x27, .f32⟩ : BufTy).Contents (Elt F) → (⟨S4096x27, .f32⟩ : BufTy).Contents (Elt F)),
    nullary main_cst_321 (constant S_ .f32 0x00000000#32),
    unary main_cst_321 main_v865 (broadcastInDim S4096x27 ![] bcast_S_S4096x27 : (⟨S_, .f32⟩ : BufTy).Contents (Elt F) → (⟨S4096x27, .f32⟩ : BufTy).Contents (Elt F)),
    nullary main_cst_322 (constant S_ .f32 0x3F800000#32),
    unary main_cst_322 main_v866 (broadcastInDim S4096x27 ![] bcast_S_S4096x27 : (⟨S_, .f32⟩ : BufTy).Contents (Elt F) → (⟨S4096x27, .f32⟩ : BufTy).Contents (Elt F)),
    binary main_v865 main_v866 main_v867 (addf : (⟨S4096x27, .f32⟩ : BufTy).Contents (Elt F) → (⟨S4096x27, .f32⟩ : BufTy).Contents (Elt F) → (⟨S4096x27, .f32⟩ : BufTy).Contents (Elt F)),
    binary main_v864 main_v867 main_v868 (mulf : (⟨S4096x27, .f32⟩ : BufTy).Contents (Elt F) → (⟨S4096x27, .f32⟩ : BufTy).Contents (Elt F) → (⟨S4096x27, .f32⟩ : BufTy).Contents (Elt F)),
    unary main_v3 main_v869 (Host.cos : (⟨S4096x27, .f32⟩ : BufTy).Contents (Elt F) → (⟨S4096x27, .f32⟩ : BufTy).Contents (Elt F)),
    binary main_v869 main_v869 main_v870 (mulf : (⟨S4096x27, .f32⟩ : BufTy).Contents (Elt F) → (⟨S4096x27, .f32⟩ : BufTy).Contents (Elt F) → (⟨S4096x27, .f32⟩ : BufTy).Contents (Elt F)),
    nullary main_cst_323 (constant S_ .f32 0x3F800000#32),
    unary main_cst_323 main_v871 (broadcastInDim S4096x27 ![] bcast_S_S4096x27 : (⟨S_, .f32⟩ : BufTy).Contents (Elt F) → (⟨S4096x27, .f32⟩ : BufTy).Contents (Elt F)),
    binary main_v871 main_v870 main_v872 (subf : (⟨S4096x27, .f32⟩ : BufTy).Contents (Elt F) → (⟨S4096x27, .f32⟩ : BufTy).Contents (Elt F) → (⟨S4096x27, .f32⟩ : BufTy).Contents (Elt F)),
    nullary main_cst_324 (constant S_ .f32 0x00000000#32),
    TRef.unary (TRef.of (T := ⟨S_, .f32⟩) main_cst_324) (TRef.of (T := ⟨S_, .f32⟩) main_call26_v0) id,
    TRef.unary (TRef.of (T := ⟨S_, .f32⟩) main_call26_v0) (TRef.of (T := ⟨S4096x27, .f32⟩) main_call26_v1) (broadcastInDim S4096x27 ![] bcast_S_S4096x27),
    TRef.binary (TRef.of (T := ⟨S4096x27, .f32⟩) main_call26_v1) (TRef.of (T := ⟨S4096x27, .f32⟩) main_v872) (TRef.of (T := ⟨S4096x27, .f32⟩) main_v873) maximumf,
    unary main_v873 main_v874 (Host.sqrt : (⟨S4096x27, .f32⟩ : BufTy).Contents (Elt F) → (⟨S4096x27, .f32⟩ : BufTy).Contents (Elt F)),
    nullary main_cst_325 (constant S_ .f32 0x3F800000#32),
    unary main_cst_325 main_v875 (broadcastInDim S4096x27 ![] bcast_S_S4096x27 : (⟨S_, .f32⟩ : BufTy).Contents (Elt F) → (⟨S4096x27, .f32⟩ : BufTy).Contents (Elt F)),
    nullary main_cst_326 (constant S_ .f32 0x3F800000#32),
    unary main_cst_326 main_v876 (broadcastInDim S4096x27 ![] bcast_S_S4096x27 : (⟨S_, .f32⟩ : BufTy).Contents (Elt F) → (⟨S4096x27, .f32⟩ : BufTy).Contents (Elt F)),
    binary main_v869 main_v876 main_v877 (mulf : (⟨S4096x27, .f32⟩ : BufTy).Contents (Elt F) → (⟨S4096x27, .f32⟩ : BufTy).Contents (Elt F) → (⟨S4096x27, .f32⟩ : BufTy).Contents (Elt F)),
    binary main_v877 main_v875 main_v878 (mulf : (⟨S4096x27, .f32⟩ : BufTy).Contents (Elt F) → (⟨S4096x27, .f32⟩ : BufTy).Contents (Elt F) → (⟨S4096x27, .f32⟩ : BufTy).Contents (Elt F)),
    nullary main_cst_327 (constant S_ .f32 0x40400000#32),
    unary main_cst_327 main_v879 (broadcastInDim S4096x27 ![] bcast_S_S4096x27 : (⟨S_, .f32⟩ : BufTy).Contents (Elt F) → (⟨S4096x27, .f32⟩ : BufTy).Contents (Elt F)),
    binary main_v879 main_v869 main_v880 (mulf : (⟨S4096x27, .f32⟩ : BufTy).Contents (Elt F) → (⟨S4096x27, .f32⟩ : BufTy).Contents (Elt F) → (⟨S4096x27, .f32⟩ : BufTy).Contents (Elt F)),
    binary main_v880 main_v878 main_v881 (mulf : (⟨S4096x27, .f32⟩ : BufTy).Contents (Elt F) → (⟨S4096x27, .f32⟩ : BufTy).Contents (Elt F) → (⟨S4096x27, .f32⟩ : BufTy).Contents (Elt F)),
    nullary main_cst_328 (constant S_ .f32 0x3F800000#32),
    unary main_cst_328 main_v882 (broadcastInDim S4096x27 ![] bcast_S_S4096x27 : (⟨S_, .f32⟩ : BufTy).Contents (Elt F) → (⟨S4096x27, .f32⟩ : BufTy).Contents (Elt F)),
    binary main_v882 main_v875 main_v883 (mulf : (⟨S4096x27, .f32⟩ : BufTy).Contents (Elt F) → (⟨S4096x27, .f32⟩ : BufTy).Contents (Elt F) → (⟨S4096x27, .f32⟩ : BufTy).Contents (Elt F)),
    binary main_v881 main_v883 main_v884 (subf : (⟨S4096x27, .f32⟩ : BufTy).Contents (Elt F) → (⟨S4096x27, .f32⟩ : BufTy).Contents (Elt F) → (⟨S4096x27, .f32⟩ : BufTy).Contents (Elt F)),
    nullary main_cst_329 (constant S_ .f32 0x40000000#32),
    unary main_cst_329 main_v885 (broadcastInDim S4096x27 ![] bcast_S_S4096x27 : (⟨S_, .f32⟩ : BufTy).Contents (Elt F) → (⟨S4096x27, .f32⟩ : BufTy).Contents (Elt F)),
    binary main_v884 main_v885 main_v886 (Host.divf : (⟨S4096x27, .f32⟩ : BufTy).Contents (Elt F) → (⟨S4096x27, .f32⟩ : BufTy).Contents (Elt F) → (⟨S4096x27, .f32⟩ : BufTy).Contents (Elt F)),
    nullary main_cst_330 (constant S_ .f32 0x40A00000#32),
    unary main_cst_330 main_v887 (broadcastInDim S4096x27 ![] bcast_S_S4096x27 : (⟨S_, .f32⟩ : BufTy).Contents (Elt F) → (⟨S4096x27, .f32⟩ : BufTy).Contents (Elt F)),
    binary main_v887 main_v869 main_v888 (mulf : (⟨S4096x27, .f32⟩ : BufTy).Contents (Elt F) → (⟨S4096x27, .f32⟩ : BufTy).Contents (Elt F) → (⟨S4096x27, .f32⟩ : BufTy).Contents (Elt F)),
    binary main_v888 main_v886 main_v889 (mulf : (⟨S4096x27, .f32⟩ : BufTy).Contents (Elt F) → (⟨S4096x27, .f32⟩ : BufTy).Contents (Elt F) → (⟨S4096x27, .f32⟩ : BufTy).Contents (Elt F)),
    nullary main_cst_331 (constant S_ .f32 0x40000000#32),
    unary main_cst_331 main_v890 (broadcastInDim S4096x27 ![] bcast_S_S4096x27 : (⟨S_, .f32⟩ : BufTy).Contents (Elt F) → (⟨S4096x27, .f32⟩ : BufTy).Contents (Elt F)),
    binary main_v890 main_v878 main_v891 (mulf : (⟨S4096x27, .f32⟩ : BufTy).Contents (Elt F) → (⟨S4096x27, .f32⟩ : BufTy).Contents (Elt F) → (⟨S4096x27, .f32⟩ : BufTy).Contents (Elt F)),
    binary main_v889 main_v891 main_v892 (subf : (⟨S4096x27, .f32⟩ : BufTy).Contents (Elt F) → (⟨S4096x27, .f32⟩ : BufTy).Contents (Elt F) → (⟨S4096x27, .f32⟩ : BufTy).Contents (Elt F)),
    nullary main_cst_332 (constant S_ .f32 0x40400000#32),
    unary main_cst_332 main_v893 (broadcastInDim S4096x27 ![] bcast_S_S4096x27 : (⟨S_, .f32⟩ : BufTy).Contents (Elt F) → (⟨S4096x27, .f32⟩ : BufTy).Contents (Elt F)),
    binary main_v892 main_v893 main_v894 (Host.divf : (⟨S4096x27, .f32⟩ : BufTy).Contents (Elt F) → (⟨S4096x27, .f32⟩ : BufTy).Contents (Elt F) → (⟨S4096x27, .f32⟩ : BufTy).Contents (Elt F)),
    nullary main_cst_333 (constant S_ .f32 0x3F3F10F8#32),
    unary main_cst_333 main_v895 (broadcastInDim S4096x27 ![] bcast_S_S4096x27 : (⟨S_, .f32⟩ : BufTy).Contents (Elt F) → (⟨S4096x27, .f32⟩ : BufTy).Contents (Elt F)),
    binary main_v895 main_v894 main_v896 (mulf : (⟨S4096x27, .f32⟩ : BufTy).Contents (Elt F) → (⟨S4096x27, .f32⟩ : BufTy).Contents (Elt F) → (⟨S4096x27, .f32⟩ : BufTy).Contents (Elt F)),
    binary main_v868 main_v896 main_v897 (mulf : (⟨S4096x27, .f32⟩ : BufTy).Contents (Elt F) → (⟨S4096x27, .f32⟩ : BufTy).Contents (Elt F) → (⟨S4096x27, .f32⟩ : BufTy).Contents (Elt F)) ]

theorem ops_26_sub : (ops_26 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

theorem ops_26_fresh : ∀ op ∈ (ops_26 : List (HloOp τ sig (Elt F))), op.fresh = ∅ :=
  List.forall_iff_forall_mem.mp (by simp only [List.Forall]; repeat' constructor)

/-- The arrays chain 26 writes. -/
abbrev W_26 : List (Ref sig .tc) := [main_cst_318, main_v855, main_v856, main_cst_319, main_v857, main_v858, main_v859, main_cst_320, main_v860, main_v861, main_v862, main_v863, main_v864, main_cst_321, main_v865, main_cst_322, main_v866, main_v867, main_v868, main_v869, main_v870, main_cst_323, main_v871, main_v872, main_cst_324, main_call26_v0, main_call26_v1, main_v873, main_v874, main_cst_325, main_v875, main_cst_326, main_v876, main_v877, main_v878, main_cst_327, main_v879, main_v880, main_v881, main_cst_328, main_v882, main_v883, main_v884, main_cst_329, main_v885, main_v886, main_cst_330, main_v887, main_v888, main_v889, main_cst_331, main_v890, main_v891, main_v892, main_cst_332, main_v893, main_v894, main_cst_333, main_v895, main_v896, main_v897]

theorem ops_26_writes : (ops_26 : List (HloOp τ sig (Elt F))).Forall fun op =>
    op.writes ⊆ (W_26.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 26's array after the chain is its value of the position array. -/
theorem val_26 (x0 : (⟨S4096x27x3, .f32⟩ : BufTy).Contents (Elt F)) (x1 : (⟨S16x16x30, .f32⟩ : BufTy).Contents (Elt F))
    (V : Valuation τ sig (Elt F)) (h : Good x0 x1 26 V) :
    after ops_26 V (Proc.devRef .tc main_v897) = val_main_v897 (F := F) x0 := by
  have hr := h.r
  have hθ := h.θ
  have hφ := h.φ
  simp only [ops_26]
  after_results_simp
  try rw [hr]
  try rw [hθ]
  try rw [hφ]
  all_goals rfl

/-- The chain keeps what was in place and adds orbital 26's array. -/
theorem step_26 (x0 : (⟨S4096x27x3, .f32⟩ : BufTy).Contents (Elt F)) (x1 : (⟨S16x16x30, .f32⟩ : BufTy).Contents (Elt F))
    (V : Valuation τ sig (Elt F)) (h : Good x0 x1 26 V) : Good x0 x1 27 (after ops_26 V) where
  a0 := (after_of_writes_sub ops_26 V ops_26_writes (by decide)).trans h.a0
  a1 := (after_of_writes_sub ops_26 V ops_26_writes (by decide)).trans h.a1
  r := (after_of_writes_sub ops_26 V ops_26_writes (by decide)).trans h.r
  θ := (after_of_writes_sub ops_26 V ops_26_writes (by decide)).trans h.θ
  φ := (after_of_writes_sub ops_26 V ops_26_writes (by decide)).trans h.φ
  res := by
    intro j hj
    fin_cases j
    · exact (after_of_writes_sub ops_26 V ops_26_writes (by decide)).trans (h.res 0 (by decide))
    · exact (after_of_writes_sub ops_26 V ops_26_writes (by decide)).trans (h.res 1 (by decide))
    · exact (after_of_writes_sub ops_26 V ops_26_writes (by decide)).trans (h.res 2 (by decide))
    · exact (after_of_writes_sub ops_26 V ops_26_writes (by decide)).trans (h.res 3 (by decide))
    · exact (after_of_writes_sub ops_26 V ops_26_writes (by decide)).trans (h.res 4 (by decide))
    · exact (after_of_writes_sub ops_26 V ops_26_writes (by decide)).trans (h.res 5 (by decide))
    · exact (after_of_writes_sub ops_26 V ops_26_writes (by decide)).trans (h.res 6 (by decide))
    · exact (after_of_writes_sub ops_26 V ops_26_writes (by decide)).trans (h.res 7 (by decide))
    · exact (after_of_writes_sub ops_26 V ops_26_writes (by decide)).trans (h.res 8 (by decide))
    · exact (after_of_writes_sub ops_26 V ops_26_writes (by decide)).trans (h.res 9 (by decide))
    · exact (after_of_writes_sub ops_26 V ops_26_writes (by decide)).trans (h.res 10 (by decide))
    · exact (after_of_writes_sub ops_26 V ops_26_writes (by decide)).trans (h.res 11 (by decide))
    · exact (after_of_writes_sub ops_26 V ops_26_writes (by decide)).trans (h.res 12 (by decide))
    · exact (after_of_writes_sub ops_26 V ops_26_writes (by decide)).trans (h.res 13 (by decide))
    · exact (after_of_writes_sub ops_26 V ops_26_writes (by decide)).trans (h.res 14 (by decide))
    · exact (after_of_writes_sub ops_26 V ops_26_writes (by decide)).trans (h.res 15 (by decide))
    · exact (after_of_writes_sub ops_26 V ops_26_writes (by decide)).trans (h.res 16 (by decide))
    · exact (after_of_writes_sub ops_26 V ops_26_writes (by decide)).trans (h.res 17 (by decide))
    · exact (after_of_writes_sub ops_26 V ops_26_writes (by decide)).trans (h.res 18 (by decide))
    · exact (after_of_writes_sub ops_26 V ops_26_writes (by decide)).trans (h.res 19 (by decide))
    · exact (after_of_writes_sub ops_26 V ops_26_writes (by decide)).trans (h.res 20 (by decide))
    · exact (after_of_writes_sub ops_26 V ops_26_writes (by decide)).trans (h.res 21 (by decide))
    · exact (after_of_writes_sub ops_26 V ops_26_writes (by decide)).trans (h.res 22 (by decide))
    · exact (after_of_writes_sub ops_26 V ops_26_writes (by decide)).trans (h.res 23 (by decide))
    · exact (after_of_writes_sub ops_26 V ops_26_writes (by decide)).trans (h.res 24 (by decide))
    · exact (after_of_writes_sub ops_26 V ops_26_writes (by decide)).trans (h.res 25 (by decide))
    · exact val_26 x0 x1 V h
    · exact absurd hj (by decide)
    · exact absurd hj (by decide)
    · exact absurd hj (by decide)

end Cert.ReferenceIdeal.RunH

end
-- ==== Proof.RefChunk27.lean ====
/-
  Orbital chain 27 of the reference: the 59 operations that compute orbital 27's array on the 4096 × 27 grid from the
  coordinate arrays r, θ, φ alone, ending at main_v939.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 27, in program order. -/
abbrev ops_27 : List (HloOp τ sig (Elt F)) :=
  [ nullary main_cst_334 (constant S_ .f32 0x3F000000#32),
    unary main_cst_334 main_v898 (broadcastInDim S4096x27 ![] bcast_S_S4096x27 : (⟨S_, .f32⟩ : BufTy).Contents (Elt F) → (⟨S4096x27, .f32⟩ : BufTy).Contents (Elt F)),
    binary main_v898 main_v1 main_v899 (mulf : (⟨S4096x27, .f32⟩ : BufTy).Contents (Elt F) → (⟨S4096x27, .f32⟩ : BufTy).Contents (Elt F) → (⟨S4096x27, .f32⟩ : BufTy).Contents (Elt F)),
    nullary main_cst_335 (constant S_ .f32 0xBF000000#32),
    unary main_cst_335 main_v900 (broadcastInDim S4096x27 ![] bcast_S_S4096x27 : (⟨S_, .f32⟩ : BufTy).Contents (Elt F) → (⟨S4096x27, .f32⟩ : BufTy).Contents (Elt F)),
    binary main_v900 main_v899 main_v901 (mulf : (⟨S4096x27, .f32⟩ : BufTy).Contents (Elt F) → (⟨S4096x27, .f32⟩ : BufTy).Contents (Elt F) → (⟨S4096x27, .f32⟩ : BufTy).Contents (Elt F)),
    unary main_v901 main_v902 (Host.exp : (⟨S4096x27, .f32⟩ : BufTy).Contents (Elt F) → (⟨S4096x27, .f32⟩ : BufTy).Contents (Elt F)),
    nullary main_cst_336 (constant S_ .f32 0x3AE6C891#32),
    unary main_cst_336 main_v903 (broadcastInDim S4096x27 ![] bcast_S_S4096x27 : (⟨S_, .f32⟩ : BufTy).Contents (Elt F) → (⟨S4096x27, .f32⟩ : BufTy).Contents (Elt F)),
    binary main_v903 main_v902 main_v904 (mulf : (⟨S4096x27, .f32⟩ : BufTy).Contents (Elt F) → (⟨S4096x27, .f32⟩ : BufTy).Contents (Elt F) → (⟨S4096x27, .f32⟩ : BufTy).Contents (Elt F)),
    binary main_v899 main_v899 main_v905 (mulf : (⟨S4096x27, .f32⟩ : BufTy).Contents (Elt F) → (⟨S4096x27, .f32⟩ : BufTy).Contents (Elt F) → (⟨S4096x27, .f32⟩ : BufTy).Contents (Elt F)),
    binary main_v905 main_v899 main_v906 (mulf : (⟨S4096x27, .f32⟩ : BufTy).Contents (Elt F) → (⟨S4096x27, .f32⟩ : BufTy).Contents (Elt F) → (⟨S4096x27, .f32⟩ : BufTy).Contents (Elt F)),
    binary main_v904 main_v906 main_v907 (mulf : (⟨S4096x27, .f32⟩ : BufTy).Contents (Elt F) → (⟨S4096x27, .f32⟩ : BufTy).Contents (Elt F) → (⟨S4096x27, .f32⟩ : BufTy).Contents (Elt F)),
    nullary main_cst_337 (constant S_ .f32 0x00000000#32),
    unary main_cst_337 main_v908 (broadcastInDim S4096x27 ![] bcast_S_S4096x27 : (⟨S_, .f32⟩ : BufTy).Contents (Elt F) → (⟨S4096x27, .f32⟩ : BufTy).Contents (Elt F)),
    nullary main_cst_338 (constant S_ .f32 0x3F800000#32),
    unary main_cst_338 main_v909 (broadcastInDim S4096x27 ![] bcast_S_S4096x27 : (⟨S_, .f32⟩ : BufTy).Contents (Elt F) → (⟨S4096x27, .f32⟩ : BufTy).Contents (Elt F)),
    binary main_v908 main_v909 main_v910 (addf : (⟨S4096x27, .f32⟩ : BufTy).Contents (Elt F) → (⟨S4096x27, .f32⟩ : BufTy).Contents (Elt F) → (⟨S4096x27, .f32⟩ : BufTy).Contents (Elt F)),
    binary main_v907 main_v910 main_v911 (mulf : (⟨S4096x27, .f32⟩ : BufTy).Contents (Elt F) → (⟨S4096x27, .f32⟩ : BufTy).Contents (Elt F) → (⟨S4096x27, .f32⟩ : BufTy).Contents (Elt F)),
    unary main_v3 main_v912 (Host.cos : (⟨S4096x27, .f32⟩ : BufTy).Contents (Elt F) → (⟨S4096x27, .f32⟩ : BufTy).Contents (Elt F)),
    binary main_v912 main_v912 main_v913 (mulf : (⟨S4096x27, .f32⟩ : BufTy).Contents (Elt F) → (⟨S4096x27, .f32⟩ : BufTy).Contents (Elt F) → (⟨S4096x27, .f32⟩ : BufTy).Contents (Elt F)),
    nullary main_cst_339 (constant S_ .f32 0x3F800000#32),
    unary main_cst_339 main_v914 (broadcastInDim S4096x27 ![] bcast_S_S4096x27 : (⟨S_, .f32⟩ : BufTy).Contents (Elt F) → (⟨S4096x27, .f32⟩ : BufTy).Contents (Elt F)),
    binary main_v914 main_v913 main_v915 (subf : (⟨S4096x27, .f32⟩ : BufTy).Contents (Elt F) → (⟨S4096x27, .f32⟩ : BufTy).Contents (Elt F) → (⟨S4096x27, .f32⟩ : BufTy).Contents (Elt F)),
    nullary main_cst_340 (constant S_ .f32 0x00000000#32),
    TRef.unary (TRef.of (T := ⟨S_, .f32⟩) main_cst_340) (TRef.of (T := ⟨S_, .f32⟩) main_call27_v0) id,
    TRef.unary (TRef.of (T := ⟨S_, .f32⟩) main_call27_v0) (TRef.of (T := ⟨S4096x27, .f32⟩) main_call27_v1) (broadcastInDim S4096x27 ![] bcast_S_S4096x27),
    TRef.binary (TRef.of (T := ⟨S4096x27, .f32⟩) main_call27_v1) (TRef.of (T := ⟨S4096x27, .f32⟩) main_v915) (TRef.of (T := ⟨S4096x27, .f32⟩) main_v916) maximumf,
    unary main_v916 main_v917 (Host.sqrt : (⟨S4096x27, .f32⟩ : BufTy).Contents (Elt F) → (⟨S4096x27, .f32⟩ : BufTy).Contents (Elt F)),
    nullary main_cst_341 (constant S_ .f32 0x3F800000#32),
    unary main_cst_341 main_v918 (broadcastInDim S4096x27 ![] bcast_S_S4096x27 : (⟨S_, .f32⟩ : BufTy).Contents (Elt F) → (⟨S4096x27, .f32⟩ : BufTy).Contents (Elt F)),
    nullary main_cst_342 (constant S_ .f32 0xBF800000#32),
    unary main_cst_342 main_v919 (broadcastInDim S4096x27 ![] bcast_S_S4096x27 : (⟨S_, .f32⟩ : BufTy).Contents (Elt F) → (⟨S4096x27, .f32⟩ : BufTy).Contents (Elt F)),
    binary main_v918 main_v919 main_v920 (mulf : (⟨S4096x27, .f32⟩ : BufTy).Contents (Elt F) → (⟨S4096x27, .f32⟩ : BufTy).Contents (Elt F) → (⟨S4096x27, .f32⟩ : BufTy).Contents (Elt F)),
    binary main_v920 main_v917 main_v921 (mulf : (⟨S4096x27, .f32⟩ : BufTy).Contents (Elt F) → (⟨S4096x27, .f32⟩ : BufTy).Contents (Elt F) → (⟨S4096x27, .f32⟩ : BufTy).Contents (Elt F)),
    nullary main_cst_343 (constant S_ .f32 0x40400000#32),
    unary main_cst_343 main_v922 (broadcastInDim S4096x27 ![] bcast_S_S4096x27 : (⟨S_, .f32⟩ : BufTy).Contents (Elt F) → (⟨S4096x27, .f32⟩ : BufTy).Contents (Elt F)),
    binary main_v912 main_v922 main_v923 (mulf : (⟨S4096x27, .f32⟩ : BufTy).Contents (Elt F) → (⟨S4096x27, .f32⟩ : BufTy).Contents (Elt F) → (⟨S4096x27, .f32⟩ : BufTy).Contents (Elt F)),
    binary main_v923 main_v921 main_v924 (mulf : (⟨S4096x27, .f32⟩ : BufTy).Contents (Elt F) → (⟨S4096x27, .f32⟩ : BufTy).Contents (Elt F) → (⟨S4096x27, .f32⟩ : BufTy).Contents (Elt F)),
    nullary main_cst_344 (constant S_ .f32 0x40A00000#32),
    unary main_cst_344 main_v925 (broadcastInDim S4096x27 ![] bcast_S_S4096x27 : (⟨S_, .f32⟩ : BufTy).Contents (Elt F) → (⟨S4096x27, .f32⟩ : BufTy).Contents (Elt F)),
    binary main_v925 main_v912 main_v926 (mulf : (⟨S4096x27, .f32⟩ : BufTy).Contents (Elt F) → (⟨S4096x27, .f32⟩ : BufTy).Contents (Elt F) → (⟨S4096x27, .f32⟩ : BufTy).Contents (Elt F)),
    binary main_v926 main_v924 main_v927 (mulf : (⟨S4096x27, .f32⟩ : BufTy).Contents (Elt F) → (⟨S4096x27, .f32⟩ : BufTy).Contents (Elt F) → (⟨S4096x27, .f32⟩ : BufTy).Contents (Elt F)),
    nullary main_cst_345 (constant S_ .f32 0x40400000#32),
    unary main_cst_345 main_v928 (broadcastInDim S4096x27 ![] bcast_S_S4096x27 : (⟨S_, .f32⟩ : BufTy).Contents (Elt F) → (⟨S4096x27, .f32⟩ : BufTy).Contents (Elt F)),
    binary main_v928 main_v921 main_v929 (mulf : (⟨S4096x27, .f32⟩ : BufTy).Contents (Elt F) → (⟨S4096x27, .f32⟩ : BufTy).Contents (Elt F) → (⟨S4096x27, .f32⟩ : BufTy).Contents (Elt F)),
    binary main_v927 main_v929 main_v930 (subf : (⟨S4096x27, .f32⟩ : BufTy).Contents (Elt F) → (⟨S4096x27, .f32⟩ : BufTy).Contents (Elt F) → (⟨S4096x27, .f32⟩ : BufTy).Contents (Elt F)),
    nullary main_cst_346 (constant S_ .f32 0x40000000#32),
    unary main_cst_346 main_v931 (broadcastInDim S4096x27 ![] bcast_S_S4096x27 : (⟨S_, .f32⟩ : BufTy).Contents (Elt F) → (⟨S4096x27, .f32⟩ : BufTy).Contents (Elt F)),
    binary main_v930 main_v931 main_v932 (Host.divf : (⟨S4096x27, .f32⟩ : BufTy).Contents (Elt F) → (⟨S4096x27, .f32⟩ : BufTy).Contents (Elt F) → (⟨S4096x27, .f32⟩ : BufTy).Contents (Elt F)),
    nullary main_cst_347 (constant S_ .f32 0x3E9C0145#32),
    unary main_cst_347 main_v933 (broadcastInDim S4096x27 ![] bcast_S_S4096x27 : (⟨S_, .f32⟩ : BufTy).Contents (Elt F) → (⟨S4096x27, .f32⟩ : BufTy).Contents (Elt F)),
    binary main_v933 main_v932 main_v934 (mulf : (⟨S4096x27, .f32⟩ : BufTy).Contents (Elt F) → (⟨S4096x27, .f32⟩ : BufTy).Contents (Elt F) → (⟨S4096x27, .f32⟩ : BufTy).Contents (Elt F)),
    nullary main_cst_348 (constant S_ .f32 0x3F800000#32),
    unary main_cst_348 main_v935 (broadcastInDim S4096x27 ![] bcast_S_S4096x27 : (⟨S_, .f32⟩ : BufTy).Contents (Elt F) → (⟨S4096x27, .f32⟩ : BufTy).Contents (Elt F)),
    binary main_v935 main_v5 main_v936 (mulf : (⟨S4096x27, .f32⟩ : BufTy).Contents (Elt F) → (⟨S4096x27, .f32⟩ : BufTy).Contents (Elt F) → (⟨S4096x27, .f32⟩ : BufTy).Contents (Elt F)),
    unary main_v936 main_v937 (Host.cos : (⟨S4096x27, .f32⟩ : BufTy).Contents (Elt F) → (⟨S4096x27, .f32⟩ : BufTy).Contents (Elt F)),
    binary main_v934 main_v937 main_v938 (mulf : (⟨S4096x27, .f32⟩ : BufTy).Contents (Elt F) → (⟨S4096x27, .f32⟩ : BufTy).Contents (Elt F) → (⟨S4096x27, .f32⟩ : BufTy).Contents (Elt F)),
    binary main_v911 main_v938 main_v939 (mulf : (⟨S4096x27, .f32⟩ : BufTy).Contents (Elt F) → (⟨S4096x27, .f32⟩ : BufTy).Contents (Elt F) → (⟨S4096x27, .f32⟩ : BufTy).Contents (Elt F)) ]

theorem ops_27_sub : (ops_27 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_27_fresh : ∀ op ∈ (ops_27 : List (HloOp τ sig (Elt F))), op.fresh = ∅ :=
  List.forall_iff_forall_mem.mp (by simp only [List.Forall]; repeat' constructor)

/-- The arrays chain 27 writes. -/
abbrev W_27 : List (Ref sig .tc) := [main_cst_334, main_v898, main_v899, main_cst_335, main_v900, main_v901, main_v902, main_cst_336, main_v903, main_v904, main_v905, main_v906, main_v907, main_cst_337, main_v908, main_cst_338, main_v909, main_v910, main_v911, main_v912, main_v913, main_cst_339, main_v914, main_v915, main_cst_340, main_call27_v0, main_call27_v1, main_v916, main_v917, main_cst_341, main_v918, main_cst_342, main_v919, main_v920, main_v921, main_cst_343, main_v922, main_v923, main_v924, main_cst_344, main_v925, main_v926, main_v927, main_cst_345, main_v928, main_v929, main_v930, main_cst_346, main_v931, main_v932, main_cst_347, main_v933, main_v934, main_cst_348, main_v935, main_v936, main_v937, main_v938, main_v939]

theorem ops_27_writes : (ops_27 : List (HloOp τ sig (Elt F))).Forall fun op =>
    op.writes ⊆ (W_27.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 27's array after the chain is its value of the position array. -/
theorem val_27 (x0 : (⟨S4096x27x3, .f32⟩ : BufTy).Contents (Elt F)) (x1 : (⟨S16x16x30, .f32⟩ : BufTy).Contents (Elt F))
    (V : Valuation τ sig (Elt F)) (h : Good x0 x1 27 V) :
    after ops_27 V (Proc.devRef .tc main_v939) = val_main_v939 (F := F) x0 := by
  have hr := h.r
  have hθ := h.θ
  have hφ := h.φ
  simp only [ops_27]
  after_results_simp
  try rw [hr]
  try rw [hθ]
  try rw [hφ]
  all_goals rfl

/-- The chain keeps what was in place and adds orbital 27's array. -/
theorem step_27 (x0 : (⟨S4096x27x3, .f32⟩ : BufTy).Contents (Elt F)) (x1 : (⟨S16x16x30, .f32⟩ : BufTy).Contents (Elt F))
    (V : Valuation τ sig (Elt F)) (h : Good x0 x1 27 V) : Good x0 x1 28 (after ops_27 V) where
  a0 := (after_of_writes_sub ops_27 V ops_27_writes (by decide)).trans h.a0
  a1 := (after_of_writes_sub ops_27 V ops_27_writes (by decide)).trans h.a1
  r := (after_of_writes_sub ops_27 V ops_27_writes (by decide)).trans h.r
  θ := (after_of_writes_sub ops_27 V ops_27_writes (by decide)).trans h.θ
  φ := (after_of_writes_sub ops_27 V ops_27_writes (by decide)).trans h.φ
  res := by
    intro j hj
    fin_cases j
    · exact (after_of_writes_sub ops_27 V ops_27_writes (by decide)).trans (h.res 0 (by decide))
    · exact (after_of_writes_sub ops_27 V ops_27_writes (by decide)).trans (h.res 1 (by decide))
    · exact (after_of_writes_sub ops_27 V ops_27_writes (by decide)).trans (h.res 2 (by decide))
    · exact (after_of_writes_sub ops_27 V ops_27_writes (by decide)).trans (h.res 3 (by decide))
    · exact (after_of_writes_sub ops_27 V ops_27_writes (by decide)).trans (h.res 4 (by decide))
    · exact (after_of_writes_sub ops_27 V ops_27_writes (by decide)).trans (h.res 5 (by decide))
    · exact (after_of_writes_sub ops_27 V ops_27_writes (by decide)).trans (h.res 6 (by decide))
    · exact (after_of_writes_sub ops_27 V ops_27_writes (by decide)).trans (h.res 7 (by decide))
    · exact (after_of_writes_sub ops_27 V ops_27_writes (by decide)).trans (h.res 8 (by decide))
    · exact (after_of_writes_sub ops_27 V ops_27_writes (by decide)).trans (h.res 9 (by decide))
    · exact (after_of_writes_sub ops_27 V ops_27_writes (by decide)).trans (h.res 10 (by decide))
    · exact (after_of_writes_sub ops_27 V ops_27_writes (by decide)).trans (h.res 11 (by decide))
    · exact (after_of_writes_sub ops_27 V ops_27_writes (by decide)).trans (h.res 12 (by decide))
    · exact (after_of_writes_sub ops_27 V ops_27_writes (by decide)).trans (h.res 13 (by decide))
    · exact (after_of_writes_sub ops_27 V ops_27_writes (by decide)).trans (h.res 14 (by decide))
    · exact (after_of_writes_sub ops_27 V ops_27_writes (by decide)).trans (h.res 15 (by decide))
    · exact (after_of_writes_sub ops_27 V ops_27_writes (by decide)).trans (h.res 16 (by decide))
    · exact (after_of_writes_sub ops_27 V ops_27_writes (by decide)).trans (h.res 17 (by decide))
    · exact (after_of_writes_sub ops_27 V ops_27_writes (by decide)).trans (h.res 18 (by decide))
    · exact (after_of_writes_sub ops_27 V ops_27_writes (by decide)).trans (h.res 19 (by decide))
    · exact (after_of_writes_sub ops_27 V ops_27_writes (by decide)).trans (h.res 20 (by decide))
    · exact (after_of_writes_sub ops_27 V ops_27_writes (by decide)).trans (h.res 21 (by decide))
    · exact (after_of_writes_sub ops_27 V ops_27_writes (by decide)).trans (h.res 22 (by decide))
    · exact (after_of_writes_sub ops_27 V ops_27_writes (by decide)).trans (h.res 23 (by decide))
    · exact (after_of_writes_sub ops_27 V ops_27_writes (by decide)).trans (h.res 24 (by decide))
    · exact (after_of_writes_sub ops_27 V ops_27_writes (by decide)).trans (h.res 25 (by decide))
    · exact (after_of_writes_sub ops_27 V ops_27_writes (by decide)).trans (h.res 26 (by decide))
    · exact val_27 x0 x1 V h
    · exact absurd hj (by decide)
    · exact absurd hj (by decide)

end Cert.ReferenceIdeal.RunH

end
-- ==== Proof.RefChunk28.lean ====
/-
  Orbital chain 28 of the reference: the 52 operations that compute orbital 28's array on the 4096 × 27 grid from the
  coordinate arrays r, θ, φ alone, ending at main_v976.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 28, in program order. -/
abbrev ops_28 : List (HloOp τ sig (Elt F)) :=
  [ nullary main_cst_349 (constant S_ .f32 0x3F000000#32),
    unary main_cst_349 main_v940 (broadcastInDim S4096x27 ![] bcast_S_S4096x27 : (⟨S_, .f32⟩ : BufTy).Contents (Elt F) → (⟨S4096x27, .f32⟩ : BufTy).Contents (Elt F)),
    binary main_v940 main_v1 main_v941 (mulf : (⟨S4096x27, .f32⟩ : BufTy).Contents (Elt F) → (⟨S4096x27, .f32⟩ : BufTy).Contents (Elt F) → (⟨S4096x27, .f32⟩ : BufTy).Contents (Elt F)),
    nullary main_cst_350 (constant S_ .f32 0xBF000000#32),
    unary main_cst_350 main_v942 (broadcastInDim S4096x27 ![] bcast_S_S4096x27 : (⟨S_, .f32⟩ : BufTy).Contents (Elt F) → (⟨S4096x27, .f32⟩ : BufTy).Contents (Elt F)),
    binary main_v942 main_v941 main_v943 (mulf : (⟨S4096x27, .f32⟩ : BufTy).Contents (Elt F) → (⟨S4096x27, .f32⟩ : BufTy).Contents (Elt F) → (⟨S4096x27, .f32⟩ : BufTy).Contents (Elt F)),
    unary main_v943 main_v944 (Host.exp : (⟨S4096x27, .f32⟩ : BufTy).Contents (Elt F) → (⟨S4096x27, .f32⟩ : BufTy).Contents (Elt F)),
    nullary main_cst_351 (constant S_ .f32 0x3AE6C891#32),
    unary main_cst_351 main_v945 (broadcastInDim S4096x27 ![] bcast_S_S4096x27 : (⟨S_, .f32⟩ : BufTy).Contents (Elt F) → (⟨S4096x27, .f32⟩ : BufTy).Contents (Elt F)),
    binary main_v945 main_v944 main_v946 (mulf : (⟨S4096x27, .f32⟩ : BufTy).Contents (Elt F) → (⟨S4096x27, .f32⟩ : BufTy).Contents (Elt F) → (⟨S4096x27, .f32⟩ : BufTy).Contents (Elt F)),
    binary main_v941 main_v941 main_v947 (mulf : (⟨S4096x27, .f32⟩ : BufTy).Contents (Elt F) → (⟨S4096x27, .f32⟩ : BufTy).Contents (Elt F) → (⟨S4096x27, .f32⟩ : BufTy).Contents (Elt F)),
    binary main_v947 main_v941 main_v948 (mulf : (⟨S4096x27, .f32⟩ : BufTy).Contents (Elt F) → (⟨S4096x27, .f32⟩ : BufTy).Contents (Elt F) → (⟨S4096x27, .f32⟩ : BufTy).Contents (Elt F)),
    binary main_v946 main_v948 main_v949 (mulf : (⟨S4096x27, .f32⟩ : BufTy).Contents (Elt F) → (⟨S4096x27, .f32⟩ : BufTy).Contents (Elt F) → (⟨S4096x27, .f32⟩ : BufTy).Contents (Elt F)),
    nullary main_cst_352 (constant S_ .f32 0x00000000#32),
    unary main_cst_352 main_v950 (broadcastInDim S4096x27 ![] bcast_S_S4096x27 : (⟨S_, .f32⟩ : BufTy).Contents (Elt F) → (⟨S4096x27, .f32⟩ : BufTy).Contents (Elt F)),
    nullary main_cst_353 (constant S_ .f32 0x3F800000#32),
    unary main_cst_353 main_v951 (broadcastInDim S4096x27 ![] bcast_S_S4096x27 : (⟨S_, .f32⟩ : BufTy).Contents (Elt F) → (⟨S4096x27, .f32⟩ : BufTy).Contents (Elt F)),
    binary main_v950 main_v951 main_v952 (addf : (⟨S4096x27, .f32⟩ : BufTy).Contents (Elt F) → (⟨S4096x27, .f32⟩ : BufTy).Contents (Elt F) → (⟨S4096x27, .f32⟩ : BufTy).Contents (Elt F)),
    binary main_v949 main_v952 main_v953 (mulf : (⟨S4096x27, .f32⟩ : BufTy).Contents (Elt F) → (⟨S4096x27, .f32⟩ : BufTy).Contents (Elt F) → (⟨S4096x27, .f32⟩ : BufTy).Contents (Elt F)),
    unary main_v3 main_v954 (Host.cos : (⟨S4096x27, .f32⟩ : BufTy).Contents (Elt F) → (⟨S4096x27, .f32⟩ : BufTy).Contents (Elt F)),
    binary main_v954 main_v954 main_v955 (mulf : (⟨S4096x27, .f32⟩ : BufTy).Contents (Elt F) → (⟨S4096x27, .f32⟩ : BufTy).Contents (Elt F) → (⟨S4096x27, .f32⟩ : BufTy).Contents (Elt F)),
    nullary main_cst_354 (constant S_ .f32 0x3F800000#32),
    unary main_cst_354 main_v956 (broadcastInDim S4096x27 ![] bcast_S_S4096x27 : (⟨S_, .f32⟩ : BufTy).Contents (Elt F) → (⟨S4096x27, .f32⟩ : BufTy).Contents (Elt F)),
    binary main_v956 main_v955 main_v957 (subf : (⟨S4096x27, .f32⟩ : BufTy).Contents (Elt F) → (⟨S4096x27, .f32⟩ : BufTy).Contents (Elt F) → (⟨S4096x27, .f32⟩ : BufTy).Contents (Elt F)),
    nullary main_cst_355 (constant S_ .f32 0x00000000#32),
    TRef.unary (TRef.of (T := ⟨S_, .f32⟩) main_cst_355) (TRef.of (T := ⟨S_, .f32⟩) main_call28_v0) id,
    TRef.unary (TRef.of (T := ⟨S_, .f32⟩) main_call28_v0) (TRef.of (T := ⟨S4096x27, .f32⟩) main_call28_v1) (broadcastInDim S4096x27 ![] bcast_S_S4096x27),
    TRef.binary (TRef.of (T := ⟨S4096x27, .f32⟩) main_call28_v1) (TRef.of (T := ⟨S4096x27, .f32⟩) main_v957) (TRef.of (T := ⟨S4096x27, .f32⟩) main_v958) maximumf,
    unary main_v958 main_v959 (Host.sqrt : (⟨S4096x27, .f32⟩ : BufTy).Contents (Elt F) → (⟨S4096x27, .f32⟩ : BufTy).Contents (Elt F)),
    nullary main_cst_356 (constant S_ .f32 0x3F800000#32),
    unary main_cst_356 main_v960 (broadcastInDim S4096x27 ![] bcast_S_S4096x27 : (⟨S_, .f32⟩ : BufTy).Contents (Elt F) → (⟨S4096x27, .f32⟩ : BufTy).Contents (Elt F)),
    nullary main_cst_357 (constant S_ .f32 0xBF800000#32),
    unary main_cst_357 main_v961 (broadcastInDim S4096x27 ![] bcast_S_S4096x27 : (⟨S_, .f32⟩ : BufTy).Contents (Elt F) → (⟨S4096x27, .f32⟩ : BufTy).Contents (Elt F)),
    binary main_v960 main_v961 main_v962 (mulf : (⟨S4096x27, .f32⟩ : BufTy).Contents (Elt F) → (⟨S4096x27, .f32⟩ : BufTy).Contents (Elt F) → (⟨S4096x27, .f32⟩ : BufTy).Contents (Elt F)),
    binary main_v962 main_v959 main_v963 (mulf : (⟨S4096x27, .f32⟩ : BufTy).Contents (Elt F) → (⟨S4096x27, .f32⟩ : BufTy).Contents (Elt F) → (⟨S4096x27, .f32⟩ : BufTy).Contents (Elt F)),
    nullary main_cst_358 (constant S_ .f32 0xC0400000#32),
    unary main_cst_358 main_v964 (broadcastInDim S4096x27 ![] bcast_S_S4096x27 : (⟨S_, .f32⟩ : BufTy).Contents (Elt F) → (⟨S4096x27, .f32⟩ : BufTy).Contents (Elt F)),
    binary main_v963 main_v964 main_v965 (mulf : (⟨S4096x27, .f32⟩ : BufTy).Contents (Elt F) → (⟨S4096x27, .f32⟩ : BufTy).Contents (Elt F) → (⟨S4096x27, .f32⟩ : BufTy).Contents (Elt F)),
    binary main_v965 main_v959 main_v966 (mulf : (⟨S4096x27, .f32⟩ : BufTy).Contents (Elt F) → (⟨S4096x27, .f32⟩ : BufTy).Contents (Elt F) → (⟨S4096x27, .f32⟩ : BufTy).Contents (Elt F)),
    nullary main_cst_359 (constant S_ .f32 0x40A00000#32),
    unary main_cst_359 main_v967 (broadcastInDim S4096x27 ![] bcast_S_S4096x27 : (⟨S_, .f32⟩ : BufTy).Contents (Elt F) → (⟨S4096x27, .f32⟩ : BufTy).Contents (Elt F)),
    binary main_v954 main_v967 main_v968 (mulf : (⟨S4096x27, .f32⟩ : BufTy).Contents (Elt F) → (⟨S4096x27, .f32⟩ : BufTy).Contents (Elt F) → (⟨S4096x27, .f32⟩ : BufTy).Contents (Elt F)),
    binary main_v968 main_v966 main_v969 (mulf : (⟨S4096x27, .f32⟩ : BufTy).Contents (Elt F) → (⟨S4096x27, .f32⟩ : BufTy).Contents (Elt F) → (⟨S4096x27, .f32⟩ : BufTy).Contents (Elt F)),
    nullary main_cst_360 (constant S_ .f32 0x3DC55519#32),
    unary main_cst_360 main_v970 (broadcastInDim S4096x27 ![] bcast_S_S4096x27 : (⟨S_, .f32⟩ : BufTy).Contents (Elt F) → (⟨S4096x27, .f32⟩ : BufTy).Contents (Elt F)),
    binary main_v970 main_v969 main_v971 (mulf : (⟨S4096x27, .f32⟩ : BufTy).Contents (Elt F) → (⟨S4096x27, .f32⟩ : BufTy).Contents (Elt F) → (⟨S4096x27, .f32⟩ : BufTy).Contents (Elt F)),
    nullary main_cst_361 (constant S_ .f32 0x40000000#32),
    unary main_cst_361 main_v972 (broadcastInDim S4096x27 ![] bcast_S_S4096x27 : (⟨S_, .f32⟩ : BufTy).Contents (Elt F) → (⟨S4096x27, .f32⟩ : BufTy).Contents (Elt F)),
    binary main_v972 main_v5 main_v973 (mulf : (⟨S4096x27, .f32⟩ : BufTy).Contents (Elt F) → (⟨S4096x27, .f32⟩ : BufTy).Contents (Elt F) → (⟨S4096x27, .f32⟩ : BufTy).Contents (Elt F)),
    unary main_v973 main_v974 (Host.cos : (⟨S4096x27, .f32⟩ : BufTy).Contents (Elt F) → (⟨S4096x27, .f32⟩ : BufTy).Contents (Elt F)),
    binary main_v971 main_v974 main_v975 (mulf : (⟨S4096x27, .f32⟩ : BufTy).Contents (Elt F) → (⟨S4096x27, .f32⟩ : BufTy).Contents (Elt F) → (⟨S4096x27, .f32⟩ : BufTy).Contents (Elt F)),
    binary main_v953 main_v975 main_v976 (mulf : (⟨S4096x27, .f32⟩ : BufTy).Contents (Elt F) → (⟨S4096x27, .f32⟩ : BufTy).Contents (Elt F) → (⟨S4096x27, .f32⟩ : BufTy).Contents (Elt F)) ]

theorem ops_28_sub : (ops_28 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_28_fresh : ∀ op ∈ (ops_28 : List (HloOp τ sig (Elt F))), op.fresh = ∅ :=
  List.forall_iff_forall_mem.mp (by simp only [List.Forall]; repeat' constructor)

/-- The arrays chain 28 writes. -/
abbrev W_28 : List (Ref sig .tc) := [main_cst_349, main_v940, main_v941, main_cst_350, main_v942, main_v943, main_v944, main_cst_351, main_v945, main_v946, main_v947, main_v948, main_v949, main_cst_352, main_v950, main_cst_353, main_v951, main_v952, main_v953, main_v954, main_v955, main_cst_354, main_v956, main_v957, main_cst_355, main_call28_v0, main_call28_v1, main_v958, main_v959, main_cst_356, main_v960, main_cst_357, main_v961, main_v962, main_v963, main_cst_358, main_v964, main_v965, main_v966, main_cst_359, main_v967, main_v968, main_v969, main_cst_360, main_v970, main_v971, main_cst_361, main_v972, main_v973, main_v974, main_v975, main_v976]

theorem ops_28_writes : (ops_28 : List (HloOp τ sig (Elt F))).Forall fun op =>
    op.writes ⊆ (W_28.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 28's array after the chain is its value of the position array. -/
theorem val_28 (x0 : (⟨S4096x27x3, .f32⟩ : BufTy).Contents (Elt F)) (x1 : (⟨S16x16x30, .f32⟩ : BufTy).Contents (Elt F))
    (V : Valuation τ sig (Elt F)) (h : Good x0 x1 28 V) :
    after ops_28 V (Proc.devRef .tc main_v976) = val_main_v976 (F := F) x0 := by
  have hr := h.r
  have hθ := h.θ
  have hφ := h.φ
  simp only [ops_28]
  after_results_simp
  try rw [hr]
  try rw [hθ]
  try rw [hφ]
  all_goals rfl

/-- The chain keeps what was in place and adds orbital 28's array. -/
theorem step_28 (x0 : (⟨S4096x27x3, .f32⟩ : BufTy).Contents (Elt F)) (x1 : (⟨S16x16x30, .f32⟩ : BufTy).Contents (Elt F))
    (V : Valuation τ sig (Elt F)) (h : Good x0 x1 28 V) : Good x0 x1 29 (after ops_28 V) where
  a0 := (after_of_writes_sub ops_28 V ops_28_writes (by decide)).trans h.a0
  a1 := (after_of_writes_sub ops_28 V ops_28_writes (by decide)).trans h.a1
  r := (after_of_writes_sub ops_28 V ops_28_writes (by decide)).trans h.r
  θ := (after_of_writes_sub ops_28 V ops_28_writes (by decide)).trans h.θ
  φ := (after_of_writes_sub ops_28 V ops_28_writes (by decide)).trans h.φ
  res := by
    intro j hj
    fin_cases j
    · exact (after_of_writes_sub ops_28 V ops_28_writes (by decide)).trans (h.res 0 (by decide))
    · exact (after_of_writes_sub ops_28 V ops_28_writes (by decide)).trans (h.res 1 (by decide))
    · exact (after_of_writes_sub ops_28 V ops_28_writes (by decide)).trans (h.res 2 (by decide))
    · exact (after_of_writes_sub ops_28 V ops_28_writes (by decide)).trans (h.res 3 (by decide))
    · exact (after_of_writes_sub ops_28 V ops_28_writes (by decide)).trans (h.res 4 (by decide))
    · exact (after_of_writes_sub ops_28 V ops_28_writes (by decide)).trans (h.res 5 (by decide))
    · exact (after_of_writes_sub ops_28 V ops_28_writes (by decide)).trans (h.res 6 (by decide))
    · exact (after_of_writes_sub ops_28 V ops_28_writes (by decide)).trans (h.res 7 (by decide))
    · exact (after_of_writes_sub ops_28 V ops_28_writes (by decide)).trans (h.res 8 (by decide))
    · exact (after_of_writes_sub ops_28 V ops_28_writes (by decide)).trans (h.res 9 (by decide))
    · exact (after_of_writes_sub ops_28 V ops_28_writes (by decide)).trans (h.res 10 (by decide))
    · exact (after_of_writes_sub ops_28 V ops_28_writes (by decide)).trans (h.res 11 (by decide))
    · exact (after_of_writes_sub ops_28 V ops_28_writes (by decide)).trans (h.res 12 (by decide))
    · exact (after_of_writes_sub ops_28 V ops_28_writes (by decide)).trans (h.res 13 (by decide))
    · exact (after_of_writes_sub ops_28 V ops_28_writes (by decide)).trans (h.res 14 (by decide))
    · exact (after_of_writes_sub ops_28 V ops_28_writes (by decide)).trans (h.res 15 (by decide))
    · exact (after_of_writes_sub ops_28 V ops_28_writes (by decide)).trans (h.res 16 (by decide))
    · exact (after_of_writes_sub ops_28 V ops_28_writes (by decide)).trans (h.res 17 (by decide))
    · exact (after_of_writes_sub ops_28 V ops_28_writes (by decide)).trans (h.res 18 (by decide))
    · exact (after_of_writes_sub ops_28 V ops_28_writes (by decide)).trans (h.res 19 (by decide))
    · exact (after_of_writes_sub ops_28 V ops_28_writes (by decide)).trans (h.res 20 (by decide))
    · exact (after_of_writes_sub ops_28 V ops_28_writes (by decide)).trans (h.res 21 (by decide))
    · exact (after_of_writes_sub ops_28 V ops_28_writes (by decide)).trans (h.res 22 (by decide))
    · exact (after_of_writes_sub ops_28 V ops_28_writes (by decide)).trans (h.res 23 (by decide))
    · exact (after_of_writes_sub ops_28 V ops_28_writes (by decide)).trans (h.res 24 (by decide))
    · exact (after_of_writes_sub ops_28 V ops_28_writes (by decide)).trans (h.res 25 (by decide))
    · exact (after_of_writes_sub ops_28 V ops_28_writes (by decide)).trans (h.res 26 (by decide))
    · exact (after_of_writes_sub ops_28 V ops_28_writes (by decide)).trans (h.res 27 (by decide))
    · exact val_28 x0 x1 V h
    · exact absurd hj (by decide)

end Cert.ReferenceIdeal.RunH

end
-- ==== Proof.RefChunk29.lean ====
/-
  Orbital chain 29 of the reference: the 52 operations that compute orbital 29's array on the 4096 × 27 grid from the
  coordinate arrays r, θ, φ alone, ending at main_v1013.  The chain writes only its own intermediate arrays, so the arguments,
  the coordinate arrays and the orbital arrays already computed keep their values through it, and its last array is the
  operations' composed term of r, θ, φ, which is the value of the stage function at the position array.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of orbital chain 29, in program order. -/
abbrev ops_29 : List (HloOp τ sig (Elt F)) :=
  [ nullary main_cst_362 (constant S_ .f32 0x3F000000#32),
    unary main_cst_362 main_v977 (broadcastInDim S4096x27 ![] bcast_S_S4096x27 : (⟨S_, .f32⟩ : BufTy).Contents (Elt F) → (⟨S4096x27, .f32⟩ : BufTy).Contents (Elt F)),
    binary main_v977 main_v1 main_v978 (mulf : (⟨S4096x27, .f32⟩ : BufTy).Contents (Elt F) → (⟨S4096x27, .f32⟩ : BufTy).Contents (Elt F) → (⟨S4096x27, .f32⟩ : BufTy).Contents (Elt F)),
    nullary main_cst_363 (constant S_ .f32 0xBF000000#32),
    unary main_cst_363 main_v979 (broadcastInDim S4096x27 ![] bcast_S_S4096x27 : (⟨S_, .f32⟩ : BufTy).Contents (Elt F) → (⟨S4096x27, .f32⟩ : BufTy).Contents (Elt F)),
    binary main_v979 main_v978 main_v980 (mulf : (⟨S4096x27, .f32⟩ : BufTy).Contents (Elt F) → (⟨S4096x27, .f32⟩ : BufTy).Contents (Elt F) → (⟨S4096x27, .f32⟩ : BufTy).Contents (Elt F)),
    unary main_v980 main_v981 (Host.exp : (⟨S4096x27, .f32⟩ : BufTy).Contents (Elt F) → (⟨S4096x27, .f32⟩ : BufTy).Contents (Elt F)),
    nullary main_cst_364 (constant S_ .f32 0x3AE6C891#32),
    unary main_cst_364 main_v982 (broadcastInDim S4096x27 ![] bcast_S_S4096x27 : (⟨S_, .f32⟩ : BufTy).Contents (Elt F) → (⟨S4096x27, .f32⟩ : BufTy).Contents (Elt F)),
    binary main_v982 main_v981 main_v983 (mulf : (⟨S4096x27, .f32⟩ : BufTy).Contents (Elt F) → (⟨S4096x27, .f32⟩ : BufTy).Contents (Elt F) → (⟨S4096x27, .f32⟩ : BufTy).Contents (Elt F)),
    binary main_v978 main_v978 main_v984 (mulf : (⟨S4096x27, .f32⟩ : BufTy).Contents (Elt F) → (⟨S4096x27, .f32⟩ : BufTy).Contents (Elt F) → (⟨S4096x27, .f32⟩ : BufTy).Contents (Elt F)),
    binary main_v984 main_v978 main_v985 (mulf : (⟨S4096x27, .f32⟩ : BufTy).Contents (Elt F) → (⟨S4096x27, .f32⟩ : BufTy).Contents (Elt F) → (⟨S4096x27, .f32⟩ : BufTy).Contents (Elt F)),
    binary main_v983 main_v985 main_v986 (mulf : (⟨S4096x27, .f32⟩ : BufTy).Contents (Elt F) → (⟨S4096x27, .f32⟩ : BufTy).Contents (Elt F) → (⟨S4096x27, .f32⟩ : BufTy).Contents (Elt F)),
    nullary main_cst_365 (constant S_ .f32 0x00000000#32),
    unary main_cst_365 main_v987 (broadcastInDim S4096x27 ![] bcast_S_S4096x27 : (⟨S_, .f32⟩ : BufTy).Contents (Elt F) → (⟨S4096x27, .f32⟩ : BufTy).Contents (Elt F)),
    nullary main_cst_366 (constant S_ .f32 0x3F800000#32),
    unary main_cst_366 main_v988 (broadcastInDim S4096x27 ![] bcast_S_S4096x27 : (⟨S_, .f32⟩ : BufTy).Contents (Elt F) → (⟨S4096x27, .f32⟩ : BufTy).Contents (Elt F)),
    binary main_v987 main_v988 main_v989 (addf : (⟨S4096x27, .f32⟩ : BufTy).Contents (Elt F) → (⟨S4096x27, .f32⟩ : BufTy).Contents (Elt F) → (⟨S4096x27, .f32⟩ : BufTy).Contents (Elt F)),
    binary main_v986 main_v989 main_v990 (mulf : (⟨S4096x27, .f32⟩ : BufTy).Contents (Elt F) → (⟨S4096x27, .f32⟩ : BufTy).Contents (Elt F) → (⟨S4096x27, .f32⟩ : BufTy).Contents (Elt F)),
    unary main_v3 main_v991 (Host.cos : (⟨S4096x27, .f32⟩ : BufTy).Contents (Elt F) → (⟨S4096x27, .f32⟩ : BufTy).Contents (Elt F)),
    binary main_v991 main_v991 main_v992 (mulf : (⟨S4096x27, .f32⟩ : BufTy).Contents (Elt F) → (⟨S4096x27, .f32⟩ : BufTy).Contents (Elt F) → (⟨S4096x27, .f32⟩ : BufTy).Contents (Elt F)),
    nullary main_cst_367 (constant S_ .f32 0x3F800000#32),
    unary main_cst_367 main_v993 (broadcastInDim S4096x27 ![] bcast_S_S4096x27 : (⟨S_, .f32⟩ : BufTy).Contents (Elt F) → (⟨S4096x27, .f32⟩ : BufTy).Contents (Elt F)),
    binary main_v993 main_v992 main_v994 (subf : (⟨S4096x27, .f32⟩ : BufTy).Contents (Elt F) → (⟨S4096x27, .f32⟩ : BufTy).Contents (Elt F) → (⟨S4096x27, .f32⟩ : BufTy).Contents (Elt F)),
    nullary main_cst_368 (constant S_ .f32 0x00000000#32),
    TRef.unary (TRef.of (T := ⟨S_, .f32⟩) main_cst_368) (TRef.of (T := ⟨S_, .f32⟩) main_call29_v0) id,
    TRef.unary (TRef.of (T := ⟨S_, .f32⟩) main_call29_v0) (TRef.of (T := ⟨S4096x27, .f32⟩) main_call29_v1) (broadcastInDim S4096x27 ![] bcast_S_S4096x27),
    TRef.binary (TRef.of (T := ⟨S4096x27, .f32⟩) main_call29_v1) (TRef.of (T := ⟨S4096x27, .f32⟩) main_v994) (TRef.of (T := ⟨S4096x27, .f32⟩) main_v995) maximumf,
    unary main_v995 main_v996 (Host.sqrt : (⟨S4096x27, .f32⟩ : BufTy).Contents (Elt F) → (⟨S4096x27, .f32⟩ : BufTy).Contents (Elt F)),
    nullary main_cst_369 (constant S_ .f32 0x3F800000#32),
    unary main_cst_369 main_v997 (broadcastInDim S4096x27 ![] bcast_S_S4096x27 : (⟨S_, .f32⟩ : BufTy).Contents (Elt F) → (⟨S4096x27, .f32⟩ : BufTy).Contents (Elt F)),
    nullary main_cst_370 (constant S_ .f32 0xBF800000#32),
    unary main_cst_370 main_v998 (broadcastInDim S4096x27 ![] bcast_S_S4096x27 : (⟨S_, .f32⟩ : BufTy).Contents (Elt F) → (⟨S4096x27, .f32⟩ : BufTy).Contents (Elt F)),
    binary main_v997 main_v998 main_v999 (mulf : (⟨S4096x27, .f32⟩ : BufTy).Contents (Elt F) → (⟨S4096x27, .f32⟩ : BufTy).Contents (Elt F) → (⟨S4096x27, .f32⟩ : BufTy).Contents (Elt F)),
    binary main_v999 main_v996 main_v1000 (mulf : (⟨S4096x27, .f32⟩ : BufTy).Contents (Elt F) → (⟨S4096x27, .f32⟩ : BufTy).Contents (Elt F) → (⟨S4096x27, .f32⟩ : BufTy).Contents (Elt F)),
    nullary main_cst_371 (constant S_ .f32 0xC0400000#32),
    unary main_cst_371 main_v1001 (broadcastInDim S4096x27 ![] bcast_S_S4096x27 : (⟨S_, .f32⟩ : BufTy).Contents (Elt F) → (⟨S4096x27, .f32⟩ : BufTy).Contents (Elt F)),
    binary main_v1000 main_v1001 main_v1002 (mulf : (⟨S4096x27, .f32⟩ : BufTy).Contents (Elt F) → (⟨S4096x27, .f32⟩ : BufTy).Contents (Elt F) → (⟨S4096x27, .f32⟩ : BufTy).Contents (Elt F)),
    binary main_v1002 main_v996 main_v1003 (mulf : (⟨S4096x27, .f32⟩ : BufTy).Contents (Elt F) → (⟨S4096x27, .f32⟩ : BufTy).Contents (Elt F) → (⟨S4096x27, .f32⟩ : BufTy).Contents (Elt F)),
    nullary main_cst_372 (constant S_ .f32 0xC0A00000#32),
    unary main_cst_372 main_v1004 (broadcastInDim S4096x27 ![] bcast_S_S4096x27 : (⟨S_, .f32⟩ : BufTy).Contents (Elt F) → (⟨S4096x27, .f32⟩ : BufTy).Contents (Elt F)),
    binary main_v1003 main_v1004 main_v1005 (mulf : (⟨S4096x27, .f32⟩ : BufTy).Contents (Elt F) → (⟨S4096x27, .f32⟩ : BufTy).Contents (Elt F) → (⟨S4096x27, .f32⟩ : BufTy).Contents (Elt F)),
    binary main_v1005 main_v996 main_v1006 (mulf : (⟨S4096x27, .f32⟩ : BufTy).Contents (Elt F) → (⟨S4096x27, .f32⟩ : BufTy).Contents (Elt F) → (⟨S4096x27, .f32⟩ : BufTy).Contents (Elt F)),
    nullary main_cst_373 (constant S_ .f32 0x3D211F09#32),
    unary main_cst_373 main_v1007 (broadcastInDim S4096x27 ![] bcast_S_S4096x27 : (⟨S_, .f32⟩ : BufTy).Contents (Elt F) → (⟨S4096x27, .f32⟩ : BufTy).Contents (Elt F)),
    binary main_v1007 main_v1006 main_v1008 (mulf : (⟨S4096x27, .f32⟩ : BufTy).Contents (Elt F) → (⟨S4096x27, .f32⟩ : BufTy).Contents (Elt F) → (⟨S4096x27, .f32⟩ : BufTy).Contents (Elt F)),
    nullary main_cst_374 (constant S_ .f32 0x40400000#32),
    unary main_cst_374 main_v1009 (broadcastInDim S4096x27 ![] bcast_S_S4096x27 : (⟨S_, .f32⟩ : BufTy).Contents (Elt F) → (⟨S4096x27, .f32⟩ : BufTy).Contents (Elt F)),
    binary main_v1009 main_v5 main_v1010 (mulf : (⟨S4096x27, .f32⟩ : BufTy).Contents (Elt F) → (⟨S4096x27, .f32⟩ : BufTy).Contents (Elt F) → (⟨S4096x27, .f32⟩ : BufTy).Contents (Elt F)),
    unary main_v1010 main_v1011 (Host.cos : (⟨S4096x27, .f32⟩ : BufTy).Contents (Elt F) → (⟨S4096x27, .f32⟩ : BufTy).Contents (Elt F)),
    binary main_v1008 main_v1011 main_v1012 (mulf : (⟨S4096x27, .f32⟩ : BufTy).Contents (Elt F) → (⟨S4096x27, .f32⟩ : BufTy).Contents (Elt F) → (⟨S4096x27, .f32⟩ : BufTy).Contents (Elt F)),
    binary main_v990 main_v1012 main_v1013 (mulf : (⟨S4096x27, .f32⟩ : BufTy).Contents (Elt F) → (⟨S4096x27, .f32⟩ : BufTy).Contents (Elt F) → (⟨S4096x27, .f32⟩ : BufTy).Contents (Elt F)) ]

theorem ops_29_sub : (ops_29 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., nullary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

theorem ops_29_fresh : ∀ op ∈ (ops_29 : List (HloOp τ sig (Elt F))), op.fresh = ∅ :=
  List.forall_iff_forall_mem.mp (by simp only [List.Forall]; repeat' constructor)

/-- The arrays chain 29 writes. -/
abbrev W_29 : List (Ref sig .tc) := [main_cst_362, main_v977, main_v978, main_cst_363, main_v979, main_v980, main_v981, main_cst_364, main_v982, main_v983, main_v984, main_v985, main_v986, main_cst_365, main_v987, main_cst_366, main_v988, main_v989, main_v990, main_v991, main_v992, main_cst_367, main_v993, main_v994, main_cst_368, main_call29_v0, main_call29_v1, main_v995, main_v996, main_cst_369, main_v997, main_cst_370, main_v998, main_v999, main_v1000, main_cst_371, main_v1001, main_v1002, main_v1003, main_cst_372, main_v1004, main_v1005, main_v1006, main_cst_373, main_v1007, main_v1008, main_cst_374, main_v1009, main_v1010, main_v1011, main_v1012, main_v1013]

theorem ops_29_writes : (ops_29 : List (HloOp τ sig (Elt F))).Forall fun op =>
    op.writes ⊆ (W_29.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- Orbital 29's array after the chain is its value of the position array. -/
theorem val_29 (x0 : (⟨S4096x27x3, .f32⟩ : BufTy).Contents (Elt F)) (x1 : (⟨S16x16x30, .f32⟩ : BufTy).Contents (Elt F))
    (V : Valuation τ sig (Elt F)) (h : Good x0 x1 29 V) :
    after ops_29 V (Proc.devRef .tc main_v1013) = val_main_v1013 (F := F) x0 := by
  have hr := h.r
  have hθ := h.θ
  have hφ := h.φ
  simp only [ops_29]
  after_results_simp
  try rw [hr]
  try rw [hθ]
  try rw [hφ]
  all_goals rfl

/-- The chain keeps what was in place and adds orbital 29's array. -/
theorem step_29 (x0 : (⟨S4096x27x3, .f32⟩ : BufTy).Contents (Elt F)) (x1 : (⟨S16x16x30, .f32⟩ : BufTy).Contents (Elt F))
    (V : Valuation τ sig (Elt F)) (h : Good x0 x1 29 V) : Good x0 x1 30 (after ops_29 V) where
  a0 := (after_of_writes_sub ops_29 V ops_29_writes (by decide)).trans h.a0
  a1 := (after_of_writes_sub ops_29 V ops_29_writes (by decide)).trans h.a1
  r := (after_of_writes_sub ops_29 V ops_29_writes (by decide)).trans h.r
  θ := (after_of_writes_sub ops_29 V ops_29_writes (by decide)).trans h.θ
  φ := (after_of_writes_sub ops_29 V ops_29_writes (by decide)).trans h.φ
  res := by
    intro j hj
    fin_cases j
    · exact (after_of_writes_sub ops_29 V ops_29_writes (by decide)).trans (h.res 0 (by decide))
    · exact (after_of_writes_sub ops_29 V ops_29_writes (by decide)).trans (h.res 1 (by decide))
    · exact (after_of_writes_sub ops_29 V ops_29_writes (by decide)).trans (h.res 2 (by decide))
    · exact (after_of_writes_sub ops_29 V ops_29_writes (by decide)).trans (h.res 3 (by decide))
    · exact (after_of_writes_sub ops_29 V ops_29_writes (by decide)).trans (h.res 4 (by decide))
    · exact (after_of_writes_sub ops_29 V ops_29_writes (by decide)).trans (h.res 5 (by decide))
    · exact (after_of_writes_sub ops_29 V ops_29_writes (by decide)).trans (h.res 6 (by decide))
    · exact (after_of_writes_sub ops_29 V ops_29_writes (by decide)).trans (h.res 7 (by decide))
    · exact (after_of_writes_sub ops_29 V ops_29_writes (by decide)).trans (h.res 8 (by decide))
    · exact (after_of_writes_sub ops_29 V ops_29_writes (by decide)).trans (h.res 9 (by decide))
    · exact (after_of_writes_sub ops_29 V ops_29_writes (by decide)).trans (h.res 10 (by decide))
    · exact (after_of_writes_sub ops_29 V ops_29_writes (by decide)).trans (h.res 11 (by decide))
    · exact (after_of_writes_sub ops_29 V ops_29_writes (by decide)).trans (h.res 12 (by decide))
    · exact (after_of_writes_sub ops_29 V ops_29_writes (by decide)).trans (h.res 13 (by decide))
    · exact (after_of_writes_sub ops_29 V ops_29_writes (by decide)).trans (h.res 14 (by decide))
    · exact (after_of_writes_sub ops_29 V ops_29_writes (by decide)).trans (h.res 15 (by decide))
    · exact (after_of_writes_sub ops_29 V ops_29_writes (by decide)).trans (h.res 16 (by decide))
    · exact (after_of_writes_sub ops_29 V ops_29_writes (by decide)).trans (h.res 17 (by decide))
    · exact (after_of_writes_sub ops_29 V ops_29_writes (by decide)).trans (h.res 18 (by decide))
    · exact (after_of_writes_sub ops_29 V ops_29_writes (by decide)).trans (h.res 19 (by decide))
    · exact (after_of_writes_sub ops_29 V ops_29_writes (by decide)).trans (h.res 20 (by decide))
    · exact (after_of_writes_sub ops_29 V ops_29_writes (by decide)).trans (h.res 21 (by decide))
    · exact (after_of_writes_sub ops_29 V ops_29_writes (by decide)).trans (h.res 22 (by decide))
    · exact (after_of_writes_sub ops_29 V ops_29_writes (by decide)).trans (h.res 23 (by decide))
    · exact (after_of_writes_sub ops_29 V ops_29_writes (by decide)).trans (h.res 24 (by decide))
    · exact (after_of_writes_sub ops_29 V ops_29_writes (by decide)).trans (h.res 25 (by decide))
    · exact (after_of_writes_sub ops_29 V ops_29_writes (by decide)).trans (h.res 26 (by decide))
    · exact (after_of_writes_sub ops_29 V ops_29_writes (by decide)).trans (h.res 27 (by decide))
    · exact (after_of_writes_sub ops_29 V ops_29_writes (by decide)).trans (h.res 28 (by decide))
    · exact val_29 x0 x1 V h

end Cert.ReferenceIdeal.RunH

end
-- ==== Proof.RefChunkT.lean ====
/-
  The last operations of the reference: each of the thirty orbital arrays is given a trailing unit axis, the thirty are
  joined along it (sixteen, fourteen, then the two), and the coefficient array is contracted with the joined array over
  the orbital axis.  With the thirty orbital arrays at their values of the position array, the result is the value of
  the last stage function at the two arguments; the arguments themselves are not written.
-/
import proofs.«401775_j71382356459674_3_alg».proof.Proof.RefInv

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations after the thirty orbital chains. -/
abbrev ops_tail : List (HloOp τ sig (Elt F)) :=
  [ unary main_v28 main_v1014 (broadcastInDim S4096x27x1 ![0, 1] bcast_S4096x27_S4096x27x1_0_1 : (⟨S4096x27, .f32⟩ : BufTy).Contents (Elt F) → (⟨S4096x27x1, .f32⟩ : BufTy).Contents (Elt F)),
    unary main_v54 main_v1015 (broadcastInDim S4096x27x1 ![0, 1] bcast_S4096x27_S4096x27x1_0_1 : (⟨S4096x27, .f32⟩ : BufTy).Contents (Elt F) → (⟨S4096x27x1, .f32⟩ : BufTy).Contents (Elt F)),
    unary main_v83 main_v1016 (broadcastInDim S4096x27x1 ![0, 1] bcast_S4096x27_S4096x27x1_0_1 : (⟨S4096x27, .f32⟩ : BufTy).Contents (Elt F) → (⟨S4096x27x1, .f32⟩ : BufTy).Contents (Elt F)),
    unary main_v108 main_v1017 (broadcastInDim S4096x27x1 ![0, 1] bcast_S4096x27_S4096x27x1_0_1 : (⟨S4096x27, .f32⟩ : BufTy).Contents (Elt F) → (⟨S4096x27x1, .f32⟩ : BufTy).Contents (Elt F)),
    unary main_v137 main_v1018 (broadcastInDim S4096x27x1 ![0, 1] bcast_S4096x27_S4096x27x1_0_1 : (⟨S4096x27, .f32⟩ : BufTy).Contents (Elt F) → (⟨S4096x27x1, .f32⟩ : BufTy).Contents (Elt F)),
    unary main_v166 main_v1019 (broadcastInDim S4096x27x1 ![0, 1] bcast_S4096x27_S4096x27x1_0_1 : (⟨S4096x27, .f32⟩ : BufTy).Contents (Elt F) → (⟨S4096x27x1, .f32⟩ : BufTy).Contents (Elt F)),
    unary main_v198 main_v1020 (broadcastInDim S4096x27x1 ![0, 1] bcast_S4096x27_S4096x27x1_0_1 : (⟨S4096x27, .f32⟩ : BufTy).Contents (Elt F) → (⟨S4096x27x1, .f32⟩ : BufTy).Contents (Elt F)),
    unary main_v226 main_v1021 (broadcastInDim S4096x27x1 ![0, 1] bcast_S4096x27_S4096x27x1_0_1 : (⟨S4096x27, .f32⟩ : BufTy).Contents (Elt F) → (⟨S4096x27x1, .f32⟩ : BufTy).Contents (Elt F)),
    unary main_v258 main_v1022 (broadcastInDim S4096x27x1 ![0, 1] bcast_S4096x27_S4096x27x1_0_1 : (⟨S4096x27, .f32⟩ : BufTy).Contents (Elt F) → (⟨S4096x27x1, .f32⟩ : BufTy).Contents (Elt F)),
    unary main_v291 main_v1023 (broadcastInDim S4096x27x1 ![0, 1] bcast_S4096x27_S4096x27x1_0_1 : (⟨S4096x27, .f32⟩ : BufTy).Contents (Elt F) → (⟨S4096x27x1, .f32⟩ : BufTy).Contents (Elt F)),
    unary main_v324 main_v1024 (broadcastInDim S4096x27x1 ![0, 1] bcast_S4096x27_S4096x27x1_0_1 : (⟨S4096x27, .f32⟩ : BufTy).Contents (Elt F) → (⟨S4096x27x1, .f32⟩ : BufTy).Contents (Elt F)),
    unary main_v358 main_v1025 (broadcastInDim S4096x27x1 ![0, 1] bcast_S4096x27_S4096x27x1_0_1 : (⟨S4096x27, .f32⟩ : BufTy).Contents (Elt F) → (⟨S4096x27x1, .f32⟩ : BufTy).Contents (Elt F)),
    unary main_v391 main_v1026 (broadcastInDim S4096x27x1 ![0, 1] bcast_S4096x27_S4096x27x1_0_1 : (⟨S4096x27, .f32⟩ : BufTy).Contents (Elt F) → (⟨S4096x27x1, .f32⟩ : BufTy).Contents (Elt F)),
    unary main_v424 main_v1027 (broadcastInDim S4096x27x1 ![0, 1] bcast_S4096x27_S4096x27x1_0_1 : (⟨S4096x27, .f32⟩ : BufTy).Contents (Elt F) → (⟨S4096x27x1, .f32⟩ : BufTy).Contents (Elt F)),
    unary main_v456 main_v1028 (broadcastInDim S4096x27x1 ![0, 1] bcast_S4096x27_S4096x27x1_0_1 : (⟨S4096x27, .f32⟩ : BufTy).Contents (Elt F) → (⟨S4096x27x1, .f32⟩ : BufTy).Contents (Elt F)),
    unary main_v491 main_v1029 (broadcastInDim S4096x27x1 ![0, 1] bcast_S4096x27_S4096x27x1_0_1 : (⟨S4096x27, .f32⟩ : BufTy).Contents (Elt F) → (⟨S4096x27x1, .f32⟩ : BufTy).Contents (Elt F)),
    unary main_v522 main_v1030 (broadcastInDim S4096x27x1 ![0, 1] bcast_S4096x27_S4096x27x1_0_1 : (⟨S4096x27, .f32⟩ : BufTy).Contents (Elt F) → (⟨S4096x27x1, .f32⟩ : BufTy).Contents (Elt F)),
    unary main_v557 main_v1031 (broadcastInDim S4096x27x1 ![0, 1] bcast_S4096x27_S4096x27x1_0_1 : (⟨S4096x27, .f32⟩ : BufTy).Contents (Elt F) → (⟨S4096x27x1, .f32⟩ : BufTy).Contents (Elt F)),
    unary main_v593 main_v1032 (broadcastInDim S4096x27x1 ![0, 1] bcast_S4096x27_S4096x27x1_0_1 : (⟨S4096x27, .f32⟩ : BufTy).Contents (Elt F) → (⟨S4096x27x1, .f32⟩ : BufTy).Contents (Elt F)),
    unary main_v629 main_v1033 (broadcastInDim S4096x27x1 ![0, 1] bcast_S4096x27_S4096x27x1_0_1 : (⟨S4096x27, .f32⟩ : BufTy).Contents (Elt F) → (⟨S4096x27x1, .f32⟩ : BufTy).Contents (Elt F)),
    unary main_v666 main_v1034 (broadcastInDim S4096x27x1 ![0, 1] bcast_S4096x27_S4096x27x1_0_1 : (⟨S4096x27, .f32⟩ : BufTy).Contents (Elt F) → (⟨S4096x27x1, .f32⟩ : BufTy).Contents (Elt F)),
    unary main_v702 main_v1035 (broadcastInDim S4096x27x1 ![0, 1] bcast_S4096x27_S4096x27x1_0_1 : (⟨S4096x27, .f32⟩ : BufTy).Contents (Elt F) → (⟨S4096x27x1, .f32⟩ : BufTy).Contents (Elt F)),
    unary main_v738 main_v1036 (broadcastInDim S4096x27x1 ![0, 1] bcast_S4096x27_S4096x27x1_0_1 : (⟨S4096x27, .f32⟩ : BufTy).Contents (Elt F) → (⟨S4096x27x1, .f32⟩ : BufTy).Contents (Elt F)),
    unary main_v775 main_v1037 (broadcastInDim S4096x27x1 ![0, 1] bcast_S4096x27_S4096x27x1_0_1 : (⟨S4096x27, .f32⟩ : BufTy).Contents (Elt F) → (⟨S4096x27x1, .f32⟩ : BufTy).Contents (Elt F)),
    unary main_v812 main_v1038 (broadcastInDim S4096x27x1 ![0, 1] bcast_S4096x27_S4096x27x1_0_1 : (⟨S4096x27, .f32⟩ : BufTy).Contents (Elt F) → (⟨S4096x27x1, .f32⟩ : BufTy).Contents (Elt F)),
    unary main_v854 main_v1039 (broadcastInDim S4096x27x1 ![0, 1] bcast_S4096x27_S4096x27x1_0_1 : (⟨S4096x27, .f32⟩ : BufTy).Contents (Elt F) → (⟨S4096x27x1, .f32⟩ : BufTy).Contents (Elt F)),
    unary main_v897 main_v1040 (broadcastInDim S4096x27x1 ![0, 1] bcast_S4096x27_S4096x27x1_0_1 : (⟨S4096x27, .f32⟩ : BufTy).Contents (Elt F) → (⟨S4096x27x1, .f32⟩ : BufTy).Contents (Elt F)),
    unary main_v939 main_v1041 (broadcastInDim S4096x27x1 ![0, 1] bcast_S4096x27_S4096x27x1_0_1 : (⟨S4096x27, .f32⟩ : BufTy).Contents (Elt F) → (⟨S4096x27x1, .f32⟩ : BufTy).Contents (Elt F)),
    unary main_v976 main_v1042 (broadcastInDim S4096x27x1 ![0, 1] bcast_S4096x27_S4096x27x1_0_1 : (⟨S4096x27, .f32⟩ : BufTy).Contents (Elt F) → (⟨S4096x27x1, .f32⟩ : BufTy).Contents (Elt F)),
    unary main_v1013 main_v1043 (broadcastInDim S4096x27x1 ![0, 1] bcast_S4096x27_S4096x27x1_0_1 : (⟨S4096x27, .f32⟩ : BufTy).Contents (Elt F) → (⟨S4096x27x1, .f32⟩ : BufTy).Contents (Elt F)),
    nary ![main_v1014, main_v1015, main_v1016, main_v1017, main_v1018, main_v1019, main_v1020, main_v1021, main_v1022, main_v1023, main_v1024, main_v1025, main_v1026, main_v1027, main_v1028, main_v1029] main_v1044 (fun u => concatenate S4096x27x16 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩, ⟨S4096x27x1, u 14⟩, ⟨S4096x27x1, u 15⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2),
    nary ![main_v1030, main_v1031, main_v1032, main_v1033, main_v1034, main_v1035, main_v1036, main_v1037, main_v1038, main_v1039, main_v1040, main_v1041, main_v1042, main_v1043] main_v1045 (fun u => concatenate S4096x27x14 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2),
    binary main_v1044 main_v1045 main_v1046 ((fun a b => concatenate S4096x27x30 2 [⟨S4096x27x16, a⟩, ⟨S4096x27x14, b⟩] concatenates_S4096x27x16_S4096x27x14_S4096x27x30_d2) : (⟨S4096x27x16, .f32⟩ : BufTy).Contents (Elt F) → (⟨S4096x27x14, .f32⟩ : BufTy).Contents (Elt F) → (⟨S4096x27x30, .f32⟩ : BufTy).Contents (Elt F)),
    binary main_arg1 main_v1046 main_v1047 ((fun l r => Host.dotGeneral dot_S16x16x30_S4096x27x30_S16x16x4096x27_2_2_01_01_n_n none l r) : (⟨S16x16x30, .f32⟩ : BufTy).Contents (Elt F) → (⟨S4096x27x30, .f32⟩ : BufTy).Contents (Elt F) → (⟨S16x16x4096x27, .f32⟩ : BufTy).Contents (Elt F)) ]

theorem ops_tail_sub : (ops_tail : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., binary_bufs_sub ..⟩

theorem ops_tail_fresh : ∀ op ∈ (ops_tail : List (HloOp τ sig (Elt F))), op.fresh = ∅ :=
  List.forall_iff_forall_mem.mp (by simp only [List.Forall]; repeat' constructor)

/-- The arrays these operations write. -/
abbrev W_tail : List (Ref sig .tc) := [main_v1014, main_v1015, main_v1016, main_v1017, main_v1018, main_v1019, main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047]

theorem ops_tail_writes : (ops_tail : List (HloOp τ sig (Elt F))).Forall fun op =>
    op.writes ⊆ (W_tail.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-! ## The thirty unit axes -/

/-- The thirty operations that give each orbital array its trailing unit axis. -/
abbrev ops_bc : List (HloOp τ sig (Elt F)) :=
  [ unary main_v28 main_v1014 (broadcastInDim S4096x27x1 ![0, 1] bcast_S4096x27_S4096x27x1_0_1 : (⟨S4096x27, .f32⟩ : BufTy).Contents (Elt F) → (⟨S4096x27x1, .f32⟩ : BufTy).Contents (Elt F)),
    unary main_v54 main_v1015 (broadcastInDim S4096x27x1 ![0, 1] bcast_S4096x27_S4096x27x1_0_1 : (⟨S4096x27, .f32⟩ : BufTy).Contents (Elt F) → (⟨S4096x27x1, .f32⟩ : BufTy).Contents (Elt F)),
    unary main_v83 main_v1016 (broadcastInDim S4096x27x1 ![0, 1] bcast_S4096x27_S4096x27x1_0_1 : (⟨S4096x27, .f32⟩ : BufTy).Contents (Elt F) → (⟨S4096x27x1, .f32⟩ : BufTy).Contents (Elt F)),
    unary main_v108 main_v1017 (broadcastInDim S4096x27x1 ![0, 1] bcast_S4096x27_S4096x27x1_0_1 : (⟨S4096x27, .f32⟩ : BufTy).Contents (Elt F) → (⟨S4096x27x1, .f32⟩ : BufTy).Contents (Elt F)),
    unary main_v137 main_v1018 (broadcastInDim S4096x27x1 ![0, 1] bcast_S4096x27_S4096x27x1_0_1 : (⟨S4096x27, .f32⟩ : BufTy).Contents (Elt F) → (⟨S4096x27x1, .f32⟩ : BufTy).Contents (Elt F)),
    unary main_v166 main_v1019 (broadcastInDim S4096x27x1 ![0, 1] bcast_S4096x27_S4096x27x1_0_1 : (⟨S4096x27, .f32⟩ : BufTy).Contents (Elt F) → (⟨S4096x27x1, .f32⟩ : BufTy).Contents (Elt F)),
    unary main_v198 main_v1020 (broadcastInDim S4096x27x1 ![0, 1] bcast_S4096x27_S4096x27x1_0_1 : (⟨S4096x27, .f32⟩ : BufTy).Contents (Elt F) → (⟨S4096x27x1, .f32⟩ : BufTy).Contents (Elt F)),
    unary main_v226 main_v1021 (broadcastInDim S4096x27x1 ![0, 1] bcast_S4096x27_S4096x27x1_0_1 : (⟨S4096x27, .f32⟩ : BufTy).Contents (Elt F) → (⟨S4096x27x1, .f32⟩ : BufTy).Contents (Elt F)),
    unary main_v258 main_v1022 (broadcastInDim S4096x27x1 ![0, 1] bcast_S4096x27_S4096x27x1_0_1 : (⟨S4096x27, .f32⟩ : BufTy).Contents (Elt F) → (⟨S4096x27x1, .f32⟩ : BufTy).Contents (Elt F)),
    unary main_v291 main_v1023 (broadcastInDim S4096x27x1 ![0, 1] bcast_S4096x27_S4096x27x1_0_1 : (⟨S4096x27, .f32⟩ : BufTy).Contents (Elt F) → (⟨S4096x27x1, .f32⟩ : BufTy).Contents (Elt F)),
    unary main_v324 main_v1024 (broadcastInDim S4096x27x1 ![0, 1] bcast_S4096x27_S4096x27x1_0_1 : (⟨S4096x27, .f32⟩ : BufTy).Contents (Elt F) → (⟨S4096x27x1, .f32⟩ : BufTy).Contents (Elt F)),
    unary main_v358 main_v1025 (broadcastInDim S4096x27x1 ![0, 1] bcast_S4096x27_S4096x27x1_0_1 : (⟨S4096x27, .f32⟩ : BufTy).Contents (Elt F) → (⟨S4096x27x1, .f32⟩ : BufTy).Contents (Elt F)),
    unary main_v391 main_v1026 (broadcastInDim S4096x27x1 ![0, 1] bcast_S4096x27_S4096x27x1_0_1 : (⟨S4096x27, .f32⟩ : BufTy).Contents (Elt F) → (⟨S4096x27x1, .f32⟩ : BufTy).Contents (Elt F)),
    unary main_v424 main_v1027 (broadcastInDim S4096x27x1 ![0, 1] bcast_S4096x27_S4096x27x1_0_1 : (⟨S4096x27, .f32⟩ : BufTy).Contents (Elt F) → (⟨S4096x27x1, .f32⟩ : BufTy).Contents (Elt F)),
    unary main_v456 main_v1028 (broadcastInDim S4096x27x1 ![0, 1] bcast_S4096x27_S4096x27x1_0_1 : (⟨S4096x27, .f32⟩ : BufTy).Contents (Elt F) → (⟨S4096x27x1, .f32⟩ : BufTy).Contents (Elt F)),
    unary main_v491 main_v1029 (broadcastInDim S4096x27x1 ![0, 1] bcast_S4096x27_S4096x27x1_0_1 : (⟨S4096x27, .f32⟩ : BufTy).Contents (Elt F) → (⟨S4096x27x1, .f32⟩ : BufTy).Contents (Elt F)),
    unary main_v522 main_v1030 (broadcastInDim S4096x27x1 ![0, 1] bcast_S4096x27_S4096x27x1_0_1 : (⟨S4096x27, .f32⟩ : BufTy).Contents (Elt F) → (⟨S4096x27x1, .f32⟩ : BufTy).Contents (Elt F)),
    unary main_v557 main_v1031 (broadcastInDim S4096x27x1 ![0, 1] bcast_S4096x27_S4096x27x1_0_1 : (⟨S4096x27, .f32⟩ : BufTy).Contents (Elt F) → (⟨S4096x27x1, .f32⟩ : BufTy).Contents (Elt F)),
    unary main_v593 main_v1032 (broadcastInDim S4096x27x1 ![0, 1] bcast_S4096x27_S4096x27x1_0_1 : (⟨S4096x27, .f32⟩ : BufTy).Contents (Elt F) → (⟨S4096x27x1, .f32⟩ : BufTy).Contents (Elt F)),
    unary main_v629 main_v1033 (broadcastInDim S4096x27x1 ![0, 1] bcast_S4096x27_S4096x27x1_0_1 : (⟨S4096x27, .f32⟩ : BufTy).Contents (Elt F) → (⟨S4096x27x1, .f32⟩ : BufTy).Contents (Elt F)),
    unary main_v666 main_v1034 (broadcastInDim S4096x27x1 ![0, 1] bcast_S4096x27_S4096x27x1_0_1 : (⟨S4096x27, .f32⟩ : BufTy).Contents (Elt F) → (⟨S4096x27x1, .f32⟩ : BufTy).Contents (Elt F)),
    unary main_v702 main_v1035 (broadcastInDim S4096x27x1 ![0, 1] bcast_S4096x27_S4096x27x1_0_1 : (⟨S4096x27, .f32⟩ : BufTy).Contents (Elt F) → (⟨S4096x27x1, .f32⟩ : BufTy).Contents (Elt F)),
    unary main_v738 main_v1036 (broadcastInDim S4096x27x1 ![0, 1] bcast_S4096x27_S4096x27x1_0_1 : (⟨S4096x27, .f32⟩ : BufTy).Contents (Elt F) → (⟨S4096x27x1, .f32⟩ : BufTy).Contents (Elt F)),
    unary main_v775 main_v1037 (broadcastInDim S4096x27x1 ![0, 1] bcast_S4096x27_S4096x27x1_0_1 : (⟨S4096x27, .f32⟩ : BufTy).Contents (Elt F) → (⟨S4096x27x1, .f32⟩ : BufTy).Contents (Elt F)),
    unary main_v812 main_v1038 (broadcastInDim S4096x27x1 ![0, 1] bcast_S4096x27_S4096x27x1_0_1 : (⟨S4096x27, .f32⟩ : BufTy).Contents (Elt F) → (⟨S4096x27x1, .f32⟩ : BufTy).Contents (Elt F)),
    unary main_v854 main_v1039 (broadcastInDim S4096x27x1 ![0, 1] bcast_S4096x27_S4096x27x1_0_1 : (⟨S4096x27, .f32⟩ : BufTy).Contents (Elt F) → (⟨S4096x27x1, .f32⟩ : BufTy).Contents (Elt F)),
    unary main_v897 main_v1040 (broadcastInDim S4096x27x1 ![0, 1] bcast_S4096x27_S4096x27x1_0_1 : (⟨S4096x27, .f32⟩ : BufTy).Contents (Elt F) → (⟨S4096x27x1, .f32⟩ : BufTy).Contents (Elt F)),
    unary main_v939 main_v1041 (broadcastInDim S4096x27x1 ![0, 1] bcast_S4096x27_S4096x27x1_0_1 : (⟨S4096x27, .f32⟩ : BufTy).Contents (Elt F) → (⟨S4096x27x1, .f32⟩ : BufTy).Contents (Elt F)),
    unary main_v976 main_v1042 (broadcastInDim S4096x27x1 ![0, 1] bcast_S4096x27_S4096x27x1_0_1 : (⟨S4096x27, .f32⟩ : BufTy).Contents (Elt F) → (⟨S4096x27x1, .f32⟩ : BufTy).Contents (Elt F)),
    unary main_v1013 main_v1043 (broadcastInDim S4096x27x1 ![0, 1] bcast_S4096x27_S4096x27x1_0_1 : (⟨S4096x27, .f32⟩ : BufTy).Contents (Elt F) → (⟨S4096x27x1, .f32⟩ : BufTy).Contents (Elt F)) ]

/-- The arrays the thirty operations write. -/
abbrev W_bc : List (Ref sig .tc) := [main_v1014, main_v1015, main_v1016, main_v1017, main_v1018, main_v1019, main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043]

theorem ops_bc_writes : (ops_bc : List (HloOp τ sig (Elt F))).Forall fun op =>
    op.writes ⊆ (W_bc.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

theorem bc_0 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1014) = val_main_v1014 (F := F) x0 := by
  have e : V (Proc.devRef .tc main_v28) = val_main_v28 (F := F) x0 := h.res 0 (by decide)
  simp only [ops_bc]
  after_results_simp
  rw [e]
  all_goals rfl
theorem bc_1 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1015) = val_main_v1015 (F := F) x0 := by
  have e : V (Proc.devRef .tc main_v54) = val_main_v54 (F := F) x0 := h.res 1 (by decide)
  simp only [ops_bc]
  after_results_simp
  rw [e]
  all_goals rfl
theorem bc_2 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1016) = val_main_v1016 (F := F) x0 := by
  have e : V (Proc.devRef .tc main_v83) = val_main_v83 (F := F) x0 := h.res 2 (by decide)
  simp only [ops_bc]
  after_results_simp
  rw [e]
  all_goals rfl
theorem bc_3 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1017) = val_main_v1017 (F := F) x0 := by
  have e : V (Proc.devRef .tc main_v108) = val_main_v108 (F := F) x0 := h.res 3 (by decide)
  simp only [ops_bc]
  after_results_simp
  rw [e]
  all_goals rfl
theorem bc_4 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1018) = val_main_v1018 (F := F) x0 := by
  have e : V (Proc.devRef .tc main_v137) = val_main_v137 (F := F) x0 := h.res 4 (by decide)
  simp only [ops_bc]
  after_results_simp
  rw [e]
  all_goals rfl
theorem bc_5 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1019) = val_main_v1019 (F := F) x0 := by
  have e : V (Proc.devRef .tc main_v166) = val_main_v166 (F := F) x0 := h.res 5 (by decide)
  simp only [ops_bc]
  after_results_simp
  rw [e]
  all_goals rfl
theorem bc_6 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1020) = val_main_v1020 (F := F) x0 := by
  have e : V (Proc.devRef .tc main_v198) = val_main_v198 (F := F) x0 := h.res 6 (by decide)
  simp only [ops_bc]
  after_results_simp
  rw [e]
  all_goals rfl
theorem bc_7 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1021) = val_main_v1021 (F := F) x0 := by
  have e : V (Proc.devRef .tc main_v226) = val_main_v226 (F := F) x0 := h.res 7 (by decide)
  simp only [ops_bc]
  after_results_simp
  rw [e]
  all_goals rfl
theorem bc_8 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1022) = val_main_v1022 (F := F) x0 := by
  have e : V (Proc.devRef .tc main_v258) = val_main_v258 (F := F) x0 := h.res 8 (by decide)
  simp only [ops_bc]
  after_results_simp
  rw [e]
  all_goals rfl
theorem bc_9 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1023) = val_main_v1023 (F := F) x0 := by
  have e : V (Proc.devRef .tc main_v291) = val_main_v291 (F := F) x0 := h.res 9 (by decide)
  simp only [ops_bc]
  after_results_simp
  rw [e]
  all_goals rfl
theorem bc_10 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1024) = val_main_v1024 (F := F) x0 := by
  have e : V (Proc.devRef .tc main_v324) = val_main_v324 (F := F) x0 := h.res 10 (by decide)
  simp only [ops_bc]
  after_results_simp
  rw [e]
  all_goals rfl
theorem bc_11 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1025) = val_main_v1025 (F := F) x0 := by
  have e : V (Proc.devRef .tc main_v358) = val_main_v358 (F := F) x0 := h.res 11 (by decide)
  simp only [ops_bc]
  after_results_simp
  rw [e]
  all_goals rfl
theorem bc_12 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1026) = val_main_v1026 (F := F) x0 := by
  have e : V (Proc.devRef .tc main_v391) = val_main_v391 (F := F) x0 := h.res 12 (by decide)
  simp only [ops_bc]
  after_results_simp
  rw [e]
  all_goals rfl
theorem bc_13 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1027) = val_main_v1027 (F := F) x0 := by
  have e : V (Proc.devRef .tc main_v424) = val_main_v424 (F := F) x0 := h.res 13 (by decide)
  simp only [ops_bc]
  after_results_simp
  rw [e]
  all_goals rfl
theorem bc_14 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1028) = val_main_v1028 (F := F) x0 := by
  have e : V (Proc.devRef .tc main_v456) = val_main_v456 (F := F) x0 := h.res 14 (by decide)
  simp only [ops_bc]
  after_results_simp
  rw [e]
  all_goals rfl
theorem bc_15 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1029) = val_main_v1029 (F := F) x0 := by
  have e : V (Proc.devRef .tc main_v491) = val_main_v491 (F := F) x0 := h.res 15 (by decide)
  simp only [ops_bc]
  after_results_simp
  rw [e]
  all_goals rfl
theorem bc_16 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1030) = val_main_v1030 (F := F) x0 := by
  have e : V (Proc.devRef .tc main_v522) = val_main_v522 (F := F) x0 := h.res 16 (by decide)
  simp only [ops_bc]
  after_results_simp
  rw [e]
  all_goals rfl
theorem bc_17 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1031) = val_main_v1031 (F := F) x0 := by
  have e : V (Proc.devRef .tc main_v557) = val_main_v557 (F := F) x0 := h.res 17 (by decide)
  simp only [ops_bc]
  after_results_simp
  rw [e]
  all_goals rfl
theorem bc_18 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1032) = val_main_v1032 (F := F) x0 := by
  have e : V (Proc.devRef .tc main_v593) = val_main_v593 (F := F) x0 := h.res 18 (by decide)
  simp only [ops_bc]
  after_results_simp
  rw [e]
  all_goals rfl
theorem bc_19 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1033) = val_main_v1033 (F := F) x0 := by
  have e : V (Proc.devRef .tc main_v629) = val_main_v629 (F := F) x0 := h.res 19 (by decide)
  simp only [ops_bc]
  after_results_simp
  rw [e]
  all_goals rfl
theorem bc_20 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1034) = val_main_v1034 (F := F) x0 := by
  have e : V (Proc.devRef .tc main_v666) = val_main_v666 (F := F) x0 := h.res 20 (by decide)
  simp only [ops_bc]
  after_results_simp
  rw [e]
  all_goals rfl
theorem bc_21 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1035) = val_main_v1035 (F := F) x0 := by
  have e : V (Proc.devRef .tc main_v702) = val_main_v702 (F := F) x0 := h.res 21 (by decide)
  simp only [ops_bc]
  after_results_simp
  rw [e]
  all_goals rfl
theorem bc_22 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1036) = val_main_v1036 (F := F) x0 := by
  have e : V (Proc.devRef .tc main_v738) = val_main_v738 (F := F) x0 := h.res 22 (by decide)
  simp only [ops_bc]
  after_results_simp
  rw [e]
  all_goals rfl
theorem bc_23 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1037) = val_main_v1037 (F := F) x0 := by
  have e : V (Proc.devRef .tc main_v775) = val_main_v775 (F := F) x0 := h.res 23 (by decide)
  simp only [ops_bc]
  after_results_simp
  rw [e]
  all_goals rfl
theorem bc_24 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1038) = val_main_v1038 (F := F) x0 := by
  have e : V (Proc.devRef .tc main_v812) = val_main_v812 (F := F) x0 := h.res 24 (by decide)
  simp only [ops_bc]
  after_results_simp
  rw [e]
  all_goals rfl
theorem bc_25 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1039) = val_main_v1039 (F := F) x0 := by
  have e : V (Proc.devRef .tc main_v854) = val_main_v854 (F := F) x0 := h.res 25 (by decide)
  simp only [ops_bc]
  after_results_simp
  rw [e]
  all_goals rfl
theorem bc_26 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1040) = val_main_v1040 (F := F) x0 := by
  have e : V (Proc.devRef .tc main_v897) = val_main_v897 (F := F) x0 := h.res 26 (by decide)
  simp only [ops_bc]
  after_results_simp
  rw [e]
  all_goals rfl
theorem bc_27 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1041) = val_main_v1041 (F := F) x0 := by
  have e : V (Proc.devRef .tc main_v939) = val_main_v939 (F := F) x0 := h.res 27 (by decide)
  simp only [ops_bc]
  after_results_simp
  rw [e]
  all_goals rfl
theorem bc_28 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1042) = val_main_v1042 (F := F) x0 := by
  have e : V (Proc.devRef .tc main_v976) = val_main_v976 (F := F) x0 := h.res 28 (by decide)
  simp only [ops_bc]
  after_results_simp
  rw [e]
  all_goals rfl
theorem bc_29 (x0 : (⟨S4096x27x3, .f32⟩ : BufTy).Contents (Elt F)) (x1 : (⟨S16x16x30, .f32⟩ : BufTy).Contents (Elt F))
    (V : Valuation τ sig (Elt F)) (h : Good x0 x1 30 V) :
    after ops_bc V (Proc.devRef .tc main_v1043) = val_main_v1043 (F := F) x0 := by
  have e : V (Proc.devRef .tc main_v1013) = val_main_v1013 (F := F) x0 := h.res 29 (by decide)
  simp only [ops_bc]
  after_results_simp
  rw [e]
  all_goals rfl

/-! ## The joins and the contraction, from any contents with the thirty extended arrays and the coefficients in place -/

/-- The join of the first sixteen extended arrays. -/
abbrev op_cat1 : HloOp τ sig (Elt F) := nary ![main_v1014, main_v1015, main_v1016, main_v1017, main_v1018, main_v1019, main_v1020, main_v1021, main_v1022, main_v1023, main_v1024, main_v1025, main_v1026, main_v1027, main_v1028, main_v1029] main_v1044 (fun u => concatenate S4096x27x16 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩, ⟨S4096x27x1, u 14⟩, ⟨S4096x27x1, u 15⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2)
/-- The join of the last fourteen. -/
abbrev op_cat2 : HloOp τ sig (Elt F) := nary ![main_v1030, main_v1031, main_v1032, main_v1033, main_v1034, main_v1035, main_v1036, main_v1037, main_v1038, main_v1039, main_v1040, main_v1041, main_v1042, main_v1043] main_v1045 (fun u => concatenate S4096x27x14 2 [⟨S4096x27x1, u 0⟩, ⟨S4096x27x1, u 1⟩, ⟨S4096x27x1, u 2⟩, ⟨S4096x27x1, u 3⟩, ⟨S4096x27x1, u 4⟩, ⟨S4096x27x1, u 5⟩, ⟨S4096x27x1, u 6⟩, ⟨S4096x27x1, u 7⟩, ⟨S4096x27x1, u 8⟩, ⟨S4096x27x1, u 9⟩, ⟨S4096x27x1, u 10⟩, ⟨S4096x27x1, u 11⟩, ⟨S4096x27x1, u 12⟩, ⟨S4096x27x1, u 13⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2)
/-- The join of the two. -/
abbrev op_cat3 : HloOp τ sig (Elt F) := binary main_v1044 main_v1045 main_v1046 ((fun a b => concatenate S4096x27x30 2 [⟨S4096x27x16, a⟩, ⟨S4096x27x14, b⟩] concatenates_S4096x27x16_S4096x27x14_S4096x27x30_d2) : (⟨S4096x27x16, .f32⟩ : BufTy).Contents (Elt F) → (⟨S4096x27x14, .f32⟩ : BufTy).Contents (Elt F) → (⟨S4096x27x30, .f32⟩ : BufTy).Contents (Elt F))
/-- The contraction with the coefficient array. -/
abbrev op_dot : HloOp τ sig (Elt F) := binary main_arg1 main_v1046 main_v1047 ((fun l r => Host.dotGeneral dot_S16x16x30_S4096x27x30_S16x16x4096x27_2_2_01_01_n_n none l r) : (⟨S16x16x30, .f32⟩ : BufTy).Contents (Elt F) → (⟨S4096x27x30, .f32⟩ : BufTy).Contents (Elt F) → (⟨S16x16x4096x27, .f32⟩ : BufTy).Contents (Elt F))

/-- The joins and the contraction. -/
abbrev ops_end : List (HloOp τ sig (Elt F)) := [op_cat1, op_cat2, op_cat3, op_dot]

theorem cat1_val (x0 : (⟨S4096x27x3, .f32⟩ : BufTy).Contents (Elt F)) (W : Valuation τ sig (Elt F))
    (hb0 : W (Proc.devRef .tc main_v1014) = val_main_v1014 (F := F) x0)
    (hb1 : W (Proc.devRef .tc main_v1015) = val_main_v1015 (F := F) x0)
    (hb2 : W (Proc.devRef .tc main_v1016) = val_main_v1016 (F := F) x0)
    (hb3 : W (Proc.devRef .tc main_v1017) = val_main_v1017 (F := F) x0)
    (hb4 : W (Proc.devRef .tc main_v1018) = val_main_v1018 (F := F) x0)
    (hb5 : W (Proc.devRef .tc main_v1019) = val_main_v1019 (F := F) x0)
    (hb6 : W (Proc.devRef .tc main_v1020) = val_main_v1020 (F := F) x0)
    (hb7 : W (Proc.devRef .tc main_v1021) = val_main_v1021 (F := F) x0)
    (hb8 : W (Proc.devRef .tc main_v1022) = val_main_v1022 (F := F) x0)
    (hb9 : W (Proc.devRef .tc main_v1023) = val_main_v1023 (F := F) x0)
    (hb10 : W (Proc.devRef .tc main_v1024) = val_main_v1024 (F := F) x0)
    (hb11 : W (Proc.devRef .tc main_v1025) = val_main_v1025 (F := F) x0)
    (hb12 : W (Proc.devRef .tc main_v1026) = val_main_v1026 (F := F) x0)
    (hb13 : W (Proc.devRef .tc main_v1027) = val_main_v1027 (F := F) x0)
    (hb14 : W (Proc.devRef .tc main_v1028) = val_main_v1028 (F := F) x0)
    (hb15 : W (Proc.devRef .tc main_v1029) = val_main_v1029 (F := F) x0) :
    (op_cat1 (F := F)).result W (Proc.devRef .tc main_v1044) = val_main_v1044 (F := F) x0 := by
  refine (nary_result _ _ _ _ _ W).trans ?_
  show concatenate S4096x27x16 2 [⟨S4096x27x1, W (Proc.devRef .tc main_v1014)⟩, ⟨S4096x27x1, W (Proc.devRef .tc main_v1015)⟩, ⟨S4096x27x1, W (Proc.devRef .tc main_v1016)⟩, ⟨S4096x27x1, W (Proc.devRef .tc main_v1017)⟩, ⟨S4096x27x1, W (Proc.devRef .tc main_v1018)⟩, ⟨S4096x27x1, W (Proc.devRef .tc main_v1019)⟩, ⟨S4096x27x1, W (Proc.devRef .tc main_v1020)⟩, ⟨S4096x27x1, W (Proc.devRef .tc main_v1021)⟩, ⟨S4096x27x1, W (Proc.devRef .tc main_v1022)⟩, ⟨S4096x27x1, W (Proc.devRef .tc main_v1023)⟩, ⟨S4096x27x1, W (Proc.devRef .tc main_v1024)⟩, ⟨S4096x27x1, W (Proc.devRef .tc main_v1025)⟩, ⟨S4096x27x1, W (Proc.devRef .tc main_v1026)⟩, ⟨S4096x27x1, W (Proc.devRef .tc main_v1027)⟩, ⟨S4096x27x1, W (Proc.devRef .tc main_v1028)⟩, ⟨S4096x27x1, W (Proc.devRef .tc main_v1029)⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2 = _
  rw [hb0, hb1, hb2, hb3, hb4, hb5, hb6, hb7, hb8, hb9, hb10, hb11, hb12, hb13, hb14, hb15]
  all_goals rfl

theorem cat2_val (x0 : (⟨S4096x27x3, .f32⟩ : BufTy).Contents (Elt F)) (W : Valuation τ sig (Elt F))
    (hb16 : W (Proc.devRef .tc main_v1030) = val_main_v1030 (F := F) x0)
    (hb17 : W (Proc.devRef .tc main_v1031) = val_main_v1031 (F := F) x0)
    (hb18 : W (Proc.devRef .tc main_v1032) = val_main_v1032 (F := F) x0)
    (hb19 : W (Proc.devRef .tc main_v1033) = val_main_v1033 (F := F) x0)
    (hb20 : W (Proc.devRef .tc main_v1034) = val_main_v1034 (F := F) x0)
    (hb21 : W (Proc.devRef .tc main_v1035) = val_main_v1035 (F := F) x0)
    (hb22 : W (Proc.devRef .tc main_v1036) = val_main_v1036 (F := F) x0)
    (hb23 : W (Proc.devRef .tc main_v1037) = val_main_v1037 (F := F) x0)
    (hb24 : W (Proc.devRef .tc main_v1038) = val_main_v1038 (F := F) x0)
    (hb25 : W (Proc.devRef .tc main_v1039) = val_main_v1039 (F := F) x0)
    (hb26 : W (Proc.devRef .tc main_v1040) = val_main_v1040 (F := F) x0)
    (hb27 : W (Proc.devRef .tc main_v1041) = val_main_v1041 (F := F) x0)
    (hb28 : W (Proc.devRef .tc main_v1042) = val_main_v1042 (F := F) x0)
    (hb29 : W (Proc.devRef .tc main_v1043) = val_main_v1043 (F := F) x0) :
    (op_cat2 (F := F)).result W (Proc.devRef .tc main_v1045) = val_main_v1045 (F := F) x0 := by
  refine (nary_result _ _ _ _ _ W).trans ?_
  show concatenate S4096x27x14 2 [⟨S4096x27x1, W (Proc.devRef .tc main_v1030)⟩, ⟨S4096x27x1, W (Proc.devRef .tc main_v1031)⟩, ⟨S4096x27x1, W (Proc.devRef .tc main_v1032)⟩, ⟨S4096x27x1, W (Proc.devRef .tc main_v1033)⟩, ⟨S4096x27x1, W (Proc.devRef .tc main_v1034)⟩, ⟨S4096x27x1, W (Proc.devRef .tc main_v1035)⟩, ⟨S4096x27x1, W (Proc.devRef .tc main_v1036)⟩, ⟨S4096x27x1, W (Proc.devRef .tc main_v1037)⟩, ⟨S4096x27x1, W (Proc.devRef .tc main_v1038)⟩, ⟨S4096x27x1, W (Proc.devRef .tc main_v1039)⟩, ⟨S4096x27x1, W (Proc.devRef .tc main_v1040)⟩, ⟨S4096x27x1, W (Proc.devRef .tc main_v1041)⟩, ⟨S4096x27x1, W (Proc.devRef .tc main_v1042)⟩, ⟨S4096x27x1, W (Proc.devRef .tc main_v1043)⟩] concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2 = _
  rw [hb16, hb17, hb18, hb19, hb20, hb21, hb22, hb23, hb24, hb25, hb26, hb27, hb28, hb29]
  all_goals rfl

theorem end_val (x0 : (⟨S4096x27x3, .f32⟩ : BufTy).Contents (Elt F)) (x1 : (⟨S16x16x30, .f32⟩ : BufTy).Contents (Elt F))
    (W : Valuation τ sig (Elt F)) (ha : W (Proc.devRef .tc main_arg1) = x1)
    (hb0 : W (Proc.devRef .tc main_v1014) = val_main_v1014 (F := F) x0)
    (hb1 : W (Proc.devRef .tc main_v1015) = val_main_v1015 (F := F) x0)
    (hb2 : W (Proc.devRef .tc main_v1016) = val_main_v1016 (F := F) x0)
    (hb3 : W (Proc.devRef .tc main_v1017) = val_main_v1017 (F := F) x0)
    (hb4 : W (Proc.devRef .tc main_v1018) = val_main_v1018 (F := F) x0)
    (hb5 : W (Proc.devRef .tc main_v1019) = val_main_v1019 (F := F) x0)
    (hb6 : W (Proc.devRef .tc main_v1020) = val_main_v1020 (F := F) x0)
    (hb7 : W (Proc.devRef .tc main_v1021) = val_main_v1021 (F := F) x0)
    (hb8 : W (Proc.devRef .tc main_v1022) = val_main_v1022 (F := F) x0)
    (hb9 : W (Proc.devRef .tc main_v1023) = val_main_v1023 (F := F) x0)
    (hb10 : W (Proc.devRef .tc main_v1024) = val_main_v1024 (F := F) x0)
    (hb11 : W (Proc.devRef .tc main_v1025) = val_main_v1025 (F := F) x0)
    (hb12 : W (Proc.devRef .tc main_v1026) = val_main_v1026 (F := F) x0)
    (hb13 : W (Proc.devRef .tc main_v1027) = val_main_v1027 (F := F) x0)
    (hb14 : W (Proc.devRef .tc main_v1028) = val_main_v1028 (F := F) x0)
    (hb15 : W (Proc.devRef .tc main_v1029) = val_main_v1029 (F := F) x0)
    (hb16 : W (Proc.devRef .tc main_v1030) = val_main_v1030 (F := F) x0)
    (hb17 : W (Proc.devRef .tc main_v1031) = val_main_v1031 (F := F) x0)
    (hb18 : W (Proc.devRef .tc main_v1032) = val_main_v1032 (F := F) x0)
    (hb19 : W (Proc.devRef .tc main_v1033) = val_main_v1033 (F := F) x0)
    (hb20 : W (Proc.devRef .tc main_v1034) = val_main_v1034 (F := F) x0)
    (hb21 : W (Proc.devRef .tc main_v1035) = val_main_v1035 (F := F) x0)
    (hb22 : W (Proc.devRef .tc main_v1036) = val_main_v1036 (F := F) x0)
    (hb23 : W (Proc.devRef .tc main_v1037) = val_main_v1037 (F := F) x0)
    (hb24 : W (Proc.devRef .tc main_v1038) = val_main_v1038 (F := F) x0)
    (hb25 : W (Proc.devRef .tc main_v1039) = val_main_v1039 (F := F) x0)
    (hb26 : W (Proc.devRef .tc main_v1040) = val_main_v1040 (F := F) x0)
    (hb27 : W (Proc.devRef .tc main_v1041) = val_main_v1041 (F := F) x0)
    (hb28 : W (Proc.devRef .tc main_v1042) = val_main_v1042 (F := F) x0)
    (hb29 : W (Proc.devRef .tc main_v1043) = val_main_v1043 (F := F) x0) :
    after ops_end W (Proc.devRef .tc main_v1047) = val_main_v1047 (F := F) x0 x1 := by
  have k1 : ∀ r : Ref sig .tc, r ≠ main_v1044 →
      (op_cat1 (F := F)).result W (Proc.devRef .tc r) = W (Proc.devRef .tc r) :=
    fun r hr => nary_result_ne' _ _ _ _ W hr
  have k2 : ∀ (W' : Valuation τ sig (Elt F)) (r : Ref sig .tc), r ≠ main_v1045 →
      (op_cat2 (F := F)).result W' (Proc.devRef .tc r) = W' (Proc.devRef .tc r) :=
    fun W' r hr => nary_result_ne' _ _ _ _ W' hr
  have k3 : ∀ (W' : Valuation τ sig (Elt F)) (r : Ref sig .tc), r ≠ main_v1046 →
      (op_cat3 (F := F)).result W' (Proc.devRef .tc r) = W' (Proc.devRef .tc r) :=
    fun W' r hr => binary_result_ne' _ _ _ _ W' hr
  have v44 : (op_cat2 (F := F)).result ((op_cat1 (F := F)).result W) (Proc.devRef .tc main_v1044) = val_main_v1044 (F := F) x0 :=
    (k2 _ main_v1044 (by decide)).trans (cat1_val x0 W hb0 hb1 hb2 hb3 hb4 hb5 hb6 hb7 hb8 hb9 hb10 hb11 hb12 hb13 hb14 hb15)
  have v45 : (op_cat2 (F := F)).result ((op_cat1 (F := F)).result W) (Proc.devRef .tc main_v1045) = val_main_v1045 (F := F) x0 :=
    cat2_val x0 ((op_cat1 (F := F)).result W)
      ((k1 main_v1030 (by decide)).trans hb16)
      ((k1 main_v1031 (by decide)).trans hb17)
      ((k1 main_v1032 (by decide)).trans hb18)
      ((k1 main_v1033 (by decide)).trans hb19)
      ((k1 main_v1034 (by decide)).trans hb20)
      ((k1 main_v1035 (by decide)).trans hb21)
      ((k1 main_v1036 (by decide)).trans hb22)
      ((k1 main_v1037 (by decide)).trans hb23)
      ((k1 main_v1038 (by decide)).trans hb24)
      ((k1 main_v1039 (by decide)).trans hb25)
      ((k1 main_v1040 (by decide)).trans hb26)
      ((k1 main_v1041 (by decide)).trans hb27)
      ((k1 main_v1042 (by decide)).trans hb28)
      ((k1 main_v1043 (by decide)).trans hb29)
  have v46 : (op_cat3 (F := F)).result ((op_cat2 (F := F)).result ((op_cat1 (F := F)).result W)) (Proc.devRef .tc main_v1046)
      = val_main_v1046 (F := F) x0 := by
    refine (binary_result _ _ _ _ _ _ _ _).trans ?_
    rw [v44, v45]
    all_goals rfl
  have va : (op_cat3 (F := F)).result ((op_cat2 (F := F)).result ((op_cat1 (F := F)).result W)) (Proc.devRef .tc main_arg1) = x1 :=
    (k3 _ main_arg1 (by decide)).trans ((k2 _ main_arg1 (by decide)).trans ((k1 main_arg1 (by decide)).trans ha))
  show (op_dot (F := F)).result ((op_cat3 (F := F)).result ((op_cat2 (F := F)).result ((op_cat1 (F := F)).result W)))
      (Proc.devRef .tc main_v1047) = _
  refine (binary_result _ _ _ _ _ _ _ _).trans ?_
  rw [va, v46]
  all_goals rfl

/-! ## The whole stretch -/

theorem ops_tail_eq : (ops_tail : List (HloOp τ sig (Elt F))) = ops_bc ++ ops_end := rfl

/-- The contraction's result is the last stage function's value. -/
theorem tail_res (x0 : (⟨S4096x27x3, .f32⟩ : BufTy).Contents (Elt F)) (x1 : (⟨S16x16x30, .f32⟩ : BufTy).Contents (Elt F))
    (V : Valuation τ sig (Elt F)) (h : Good x0 x1 30 V) :
    after ops_tail V (Proc.devRef .tc main_v1047) = val_main_v1047 (F := F) x0 x1 := by
  rw [ops_tail_eq, after_append]
  exact end_val x0 x1 (after ops_bc V) ((after_of_writes_sub ops_bc V ops_bc_writes (by decide)).trans h.a1)
    (bc_0 x0 x1 V h) (bc_1 x0 x1 V h) (bc_2 x0 x1 V h) (bc_3 x0 x1 V h) (bc_4 x0 x1 V h) (bc_5 x0 x1 V h) (bc_6 x0 x1 V h) (bc_7 x0 x1 V h) (bc_8 x0 x1 V h) (bc_9 x0 x1 V h) (bc_10 x0 x1 V h) (bc_11 x0 x1 V h) (bc_12 x0 x1 V h) (bc_13 x0 x1 V h) (bc_14 x0 x1 V h) (bc_15 x0 x1 V h) (bc_16 x0 x1 V h) (bc_17 x0 x1 V h) (bc_18 x0 x1 V h) (bc_19 x0 x1 V h) (bc_20 x0 x1 V h) (bc_21 x0 x1 V h) (bc_22 x0 x1 V h) (bc_23 x0 x1 V h) (bc_24 x0 x1 V h) (bc_25 x0 x1 V h) (bc_26 x0 x1 V h) (bc_27 x0 x1 V h) (bc_28 x0 x1 V h) (bc_29 x0 x1 V h)

/-- After the last operations the result array holds the last stage function's value and the arguments are unchanged. -/
theorem tail_val (x0 : (⟨S4096x27x3, .f32⟩ : BufTy).Contents (Elt F)) (x1 : (⟨S16x16x30, .f32⟩ : BufTy).Contents (Elt F))
    (V : Valuation τ sig (Elt F)) (h : Good x0 x1 30 V) :
    after ops_tail V (Proc.devRef .tc main_v1047) = val_main_v1047 (F := F) x0 x1
      ∧ after ops_tail V (Proc.devRef .tc main_arg0) = x0 ∧ after ops_tail V (Proc.devRef .tc main_arg1) = x1 :=
  ⟨tail_res x0 x1 V h,
    (after_of_writes_sub ops_tail V ops_tail_writes (by decide)).trans h.a0,
    (after_of_writes_sub ops_tail V ops_tail_writes (by decide)).trans h.a1⟩

end Cert.ReferenceIdeal.RunH

end
-- ==== Proof.RefRunH.lean ====
/-
  The reference's run, joined from its stretches.

  @main is a straight line of host operations: a first stretch slices the position array into the three coordinate arrays
  r, θ, φ; thirty chains follow, chain k computing orbital array k from r, θ, φ alone; a last stretch stacks the thirty arrays
  and contracts the stack with the coefficients.  The line is the stretches laid end to end, so the contents it leaves are the
  contents its stretches leave one after the other: the first establishes the coordinate arrays, chain k adds orbital array k
  to the arrays already in place and touches none of them, and the last stretch, finding all thirty, leaves the result buffer
  at the reference's value of the two arguments and the arguments as they were.  Every weakly fair execution of @main
  terminates in that state.
-/
import proofs.«401775_j71382356459674_3_alg».proof.Proof.RefInv
import proofs.«401775_j71382356459674_3_alg».proof.Proof.RefChunkH
import proofs.«401775_j71382356459674_3_alg».proof.Proof.RefChunk00
import proofs.«401775_j71382356459674_3_alg».proof.Proof.RefChunk01
import proofs.«401775_j71382356459674_3_alg».proof.Proof.RefChunk02
import proofs.«401775_j71382356459674_3_alg».proof.Proof.RefChunk03
import proofs.«401775_j71382356459674_3_alg».proof.Proof.RefChunk04
import proofs.«401775_j71382356459674_3_alg».proof.Proof.RefChunk05
import proofs.«401775_j71382356459674_3_alg».proof.Proof.RefChunk06
import proofs.«401775_j71382356459674_3_alg».proof.Proof.RefChunk07
import proofs.«401775_j71382356459674_3_alg».proof.Proof.RefChunk08
import proofs.«401775_j71382356459674_3_alg».proof.Proof.RefChunk09
import proofs.«401775_j71382356459674_3_alg».proof.Proof.RefChunk10
import proofs.«401775_j71382356459674_3_alg».proof.Proof.RefChunk11
import proofs.«401775_j71382356459674_3_alg».proof.Proof.RefChunk12
import proofs.«401775_j71382356459674_3_alg».proof.Proof.RefChunk13
import proofs.«401775_j71382356459674_3_alg».proof.Proof.RefChunk14
import proofs.«401775_j71382356459674_3_alg».proof.Proof.RefChunk15
import proofs.«401775_j71382356459674_3_alg».proof.Proof.RefChunk16
import proofs.«401775_j71382356459674_3_alg».proof.Proof.RefChunk17
import proofs.«401775_j71382356459674_3_alg».proof.Proof.RefChunk18
import proofs.«401775_j71382356459674_3_alg».proof.Proof.RefChunk19
import proofs.«401775_j71382356459674_3_alg».proof.Proof.RefChunk20
import proofs.«401775_j71382356459674_3_alg».proof.Proof.RefChunk21
import proofs.«401775_j71382356459674_3_alg».proof.Proof.RefChunk22
import proofs.«401775_j71382356459674_3_alg».proof.Proof.RefChunk23
import proofs.«401775_j71382356459674_3_alg».proof.Proof.RefChunk24
import proofs.«401775_j71382356459674_3_alg».proof.Proof.RefChunk25
import proofs.«401775_j71382356459674_3_alg».proof.Proof.RefChunk26
import proofs.«401775_j71382356459674_3_alg».proof.Proof.RefChunk27
import proofs.«401775_j71382356459674_3_alg».proof.Proof.RefChunk28
import proofs.«401775_j71382356459674_3_alg».proof.Proof.RefChunk29
import proofs.«401775_j71382356459674_3_alg».proof.Proof.RefChunkT

noncomputable section

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The reference's operations, in order: the stretch that slices the position array into r, θ, φ, the thirty orbital chains, and
    the stacking and contraction. -/
abbrev ops : List (HloOp τ sig (Elt F)) :=
  ops_head ++ (ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17 ++ (ops_18 ++ (ops_19 ++ (ops_20 ++ (ops_21 ++ (ops_22 ++ (ops_23 ++ (ops_24 ++ (ops_25 ++ (ops_26 ++ (ops_27 ++ (ops_28 ++ (ops_29 ++ (ops_tail)))))))))))))))))))))))))))))))

set_option maxRecDepth 200000 in
set_option maxHeartbeats 4000000 in
/-- @main is its operations run in order (a called function's operations in its call's place). -/
theorem main_eq (c : Dev nD) : main (F := F) c = seq ops := rfl

/-- Every operation reads and writes TensorCore buffers only: stretch by stretch. -/
theorem ops_sub : (ops : List (HloOp τ sig (Elt F))).Forall fun op => op.bufs ⊆ tcRefs τ sig :=
  List.forall_append.2 ⟨ops_head_sub, List.forall_append.2 ⟨ops_0_sub, List.forall_append.2 ⟨ops_1_sub, List.forall_append.2 ⟨ops_2_sub, List.forall_append.2 ⟨ops_3_sub, List.forall_append.2 ⟨ops_4_sub, List.forall_append.2 ⟨ops_5_sub, List.forall_append.2 ⟨ops_6_sub, List.forall_append.2 ⟨ops_7_sub, List.forall_append.2 ⟨ops_8_sub, List.forall_append.2 ⟨ops_9_sub, List.forall_append.2 ⟨ops_10_sub, List.forall_append.2 ⟨ops_11_sub, List.forall_append.2 ⟨ops_12_sub, List.forall_append.2 ⟨ops_13_sub, List.forall_append.2 ⟨ops_14_sub, List.forall_append.2 ⟨ops_15_sub, List.forall_append.2 ⟨ops_16_sub, List.forall_append.2 ⟨ops_17_sub, List.forall_append.2 ⟨ops_18_sub, List.forall_append.2 ⟨ops_19_sub, List.forall_append.2 ⟨ops_20_sub, List.forall_append.2 ⟨ops_21_sub, List.forall_append.2 ⟨ops_22_sub, List.forall_append.2 ⟨ops_23_sub, List.forall_append.2 ⟨ops_24_sub, List.forall_append.2 ⟨ops_25_sub, List.forall_append.2 ⟨ops_26_sub, List.forall_append.2 ⟨ops_27_sub, List.forall_append.2 ⟨ops_28_sub, List.forall_append.2 ⟨ops_29_sub, ops_tail_sub⟩⟩⟩⟩⟩⟩⟩⟩⟩⟩⟩⟩⟩⟩⟩⟩⟩⟩⟩⟩⟩⟩⟩⟩⟩⟩⟩⟩⟩⟩⟩

/-- No operation allocates: an operation of the whole line is an operation of one of its stretches. -/
theorem ops_fresh : ∀ op ∈ (ops : List (HloOp τ sig (Elt F))), op.fresh = ∅ := by
  intro op h
  rcases List.mem_append.1 h with h | h
  · exact ops_head_fresh op h
  rcases List.mem_append.1 h with h | h
  · exact ops_0_fresh op h
  rcases List.mem_append.1 h with h | h
  · exact ops_1_fresh op h
  rcases List.mem_append.1 h with h | h
  · exact ops_2_fresh op h
  rcases List.mem_append.1 h with h | h
  · exact ops_3_fresh op h
  rcases List.mem_append.1 h with h | h
  · exact ops_4_fresh op h
  rcases List.mem_append.1 h with h | h
  · exact ops_5_fresh op h
  rcases List.mem_append.1 h with h | h
  · exact ops_6_fresh op h
  rcases List.mem_append.1 h with h | h
  · exact ops_7_fresh op h
  rcases List.mem_append.1 h with h | h
  · exact ops_8_fresh op h
  rcases List.mem_append.1 h with h | h
  · exact ops_9_fresh op h
  rcases List.mem_append.1 h with h | h
  · exact ops_10_fresh op h
  rcases List.mem_append.1 h with h | h
  · exact ops_11_fresh op h
  rcases List.mem_append.1 h with h | h
  · exact ops_12_fresh op h
  rcases List.mem_append.1 h with h | h
  · exact ops_13_fresh op h
  rcases List.mem_append.1 h with h | h
  · exact ops_14_fresh op h
  rcases List.mem_append.1 h with h | h
  · exact ops_15_fresh op h
  rcases List.mem_append.1 h with h | h
  · exact ops_16_fresh op h
  rcases List.mem_append.1 h with h | h
  · exact ops_17_fresh op h
  rcases List.mem_append.1 h with h | h
  · exact ops_18_fresh op h
  rcases List.mem_append.1 h with h | h
  · exact ops_19_fresh op h
  rcases List.mem_append.1 h with h | h
  · exact ops_20_fresh op h
  rcases List.mem_append.1 h with h | h
  · exact ops_21_fresh op h
  rcases List.mem_append.1 h with h | h
  · exact ops_22_fresh op h
  rcases List.mem_append.1 h with h | h
  · exact ops_23_fresh op h
  rcases List.mem_append.1 h with h | h
  · exact ops_24_fresh op h
  rcases List.mem_append.1 h with h | h
  · exact ops_25_fresh op h
  rcases List.mem_append.1 h with h | h
  · exact ops_26_fresh op h
  rcases List.mem_append.1 h with h | h
  · exact ops_27_fresh op h
  rcases List.mem_append.1 h with h | h
  · exact ops_28_fresh op h
  rcases List.mem_append.1 h with h | h
  · exact ops_29_fresh op h
  exact ops_tail_fresh op h

/-- The contents after the whole line are the contents after its stretches one after the other. -/
theorem after_ops_eq (V : Valuation τ sig (Elt F)) :
    after (ops (F := F)) V = after ops_tail (after ops_29 (after ops_28 (after ops_27 (after ops_26 (after ops_25 (after ops_24 (after ops_23 (after ops_22 (after ops_21 (after ops_20 (after ops_19 (after ops_18 (after ops_17 (after ops_16 (after ops_15 (after ops_14 (after ops_13 (after ops_12 (after ops_11 (after ops_10 (after ops_9 (after ops_8 (after ops_7 (after ops_6 (after ops_5 (after ops_4 (after ops_3 (after ops_2 (after ops_1 (after ops_0 (after ops_head V))))))))))))))))))))))))))))))) := by
  simp only [ops, after_append]

/-- From contents holding the two arguments, the whole line leaves the result buffer at the reference's value of them and the
    arguments as they were: the coordinate arrays after the first stretch, one more orbital array after each chain,
    and the last stretch reads all thirty. -/
theorem after_ops (x0 : (⟨S4096x27x3, .f32⟩ : BufTy).Contents (Elt F)) (x1 : (⟨S16x16x30, .f32⟩ : BufTy).Contents (Elt F)) (V : Valuation τ sig (Elt F))
    (h0 : V (Proc.devRef .tc main_arg0) = x0) (h1 : V (Proc.devRef .tc main_arg1) = x1) :
    after ops V (Proc.devRef .tc main_v1047) = val_main_v1047 (F := F) x0 x1
      ∧ after ops V (Proc.devRef .tc main_arg0) = x0 ∧ after ops V (Proc.devRef .tc main_arg1) = x1 := by
  have g0 := step_head x0 x1 V h0 h1
  have g1 := step_0 x0 x1 _ g0
  have g2 := step_1 x0 x1 _ g1
  have g3 := step_2 x0 x1 _ g2
  have g4 := step_3 x0 x1 _ g3
  have g5 := step_4 x0 x1 _ g4
  have g6 := step_5 x0 x1 _ g5
  have g7 := step_6 x0 x1 _ g6
  have g8 := step_7 x0 x1 _ g7
  have g9 := step_8 x0 x1 _ g8
  have g10 := step_9 x0 x1 _ g9
  have g11 := step_10 x0 x1 _ g10
  have g12 := step_11 x0 x1 _ g11
  have g13 := step_12 x0 x1 _ g12
  have g14 := step_13 x0 x1 _ g13
  have g15 := step_14 x0 x1 _ g14
  have g16 := step_15 x0 x1 _ g15
  have g17 := step_16 x0 x1 _ g16
  have g18 := step_17 x0 x1 _ g17
  have g19 := step_18 x0 x1 _ g18
  have g20 := step_19 x0 x1 _ g19
  have g21 := step_20 x0 x1 _ g20
  have g22 := step_21 x0 x1 _ g21
  have g23 := step_22 x0 x1 _ g22
  have g24 := step_23 x0 x1 _ g23
  have g25 := step_24 x0 x1 _ g24
  have g26 := step_25 x0 x1 _ g25
  have g27 := step_26 x0 x1 _ g26
  have g28 := step_27 x0 x1 _ g27
  have g29 := step_28 x0 x1 _ g28
  have g30 := step_29 x0 x1 _ g29
  rw [after_ops_eq]
  exact tail_val x0 x1 _ g30

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the reference's value of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1047) = val_main_v1047 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨hv, ha0, ha1⟩ := after_ops (F := F) (m ((c.tc : Thread nD τ).loc main_arg0)) (m ((c.tc : Thread nD τ).loc main_arg1))
        (launchContents m c) rfl rfl
      exact ⟨(h c main_v1047).trans hv, (h c main_arg0).trans ha0, (h c main_arg1).trans ha1⟩)
    (run_seq scopedRefs_eq scopedSems_eq defs main (fun _ => ops) main_eq (fun _ => ops_sub) m ρ (hfresh := fun _ => ops_fresh))

end Cert.ReferenceIdeal.RunH

end
-- ==== Proof.Rows.lean ====
/-
  The thirty rows of the kernel's basis table, as functions of the three coordinate rows of one position block.

  The body loads row 0 (r), row 1 (θ) and row 2 (φ) of its 3 × 9216 position block, evaluates the thirty real
  hydrogen orbitals ψ_{nlm}(r, θ, φ) = R_{nl}(r) · Y_{lm}(θ, φ), n ≤ 4, lane by lane, and stores orbital k as row k of
  a 30 × 9216 table.  The factors that several orbitals share are computed once: cos θ and sin θ = √max(1 - cos²θ, 0);
  for each n the scaled radius ρ = (2/n) r and the decay exp(-r/n); for each (n, l) the radial part
  R_{nl} = N_{nl} · exp(-r/n) · ρ^l · L(ρ) with L the associated Laguerre polynomial evaluated by Horner's rule; for each
  (l, |m|) the associated Legendre function P_l^{|m|}(cos θ) by the upward recurrence; cos(|m| φ) and sin(|m| φ).
  `rowsK` below is that data flow, term by term: each line names one shared factor, and the last lines assemble
  the rows R_{nl} · (K_{lm} · P_l^{|m|} · cos or sin(|m| φ)).
-/
import proofs.«401775_j71382356459674_3_alg».proof.Proof.Gen.KernelIdeal.Skeleton

noncomputable section

namespace Cert.KernelIdeal.Rows

open Idealize.ShloMosaic Cert.KernelIdeal Cert.KernelIdeal.Gen

variable {F : FTy → Type} [FloatOps F]

/-- Row `k` of the basis table from the block's r-row `v0`, θ-row `v2` and φ-row `v4`. -/
def rowsK (v0 v2 v4 : Vec F S1x9216 .f32) : Fin 30 → FVec F S1x9216 .f32 :=
  -- the angle φ, cos θ, sin θ
  have v5 : FVec F S9216 .f32 := k0_pay5 v4
  have v6 : FVec F S9216 .f32 := k0_pay6 v2
  have v12 : FVec F S9216 .f32 := k0_pay7 v2
  -- ρ and exp(-r/n) for n = 2, 3, 4, and R_{10}
  have v17 : FVec F S9216 .f32 := k0_pay8 v0
  have v20 : FVec F S9216 .f32 := k0_pay9 v0
  have v22 : FVec F S9216 .f32 := k0_pay10 v0
  have v25 : FVec F S9216 .f32 := k0_pay11 v0
  have v27 : FVec F S9216 .f32 := k0_pay12 v0
  have v30 : FVec F S9216 .f32 := k0_pay13 v0
  have v38 : FVec F S9216 .f32 := k0_pay14 v0
  have cst_15 : F .f32 := Scalar.ofBits .f32 0x3EB504F3#32
  -- the radial parts R_{20}, R_{21}, R_{30}, R_{31}, R_{32}, R_{40}, R_{41}, R_{42}, R_{43} (some through a partial product)
  have v49 : FVec F S9216 .f32 := k0_pay15 v17 v20 cst_15
  have v58 : FVec F S9216 .f32 := k0_pay16 v17 v20
  have v72 : FVec F S9216 .f32 := k0_pay17 v22 v25
  have v77 : FVec F S9216 .f32 := k0_pay18 v22 v25
  have v80 : FVec F S9216 .f32 := k0_pay19
  have v84 : FVec F S9216 .f32 := k0_pay20 v22 v77 v80
  have v94 : FVec F S9216 .f32 := k0_pay21 v22 v25
  have v111 : FVec F S9216 .f32 := k0_pay22 v27 v30
  have v116 : FVec F S9216 .f32 := k0_pay23 v27 v30
  have v123 : FVec F S9216 .f32 := k0_pay24 v27
  have v126 : FVec F S9216 .f32 := k0_pay25 v116 v123
  have v139 : FVec F S9216 .f32 := k0_pay26 v27 v30
  have v150 : FVec F S9216 .f32 := k0_pay27 v27 v30
  -- the Legendre functions P_l^{|m|}(cos θ)
  have v151 : FVec F S9216 .f32 := k0_pay28
  have v155 : FVec F S9216 .f32 := k0_pay29 v6
  have v159 : FVec F S9216 .f32 := k0_pay30 v12
  have v160 : FVec F S9216 .f32 := k0_pay31
  have v163 : FVec F S9216 .f32 := k0_pay32 v6
  have v165 : FVec F S9216 .f32 := k0_pay33 v6
  have v171 : FVec F S9216 .f32 := k0_pay34 v160 v163 v165
  have v178 : FVec F S9216 .f32 := k0_pay35 v6 v12
  have v185 : FVec F S9216 .f32 := k0_pay36 v12
  have v205 : FVec F S9216 .f32 := k0_pay37 v6
  have v206 : FVec F S9216 .f32 := k0_pay38
  have v207 : FVec F S9216 .f32 := k0_pay39
  have v220 : FVec F S9216 .f32 := k0_pay40 v6 v12 v206 v207
  have v230 : FVec F S9216 .f32 := k0_pay41 v6 v12
  have v240 : FVec F S9216 .f32 := k0_pay42 v12
  -- cos(|m| φ) and sin(|m| φ), |m| = 1, 2, 3
  have v243 : FVec F S9216 .f32 := k0_pay44 v5
  have v244 : FVec F S9216 .f32 := k0_pay45 v5
  have v247 : FVec F S9216 .f32 := k0_pay47 v5
  have v248 : FVec F S9216 .f32 := k0_pay48 v5
  have v251 : FVec F S9216 .f32 := k0_pay50 v5
  have v252 : FVec F S9216 .f32 := k0_pay51 v5
  -- four products that a later row's store reads
  have v287 : FVec F S9216 .f32 := k0_pay57 v72 v151
  have v327 : FVec F S9216 .f32 := k0_pay64 v94 v171
  have cst_139 : F .f32 := Scalar.ofBits .f32 0x3EFA2A1C#32
  have v401 : FVec F S9216 .f32 := k0_pay76 v139 v185 v247
  have v439 : FVec F S9216 .f32 := k0_pay83
  ![ k0_pay52 v38 v151, k0_pay53 v49 v151, k0_pay54 v58 v159 v244, k0_pay55 v58 v155, k0_pay56 v58 v159 v243,
     k0_pay58 v287, k0_pay59 v84 v159 v244, k0_pay60 v84 v155, k0_pay61 v84 v159 v243, k0_pay62 v94 v185 v248,
     k0_pay63 v94 v178 v244, k0_pay65 v327, k0_pay66 v94 v178 v243, k0_pay67 v94 v185 v247, k0_pay68 v111 v151,
     k0_pay69 v126 v159 v244, k0_pay70 v126 v155, k0_pay71 v126 v159 v243 cst_139, k0_pay72 v139 v185 v248, k0_pay73 v139 v178 v244,
     k0_pay74 v139 v171, k0_pay75 v139 v178 v243, k0_pay77 v401, k0_pay78 v150 v240 v252, k0_pay79 v150 v230 v248,
     k0_pay80 v150 v220 v244, k0_pay81 v150 v205, k0_pay82 v150 v220 v243, k0_pay1 v150 v230 v247 v439, k0_pay2 v150 v240 v251 ]

end Cert.KernelIdeal.Rows

end
-- ==== Proof.KernelBody.lean ====
/-
  What the kernel's body leaves in its 256 × 9216 output block, as a function of its two input blocks.

  The body stores the thirty orbital rows (Proof/Rows.lean) into its 30 × 9216 table, reads the table back whole, and
  multiplies the 256 × 30 coefficient block by it on the matrix unit into a zero accumulator.  At the ideal instance
  the two changes of format are the identity and the matrix product is the plain contraction, so the block's entry
  (p, j) is ∑_k coeff(p, k) · row_k(j), the rows being those of the position block's three coordinate rows.
-/
import proofs.«401775_j71382356459674_3_alg».proof.Proof.Gen.KernelIdeal.Frame
import proofs.«401775_j71382356459674_3_alg».proof.Proof.Rows
import Idealize.ShloMosaic.Lib.Pipeline.Value
import Idealize.ShloMosaic.Lib.ValueIdx
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.ShloMosaic.Tactic Idealize.ShloMosaic.ValueIdx Idealize.SL.Sem

/-- Coordinate row `a` (0: r, 1: θ, 2: φ) of a 3 × 9216 position block, as a 1 × 9216 vector. -/
def rowOf (x0 : Vec Ideal S3x9216 .f32) (a : Fin 3) : Vec Ideal S1x9216 .f32 :=
  fun q => x0 (ix2 (n0 := 3) (n1 := 9216) a (q 1))

/-- Entry (p, j) of the output block: ∑_k coeff(p, k) · row_k(j). -/
def blockFn (x0 : Vec Ideal S3x9216 .f32) (x1 : Vec Ideal S256x30 .f32) : Vec Ideal S256x9216 .f32 :=
  fun y => ∑ k : Fin 30, x1 (ix2 (n0 := 256) (n1 := 30) (y 0) k)
    * Rows.rowsK (rowOf x0 0) (rowOf x0 1) (rowOf x0 2) k (ix2 (n0 := 1) (n1 := 9216) 0 (y 1))

/-! ## The matrix product at an entry

The printed contraction has one contracted axis (axis 1 of the 256 × 30 factor against axis 0 of the 30 × 9216 factor)
and no batch axis, so its entry (p, j) is the sum over k < 30 of left(p, k) · right(k, j). -/

theorem lhs_axis0 (y : S256x9216.Idx) (q : dot_S256x30_S30x9216_S256x9216_1_0_0_1_n_n.contr.Idx) :
    (dot_S256x30_S30x9216_S256x9216_1_0_0_1_n_n.lhsIdx y q 0).val = (y 0).val := by
  unfold DotDims.lhsIdx
  rw [dif_neg (show ¬(0 : Fin S256x30.rank) ∈ dot_S256x30_S30x9216_S256x9216_1_0_0_1_n_n.lhsBatch by decide), dif_pos (show (0 : Fin S256x30.rank) ∈ dot_S256x30_S30x9216_S256x9216_1_0_0_1_n_n.lhsNonContracting by decide)]
  rfl
theorem lhs_axis1 (y : S256x9216.Idx) (q : dot_S256x30_S30x9216_S256x9216_1_0_0_1_n_n.contr.Idx) :
    (dot_S256x30_S30x9216_S256x9216_1_0_0_1_n_n.lhsIdx y q 1).val = (q ⟨0, by decide⟩).val :=
  dot_S256x30_S30x9216_S256x9216_1_0_0_1_n_n.lhsIdx_val_of_single rfl y q
theorem rhs_axis0 (y : S256x9216.Idx) (q : dot_S256x30_S30x9216_S256x9216_1_0_0_1_n_n.contr.Idx) :
    (dot_S256x30_S30x9216_S256x9216_1_0_0_1_n_n.rhsIdx y q 0).val = (q ⟨0, by decide⟩).val :=
  dot_S256x30_S30x9216_S256x9216_1_0_0_1_n_n.rhsIdx_val_of_single rfl y q
theorem rhs_axis1 (y : S256x9216.Idx) (q : dot_S256x30_S30x9216_S256x9216_1_0_0_1_n_n.contr.Idx) :
    (dot_S256x30_S30x9216_S256x9216_1_0_0_1_n_n.rhsIdx y q 1).val = (y 1).val := by
  unfold DotDims.rhsIdx
  rw [dif_neg (show ¬(1 : Fin S30x9216.rank) ∈ dot_S256x30_S30x9216_S256x9216_1_0_0_1_n_n.rhsBatch by decide), dif_pos (show (1 : Fin S30x9216.rank) ∈ dot_S256x30_S30x9216_S256x9216_1_0_0_1_n_n.rhsNonContracting by decide)]
  rfl

/-- The product into a zero accumulator, at the entry `y` = (p, j): ∑_k left(p, k) · right(k, j). -/
theorem matmul_at {φ₁ φ₂ : FTy} (lhs : FVec Ideal S256x30 φ₁) (rhs : FVec Ideal S30x9216 φ₂) (y : S256x9216.Idx) :
    matmul dot_S256x30_S30x9216_S256x9216_1_0_0_1_n_n none lhs rhs (constant S256x9216 .f32 0x00000000#32) y
      = ∑ k : Fin 30, lhs (ix2 (n0 := 256) (n1 := 30) (y 0) k) * rhs (ix2 (n0 := 30) (n1 := 9216) k (y 1)) := by
  simp only [matmul]
  rw [Ideal.matmul_constant_zero_apply, ← Equiv.sum_comp (ValueIdx.contrEquiv1 dot_S256x30_S30x9216_S256x9216_1_0_0_1_n_n 30 rfl rfl).symm]
  refine Finset.sum_congr rfl fun k _ => ?_
  have hk := ValueIdx.contrEquiv1_symm_val dot_S256x30_S30x9216_S256x9216_1_0_0_1_n_n 30 rfl rfl k
  have el : dot_S256x30_S30x9216_S256x9216_1_0_0_1_n_n.lhsIdx y ((ValueIdx.contrEquiv1 dot_S256x30_S30x9216_S256x9216_1_0_0_1_n_n 30 rfl rfl).symm k) = ix2 (n0 := 256) (n1 := 30) (y 0) k := funext fun a => Fin.ext (by
    match a with
    | ⟨0, _⟩ => exact lhs_axis0 _ _
    | ⟨1, _⟩ => exact (lhs_axis1 _ _).trans hk)
  have er : dot_S256x30_S30x9216_S256x9216_1_0_0_1_n_n.rhsIdx y ((ValueIdx.contrEquiv1 dot_S256x30_S30x9216_S256x9216_1_0_0_1_n_n 30 rfl rfl).symm k) = ix2 (n0 := 30) (n1 := 9216) k (y 1) := funext fun a => Fin.ext (by
    match a with
    | ⟨0, _⟩ => exact (rhs_axis0 _ _).trans hk
    | ⟨1, _⟩ => exact rhs_axis1 _ _)
  rw [el, er]

/-! ## The table read back as one function

Row k of the 30 × 9216 table is written by ONE store of a 1 × 9216 vector at row offset k; the thirty stores tile the
table, so reading it back whole gives, at (k, j), the k-th stored vector at lane j. -/

theorem hz2 : (![0, 0] : Fin 2 → Nat) = fun _ => 0 := funext fun a => by fin_cases a <;> rfl

/-- The three coordinate rows the body loads are `rowOf` of the block. -/
theorem ld_row0 (x0 : Vec Ideal S3x9216 .f32) (inb : ∀ d, (![0, 0] : Fin 2 → Nat) d + (![1, 9216] : Fin 2 → Nat) d ≤ S3x9216.size d) :
    View.ld x0 (Rect.unit (s := S3x9216) ![0, 0] ![1, 9216] inb) = rowOf x0 0 := by
  funext q
  show x0 _ = x0 _
  congr 1
  funext d
  apply Fin.ext
  match d with
  | ⟨0, _⟩ => show 0 + 1 * (q 0).val = 0; have h : (q 0).val < 1 := (q 0).isLt; omega
  | ⟨1, _⟩ => show 0 + 1 * (q 1).val = (q 1).val; omega
theorem ld_row1 (x0 : Vec Ideal S3x9216 .f32) (inb : ∀ d, (![1, 0] : Fin 2 → Nat) d + (![1, 9216] : Fin 2 → Nat) d ≤ S3x9216.size d) :
    View.ld x0 (Rect.unit (s := S3x9216) ![1, 0] ![1, 9216] inb) = rowOf x0 1 := by
  funext q
  show x0 _ = x0 _
  congr 1
  funext d
  apply Fin.ext
  match d with
  | ⟨0, _⟩ => show 1 + 1 * (q 0).val = 1; have h : (q 0).val < 1 := (q 0).isLt; omega
  | ⟨1, _⟩ => show 0 + 1 * (q 1).val = (q 1).val; omega
theorem ld_row2 (x0 : Vec Ideal S3x9216 .f32) (inb : ∀ d, (![2, 0] : Fin 2 → Nat) d + (![1, 9216] : Fin 2 → Nat) d ≤ S3x9216.size d) :
    View.ld x0 (Rect.unit (s := S3x9216) ![2, 0] ![1, 9216] inb) = rowOf x0 2 := by
  funext q
  show x0 _ = x0 _
  congr 1
  funext d
  apply Fin.ext
  match d with
  | ⟨0, _⟩ => show 2 + 1 * (q 0).val = 2; have h : (q 0).val < 1 := (q 0).isLt; omega
  | ⟨1, _⟩ => show 0 + 1 * (q 1).val = (q 1).val; omega

/-- The table as one function of its index: orbital row (idx 0) at lane (idx 1). -/
def table (x0 : Vec Ideal S3x9216 .f32) : S30x9216.Idx → EReal :=
  fun idx => Rows.rowsK (rowOf x0 0) (rowOf x0 1) (rowOf x0 2) (idx 0) (ix2 (n0 := 1) (n1 := 9216) 0 (idx 1))

/-- A whole-table load after stores that tile the table, each the block of one function `G`, reads `G`. -/
theorem table_read {sig' : RefSig} {κ : Kind} {sp : Space} (v : View sig' κ sp S30x9216 .f32) (L : List (View.Piece (Elt Ideal) S30x9216 .f32))
    (G : S30x9216.Idx → EReal) (inb : ∀ a, (![0, 0] : Fin 2 → Nat) a + S30x9216.size a ≤ S30x9216.size a)
    (hcov : ∀ y : S30x9216.Idx, ∃ p ∈ L, y ∈ p.1.set) (hp : ∀ p ∈ L, ∀ x : p.1.shape.Idx, p.2 x = G (p.1.emb x)) :
    v.readCov L (Rect.unit (s := S30x9216) ![0, 0] S30x9216.size inb).toLoadRect = G := by
  rw [View.readCov_eq_canon_ld _ _ _ hcov, View.ld_unit_zero hz2]
  funext y
  exact View.canon_apply_of_pieces G L hp y (hcov y)

/-- The index a row store's rectangle gives lane x: (k, x 1). -/
theorem emb_row (k : Nat) (hk : k < 30) (inb : ∀ a, (![k, 0] : Fin 2 → Nat) a + S1x9216.size a ≤ S30x9216.size a)
    (x : (Rect.unit (s := S30x9216) ![k, 0] S1x9216.size inb).shape.Idx) :
    (Rect.unit (s := S30x9216) ![k, 0] S1x9216.size inb).emb x = ix2 (n0 := 30) (n1 := 9216) ⟨k, hk⟩ (x 1) := by
  funext a
  apply Fin.ext
  match a with
  | ⟨0, _⟩ => show k + 1 * (x 0).val = k; have h : (x 0).val < 1 := (x 0).isLt; omega
  | ⟨1, _⟩ => show 0 + 1 * (x 1).val = (x 1).val; omega

/-- A 1 × 9216 index is (0, its lane). -/
theorem lane_eq (x : S1x9216.Idx) : x = ix2 (n0 := 1) (n1 := 9216) 0 (x 1) := by
  funext a
  match a with
  | ⟨0, _⟩ => exact Subsingleton.elim (α := Fin 1) _ _
  | ⟨1, _⟩ => rfl

set_option maxHeartbeats 2000000 in
/-- The body's output block is `blockFn` of its input blocks. -/
theorem out_eq (c : Dev nD) (i : grid0.Coords) (arg1 : Memref sig .tc .vmem S3x9216 .f32) (harg1 : arg1.IsWhole) (arg2 : Memref sig .tc .vmem S256x30 .f32) (harg2 : arg2.IsWhole) (arg3 : Memref sig .tc .vmem S256x9216 .f32) (harg3 : arg3.IsWhole) (arg4 : Memref sig .tc .vmem S30x9216 .f32) (harg4 : arg4.IsWhole)
    (x0 : Vec Ideal S3x9216 .f32) (x1 : Vec Ideal S256x30 .f32) :
    out0_A_2 (F := Ideal) c i arg1 harg1 arg2 harg2 arg3 harg3 arg4 harg4 x0 x1 = blockFn x0 x1 := by
  unfold out0_A_2
  rw [View.read_writes_eq_canon _ _ _ (cover0_A_2 c i arg1 harg1 arg2 harg2 arg3 harg3 arg4 harg4 x0 x1)]
  unfold kernelRun0_A
  try dsimp only
  sl_unfold_words
  rw [View.canon_unit_zero hz2]
  simp only [View.readAt_eq_ld, harg1.read_unread, harg2.read_unread, View.ld_unit_zero (S := S256x30) hz2, ld_row0, ld_row1, ld_row2]
  rw [table_read arg4.view _ (table x0)]
  · funext y
    unfold k0_pay3
    try dsimp only
    rw [matmul_at]
    unfold blockFn
    refine Finset.sum_congr rfl fun k _ => ?_
    show x1 (Shape.reshapeEquiv _ (ix2 (n0 := 256) (n1 := 30) (y 0) k)) * table x0 (ix2 (n0 := 30) (n1 := 9216) k (y 1)) = _
    rw [Shape.reshapeEquiv_self]
    rfl
  · exact View.cover_of_tiledL _ S1x9216.size (by sl_kernel_rfl)
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals
      intro x
      rw [emb_row _ (by decide)]
      obtain ⟨j, rfl⟩ : ∃ j : Fin 9216, x = ix2 (n0 := 1) (n1 := 9216) 0 j := ⟨x 1, lane_eq x⟩
      rfl

end Cert.KernelIdeal.Body

end
-- ==== Proof.Spec.lean ====
/-
  The function both programs compute.

  With ψ_k (k < 30) the thirty real hydrogen orbitals evaluated on the 4096 × 27 grid of sample points — here an
  arbitrary table `B k (x, n)` — and `a1 (o, i, k)` the coefficients, the result at (o, i, x, n) is the contraction
  over the orbital index, ∑_k a1(o, i, k) · ψ_k(x, n): each factor pair in this order, the sum over `Fin 30`.
-/
import Idealize.ShloMosaic.PureOps.Ideal
import Idealize.ShloMosaic.Lib.ValueIdx

noncomputable section

namespace Cert.Spec

open Idealize.ShloMosaic Idealize.ShloMosaic.ValueIdx

/-- ∑_k a1(o, i, k) · B_k(x, n) at the index (o, i, x, n). -/
def G (B : Fin 30 → (⟨2, ![4096, 27]⟩ : Shape).Idx → EReal) (a1 : (⟨3, ![16, 16, 30]⟩ : Shape).Idx → EReal) :
    (⟨4, ![16, 16, 4096, 27]⟩ : Shape).Idx → EReal :=
  fun y => ∑ k : Fin 30, a1 (ix3 (n0 := 16) (n1 := 16) (n2 := 30) (y 0) (y 1) k) * B k (ix2 (n0 := 4096) (n1 := 27) (y 2) (y 3))

end Cert.Spec

end
-- ==== Proof.KernelArray.lean ====
/-
  From the twelve output blocks to the result array.

  The region reads the position array flattened and transposed, a 3 × 110592 array whose column J = 27 x + n holds the
  three coordinates of grid point (x, n), and the coefficient array flattened to 256 × 30, row p = 16 o + i.  At grid
  point t the body sees columns 9216 t … 9216 t + 9215 of the first and all of the second, and leaves in its
  256 × 9216 block the entries ∑_k coeff(p, k) · row_k(j).  If a table B k (x, n) agrees with orbital row k at every lane
  whose coordinates are those of grid point (x, n), that block is columns 9216 t … 9216 t + 9215 of one 256 × 110592
  matrix, entry (p, J) = ∑_k a1(p / 16, p % 16, k) · B k (J / 27, J % 27).  The twelve blocks tile the columns, so the
  region leaves that matrix; the reshape after it keeps row-major positions, 16 o + i ↦ (o, i) and 27 x + n ↦ (x, n),
  which gives ∑_k a1(o, i, k) · B k (x, n) at (o, i, x, n).
-/
import proofs.«401775_j71382356459674_3_alg».proof.Proof.KernelBody
import proofs.«401775_j71382356459674_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 65536

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The result as a 256 × 110592 matrix

Row p of the matrix is the pair of output channels (p / 16, p % 16); column J is the grid point (J / 27, J % 27). -/

/-- The first output channel of matrix row p. -/
def rowO (p : Fin 256) : Fin 16 := ⟨p.val / 16, by omega⟩
/-- The second output channel of matrix row p. -/
def rowI (p : Fin 256) : Fin 16 := ⟨p.val % 16, by omega⟩
/-- The sample index of matrix column J. -/
def colX (J : Fin 110592) : Fin 4096 := ⟨J.val / 27, by omega⟩
/-- The neighbour index of matrix column J. -/
def colN (J : Fin 110592) : Fin 27 := ⟨J.val % 27, by omega⟩

theorem rowO_mk (o i : Fin 16) (h : o.val * 16 + i.val < 256) : rowO ⟨o.val * 16 + i.val, h⟩ = o :=
  Fin.ext (by show (o.val * 16 + i.val) / 16 = o.val; omega)
theorem rowI_mk (o i : Fin 16) (h : o.val * 16 + i.val < 256) : rowI ⟨o.val * 16 + i.val, h⟩ = i :=
  Fin.ext (by show (o.val * 16 + i.val) % 16 = i.val; omega)
theorem colX_mk (x : Fin 4096) (n : Fin 27) (h : x.val * 27 + n.val < 110592) : colX ⟨x.val * 27 + n.val, h⟩ = x :=
  Fin.ext (by show (x.val * 27 + n.val) / 27 = x.val; omega)
theorem colN_mk (x : Fin 4096) (n : Fin 27) (h : x.val * 27 + n.val < 110592) : colN ⟨x.val * 27 + n.val, h⟩ = n :=
  Fin.ext (by show (x.val * 27 + n.val) % 27 = n.val; omega)

/-- Entry (p, J) of the matrix: ∑_k a1(p / 16, p % 16, k) · B_k(J / 27, J % 27). -/
def flat (Bc : Fin 30 → (⟨2, ![4096, 27]⟩ : Shape).Idx → EReal) (a1 : (⟨3, ![16, 16, 30]⟩ : Shape).Idx → EReal) :
    S256x110592.Idx → EReal :=
  fun y => ∑ k : Fin 30, a1 (ix3 (n0 := 16) (n1 := 16) (n2 := 30) (rowO (y 0)) (rowI (y 0)) k)
    * Bc k (ix2 (n0 := 4096) (n1 := 27) (colX (y 1)) (colN (y 1)))

/-! ## The two arrays the region reads, entry by entry

The position array is flattened to 110592 × 3 and transposed: entry (a, J) of the 3 × 110592 array is coordinate a of grid
point (J / 27, J % 27).  The coefficient array is flattened to 256 × 30: entry (p, k) is coefficient k of the channel
pair (p / 16, p % 16). -/

theorem pos_at (c : Dev nD) (a : Fin 3) (J : Fin 110592) :
    (V m c main_v1 : S3x110592.Idx → EReal) (ix2 (n0 := 3) (n1 := 110592) a J)
      = (m ((c.tc : Thread nD τ).loc main_arg0) : S4096x27x3.Idx → EReal)
          (ix3 (n0 := 4096) (n1 := 27) (n2 := 3) (colX J) (colN J) a) := by
  show StableHlo.after hostOps0 (fun b => m (c, b)) (Proc.devRef .tc main_v1) (ix2 (n0 := 3) (n1 := 110592) a J) = _
  after_results
  refine (transpose_ix2_apply _ _ a J).trans ?_
  refine shapeCast_apply (s := S4096x27x3) (t := S110592x3) _ _ (ix2 (n0 := 110592) (n1 := 3) J a)
    (ix3 (n0 := 4096) (n1 := 27) (n2 := 3) (colX J) (colN J) a) ?_
  rw [Shape.rowMajor_val_three, Shape.rowMajor_val_two]
  show (J.val / 27 * 27 + J.val % 27) * 3 + a.val = J.val * 3 + a.val
  omega

theorem coef_at (c : Dev nD) (p : Fin 256) (k : Fin 30) :
    (V m c main_v2 : S256x30.Idx → EReal) (ix2 (n0 := 256) (n1 := 30) p k)
      = (m ((c.tc : Thread nD τ).loc main_arg1) : S16x16x30.Idx → EReal)
          (ix3 (n0 := 16) (n1 := 16) (n2 := 30) (rowO p) (rowI p) k) := by
  show StableHlo.after hostOps0 (fun b => m (c, b)) (Proc.devRef .tc main_v2) (ix2 (n0 := 256) (n1 := 30) p k) = _
  after_results
  refine shapeCast_apply (s := S16x16x30) (t := S256x30) _ _ (ix2 (n0 := 256) (n1 := 30) p k)
    (ix3 (n0 := 16) (n1 := 16) (n2 := 30) (rowO p) (rowI p) k) ?_
  rw [Shape.rowMajor_val_three, Shape.rowMajor_val_two]
  show (p.val / 16 * 16 + p.val % 16) * 30 + k.val = p.val * 30 + k.val
  omega

/-! ## One output block

At grid point t the position block is columns 9216 t … 9216 t + 9215 of the 3 × 110592 array, the coefficient block the
whole 256 × 30 array, and the output block columns 9216 t … 9216 t + 9215 of the result. -/

/-- The table B tabulates the orbital rows: at any lane whose three coordinates are those of grid point (x, n), row k is
    B c k (x, n). -/
def Tabulates (B : Dev nD → Fin 30 → (⟨2, ![4096, 27]⟩ : Shape).Idx → EReal) : Prop :=
  ∀ (c : Dev nD) (v0 v2 v4 : Vec Ideal S1x9216 .f32) (j : Fin 9216) (x : Fin 4096) (n : Fin 27),
    v0 (ix2 (n0 := 1) (n1 := 9216) 0 j) = m ((c.tc : Thread nD τ).loc main_arg0) (ix3 (n0 := 4096) (n1 := 27) (n2 := 3) x n 0) →
    v2 (ix2 (n0 := 1) (n1 := 9216) 0 j) = m ((c.tc : Thread nD τ).loc main_arg0) (ix3 (n0 := 4096) (n1 := 27) (n2 := 3) x n 1) →
    v4 (ix2 (n0 := 1) (n1 := 9216) 0 j) = m ((c.tc : Thread nD τ).loc main_arg0) (ix3 (n0 := 4096) (n1 := 27) (n2 := 3) x n 2) →
    ∀ k : Fin 30, Rows.rowsK v0 v2 v4 k (ix2 (n0 := 1) (n1 := 9216) 0 j) = B c k (ix2 (n0 := 4096) (n1 := 27) x n)

/-- The block index of each window at grid point t: the position and output blocks move along the columns with t, the
    coefficient block stays. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

theorem point_lt (t : Fin cfg0.N) : t.val < 12 := lt_of_lt_of_eq t.isLt N_0

/-- Entry (p, j) of the block function, when the position block is columns 9216 T + j of the 3 × 110592 array and the
    coefficient block is the 256 × 30 array: entry (p, 9216 T + j) of the matrix. -/
theorem blockFn_at (B : Dev nD → Fin 30 → (⟨2, ![4096, 27]⟩ : Shape).Idx → EReal) (hB : Tabulates m B) (c : Dev nD)
    (T : Nat) (hT : T < 12) (x0 : Vec Ideal S3x9216 .f32) (x1 : Vec Ideal S256x30 .f32)
    (h0 : ∀ (a : Fin 3) (j : Fin 9216), x0 (ix2 (n0 := 3) (n1 := 9216) a j)
      = (V m c main_v1 : S3x110592.Idx → EReal) (ix2 (n0 := 3) (n1 := 110592) a ⟨T * 9216 + j.val, by omega⟩))
    (h1 : ∀ (p : Fin 256) (k : Fin 30), x1 (ix2 (n0 := 256) (n1 := 30) p k)
      = (V m c main_v2 : S256x30.Idx → EReal) (ix2 (n0 := 256) (n1 := 30) p k))
    (p : Fin 256) (j : Fin 9216) :
    Body.blockFn x0 x1 (ix2 (n0 := 256) (n1 := 9216) p j)
      = flat (B c) (m ((c.tc : Thread nD τ).loc main_arg1)) (ix2 (n0 := 256) (n1 := 110592) p ⟨T * 9216 + j.val, by omega⟩) := by
  unfold Body.blockFn flat
  refine Finset.sum_congr rfl fun k _ => ?_
  have hc : x1 (ix2 (n0 := 256) (n1 := 30) p k)
      = (m ((c.tc : Thread nD τ).loc main_arg1) : S16x16x30.Idx → EReal) (ix3 (n0 := 16) (n1 := 16) (n2 := 30) (rowO p) (rowI p) k) :=
    (h1 p k).trans (coef_at m c p k)
  have hr : ∀ a : Fin 3, Body.rowOf x0 a (ix2 (n0 := 1) (n1 := 9216) 0 j)
      = (m ((c.tc : Thread nD τ).loc main_arg0) : S4096x27x3.Idx → EReal)
          (ix3 (n0 := 4096) (n1 := 27) (n2 := 3) (colX ⟨T * 9216 + j.val, by omega⟩) (colN ⟨T * 9216 + j.val, by omega⟩) a) :=
    fun a => (h0 a j).trans (pos_at m c a _)
  have hk := hB c (Body.rowOf x0 0) (Body.rowOf x0 1) (Body.rowOf x0 2) j
    (colX ⟨T * 9216 + j.val, by omega⟩) (colN ⟨T * 9216 + j.val, by omega⟩) (hr 0) (hr 1) (hr 2) k
  exact congrArg₂ (fun u v : EReal => u * v) hc hk

/-- The position block at point t, entry by entry: columns 9216 t + j of the 3 × 110592 array. -/
theorem posBlock_at (c : Dev nD) (t : Fin cfg0.N) (a : Fin 3) (j : Fin 9216) :
    (iblk m c 0 t : Vec Ideal S3x9216 .f32) (ix2 (n0 := 3) (n1 := 9216) a j)
      = (V m c main_v1 : S3x110592.Idx → EReal)
          (ix2 (n0 := 3) (n1 := 110592) a ⟨t.val * 9216 + j.val, by have := point_lt t; omega⟩) := by
  obtain ⟨e0, e1, -⟩ := idx_facts t
  show (V m c main_v1 : S3x110592.Idx → EReal) (((cfg0.win 0).blk t).view.emb (ix2 (n0 := 3) (n1 := 9216) a j)) = _
  refine congrArg (V m c main_v1 : S3x110592.Idx → EReal) (funext fun b => Fin.ext ?_)
  match b with
  | ⟨0, _⟩ => show win0_0.index t (0 : Fin 2) * 3 + 1 * a.val = a.val; omega
  | ⟨1, _⟩ => show win0_0.index t (1 : Fin 2) * 9216 + 1 * j.val = t.val * 9216 + j.val; omega

/-- The coefficient block at every point is the whole 256 × 30 array. -/
theorem coefBlock_at (c : Dev nD) (t : Fin cfg0.N) (p : Fin 256) (k : Fin 30) :
    (iblk m c 1 t : Vec Ideal S256x30 .f32) (ix2 (n0 := 256) (n1 := 30) p k)
      = (V m c main_v2 : S256x30.Idx → EReal) (ix2 (n0 := 256) (n1 := 30) p k) := by
  obtain ⟨-, -, e0, e1, -⟩ := idx_facts t
  show (V m c main_v2 : S256x30.Idx → EReal) (((cfg0.win 1).blk t).view.emb (ix2 (n0 := 256) (n1 := 30) p k)) = _
  refine congrArg (V m c main_v2 : S256x30.Idx → EReal) (funext fun b => Fin.ext ?_)
  match b with
  | ⟨0, _⟩ => show win0_1.index t (0 : Fin 2) * 256 + 1 * p.val = p.val; omega
  | ⟨1, _⟩ => show win0_1.index t (1 : Fin 2) * 30 + 1 * k.val = k.val; omega

/-- What point t writes back is columns 9216 t … 9216 t + 9215 of the matrix. -/
theorem flushed_eq (B : Dev nD → Fin 30 → (⟨2, ![4096, 27]⟩ : Shape).Idx → EReal) (hB : Tabulates m B) (c : Dev nD)
    (t : Fin cfg0.N) :
    (dats m 0 c).flushed 2 t
      = ((cfg0.win 2).blk t).view.read (Elt Ideal) (flat (B c) (m ((c.tc : Thread nD τ).loc main_arg1))) := by
  show (cfg0.win 2).cut (grid0.coords t) ((dats m 0 c).after 2 t) = _
  rw [after0_2]
  unfold outsAt0
  rw [Body.out_eq]
  obtain ⟨-, -, -, -, e0, e1⟩ := idx_facts t
  have ht := point_lt t
  refine funext fun (y : S256x9216.Idx) => ?_
  obtain ⟨p, j, rfl⟩ : ∃ (p : Fin 256) (j : Fin 9216), y = ix2 p j := ⟨y 0, y 1, eq_ix2 y⟩
  have he : ((cfg0.win 2).blk t).view.emb (ix2 (n0 := 256) (n1 := 9216) p j)
      = ix2 (n0 := 256) (n1 := 110592) p ⟨t.val * 9216 + j.val, by omega⟩ := by
    funext b
    apply Fin.ext
    match b with
    | ⟨0, _⟩ => show win0_2.index t (0 : Fin 2) * 256 + 1 * p.val = p.val; omega
    | ⟨1, _⟩ => show win0_2.index t (1 : Fin 2) * 9216 + 1 * j.val = t.val * 9216 + j.val; omega
  show Body.blockFn (iblk m c 0 t) (iblk m c 1 t) (ix2 (n0 := 256) (n1 := 9216) p j)
      = flat (B c) (m ((c.tc : Thread nD τ).loc main_arg1)) (((cfg0.win 2).blk t).view.emb (ix2 (n0 := 256) (n1 := 9216) p j))
  exact (blockFn_at m B hB c t.val ht (iblk m c 0 t) (iblk m c 1 t) (posBlock_at m c t) (coefBlock_at m c t) p j).trans
    (congrArg (flat (B c) (m ((c.tc : Thread nD τ).loc main_arg1))) he.symm)

/-! ## The twelve blocks cover the matrix -/

/-- An entry of the matrix is in point t's block iff each coordinate is in the block's range on its axis. -/
theorem mem_blk (t : Fin cfg0.N) (i : S256x110592.Idx) :
    i ∈ ((cfg0.win 2).blk t).view.set ↔ ∀ a : Fin 2, win0_2.index t a * S256x9216.size a ≤ (i a).val
      ∧ (i a).val < win0_2.index t a * S256x9216.size a + S256x9216.size a := by
  show i ∈ ((View.whole main_v3).slice (win0_2.rect t)).set ↔ _
  rw [View.set_slice_whole, Rect.mem_set_unit]
  exact Iff.rfl

/-- Column J lies in the block of point J / 9216. -/
theorem cover (i : S256x110592.Idx) :
    ∃ t : Fin cfg0.N, (cfg0.win 2).flush t = true ∧ i ∈ ((cfg0.win 2).blk t).view.set := by
  have hi0 : (i 0).val < 256 := (i 0).isLt
  have hi1 : (i 1).val < 110592 := (i 1).isLt
  obtain ⟨t, ht⟩ : ∃ t : Fin cfg0.N, t.val = (i 1).val / 9216 :=
    ⟨⟨(i 1).val / 9216, lt_of_lt_of_eq (by omega : (i 1).val / 9216 < 12) N_0.symm⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 9216 ≤ (i 1).val ∧ (i 1).val < win0_2.index t (1 : Fin 2) * 9216 + 9216
    omega

/-- After the region the 256 × 110592 result array is the matrix. -/
theorem final (B : Dev nD → Fin 30 → (⟨2, ![4096, 27]⟩ : Shape).Idx → EReal) (hB : Tabulates m B) (c : Dev nD) :
    (dats m 0 c).arrAt 2 cfg0.N = flat (B c) (m ((c.tc : Thread nD τ).loc main_arg1)) :=
  (dats m 0 c).arrAt_eq_of_cover 2 (flat (B c) (m ((c.tc : Thread nD τ).loc main_arg1)))
    (fun t _ => flushed_eq m B hB c t) (fun i => cover i)

/-! ## The reshape after the region

Entry (o, i, x, n) of the result is entry (16 o + i, 27 x + n) of the matrix: the same row-major position. -/

theorem flat_mk (Bc : Fin 30 → (⟨2, ![4096, 27]⟩ : Shape).Idx → EReal) (a1 : (⟨3, ![16, 16, 30]⟩ : Shape).Idx → EReal)
    (o i : Fin 16) (x : Fin 4096) (n : Fin 27) (h0 : o.val * 16 + i.val < 256) (h1 : x.val * 27 + n.val < 110592) :
    flat Bc a1 (ix2 (n0 := 256) (n1 := 110592) ⟨o.val * 16 + i.val, h0⟩ ⟨x.val * 27 + n.val, h1⟩)
      = Cert.Spec.G Bc a1 (ix4 (n0 := 16) (n1 := 16) (n2 := 4096) (n3 := 27) o i x n) := by
  unfold flat Cert.Spec.G
  refine Finset.sum_congr rfl fun k _ => ?_
  show a1 (ix3 (n0 := 16) (n1 := 16) (n2 := 30) (rowO ⟨o.val * 16 + i.val, h0⟩) (rowI ⟨o.val * 16 + i.val, h0⟩) k)
        * Bc k (ix2 (n0 := 4096) (n1 := 27) (colX ⟨x.val * 27 + n.val, h1⟩) (colN ⟨x.val * 27 + n.val, h1⟩))
      = a1 (ix3 (n0 := 16) (n1 := 16) (n2 := 30) o i k) * Bc k (ix2 (n0 := 4096) (n1 := 27) x n)
  rw [rowO_mk, rowI_mk, colX_mk, colN_mk]

theorem tail_eq (B : Dev nD → Fin 30 → (⟨2, ![4096, 27]⟩ : Shape).Idx → EReal) (hB : Tabulates m B) (c : Dev nD) :
    (Pipeline.afterTail₀ cfgs (dats m) 0 (V0 m) [hostOps1] c main_v4 : S16x16x4096x27.Idx → EReal)
      = Cert.Spec.G (B c) (m ((c.tc : Thread nD τ).loc main_arg1)) := by
  refine funext fun (y : S16x16x4096x27.Idx) => ?_
  obtain ⟨o, i, x, n, rfl⟩ : ∃ (o : Fin 16) (i : Fin 16) (x : Fin 4096) (n : Fin 27), y = ix4 o i x n :=
    ⟨y 0, y 1, y 2, y 3, eq_ix4 y⟩
  have h0 : o.val * 16 + i.val < 256 := by omega
  have h1 : x.val * 27 + n.val < 110592 := by omega
  unfold Pipeline.afterTail₀
  show StableHlo.after hostOps1 _ (Proc.devRef .tc main_v4) (ix4 (n0 := 16) (n1 := 16) (n2 := 4096) (n3 := 27) o i x n) = _
  after_results
  refine (shapeCast_apply (s := S256x110592) (t := S16x16x4096x27) _ _
    (ix4 (n0 := 16) (n1 := 16) (n2 := 4096) (n3 := 27) o i x n)
    (ix2 (n0 := 256) (n1 := 110592) ⟨o.val * 16 + i.val, h0⟩ ⟨x.val * 27 + n.val, h1⟩) ?_).trans ?_
  · rw [Shape.rowMajor_val_two, Shape.rowMajor_val_four]
    show (o.val * 16 + i.val) * 110592 + (x.val * 27 + n.val) = ((o.val * 16 + i.val) * 4096 + x.val) * 27 + n.val
    omega
  · refine (congrFun ((Pipeline.withArrays_arr spec0 launch0.win.arr_inj c (V0 m c) (fun w => (dats m 0 c).arrAt w cfg0.N) 2).trans (final m B hB c)) _).trans ?_
    exact flat_mk (B c) _ o i x n h0 h1

/-! ## The run -/

/-- The idealized kernel's run, with its result named: if a table B c k (x, n) agrees with orbital row k at every lane whose
    three coordinates are the position array's at the grid point (x, n), the result array is Spec.G (B c) of the coefficients. -/
theorem run (B : Dev nD → Fin 30 → (⟨2, ![4096, 27]⟩ : Shape).Idx → EReal)
    (hB : ∀ (c : Dev nD) (v0 v2 v4 : Vec Ideal S1x9216 .f32) (j : Fin 9216) (x : Fin 4096) (n : Fin 27),
      v0 (ix2 (n0 := 1) (n1 := 9216) 0 j) = m ((c.tc : Thread nD τ).loc main_arg0) (ix3 (n0 := 4096) (n1 := 27) (n2 := 3) x n 0) →
      v2 (ix2 (n0 := 1) (n1 := 9216) 0 j) = m ((c.tc : Thread nD τ).loc main_arg0) (ix3 (n0 := 4096) (n1 := 27) (n2 := 3) x n 1) →
      v4 (ix2 (n0 := 1) (n1 := 9216) 0 j) = m ((c.tc : Thread nD τ).loc main_arg0) (ix3 (n0 := 4096) (n1 := 27) (n2 := 3) x n 2) →
      ∀ k : Fin 30, Rows.rowsK v0 v2 v4 k (ix2 (n0 := 1) (n1 := 9216) 0 j) = B c k (ix2 (n0 := 4096) (n1 := 27) x n)) :
    θ_run (defs (F := Ideal)) (onTc (τ := τ) (main (F := Ideal))) ⟨m, fun _ => 0, ρ⟩ (fun r => ∀ c : Dev nD,
      r.2.mem ((c.tc : Thread nD τ).loc main_v4) = Cert.Spec.G (B c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hT : Tabulates m B := hB
  exact (θ_run defs _ _).mono (fun r h c =>
    ⟨((h c).2 main_v4 (Pipeline.mem_restRefs_of main_v4 (by decide) (by decide))).trans (tail_eq m B hT c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefBasis.lean ====
/-
  The reference's thirty orbital arrays, in the order of the orbital index.

  The reference evaluates each ψ_{nlm} on the whole 4096 × 27 grid by its own chain of pointwise operations of the
  three coordinate arrays r, θ, φ (the slices of the position array along its last axis) and stacks the thirty
  results along a new last axis.  `refBasis x0 k` is the k-th of them before the stacking, and `read_r`, `read_θ`,
  `read_φ` say what the coordinate arrays hold at a grid point.
-/
import proofs.«401775_j71382356459674_3_alg».proof.Proof.RefRead

noncomputable section

namespace Cert.ReferenceIdeal.Basis

open Cert.ReferenceIdeal Cert.ReferenceIdeal.Read Idealize.ShloMosaic Idealize.ShloMosaic.ValueIdx

/-- Orbital `k` on the grid, as the reference computes it from the position array `x0`. -/
def refBasis (x0 : (⟨S4096x27x3, .f32⟩ : BufTy).Contents (Elt Ideal)) : Fin 30 → (⟨S4096x27, .f32⟩ : BufTy).Contents (Elt Ideal) :=
  ![val_main_v28 (F := Ideal) x0,
    val_main_v54 (F := Ideal) x0,
    val_main_v83 (F := Ideal) x0,
    val_main_v108 (F := Ideal) x0,
    val_main_v137 (F := Ideal) x0,
    val_main_v166 (F := Ideal) x0,
    val_main_v198 (F := Ideal) x0,
    val_main_v226 (F := Ideal) x0,
    val_main_v258 (F := Ideal) x0,
    val_main_v291 (F := Ideal) x0,
    val_main_v324 (F := Ideal) x0,
    val_main_v358 (F := Ideal) x0,
    val_main_v391 (F := Ideal) x0,
    val_main_v424 (F := Ideal) x0,
    val_main_v456 (F := Ideal) x0,
    val_main_v491 (F := Ideal) x0,
    val_main_v522 (F := Ideal) x0,
    val_main_v557 (F := Ideal) x0,
    val_main_v593 (F := Ideal) x0,
    val_main_v629 (F := Ideal) x0,
    val_main_v666 (F := Ideal) x0,
    val_main_v702 (F := Ideal) x0,
    val_main_v738 (F := Ideal) x0,
    val_main_v775 (F := Ideal) x0,
    val_main_v812 (F := Ideal) x0,
    val_main_v854 (F := Ideal) x0,
    val_main_v897 (F := Ideal) x0,
    val_main_v939 (F := Ideal) x0,
    val_main_v976 (F := Ideal) x0,
    val_main_v1013 (F := Ideal) x0]

/-- The radius array at the grid point (x, n) is the position array at (x, n, 0). -/
theorem read_r (x0 : (⟨S4096x27x3, .f32⟩ : BufTy).Contents (Elt Ideal)) (x : Fin 4096) (n : Fin 27) :
    val_main_v1 (F := Ideal) x0 (ix2 x n) = x0 (ix3 x n (0 : Fin 3)) := by
  rw [val_main_v1_apply, val_main_v0_apply]
  congr 1
  funext a
  match a with
  | ⟨0, _⟩ => apply Fin.ext; show (x.val * 27 + n.val) / 27 = x.val; have := n.isLt; omega
  | ⟨1, _⟩ => apply Fin.ext; show (x.val * 27 + n.val) / 1 % 27 = n.val; have := n.isLt; omega
  | ⟨2, _⟩ => rfl

/-- The polar angle array at (x, n) is the position array at (x, n, 1). -/
theorem read_θ (x0 : (⟨S4096x27x3, .f32⟩ : BufTy).Contents (Elt Ideal)) (x : Fin 4096) (n : Fin 27) :
    val_main_v3 (F := Ideal) x0 (ix2 x n) = x0 (ix3 x n (1 : Fin 3)) := by
  rw [val_main_v3_apply, val_main_v2_apply]
  congr 1
  funext a
  match a with
  | ⟨0, _⟩ => apply Fin.ext; show (x.val * 27 + n.val) / 27 = x.val; have := n.isLt; omega
  | ⟨1, _⟩ => apply Fin.ext; show (x.val * 27 + n.val) / 1 % 27 = n.val; have := n.isLt; omega
  | ⟨2, _⟩ => rfl

/-- The azimuth array at (x, n) is the position array at (x, n, 2). -/
theorem read_φ (x0 : (⟨S4096x27x3, .f32⟩ : BufTy).Contents (Elt Ideal)) (x : Fin 4096) (n : Fin 27) :
    val_main_v5 (F := Ideal) x0 (ix2 x n) = x0 (ix3 x n (2 : Fin 3)) := by
  rw [val_main_v5_apply, val_main_v4_apply]
  congr 1
  funext a
  match a with
  | ⟨0, _⟩ => apply Fin.ext; show (x.val * 27 + n.val) / 27 = x.val; have := n.isLt; omega
  | ⟨1, _⟩ => apply Fin.ext; show (x.val * 27 + n.val) / 1 % 27 = n.val; have := n.isLt; omega
  | ⟨2, _⟩ => rfl

end Cert.ReferenceIdeal.Basis

end
-- ==== Proof.RefValue.lean ====
/-
  The reference's result as the contraction over the orbital index.

  The reference appends a unit axis to each of its thirty orbital arrays ψ_k (each 4096 × 27), lays the first sixteen
  side by side along that axis, the last fourteen likewise, and the two blocks one behind the other: a 4096 × 27 × 30
  array whose entry (x, n, k) is ψ_k(x, n) — for k < 16 it lies in the front block at position k, otherwise in the back
  block at position k − 16, and in either block position m is the m-th array of the block at (x, n, 0).  The result
  contracts the coefficients with this array over its last axis, so its entry (o, i, x, n) is ∑_k a(o, i, k) · ψ_k(x, n),
  which is `Spec.G` of the thirty arrays and the coefficients.
-/
import proofs.«401775_j71382356459674_3_alg».proof.Proof.RefBasis
import proofs.«401775_j71382356459674_3_alg».proof.Proof.Spec

noncomputable section

namespace Cert.ReferenceIdeal.RefValue

open Cert.ReferenceIdeal Cert.ReferenceIdeal.Read Cert.ReferenceIdeal.Basis Idealize.ShloMosaic Idealize.ShloMosaic.ValueIdx
open Cert.ReferenceIdeal.Gen

/-- An array on the grid with a unit axis appended behind: its value at (x, n, 0) is the array's at (x, n). -/
def unitAxis (y : (⟨S4096x27, .f32⟩ : BufTy).Contents (Elt Ideal)) : (⟨S4096x27x1, .f32⟩ : BufTy).Contents (Elt Ideal) :=
  broadcastInDim S4096x27x1 ![0, 1] bcast_S4096x27_S4096x27x1_0_1 y

theorem unitAxis_apply (y : (⟨S4096x27, .f32⟩ : BufTy).Contents (Elt Ideal)) (x : Fin 4096) (n : Fin 27) (z : Fin 1) :
    unitAxis y (ix3 x n z) = y (ix2 x n) := by
  unfold unitAxis
  exact broadcastInDim_apply _ bcast_S4096x27_S4096x27x1_0_1 y (ix3 x n z) (ix2 x n) (fun a => match a with
    | ⟨0, _⟩ => by show x.val = if (4096 : Nat) = 1 then 0 else x.val; rw [if_neg (by decide)]
    | ⟨1, _⟩ => by show n.val = if (27 : Nat) = 1 then 0 else n.val; rw [if_neg (by decide)])

/-- The first sixteen of thirty arrays laid side by side along a new last axis: (x, n, m) holds array m at (x, n). -/
def stackLo (b : Fin 30 → (⟨S4096x27, .f32⟩ : BufTy).Contents (Elt Ideal)) : (⟨S4096x27x16, .f32⟩ : BufTy).Contents (Elt Ideal) :=
  concatenate S4096x27x16 2
    (List.ofFn fun m : Fin 16 => (⟨S4096x27x1, unitAxis (b ⟨m.val, by have := m.isLt; omega⟩)⟩ : (s : Shape) × (s.Idx → Elt Ideal .f32)))
    concatenates_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x1_S4096x27x16_d2

/-- The last fourteen laid side by side: (x, n, m) holds array 16 + m at (x, n). -/
def stackHi (b : Fin 30 → (⟨S4096x27, .f32⟩ : BufTy).Contents (Elt Ideal)) : (⟨S4096x27x14, .f32⟩ : BufTy).Contents (Elt Ideal) :=
  concatenate S4096x27x14 2
    (List.ofFn fun m : Fin 14 => (⟨S4096x27x1, unitAxis (b ⟨16 + m.val, by have := m.isLt; omega⟩)⟩ : (s : Shape) × (s.Idx → Elt Ideal .f32)))
    concatenates_S4096x27x1_S4096x27x1_S4096x27x1_S4096x27x1_S4096x27x1_S4096x27x1_S4096x27x1_S4096x27x1_S4096x27x1_S4096x27x1_S4096x27x1_S4096x27x1_S4096x27x1_S4096x27x1_S4096x27x14_d2

/-- All thirty side by side, the sixteen in front of the fourteen. -/
def stack (b : Fin 30 → (⟨S4096x27, .f32⟩ : BufTy).Contents (Elt Ideal)) : (⟨S4096x27x30, .f32⟩ : BufTy).Contents (Elt Ideal) :=
  concatenate S4096x27x30 2 [⟨S4096x27x16, stackLo b⟩, ⟨S4096x27x14, stackHi b⟩] concatenates_S4096x27x16_S4096x27x14_S4096x27x30_d2

theorem stackLo_apply (b : Fin 30 → (⟨S4096x27, .f32⟩ : BufTy).Contents (Elt Ideal)) (x : Fin 4096) (n : Fin 27) (m : Fin 16) :
    stackLo b (ix3 x n m) = b ⟨m.val, by have := m.isLt; omega⟩ (ix2 x n) := by
  unfold stackLo
  refine (concatenate_ofFn_unit_apply (t := S4096x27x16) (s₁ := S4096x27x1) 2
    (fun m : Fin 16 => unitAxis (b ⟨m.val, by have := m.isLt; omega⟩)) _ rfl rfl (ix3 x n m) m rfl (ix3 x n (0 : Fin 1)) ?_).trans
    (unitAxis_apply _ x n 0)
  intro c hc
  match c with
  | ⟨0, _⟩ => rfl
  | ⟨1, _⟩ => rfl
  | ⟨2, _⟩ => exact absurd rfl hc

theorem stackHi_apply (b : Fin 30 → (⟨S4096x27, .f32⟩ : BufTy).Contents (Elt Ideal)) (x : Fin 4096) (n : Fin 27) (m : Fin 14) :
    stackHi b (ix3 x n m) = b ⟨16 + m.val, by have := m.isLt; omega⟩ (ix2 x n) := by
  unfold stackHi
  refine (concatenate_ofFn_unit_apply (t := S4096x27x14) (s₁ := S4096x27x1) 2
    (fun m : Fin 14 => unitAxis (b ⟨16 + m.val, by have := m.isLt; omega⟩)) _ rfl rfl (ix3 x n m) m rfl (ix3 x n (0 : Fin 1)) ?_).trans
    (unitAxis_apply _ x n 0)
  intro c hc
  match c with
  | ⟨0, _⟩ => rfl
  | ⟨1, _⟩ => rfl
  | ⟨2, _⟩ => exact absurd rfl hc

/-- The stack at (x, n, k) is array k at (x, n): k below sixteen falls in the front piece at k, otherwise in the back piece at k - 16. -/
theorem stack_apply (b : Fin 30 → (⟨S4096x27, .f32⟩ : BufTy).Contents (Elt Ideal)) (x : Fin 4096) (n : Fin 27) (k : Fin 30) :
    stack b (ix3 x n k) = b k (ix2 x n) := by
  unfold stack
  by_cases hk : k.val < 16
  · exact (concatenate_pair_apply_left (t := S4096x27x30) (s₁ := S4096x27x16) (s₂ := S4096x27x14) 2 (stackLo b) (stackHi b) concatenates_S4096x27x16_S4096x27x14_S4096x27x30_d2 (ix3 x n k) rfl
      (ix3 x n (⟨k.val, hk⟩ : Fin 16)) (fun c => match c with | ⟨0, _⟩ => rfl | ⟨1, _⟩ => rfl | ⟨2, _⟩ => rfl)).trans
      (stackLo_apply b x n ⟨k.val, hk⟩)
  · have hk' : k.val - 16 < 14 := by have := k.isLt; omega
    refine ((concatenate_pair_apply_right (t := S4096x27x30) (s₁ := S4096x27x16) (s₂ := S4096x27x14) 2 (stackLo b) (stackHi b) concatenates_S4096x27x16_S4096x27x14_S4096x27x30_d2 (ix3 x n k) rfl rfl
      (ix3 x n (⟨k.val - 16, hk'⟩ : Fin 14)) ?_ ?_).trans (stackHi_apply b x n ⟨k.val - 16, hk'⟩)).trans ?_
    · intro c hc
      match c with
      | ⟨0, _⟩ => rfl
      | ⟨1, _⟩ => rfl
      | ⟨2, _⟩ => exact absurd rfl hc
    · show (k.val - 16) + 16 = k.val
      omega
    · exact congrArg (fun q : Fin 30 => b q (ix2 x n)) (Fin.ext (by show 16 + (k.val - 16) = k.val; omega))

/-- The reference's stacked array is the stack of its thirty orbital arrays, in the order of the orbital index: piece by
    piece the two are the same arrays with a unit axis appended. -/
theorem stacked_eq (x0 : (⟨S4096x27x3, .f32⟩ : BufTy).Contents (Elt Ideal)) :
    val_main_v1046 (F := Ideal) x0 = stack (refBasis x0) := by
  unfold val_main_v1046 val_main_v1044 val_main_v1045
  unfold val_main_v1014 val_main_v1015 val_main_v1016 val_main_v1017 val_main_v1018 val_main_v1019 val_main_v1020 val_main_v1021 val_main_v1022 val_main_v1023 val_main_v1024 val_main_v1025 val_main_v1026 val_main_v1027 val_main_v1028 val_main_v1029 val_main_v1030 val_main_v1031 val_main_v1032 val_main_v1033 val_main_v1034 val_main_v1035 val_main_v1036 val_main_v1037 val_main_v1038 val_main_v1039 val_main_v1040 val_main_v1041 val_main_v1042 val_main_v1043
  unfold stack stackLo stackHi unitAxis refBasis
  generalize val_main_v28 (F := Ideal) x0 = a0
  generalize val_main_v54 (F := Ideal) x0 = a1
  generalize val_main_v83 (F := Ideal) x0 = a2
  generalize val_main_v108 (F := Ideal) x0 = a3
  generalize val_main_v137 (F := Ideal) x0 = a4
  generalize val_main_v166 (F := Ideal) x0 = a5
  generalize val_main_v198 (F := Ideal) x0 = a6
  generalize val_main_v226 (F := Ideal) x0 = a7
  generalize val_main_v258 (F := Ideal) x0 = a8
  generalize val_main_v291 (F := Ideal) x0 = a9
  generalize val_main_v324 (F := Ideal) x0 = a10
  generalize val_main_v358 (F := Ideal) x0 = a11
  generalize val_main_v391 (F := Ideal) x0 = a12
  generalize val_main_v424 (F := Ideal) x0 = a13
  generalize val_main_v456 (F := Ideal) x0 = a14
  generalize val_main_v491 (F := Ideal) x0 = a15
  generalize val_main_v522 (F := Ideal) x0 = a16
  generalize val_main_v557 (F := Ideal) x0 = a17
  generalize val_main_v593 (F := Ideal) x0 = a18
  generalize val_main_v629 (F := Ideal) x0 = a19
  generalize val_main_v666 (F := Ideal) x0 = a20
  generalize val_main_v702 (F := Ideal) x0 = a21
  generalize val_main_v738 (F := Ideal) x0 = a22
  generalize val_main_v775 (F := Ideal) x0 = a23
  generalize val_main_v812 (F := Ideal) x0 = a24
  generalize val_main_v854 (F := Ideal) x0 = a25
  generalize val_main_v897 (F := Ideal) x0 = a26
  generalize val_main_v939 (F := Ideal) x0 = a27
  generalize val_main_v976 (F := Ideal) x0 = a28
  generalize val_main_v1013 (F := Ideal) x0 = a29
  rfl

/-- The reference's stacked array at (x, n, k) is orbital k at (x, n). -/
theorem stacked_apply (x0 : (⟨S4096x27x3, .f32⟩ : BufTy).Contents (Elt Ideal)) (x : Fin 4096) (n : Fin 27) (k : Fin 30) :
    val_main_v1046 (F := Ideal) x0 (ix3 x n k) = refBasis x0 k (ix2 x n) := by
  rw [stacked_eq]
  exact stack_apply (refBasis x0) x n k

/-- The reference's result is the contraction `Spec.G` of the coefficients with its own thirty orbital arrays. -/
theorem result_eq (x0 : (⟨S4096x27x3, .f32⟩ : BufTy).Contents (Elt Ideal)) (x1 : (⟨S16x16x30, .f32⟩ : BufTy).Contents (Elt Ideal)) :
    val_main_v1047 (F := Ideal) x0 x1 = Cert.Spec.G (refBasis x0) x1 := by
  funext y
  rw [val_main_v1047_apply]
  show (∑ k : Fin 30, x1 (lidx_main_v1047 y k) * val_main_v1046 (F := Ideal) x0 (ridx_main_v1047 y k))
    = ∑ k : Fin 30, x1 (ix3 (n0 := 16) (n1 := 16) (n2 := 30) (y 0) (y 1) k) * refBasis x0 k (ix2 (n0 := 4096) (n1 := 27) (y 2) (y 3))
  refine Finset.sum_congr rfl fun k _ => ?_
  -- the coefficient's index (o, i, k) and the stacked array's index (x, n, k), coordinate by coordinate
  have el : lidx_main_v1047 y k = ix3 (n0 := 16) (n1 := 16) (n2 := 30) (y 0) (y 1) k :=
    funext fun a => by match a with | ⟨0, _⟩ => rfl | ⟨1, _⟩ => rfl | ⟨2, _⟩ => rfl
  have er : ridx_main_v1047 y k = ix3 (n0 := 4096) (n1 := 27) (n2 := 30) (y 2) (y 3) k :=
    funext fun a => by match a with | ⟨0, _⟩ => rfl | ⟨1, _⟩ => rfl | ⟨2, _⟩ => rfl
  rw [el, er]
  exact congrArg (fun t => x1 (ix3 (n0 := 16) (n1 := 16) (n2 := 30) (y 0) (y 1) k) * t) (stacked_apply x0 (y 2) (y 3) k)

end Cert.ReferenceIdeal.RefValue

end
-- ==== Proof.WalkRules.lean ====
/-
  Scalar rules for comparing the two programs' basis functions at one point.

  At the ideal instance every vector operation of either program is pointwise, so the value of a basis row of the
  kernel at a lane and the value of the reference's basis array at the matching grid point are two expression trees
  over the extended reals with the same three leaves (r, θ, φ at that point).  The trees have the same shape except
  in four places:

  * the radial exponent: the kernel multiplies r by ONE literal, -1/n rounded to f32, where the reference multiplies
    by -1/2 and by 2/n rounded to f32; the two agree because halving a binary float is exact (the literal facts
    `lit_n1 … lit_n4` below, each an identity between dyadic rationals);
  * the power ρ^l: the kernel starts its product from the literal 1 (1·ρ, (1·ρ)·ρ, ((1·ρ)·ρ)·ρ) where the reference
    has ρ, ρ·ρ, ρ·(ρ·ρ): `one_mul` and associativity of the product of extended reals;
  * the clamp of 1 - cos²θ at 0: `max x 0` against `max 0 x`;
  * nothing else: every other node is the same operation on both sides, and is closed by congruence.

  None of these laws needs a finite argument: products of extended reals are associative and commutative and have the
  unit 1 whatever the factors are.
-/
import Idealize.ShloMosaic.PureOps.Ideal

noncomputable section

namespace Cert.Walk

open Idealize.ShloMosaic

/-! ## The literals of the radial exponent, as the dyadic rationals their patterns denote -/

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_neg_quarter : Ideal.ofBits .f32 0xBE800000#32 = ((-1 / 4 : ℝ) : EReal) := by
  simp [Ideal.ofBits, Ideal.ieee, -EReal.coe_mul]; norm_num
/-- 2/3 rounded to f32 is 11184811 / 2^24. -/
theorem lit_two_thirds : Ideal.ofBits .f32 0x3F2AAAAB#32 = ((11184811 / 16777216 : ℝ) : EReal) := by
  simp [Ideal.ofBits, Ideal.ieee, -EReal.coe_mul]; norm_num
/-- -1/3 rounded to f32 is -11184811 / 2^25: half of the line above, negated. -/
theorem lit_neg_third : Ideal.ofBits .f32 0xBEAAAAAB#32 = ((-11184811 / 33554432 : ℝ) : EReal) := by
  simp [Ideal.ofBits, Ideal.ieee, -EReal.coe_mul]; norm_num

/-- n = 1: -1 = (-1/2) · 2. -/
theorem lit_n1 : Ideal.ofBits .f32 0xBF800000#32 = Ideal.ofBits .f32 0xBF000000#32 * Ideal.ofBits .f32 0x40000000#32 := by
  rw [lit_neg_one, lit_neg_half, lit_two, ← EReal.coe_mul]; norm_num
/-- n = 2: -1/2 = (-1/2) · 1. -/
theorem lit_n2 : Ideal.ofBits .f32 0xBF000000#32 = Ideal.ofBits .f32 0xBF000000#32 * Ideal.ofBits .f32 0x3F800000#32 := by
  rw [lit_one, EReal.coe_one, mul_one]
/-- n = 3: f32(-1/3) = (-1/2) · f32(2/3), exactly. -/
theorem lit_n3 : Ideal.ofBits .f32 0xBEAAAAAB#32 = Ideal.ofBits .f32 0xBF000000#32 * Ideal.ofBits .f32 0x3F2AAAAB#32 := by
  rw [lit_neg_third, lit_neg_half, lit_two_thirds, ← EReal.coe_mul]; norm_num
/-- n = 4: -1/4 = (-1/2) · (1/2). -/
theorem lit_n4 : Ideal.ofBits .f32 0xBE800000#32 = Ideal.ofBits .f32 0xBF000000#32 * Ideal.ofBits .f32 0x3F000000#32 := by
  rw [lit_neg_quarter, lit_neg_half, lit_half, ← EReal.coe_mul]; norm_num

/-! ## Congruence, one rule per operation -/

variable {a b a' b' : EReal}

theorem c_mul (h1 : a = a') (h2 : b = b') : a * b = a' * b' := by rw [h1, h2]
theorem c_add (h1 : a = a') (h2 : b = b') : a + b = a' + b' := by rw [h1, h2]
theorem c_sub (h1 : a = a') (h2 : b = b') : a - b = a' - b' := by rw [h1, h2]
theorem c_div (h1 : a = a') (h2 : b = b') : Ideal.div a b = Ideal.div a' b' := by rw [h1, h2]
theorem c_max (h1 : a = a') (h2 : b = b') : max a b = max a' b' := by rw [h1, h2]
/-- The clamp at 0 with its arguments in the other order. -/
theorem c_max_swap (h1 : a = b') (h2 : b = a') : max a b = max a' b' := by rw [h1, h2, max_comm]
theorem c_exp (h : a = a') : Ideal.exp a = Ideal.exp a' := by rw [h]
theorem c_cos (h : a = a') : Ideal.cos a = Ideal.cos a' := by rw [h]
theorem c_sin (h : a = a') : Ideal.sin a = Ideal.sin a' := by rw [h]
theorem c_sqrt (h : a = a') : Ideal.sqrt a = Ideal.sqrt a' := by rw [h]
/-- A literal against the same literal. -/
theorem c_lit {w w' : BitVec 32} (h : w = w') : Ideal.ofBits .f32 w = Ideal.ofBits .f32 w' := by rw [h]

/-! ## The four places where the trees differ -/

/-- The radial exponent, for each principal quantum number: one literal times r against -1/2 times (2/n times r). -/
theorem exp_arg_n1 (h : a = a') :
    Ideal.ofBits .f32 0xBF800000#32 * a = Ideal.ofBits .f32 0xBF000000#32 * (Ideal.ofBits .f32 0x40000000#32 * a') := by
  rw [h, ← mul_assoc, ← lit_n1]
theorem exp_arg_n2 (h : a = a') :
    Ideal.ofBits .f32 0xBF000000#32 * a = Ideal.ofBits .f32 0xBF000000#32 * (Ideal.ofBits .f32 0x3F800000#32 * a') := by
  rw [h, ← mul_assoc, ← lit_n2]
theorem exp_arg_n3 (h : a = a') :
    Ideal.ofBits .f32 0xBEAAAAAB#32 * a = Ideal.ofBits .f32 0xBF000000#32 * (Ideal.ofBits .f32 0x3F2AAAAB#32 * a') := by
  rw [h, ← mul_assoc, ← lit_n3]
theorem exp_arg_n4 (h : a = a') :
    Ideal.ofBits .f32 0xBE800000#32 * a = Ideal.ofBits .f32 0xBF000000#32 * (Ideal.ofBits .f32 0x3F000000#32 * a') := by
  rw [h, ← mul_assoc, ← lit_n4]

/-- ρ¹: the kernel's 1·ρ against ρ. -/
theorem pow_one (h : a = a') : Ideal.ofBits .f32 0x3F800000#32 * a = a' := by
  rw [h, lit_one, EReal.coe_one, one_mul]
/-- ρ³: the kernel's ((1·ρ)·ρ)·ρ against ρ·(ρ·ρ). -/
theorem pow_three (h : a = a') :
    Ideal.ofBits .f32 0x3F800000#32 * a * a * a = a' * (a' * a') := by
  rw [h, lit_one, EReal.coe_one, one_mul, mul_assoc]

end Cert.Walk

end
-- ==== Proof.WalkTactic.lean ====
/-
  The synchronized descent through one orbital's two expression trees.

  Goal: (kernel's row k at lane j) = (reference's orbital array k at grid point i), as extended reals, given that the
  three coordinate rows at j are the three coordinate arrays at i.  Every operation of either program is pointwise, so
  both sides unfold, node by node, to an operation of the extended reals applied to the same kind of goal one level
  down; `walk_tree` applies the congruence rule of the operation it meets and recurses; a subtree that is the same on both sides (a literal, or
  any subtree without one of the special places) closes by reflexivity, and a coordinate leaf by its hypothesis.  Where congruence cannot succeed — the radial exponent, the power ρ^l, the
  clamp's argument order (Proof/WalkRules.lean) — the rule stated for that place is tried instead.
-/
import proofs.«401775_j71382356459674_3_alg».proof.Proof.Rows
import proofs.«401775_j71382356459674_3_alg».proof.Proof.RefBasis
import proofs.«401775_j71382356459674_3_alg».proof.Proof.WalkRules

noncomputable section

namespace Cert.Walk

open Idealize.ShloMosaic Cert.KernelIdeal Cert.KernelIdeal.Gen

/-- A 1 × 9216 row read through its reshaping to 9216 lanes at the lane the reshaping back assigns to `j` is the
    row at `j`: the two reshapings are inverse to each other. -/
theorem lane_round_trip (v : Vec Ideal S1x9216 .f32) (j : S1x9216.Idx) :
    shapeCast S9216 v Cert.KernelIdeal.Gen.shapeCasts_S1x9216_S9216 (Shape.reshapeEquiv Cert.KernelIdeal.Gen.shapeCasts_S9216_S1x9216 j) = v j := by
  show v (Shape.reshapeEquiv _ (Shape.reshapeEquiv _ j)) = v j
  rw [Shape.reshapeEquiv_reshapeEquiv, Shape.reshapeEquiv_self]

/-- One node of the descent, then the subtrees. The plain congruences come first (a product is by far the most
    frequent node); the four special places are tried only where congruence has failed. -/
syntax "walk_tree" : tactic
macro_rules
  | `(tactic| walk_tree) => `(tactic| first
      | (refine c_mul ?_ ?_ <;> walk_tree)
      | exact rfl
      | (refine c_add ?_ ?_ <;> walk_tree)
      | (refine c_sub ?_ ?_ <;> walk_tree)
      | (refine c_exp ?_ <;> walk_tree)
      | (refine c_cos ?_ <;> walk_tree)
      | (refine c_sin ?_ <;> walk_tree)
      | (refine c_sqrt ?_ <;> walk_tree)
      | (refine c_max ?_ ?_ <;> walk_tree)
      | (refine c_div ?_ ?_ <;> walk_tree)
      | assumption
      | (refine exp_arg_n1 ?_ <;> walk_tree)
      | (refine exp_arg_n2 ?_ <;> walk_tree)
      | (refine exp_arg_n3 ?_ <;> walk_tree)
      | (refine exp_arg_n4 ?_ <;> walk_tree)
      | (refine pow_one ?_ <;> walk_tree)
      | (refine pow_three ?_ <;> walk_tree)
      | (refine c_max_swap ?_ ?_ <;> walk_tree))

end Cert.Walk

end
-- ==== Proof.Walk.lean ====
/-
  Every orbital: the kernel's row k at a lane is the reference's orbital array k at the matching grid point.

  One descent (Proof/WalkTactic.lean) per orbital index k: after the case split on k both sides are a definite
  expression tree, the kernel's over the three coordinate rows at lane j and the reference's over the three coordinate
  arrays at grid point i, and the hypotheses identify the leaves.
-/
import proofs.«401775_j71382356459674_3_alg».proof.Proof.WalkTactic

set_option maxRecDepth 65536

noncomputable section

namespace Cert.Walk

open Idealize.ShloMosaic Cert.KernelIdeal Cert.KernelIdeal.Gen Cert.ReferenceIdeal.Read Cert.ReferenceIdeal.Basis

set_option maxHeartbeats 40000000 in
/-- For every orbital index k: if the three coordinate rows at lane j hold what the reference's coordinate arrays hold
    at grid point i, the kernel's row k at j is the reference's orbital array k at i. -/
theorem walk (k : Fin 30) (v0 v2 v4 : Vec Ideal Cert.KernelIdeal.S1x9216 .f32)
    (x0 : (⟨Cert.ReferenceIdeal.S4096x27x3, .f32⟩ : BufTy).Contents (Elt Ideal))
    (j : Cert.KernelIdeal.S1x9216.Idx) (i : Cert.ReferenceIdeal.S4096x27.Idx)
    (h0 : v0 j = val_main_v1 (F := Ideal) x0 i) (h2 : v2 j = val_main_v3 (F := Ideal) x0 i)
    (h4 : v4 j = val_main_v5 (F := Ideal) x0 i) :
    Rows.rowsK v0 v2 v4 k j = refBasis x0 k i := by
  have r0 := (lane_round_trip v0 j).trans h0
  have r2 := (lane_round_trip v2 j).trans h2
  have r4 := (lane_round_trip v4 j).trans h4
  fin_cases k <;> walk_tree

end Cert.Walk

end
-- ==== Proof.lean ====
/-
  The certificate of a Pallas kernel that evaluates thirty real hydrogen orbitals ψ_{nlm}(r, θ, φ), n ≤ 4, on a
  4096 × 27 grid of sample points and contracts them with a 16 × 16 × 30 coefficient array, against its jnp reference.

  The three frames: the two kernel programs' are the generated frame certificates; the reference's is its run
  (Proof/RefRunH.lean: the host program cut into its thirty orbital chains, a head and a tail) with the result dropped.  The idealization ledger is empty (the kernel's one folded literal, -1/3 rounded to f32,
  keeps its binary value: it is exactly the product of the reference's own two literals -1/2 and 2/3 rounded to f32),
  so `preserves` is trivial.

  The value claim.  Both programs end at Spec.G: at (o, i, x, n) the sum over the orbital index k of
  coeff(o, i, k) · ψ_k(x, n), with ψ_k the reference's own k-th orbital array.
  * The reference: its last operation is that contraction of the coefficients with the thirty orbital arrays stacked
    along a last axis (Proof/RefValue.lean).
  * The kernel: at each of the twelve grid points the body writes the orbital rows of its position block into a
    table and multiplies the coefficient block by the table (Proof/KernelBody.lean); the blocks tile the flat
    256 × 110592 result, which the last host operation reshapes (Proof/KernelArray.lean); and row k of the table at a
    lane is the reference's orbital array k at the lane's grid point, because the two expression trees agree node by
    node up to the exact literal identity above, 1·ρ = ρ, associativity of a product, and max x 0 = max 0 x
    (Proof/Walk.lean over Proof/WalkRules.lean).  No step needs the inputs finite.
-/
import proofs.«401775_j71382356459674_3_alg».proof.Defs
import proofs.«401775_j71382356459674_3_alg».proof.Proof.Gen.Kernel
import proofs.«401775_j71382356459674_3_alg».proof.Proof.Gen.Kernel.Skeleton
import proofs.«401775_j71382356459674_3_alg».proof.Proof.Gen.Kernel.Launch
import proofs.«401775_j71382356459674_3_alg».proof.Proof.Gen.Kernel.Points
import proofs.«401775_j71382356459674_3_alg».proof.Proof.Gen.Kernel.Frame
import proofs.«401775_j71382356459674_3_alg».proof.Proof.Gen.KernelIdeal
import proofs.«401775_j71382356459674_3_alg».proof.Proof.Gen.KernelIdeal.Skeleton
import proofs.«401775_j71382356459674_3_alg».proof.Proof.Gen.KernelIdeal.Launch
import proofs.«401775_j71382356459674_3_alg».proof.Proof.Gen.KernelIdeal.Points
import proofs.«401775_j71382356459674_3_alg».proof.Proof.Gen.KernelIdeal.Frame
import proofs.«401775_j71382356459674_3_alg».proof.Proof.Gen.ReferenceIdeal
import proofs.«401775_j71382356459674_3_alg».proof.Proof.Gen.Pre_finite_inputs
import proofs.«401775_j71382356459674_3_alg».proof.Proof.RefRead
import proofs.«401775_j71382356459674_3_alg».proof.Proof.RefRunH
import proofs.«401775_j71382356459674_3_alg».proof.Proof.KernelArray
import proofs.«401775_j71382356459674_3_alg».proof.Proof.RefValue
import proofs.«401775_j71382356459674_3_alg».proof.Proof.Walk
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- Both idealized programs end at `Spec.G` of the coefficients with the reference's orbital arrays of the position array. -/
theorem algebraic : Cert.algebraic_KernelIdeal_ReferenceIdeal := by
  intro m ρ m' ρ' _ hagree
  refine ⟨fun c => Cert.Spec.G
      (Cert.ReferenceIdeal.Basis.refBasis (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · refine Cert.KernelIdeal.KValue.run m ρ
      (fun c => Cert.ReferenceIdeal.Basis.refBasis (m ((c.tc : Thread Cert.KernelIdeal.nD Cert.KernelIdeal.τ).loc Cert.KernelIdeal.main_arg0))) ?_
    intro c v0 v2 v4 j x n h0 h2 h4 k
    exact Cert.Walk.walk k v0 v2 v4 _ (ix2 (n0 := 1) (n1 := 9216) 0 j) (ix2 (n0 := 4096) (n1 := 27) x n)
      (h0.trans (Cert.ReferenceIdeal.Basis.read_r _ x n).symm)
      (h2.trans (Cert.ReferenceIdeal.Basis.read_θ _ x n).symm)
      (h4.trans (Cert.ReferenceIdeal.Basis.read_φ _ x n).symm)
  · refine (θ_run Cert.ReferenceIdeal.defs _ _).mono (fun _ h c => ⟨(h c).1.trans ?_, (h c).2⟩)
      (Cert.ReferenceIdeal.RunH.run (F := Ideal) m' ρ')
    rw [(hagree c).1, (hagree c).2]
    exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
